-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S10004x1024 : Shape := ⟨2, ![10004, 1024]⟩
abbrev S512x1024 : Shape := ⟨2, ![512, 1024]⟩
abbrev S10000x512 : Shape := ⟨2, ![10000, 512]⟩
abbrev S256x1024 : Shape := ⟨2, ![256, 1024]⟩
abbrev S20000x256 : Shape := ⟨2, ![20000, 256]⟩
abbrev S128x1024 : Shape := ⟨2, ![128, 1024]⟩
abbrev S40000x128 : Shape := ⟨2, ![40000, 128]⟩
abbrev S64x1024 : Shape := ⟨2, ![64, 1024]⟩
abbrev S20000x64 : Shape := ⟨2, ![20000, 64]⟩
abbrev S100000 : Shape := ⟨1, ![100000]⟩
abbrev S1024x128 : Shape := ⟨2, ![1024, 128]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S10004x1024 : S_.BroadcastsInDim S10004x1024 (![] : Fin 0 → Fin S10004x1024.rank)
  reducesTo_S10004x1024_S_d0_1 : S10004x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S10000x512 : S_.BroadcastsInDim S10000x512 (![] : Fin 0 → Fin S10000x512.rank)
  reducesTo_S10000x512_S_d0_1 : S10000x512.ReducesTo [0, 1] S_
  bcast_S_S256x1024 : S_.BroadcastsInDim S256x1024 (![] : Fin 0 → Fin S256x1024.rank)
  reducesTo_S256x1024_S_d0_1 : S256x1024.ReducesTo [0, 1] S_
  bcast_S_S20000x256 : S_.BroadcastsInDim S20000x256 (![] : Fin 0 → Fin S20000x256.rank)
  reducesTo_S20000x256_S_d0_1 : S20000x256.ReducesTo [0, 1] S_
  bcast_S_S128x1024 : S_.BroadcastsInDim S128x1024 (![] : Fin 0 → Fin S128x1024.rank)
  reducesTo_S128x1024_S_d0_1 : S128x1024.ReducesTo [0, 1] S_
  bcast_S_S40000x128 : S_.BroadcastsInDim S40000x128 (![] : Fin 0 → Fin S40000x128.rank)
  reducesTo_S40000x128_S_d0_1 : S40000x128.ReducesTo [0, 1] S_
  bcast_S_S64x1024 : S_.BroadcastsInDim S64x1024 (![] : Fin 0 → Fin S64x1024.rank)
  reducesTo_S64x1024_S_d0_1 : S64x1024.ReducesTo [0, 1] S_
  bcast_S_S20000x64 : S_.BroadcastsInDim S20000x64 (![] : Fin 0 → Fin S20000x64.rank)
  reducesTo_S20000x64_S_d0_1 : S20000x64.ReducesTo [0, 1] S_
  bcast_S_S100000 : S_.BroadcastsInDim S100000 (![] : Fin 0 → Fin S100000.rank)
  reducesTo_S100000_S_d0 : S100000.ReducesTo [0] S_
  bcast_S_S1024x128 : S_.BroadcastsInDim S1024x128 (![] : Fin 0 → Fin S1024x128.rank)
  reducesTo_S1024x128_S_d0_1 : S1024x128.ReducesTo [0, 1] S_

variable [Facts]

def fn_part3 {F : FTy → Type} [FloatOps F] (main_arg11 : IVec S1024x128 32) (main_v48 : IVec S_ 1) (main_v49 : FVec F S100000 .f32) (main_v50 : FVec F S100000 .f32) : IVec S_ 1 :=
  let main_v51 : IVec S100000 1 := cmpf .olt main_v49 main_v50
  let main_c_19 : IVec S_ 1 := constantI S_ 1 1#1
  let main_v52 : IVec S_ 1 := (fun x v => Host.reduce IntOp.andi x v reducesTo_S100000_S_d0 h_S_) main_v51 main_c_19
  let main_v53 : IVec S_ 1 := andi main_v48 main_v52
  let main_c_20 : IVec S_ 32 := constantI S_ 32 0#32
  let main_v54 : IVec S1024x128 32 := broadcastInDim S1024x128 ![] bcast_S_S1024x128 main_c_20
  let main_v55 : IVec S1024x128 1 := cmpi .sge main_arg11 main_v54
  let main_c_21 : IVec S_ 1 := constantI S_ 1 1#1
  let main_v56 : IVec S_ 1 := (fun x v => Host.reduce IntOp.andi x v reducesTo_S1024x128_S_d0_1 h_S_) main_v55 main_c_21
  let main_v57 : IVec S_ 1 := andi main_v53 main_v56
  let main_c_22 : IVec S_ 32 := constantI S_ 32 100000#32
  let main_v58 : IVec S1024x128 32 := broadcastInDim S1024x128 ![] bcast_S_S1024x128 main_c_22
  let main_v59 : IVec S1024x128 1 := cmpi .slt main_arg11 main_v58
  let main_c_23 : IVec S_ 1 := constantI S_ 1 1#1
  let main_v60 : IVec S_ 1 := (fun x v => Host.reduce IntOp.andi x v reducesTo_S1024x128_S_d0_1 h_S_) main_v59 main_c_23
  let main_v61 : IVec S_ 1 := andi main_v57 main_v60
  main_v61

def fn_part2 {F : FTy → Type} [FloatOps F] (main_arg7 : FVec F S40000x128 .f32) (main_arg8 : FVec F S64x1024 .f32) (main_arg9 : FVec F S20000x64 .f32) (main_arg10 : FVec F S100000 .f32) (main_arg11 : IVec S1024x128 32) (main_v33 : IVec S_ 1) : IVec S_ 1 :=
  let main_v34 : FVec F S40000x128 .f32 := Host.absf main_arg7
  let main_cst_12 : FVec F S_ .f32 := constant S_ .f32 0x7F800000#32
  let main_v35 : FVec F S40000x128 .f32 := broadcastInDim S40000x128 ![] bcast_S_S40000x128 main_cst_12
  let main_v36 : IVec S40000x128 1 := cmpf .olt main_v34 main_v35
  let main_c_13 : IVec S_ 1 := constantI S_ 1 1#1
  let main_v37 : IVec S_ 1 := (fun x v => Host.reduce IntOp.andi x v reducesTo_S40000x128_S_d0_1 h_S_) main_v36 main_c_13
  let main_v38 : IVec S_ 1 := andi main_v33 main_v37
  let main_v39 : FVec F S64x1024 .f32 := Host.absf main_arg8
  let main_cst_14 : FVec F S_ .f32 := constant S_ .f32 0x7F800000#32
  let main_v40 : FVec F S64x1024 .f32 := broadcastInDim S64x1024 ![] bcast_S_S64x1024 main_cst_14
  let main_v41 : IVec S64x1024 1 := cmpf .olt main_v39 main_v40
  let main_c_15 : IVec S_ 1 := constantI S_ 1 1#1
  let main_v42 : IVec S_ 1 := (fun x v => Host.reduce IntOp.andi x v reducesTo_S64x1024_S_d0_1 h_S_) main_v41 main_c_15
  let main_v43 : IVec S_ 1 := andi main_v38 main_v42
  let main_v44 : FVec F S20000x64 .f32 := Host.absf main_arg9
  let main_cst_16 : FVec F S_ .f32 := constant S_ .f32 0x7F800000#32
  let main_v45 : FVec F S20000x64 .f32 := broadcastInDim S20000x64 ![] bcast_S_S20000x64 main_cst_16
  let main_v46 : IVec S20000x64 1 := cmpf .olt main_v44 main_v45
  let main_c_17 : IVec S_ 1 := constantI S_ 1 1#1
  let main_v47 : IVec S_ 1 := (fun x v => Host.reduce IntOp.andi x v reducesTo_S20000x64_S_d0_1 h_S_) main_v46 main_c_17
  let main_v48 : IVec S_ 1 := andi main_v43 main_v47
  let main_v49 : FVec F S100000 .f32 := Host.absf main_arg10
  let main_cst_18 : FVec F S_ .f32 := constant S_ .f32 0x7F800000#32
  let main_v50 : FVec F S100000 .f32 := broadcastInDim S100000 ![] bcast_S_S100000 main_cst_18
  fn_part3 (F := F) main_arg11 main_v48 main_v49 main_v50

def fn_part1 {F : FTy → Type} [FloatOps F] (main_arg4 : FVec F S256x1024 .f32) (main_arg5 : FVec F S20000x256 .f32) (main_arg6 : FVec F S128x1024 .f32) (main_arg7 : FVec F S40000x128 .f32) (main_arg8 : FVec F S64x1024 .f32) (main_arg9 : FVec F S20000x64 .f32) (main_arg10 : FVec F S100000 .f32) (main_arg11 : IVec S1024x128 32) (main_v13 : IVec S_ 1) (main_v16 : IVec S10000x512 1) : IVec S_ 1 :=
  let main_c_5 : IVec S_ 1 := constantI S_ 1 1#1
  let main_v17 : IVec S_ 1 := (fun x v => Host.reduce IntOp.andi x v reducesTo_S10000x512_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S20000x256 .f32 := Host.absf main_arg5
  let main_cst_8 : FVec F S_ .f32 := constant S_ .f32 0x7F800000#32
  let main_v25 : FVec F S20000x256 .f32 := broadcastInDim S20000x256 ![] bcast_S_S20000x256 main_cst_8
  let main_v26 : IVec S20000x256 1 := cmpf .olt main_v24 main_v25
  let main_c_9 : IVec S_ 1 := constantI S_ 1 1#1
  let main_v27 : IVec S_ 1 := (fun x v => Host.reduce IntOp.andi x v reducesTo_S20000x256_S_d0_1 h_S_) main_v26 main_c_9
  let main_v28 : IVec S_ 1 := andi main_v23 main_v27
  let main_v29 : FVec F S128x1024 .f32 := Host.absf main_arg6
  let main_cst_10 : FVec F S_ .f32 := constant S_ .f32 0x7F800000#32
  let main_v30 : FVec F S128x1024 .f32 := broadcastInDim S128x1024 ![] bcast_S_S128x1024 main_cst_10
  let main_v31 : IVec S128x1024 1 := cmpf .olt main_v29 main_v30
  let main_c_11 : IVec S_ 1 := constantI S_ 1 1#1
  let main_v32 : IVec S_ 1 := (fun x v => Host.reduce IntOp.andi x v reducesTo_S128x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1024x1024 .f32) (main_arg1 : FVec F S10004x1024 .f32) (main_arg2 : FVec F S512x1024 .f32) (main_arg3 : FVec F S10000x512 .f32) (main_arg4 : FVec F S256x1024 .f32) (main_arg5 : FVec F S20000x256 .f32) (main_arg6 : FVec F S128x1024 .f32) (main_arg7 : FVec F S40000x128 .f32) (main_arg8 : FVec F S64x1024 .f32) (main_arg9 : FVec F S20000x64 .f32) (main_arg10 : FVec F S100000 .f32) (main_arg11 : IVec S1024x128 32) (main_arg12 : IVec S1024x128 1) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S10004x1024 .f32 := Host.absf main_arg1
  let main_cst_0 : FVec F S_ .f32 := constant S_ .f32 0x7F800000#32
  let main_v5 : FVec F S10004x1024 .f32 := broadcastInDim S10004x1024 ![] bcast_S_S10004x1024 main_cst_0
  let main_v6 : IVec S10004x1024 1 := cmpf .olt main_v4 main_v5
  let main_c_1 : IVec S_ 1 := constantI S_ 1 1#1
  let main_v7 : IVec S_ 1 := (fun x v => Host.reduce IntOp.andi x v reducesTo_S10004x1024_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S10000x512 .f32 := Host.absf main_arg3
  let main_cst_4 : FVec F S_ .f32 := constant S_ .f32 0x7F800000#32
  let main_v15 : FVec F S10000x512 .f32 := broadcastInDim S10000x512 ![] bcast_S_S10000x512 main_cst_4
  let main_v16 : IVec S10000x512 1 := cmpf .olt main_v14 main_v15
  fn_part1 (F := F) main_arg4 main_arg5 main_arg6 main_arg7 main_arg8 main_arg9 main_arg10 main_arg11 main_v13 main_v16
-- ==== Kernel.lean ====
abbrev S1024x1024 : Shape := ⟨2, ![1024, 1024]⟩
abbrev S10004x1024 : Shape := ⟨2, ![10004, 1024]⟩
abbrev S512x1024 : Shape := ⟨2, ![512, 1024]⟩
abbrev S10000x512 : Shape := ⟨2, ![10000, 512]⟩
abbrev S256x1024 : Shape := ⟨2, ![256, 1024]⟩
abbrev S20000x256 : Shape := ⟨2, ![20000, 256]⟩
abbrev S128x1024 : Shape := ⟨2, ![128, 1024]⟩
abbrev S40000x128 : Shape := ⟨2, ![40000, 128]⟩
abbrev S64x1024 : Shape := ⟨2, ![64, 1024]⟩
abbrev S20000x64 : Shape := ⟨2, ![20000, 64]⟩
abbrev S100000 : Shape := ⟨1, ![100000]⟩
abbrev S1024x128 : Shape := ⟨2, ![1024, 128]⟩
abbrev S1024x10004 : Shape := ⟨2, ![1024, 10004]⟩
abbrev S64x10004 : Shape := ⟨2, ![64, 10004]⟩
abbrev S64 : Shape := ⟨1, ![64]⟩
abbrev S64x1 : Shape := ⟨2, ![64, 1]⟩
abbrev S1024x10000 : Shape := ⟨2, ![1024, 10000]⟩
abbrev S1024x1 : Shape := ⟨2, ![1024, 1]⟩
abbrev S1024x512 : Shape := ⟨2, ![1024, 512]⟩
abbrev S512x10000 : Shape := ⟨2, ![512, 10000]⟩
abbrev S64x10000 : Shape := ⟨2, ![64, 10000]⟩
abbrev S64x512 : Shape := ⟨2, ![64, 512]⟩
abbrev S1024x256 : Shape := ⟨2, ![1024, 256]⟩
abbrev S256x20000 : Shape := ⟨2, ![256, 20000]⟩
abbrev S1024x20000 : Shape := ⟨2, ![1024, 20000]⟩
abbrev S32x1024 : Shape := ⟨2, ![32, 1024]⟩
abbrev S32x1 : Shape := ⟨2, ![32, 1]⟩
abbrev S32x20000 : Shape := ⟨2, ![32, 20000]⟩
abbrev S32x256 : Shape := ⟨2, ![32, 256]⟩
abbrev S32 : Shape := ⟨1, ![32]⟩
abbrev S128x40000 : Shape := ⟨2, ![128, 40000]⟩
abbrev S1024x40000 : Shape := ⟨2, ![1024, 40000]⟩
abbrev S16x1024 : Shape := ⟨2, ![16, 1024]⟩
abbrev S16x1 : Shape := ⟨2, ![16, 1]⟩
abbrev S16x40000 : Shape := ⟨2, ![16, 40000]⟩
abbrev S16x128 : Shape := ⟨2, ![16, 128]⟩
abbrev S16 : Shape := ⟨1, ![16]⟩
abbrev S1024x64 : Shape := ⟨2, ![1024, 64]⟩
abbrev S64x20000 : Shape := ⟨2, ![64, 20000]⟩
abbrev S64x64 : Shape := ⟨2, ![64, 64]⟩
abbrev S_ : Shape := ⟨0, ![]⟩
abbrev S1024x128x1 : Shape := ⟨3, ![1024, 128, 1]⟩
abbrev S1 : Shape := ⟨1, ![1]⟩
abbrev S1x1x1 : Shape := ⟨3, ![1, 1, 1]⟩
abbrev S1024 : Shape := ⟨1, ![1024]⟩

abbrev nBuf : Space → Nat
  | .hbm => 274
  | .vmem => 37
  | .smem => 0
  | _ => 0

abbrev hbmTy0_0 (i : Nat) : BufTy := match i % 128 with
  | 0 => ⟨S1024x1024, .f32⟩
  | 1 => ⟨S10004x1024, .f32⟩
  | 2 => ⟨S512x1024, .f32⟩
  | 3 => ⟨S10000x512, .f32⟩
  | 4 => ⟨S256x1024, .f32⟩
  | 5 => ⟨S20000x256, .f32⟩
  | 6 => ⟨S128x1024, .f32⟩
  | 7 => ⟨S40000x128, .f32⟩
  | 8 => ⟨S64x1024, .f32⟩
  | 9 => ⟨S20000x64, .f32⟩
  | 10 => ⟨S100000, .f32⟩
  | 11 => ⟨S1024x128, .i32⟩
  | 12 => ⟨S1024x128, .i1⟩
  | 13 => ⟨S1024x1024, .bf16⟩
  | 14 => ⟨S1024x10004, .f32⟩
  | 15 => ⟨S1024x10004, .bf16⟩
  | 16 => ⟨S1024x10004, .f32⟩
  | 17 => ⟨S1024x10000, .f32⟩
  | 18 => ⟨S1024x1, .f32⟩
  | 19 => ⟨S1024x1, .f32⟩
  | 20 => ⟨S1024x1, .f32⟩
  | 21 => ⟨S1024x1, .f32⟩
  | 22 => ⟨S1024x512, .f32⟩
  | 23 => ⟨S1024x512, .bf16⟩
  | 24 => ⟨S512x10000, .f32⟩
  | 25 => ⟨S512x10000, .bf16⟩
  | 26 => ⟨S1024x10000, .f32⟩
  | 27 => ⟨S1024x256, .f32⟩
  | 28 => ⟨S1024x256, .bf16⟩
  | 29 => ⟨S256x20000, .f32⟩
  | 30 => ⟨S256x20000, .bf16⟩
  | 31 => ⟨S1024x20000, .f32⟩
  | 32 => ⟨S1024x128, .f32⟩
  | 33 => ⟨S1024x128, .bf16⟩
  | 34 => ⟨S128x40000, .f32⟩
  | 35 => ⟨S128x40000, .bf16⟩
  | 36 => ⟨S1024x40000, .f32⟩
  | 37 => ⟨S1024x64, .f32⟩
  | 38 => ⟨S1024x64, .bf16⟩
  | 39 => ⟨S64x20000, .f32⟩
  | 40 => ⟨S64x20000, .bf16⟩
  | 41 => ⟨S1024x20000, .f32⟩
  | 42 => ⟨S_, .f32⟩
  | 43 => ⟨S1024x128, .f32⟩
  | 44 => ⟨S_, .i32⟩
  | 45 => ⟨S1024x128, .i32⟩
  | 46 => ⟨S1024x128, .i32⟩
  | 47 => ⟨S_, .i32⟩
  | 48 => ⟨S_, .i32⟩
  | 49 => ⟨S_, .i32⟩
  | 50 => ⟨S1024x128, .i32⟩
  | 51 => ⟨S1024x128, .i32⟩
  | 52 => ⟨S_, .i32⟩
  | 53 => ⟨S1024x128, .i32⟩
  | 54 => ⟨S1024x128, .i32⟩
  | 55 => ⟨S_, .i32⟩
  | 56 => ⟨S1024x128, .i32⟩
  | 57 => ⟨S1024x128, .i1⟩
  | 58 => ⟨S_, .i32⟩
  | 59 => ⟨S1024x128, .i32⟩
  | 60 => ⟨S1024x128, .i32⟩
  | 61 => ⟨S1024x128, .i32⟩
  | 62 => ⟨S1024x128x1, .i32⟩
  | 63 => ⟨S1, .i32⟩
  | 64 => ⟨S_, .i32⟩
  | 65 => ⟨S1024x128x1, .i32⟩
  | 66 => ⟨S1024x128x1, .i1⟩
  | 67 => ⟨S1x1x1, .i32⟩
  | 68 => ⟨S1024x128x1, .i32⟩
  | 69 => ⟨S1024x128x1, .i1⟩
  | 70 => ⟨S1024x128x1, .i1⟩
  | 71 => ⟨S_, .i1⟩
  | 72 => ⟨S1024x128, .i1⟩
  | 73 => ⟨S1024x128, .f32⟩
  | 74 => ⟨S_, .f32⟩
  | 75 => ⟨S1024x128, .f32⟩
  | 76 => ⟨S1024x128, .f32⟩
  | 77 => ⟨S_, .i32⟩
  | 78 => ⟨S1024x128, .i32⟩
  | 79 => ⟨S1024x128, .i1⟩
  | 80 => ⟨S_, .i32⟩
  | 81 => ⟨S1024x128, .i32⟩
  | 82 => ⟨S1024x128, .i1⟩
  | 83 => ⟨S1024x128, .i1⟩
  | 84 => ⟨S1024x128, .f32⟩
  | 85 => ⟨S_, .i32⟩
  | 86 => ⟨S1024x128, .i32⟩
  | 87 => ⟨S1024x128, .i32⟩
  | 88 => ⟨S_, .i32⟩
  | 89 => ⟨S_, .i32⟩
  | 90 => ⟨S_, .i32⟩
  | 91 => ⟨S1024x128, .i32⟩
  | 92 => ⟨S1024x128, .i32⟩
  | 93 => ⟨S_, .i32⟩
  | 94 => ⟨S1024x128, .i32⟩
  | 95 => ⟨S1024x128, .i32⟩
  | 96 => ⟨S_, .i32⟩
  | 97 => ⟨S1024x128, .i32⟩
  | 98 => ⟨S1024x128, .i1⟩
  | 99 => ⟨S_, .i32⟩
  | 100 => ⟨S1024x128, .i32⟩
  | 101 => ⟨S1024x128, .i32⟩
  | 102 => ⟨S1024x128, .i32⟩
  | 103 => ⟨S1024x128x1, .i32⟩
  | 104 => ⟨S1, .i32⟩
  | 105 => ⟨S_, .i32⟩
  | 106 => ⟨S1024x128x1, .i32⟩
  | 107 => ⟨S1024x128x1, .i1⟩
  | 108 => ⟨S1x1x1, .i32⟩
  | 109 => ⟨S1024x128x1, .i32⟩
  | 110 => ⟨S1024x128x1, .i1⟩
  | 111 => ⟨S1024x128x1, .i1⟩
  | 112 => ⟨S_, .i1⟩
  | 113 => ⟨S1024x128, .i1⟩
  | 114 => ⟨S1024x128, .f32⟩
  | 115 => ⟨S_, .f32⟩
  | 116 => ⟨S1024x128, .f32⟩
  | 117 => ⟨S1024x128, .f32⟩
  | 118 => ⟨S_, .i32⟩
  | 119 => ⟨S1024x128, .i32⟩
  | 120 => ⟨S1024x128, .i1⟩
  | 121 => ⟨S_, .i32⟩
  | 122 => ⟨S1024x128, .i32⟩
  | 123 => ⟨S1024x128, .i1⟩
  | 124 => ⟨S1024x128, .i1⟩
  | 125 => ⟨S1024x128, .f32⟩
  | 126 => ⟨S_, .i32⟩
  | 127 => ⟨S1024x128, .i32⟩
  | _ => ⟨S1024x1024, .f32⟩

abbrev hbmTy0_1 (i : Nat) : BufTy := match i % 128 with
  | 0 => ⟨S1024x128, .i32⟩
  | 1 => ⟨S_, .i32⟩
  | 2 => ⟨S_, .i32⟩
  | 3 => ⟨S_, .i32⟩
  | 4 => ⟨S1024x128, .i32⟩
  | 5 => ⟨S1024x128, .i32⟩
  | 6 => ⟨S_, .i32⟩
  | 7 => ⟨S1024x128, .i32⟩
  | 8 => ⟨S1024x128, .i32⟩
  | 9 => ⟨S_, .i32⟩
  | 10 => ⟨S1024x128, .i32⟩
  | 11 => ⟨S1024x128, .i1⟩
  | 12 => ⟨S_, .i32⟩
  | 13 => ⟨S1024x128, .i32⟩
  | 14 => ⟨S1024x128, .i32⟩
  | 15 => ⟨S1024x128, .i32⟩
  | 16 => ⟨S1024x128x1, .i32⟩
  | 17 => ⟨S1, .i32⟩
  | 18 => ⟨S_, .i32⟩
  | 19 => ⟨S1024x128x1, .i32⟩
  | 20 => ⟨S1024x128x1, .i1⟩
  | 21 => ⟨S1x1x1, .i32⟩
  | 22 => ⟨S1024x128x1, .i32⟩
  | 23 => ⟨S1024x128x1, .i1⟩
  | 24 => ⟨S1024x128x1, .i1⟩
  | 25 => ⟨S_, .i1⟩
  | 26 => ⟨S1024x128, .i1⟩
  | 27 => ⟨S1024x128, .f32⟩
  | 28 => ⟨S_, .f32⟩
  | 29 => ⟨S1024x128, .f32⟩
  | 30 => ⟨S1024x128, .f32⟩
  | 31 => ⟨S_, .i32⟩
  | 32 => ⟨S1024x128, .i32⟩
  | 33 => ⟨S1024x128, .i1⟩
  | 34 => ⟨S_, .i32⟩
  | 35 => ⟨S1024x128, .i32⟩
  | 36 => ⟨S1024x128, .i1⟩
  | 37 => ⟨S1024x128, .i1⟩
  | 38 => ⟨S1024x128, .f32⟩
  | 39 => ⟨S_, .i32⟩
  | 40 => ⟨S1024x128, .i32⟩
  | 41 => ⟨S1024x128, .i32⟩
  | 42 => ⟨S_, .i32⟩
  | 43 => ⟨S_, .i32⟩
  | 44 => ⟨S_, .i32⟩
  | 45 => ⟨S1024x128, .i32⟩
  | 46 => ⟨S1024x128, .i32⟩
  | 47 => ⟨S_, .i32⟩
  | 48 => ⟨S1024x128, .i32⟩
  | 49 => ⟨S1024x128, .i32⟩
  | 50 => ⟨S_, .i32⟩
  | 51 => ⟨S1024x128, .i32⟩
  | 52 => ⟨S1024x128, .i1⟩
  | 53 => ⟨S_, .i32⟩
  | 54 => ⟨S1024x128, .i32⟩
  | 55 => ⟨S1024x128, .i32⟩
  | 56 => ⟨S1024x128, .i32⟩
  | 57 => ⟨S1024x128x1, .i32⟩
  | 58 => ⟨S1, .i32⟩
  | 59 => ⟨S_, .i32⟩
  | 60 => ⟨S1024x128x1, .i32⟩
  | 61 => ⟨S1024x128x1, .i1⟩
  | 62 => ⟨S1x1x1, .i32⟩
  | 63 => ⟨S1024x128x1, .i32⟩
  | 64 => ⟨S1024x128x1, .i1⟩
  | 65 => ⟨S1024x128x1, .i1⟩
  | 66 => ⟨S_, .i1⟩
  | 67 => ⟨S1024x128, .i1⟩
  | 68 => ⟨S1024x128, .f32⟩
  | 69 => ⟨S_, .f32⟩
  | 70 => ⟨S1024x128, .f32⟩
  | 71 => ⟨S1024x128, .f32⟩
  | 72 => ⟨S_, .i32⟩
  | 73 => ⟨S1024x128, .i32⟩
  | 74 => ⟨S1024x128, .i1⟩
  | 75 => ⟨S_, .i32⟩
  | 76 => ⟨S1024x128, .i32⟩
  | 77 => ⟨S1024x128, .i1⟩
  | 78 => ⟨S1024x128, .i1⟩
  | 79 => ⟨S1024x128, .f32⟩
  | 80 => ⟨S_, .i32⟩
  | 81 => ⟨S1024x128, .i32⟩
  | 82 => ⟨S1024x128, .i32⟩
  | 83 => ⟨S_, .i32⟩
  | 84 => ⟨S_, .i32⟩
  | 85 => ⟨S_, .i32⟩
  | 86 => ⟨S1024x128, .i32⟩
  | 87 => ⟨S1024x128, .i32⟩
  | 88 => ⟨S_, .i32⟩
  | 89 => ⟨S1024x128, .i32⟩
  | 90 => ⟨S1024x128, .i32⟩
  | 91 => ⟨S_, .i32⟩
  | 92 => ⟨S1024x128, .i32⟩
  | 93 => ⟨S1024x128, .i1⟩
  | 94 => ⟨S_, .i32⟩
  | 95 => ⟨S1024x128, .i32⟩
  | 96 => ⟨S1024x128, .i32⟩
  | 97 => ⟨S1024x128, .i32⟩
  | 98 => ⟨S1024x128x1, .i32⟩
  | 99 => ⟨S1, .i32⟩
  | 100 => ⟨S_, .i32⟩
  | 101 => ⟨S1024x128x1, .i32⟩
  | 102 => ⟨S1024x128x1, .i1⟩
  | 103 => ⟨S1x1x1, .i32⟩
  | 104 => ⟨S1024x128x1, .i32⟩
  | 105 => ⟨S1024x128x1, .i1⟩
  | 106 => ⟨S1024x128x1, .i1⟩
  | 107 => ⟨S_, .i1⟩
  | 108 => ⟨S1024x128, .i1⟩
  | 109 => ⟨S1024x128, .f32⟩
  | 110 => ⟨S_, .f32⟩
  | 111 => ⟨S1024x128, .f32⟩
  | 112 => ⟨S1024x128, .f32⟩
  | 113 => ⟨S_, .i32⟩
  | 114 => ⟨S1024x128, .i32⟩
  | 115 => ⟨S1024x128, .i1⟩
  | 116 => ⟨S_, .i32⟩
  | 117 => ⟨S1024x128, .i32⟩
  | 118 => ⟨S1024x128, .i1⟩
  | 119 => ⟨S1024x128, .i1⟩
  | 120 => ⟨S1024x128, .f32⟩
  | 121 => ⟨S_, .i32⟩
  | 122 => ⟨S1024x128, .i32⟩
  | 123 => ⟨S1024x128, .i1⟩
  | 124 => ⟨S_, .i32⟩
  | 125 => ⟨S1024x128, .i32⟩
  | 126 => ⟨S1024x128, .i32⟩
  | 127 => ⟨S1024x128, .i32⟩
  | _ => ⟨S1024x1024, .f32⟩

abbrev hbmTy0_2 (i : Nat) : BufTy := match i % 128 with
  | 0 => ⟨S1024x128x1, .i32⟩
  | 1 => ⟨S1024x128, .f32⟩
  | 2 => ⟨S_, .f32⟩
  | 3 => ⟨S1024x128, .f32⟩
  | 4 => ⟨S1024x128, .f32⟩
  | 5 => ⟨S1024x128, .f32⟩
  | 6 => ⟨S1024x128, .f32⟩
  | 7 => ⟨S1024x128, .f32⟩
  | 8 => ⟨S1024x128, .f32⟩
  | 9 => ⟨S_, .f32⟩
  | 10 => ⟨S1024, .f32⟩
  | 11 => ⟨S_, .f32⟩
  | 12 => ⟨S1024, .f32⟩
  | 13 => ⟨S1024, .f32⟩
  | 14 => ⟨S_, .f32⟩
  | 15 => ⟨S_, .f32⟩
  | 16 => ⟨S_, .f32⟩
  | 17 => ⟨S_, .f32⟩
  | _ => ⟨S1024x1024, .f32⟩

abbrev hbmTy (i : Nat) : BufTy := match i / 128 with
  | 0 => hbmTy0_0 i
  | 1 => hbmTy0_1 i
  | 2 => hbmTy0_2 i
  | _ => ⟨S1024x1024, .f32⟩

abbrev bufTy : (tb : Table) → Fin (tcTables nBuf tb) → BufTy
  | .hbm, ⟨i, _⟩ => hbmTy i
  | .local _ .vmem, ⟨0, _⟩ => ⟨S64x1024, .bf16⟩
  | .local _ .vmem, ⟨1, _⟩ => ⟨S64x1024, .bf16⟩
  | .local _ .vmem, ⟨2, _⟩ => ⟨S1024x10004, .bf16⟩
  | .local _ .vmem, ⟨3, _⟩ => ⟨S64x10004, .f32⟩
  | .local _ .vmem, ⟨4, _⟩ => ⟨S64x10004, .f32⟩
  | .local _ .vmem, ⟨5, _⟩ => ⟨S64x1024, .bf16⟩
  | .local _ .vmem, ⟨6, _⟩ => ⟨S64x1024, .bf16⟩
  | .local _ .vmem, ⟨7, _⟩ => ⟨S1024x512, .bf16⟩
  | .local _ .vmem, ⟨8, _⟩ => ⟨S512x10000, .bf16⟩
  | .local _ .vmem, ⟨9, _⟩ => ⟨S64x1, .f32⟩
  | .local _ .vmem, ⟨10, _⟩ => ⟨S64x1, .f32⟩
  | .local _ .vmem, ⟨11, _⟩ => ⟨S64x10000, .f32⟩
  | .local _ .vmem, ⟨12, _⟩ => ⟨S64x10000, .f32⟩
  | .local _ .vmem, ⟨13, _⟩ => ⟨S32x1024, .bf16⟩
  | .local _ .vmem, ⟨14, _⟩ => ⟨S32x1024, .bf16⟩
  | .local _ .vmem, ⟨15, _⟩ => ⟨S1024x256, .bf16⟩
  | .local _ .vmem, ⟨16, _⟩ => ⟨S256x20000, .bf16⟩
  | .local _ .vmem, ⟨17, _⟩ => ⟨S32x1, .f32⟩
  | .local _ .vmem, ⟨18, _⟩ => ⟨S32x1, .f32⟩
  | .local _ .vmem, ⟨19, _⟩ => ⟨S32x20000, .f32⟩
  | .local _ .vmem, ⟨20, _⟩ => ⟨S32x20000, .f32⟩
  | .local _ .vmem, ⟨21, _⟩ => ⟨S16x1024, .bf16⟩
  | .local _ .vmem, ⟨22, _⟩ => ⟨S16x1024, .bf16⟩
  | .local _ .vmem, ⟨23, _⟩ => ⟨S1024x128, .bf16⟩
  | .local _ .vmem, ⟨24, _⟩ => ⟨S128x40000, .bf16⟩
  | .local _ .vmem, ⟨25, _⟩ => ⟨S16x1, .f32⟩
  | .local _ .vmem, ⟨26, _⟩ => ⟨S16x1, .f32⟩
  | .local _ .vmem, ⟨27, _⟩ => ⟨S16x40000, .f32⟩
  | .local _ .vmem, ⟨28, _⟩ => ⟨S16x40000, .f32⟩
  | .local _ .vmem, ⟨29, _⟩ => ⟨S64x1024, .bf16⟩
  | .local _ .vmem, ⟨30, _⟩ => ⟨S64x1024, .bf16⟩
  | .local _ .vmem, ⟨31, _⟩ => ⟨S1024x64, .bf16⟩
  | .local _ .vmem, ⟨32, _⟩ => ⟨S64x20000, .bf16⟩
  | .local _ .vmem, ⟨33, _⟩ => ⟨S64x1, .f32⟩
  | .local _ .vmem, ⟨34, _⟩ => ⟨S64x1, .f32⟩
  | .local _ .vmem, ⟨35, _⟩ => ⟨S64x20000, .f32⟩
  | .local _ .vmem, ⟨36, _⟩ => ⟨S64x20000, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_c : Ref sig .tc := ⟨.hbm, 44, rfl⟩
abbrev main_v30 : Ref sig .tc := ⟨.hbm, 45, rfl⟩
abbrev main_v31 : Ref sig .tc := ⟨.hbm, 46, rfl⟩
abbrev main_c_0 : Ref sig .tc := ⟨.hbm, 47, rfl⟩
abbrev main_c_1 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v32 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_cst : Ref sig .tc := ⟨.hbm, 74, rfl⟩
abbrev main_call1_v14 : Ref sig .tc := ⟨.hbm, 75, rfl⟩
abbrev main_v33 : Ref sig .tc := ⟨.hbm, 76, rfl⟩
abbrev main_c_2 : Ref sig .tc := ⟨.hbm, 77, rfl⟩
abbrev main_v34 : Ref sig .tc := ⟨.hbm, 78, rfl⟩
abbrev main_v35 : Ref sig .tc := ⟨.hbm, 79, rfl⟩
abbrev main_c_3 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_c_4 : Ref sig .tc := ⟨.hbm, 85, rfl⟩
abbrev main_v40 : Ref sig .tc := ⟨.hbm, 86, rfl⟩
abbrev main_v41 : Ref sig .tc := ⟨.hbm, 87, rfl⟩
abbrev main_c_5 : Ref sig .tc := ⟨.hbm, 88, rfl⟩
abbrev main_c_6 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v42 : Ref sig .tc := ⟨.hbm, 95, rfl⟩
abbrev main_call4_c : Ref sig .tc := ⟨.hbm, 96, rfl⟩
abbrev main_call4_v0 : Ref sig .tc := ⟨.hbm, 97, rfl⟩
abbrev main_call4_v1 : Ref sig .tc := ⟨.hbm, 98, rfl⟩
abbrev main_call4_c_0 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_c_1 : Ref sig .tc := ⟨.hbm, 104, rfl⟩
abbrev main_call4_c_2 : Ref sig .tc := ⟨.hbm, 105, rfl⟩
abbrev main_call4_v6 : Ref sig .tc := ⟨.hbm, 106, rfl⟩
abbrev main_call4_v7 : Ref sig .tc := ⟨.hbm, 107, rfl⟩
abbrev main_call4_v8 : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_c_3 : Ref sig .tc := ⟨.hbm, 112, rfl⟩
abbrev main_call4_v12 : Ref sig .tc := ⟨.hbm, 113, rfl⟩
abbrev main_call4_v13 : Ref sig .tc := ⟨.hbm, 114, rfl⟩
abbrev main_call4_cst : Ref sig .tc := ⟨.hbm, 115, rfl⟩
abbrev main_call4_v14 : Ref sig .tc := ⟨.hbm, 116, rfl⟩
abbrev main_v43 : Ref sig .tc := ⟨.hbm, 117, rfl⟩
abbrev main_c_7 : Ref sig .tc := ⟨.hbm, 118, rfl⟩
abbrev main_v44 : Ref sig .tc := ⟨.hbm, 119, rfl⟩
abbrev main_v45 : Ref sig .tc := ⟨.hbm, 120, rfl⟩
abbrev main_c_8 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_c_9 : Ref sig .tc := ⟨.hbm, 126, rfl⟩
abbrev main_v50 : Ref sig .tc := ⟨.hbm, 127, rfl⟩
abbrev main_v51 : Ref sig .tc := ⟨.hbm, 128, rfl⟩
abbrev main_c_10 : Ref sig .tc := ⟨.hbm, 129, rfl⟩
abbrev main_c_11 : Ref sig .tc := ⟨.hbm, 130, rfl⟩
abbrev main_call6_v0 : Ref sig .tc := ⟨.hbm, 131, rfl⟩
abbrev main_call6_v1 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_v52 : Ref sig .tc := ⟨.hbm, 136, rfl⟩
abbrev main_call7_c : Ref sig .tc := ⟨.hbm, 137, rfl⟩
abbrev main_call7_v0 : Ref sig .tc := ⟨.hbm, 138, rfl⟩
abbrev main_call7_v1 : Ref sig .tc := ⟨.hbm, 139, rfl⟩
abbrev main_call7_c_0 : Ref sig .tc := ⟨.hbm, 140, rfl⟩
abbrev main_call7_v2 : Ref sig .tc := ⟨.hbm, 141, rfl⟩
abbrev main_call7_v3 : Ref sig .tc := ⟨.hbm, 142, rfl⟩
abbrev main_call7_v4 : Ref sig .tc := ⟨.hbm, 143, rfl⟩
abbrev main_call7_v5 : Ref sig .tc := ⟨.hbm, 144, rfl⟩
abbrev main_call7_c_1 : Ref sig .tc := ⟨.hbm, 145, rfl⟩
abbrev main_call7_c_2 : Ref sig .tc := ⟨.hbm, 146, rfl⟩
abbrev main_call7_v6 : Ref sig .tc := ⟨.hbm, 147, rfl⟩
abbrev main_call7_v7 : Ref sig .tc := ⟨.hbm, 148, rfl⟩
abbrev main_call7_v8 : Ref sig .tc := ⟨.hbm, 149, rfl⟩
abbrev main_call7_v9 : Ref sig .tc := ⟨.hbm, 150, rfl⟩
abbrev main_call7_v10 : Ref sig .tc := ⟨.hbm, 151, rfl⟩
abbrev main_call7_v11 : Ref sig .tc := ⟨.hbm, 152, rfl⟩
abbrev main_call7_c_3 : Ref sig .tc := ⟨.hbm, 153, rfl⟩
abbrev main_call7_v12 : Ref sig .tc := ⟨.hbm, 154, rfl⟩
abbrev main_call7_v13 : Ref sig .tc := ⟨.hbm, 155, rfl⟩
abbrev main_call7_cst : Ref sig .tc := ⟨.hbm, 156, rfl⟩
abbrev main_call7_v14 : Ref sig .tc := ⟨.hbm, 157, rfl⟩
abbrev main_v53 : Ref sig .tc := ⟨.hbm, 158, rfl⟩
abbrev main_c_12 : Ref sig .tc := ⟨.hbm, 159, rfl⟩
abbrev main_v54 : Ref sig .tc := ⟨.hbm, 160, rfl⟩
abbrev main_v55 : Ref sig .tc := ⟨.hbm, 161, rfl⟩
abbrev main_c_13 : Ref sig .tc := ⟨.hbm, 162, rfl⟩
abbrev main_v56 : Ref sig .tc := ⟨.hbm, 163, rfl⟩
abbrev main_v57 : Ref sig .tc := ⟨.hbm, 164, rfl⟩
abbrev main_v58 : Ref sig .tc := ⟨.hbm, 165, rfl⟩
abbrev main_v59 : Ref sig .tc := ⟨.hbm, 166, rfl⟩
abbrev main_c_14 : Ref sig .tc := ⟨.hbm, 167, rfl⟩
abbrev main_v60 : Ref sig .tc := ⟨.hbm, 168, rfl⟩
abbrev main_v61 : Ref sig .tc := ⟨.hbm, 169, rfl⟩
abbrev main_c_15 : Ref sig .tc := ⟨.hbm, 170, rfl⟩
abbrev main_c_16 : Ref sig .tc := ⟨.hbm, 171, rfl⟩
abbrev main_call9_v0 : Ref sig .tc := ⟨.hbm, 172, rfl⟩
abbrev main_call9_v1 : Ref sig .tc := ⟨.hbm, 173, rfl⟩
abbrev main_call9_v2 : Ref sig .tc := ⟨.hbm, 174, rfl⟩
abbrev main_call9_v3 : Ref sig .tc := ⟨.hbm, 175, rfl⟩
abbrev main_call9_v4 : Ref sig .tc := ⟨.hbm, 176, rfl⟩
abbrev main_v62 : Ref sig .tc := ⟨.hbm, 177, rfl⟩
abbrev main_call10_c : Ref sig .tc := ⟨.hbm, 178, rfl⟩
abbrev main_call10_v0 : Ref sig .tc := ⟨.hbm, 179, rfl⟩
abbrev main_call10_v1 : Ref sig .tc := ⟨.hbm, 180, rfl⟩
abbrev main_call10_c_0 : Ref sig .tc := ⟨.hbm, 181, rfl⟩
abbrev main_call10_v2 : Ref sig .tc := ⟨.hbm, 182, rfl⟩
abbrev main_call10_v3 : Ref sig .tc := ⟨.hbm, 183, rfl⟩
abbrev main_call10_v4 : Ref sig .tc := ⟨.hbm, 184, rfl⟩
abbrev main_call10_v5 : Ref sig .tc := ⟨.hbm, 185, rfl⟩
abbrev main_call10_c_1 : Ref sig .tc := ⟨.hbm, 186, rfl⟩
abbrev main_call10_c_2 : Ref sig .tc := ⟨.hbm, 187, rfl⟩
abbrev main_call10_v6 : Ref sig .tc := ⟨.hbm, 188, rfl⟩
abbrev main_call10_v7 : Ref sig .tc := ⟨.hbm, 189, rfl⟩
abbrev main_call10_v8 : Ref sig .tc := ⟨.hbm, 190, rfl⟩
abbrev main_call10_v9 : Ref sig .tc := ⟨.hbm, 191, rfl⟩
abbrev main_call10_v10 : Ref sig .tc := ⟨.hbm, 192, rfl⟩
abbrev main_call10_v11 : Ref sig .tc := ⟨.hbm, 193, rfl⟩
abbrev main_call10_c_3 : Ref sig .tc := ⟨.hbm, 194, rfl⟩
abbrev main_call10_v12 : Ref sig .tc := ⟨.hbm, 195, rfl⟩
abbrev main_call10_v13 : Ref sig .tc := ⟨.hbm, 196, rfl⟩
abbrev main_call10_cst : Ref sig .tc := ⟨.hbm, 197, rfl⟩
abbrev main_call10_v14 : Ref sig .tc := ⟨.hbm, 198, rfl⟩
abbrev main_v63 : Ref sig .tc := ⟨.hbm, 199, rfl⟩
abbrev main_c_17 : Ref sig .tc := ⟨.hbm, 200, rfl⟩
abbrev main_v64 : Ref sig .tc := ⟨.hbm, 201, rfl⟩
abbrev main_v65 : Ref sig .tc := ⟨.hbm, 202, rfl⟩
abbrev main_c_18 : Ref sig .tc := ⟨.hbm, 203, rfl⟩
abbrev main_v66 : Ref sig .tc := ⟨.hbm, 204, rfl⟩
abbrev main_v67 : Ref sig .tc := ⟨.hbm, 205, rfl⟩
abbrev main_v68 : Ref sig .tc := ⟨.hbm, 206, rfl⟩
abbrev main_v69 : Ref sig .tc := ⟨.hbm, 207, rfl⟩
abbrev main_c_19 : Ref sig .tc := ⟨.hbm, 208, rfl⟩
abbrev main_v70 : Ref sig .tc := ⟨.hbm, 209, rfl⟩
abbrev main_v71 : Ref sig .tc := ⟨.hbm, 210, rfl⟩
abbrev main_c_20 : Ref sig .tc := ⟨.hbm, 211, rfl⟩
abbrev main_c_21 : Ref sig .tc := ⟨.hbm, 212, rfl⟩
abbrev main_call12_v0 : Ref sig .tc := ⟨.hbm, 213, rfl⟩
abbrev main_call12_v1 : Ref sig .tc := ⟨.hbm, 214, rfl⟩
abbrev main_call12_v2 : Ref sig .tc := ⟨.hbm, 215, rfl⟩
abbrev main_call12_v3 : Ref sig .tc := ⟨.hbm, 216, rfl⟩
abbrev main_call12_v4 : Ref sig .tc := ⟨.hbm, 217, rfl⟩
abbrev main_v72 : Ref sig .tc := ⟨.hbm, 218, rfl⟩
abbrev main_call13_c : Ref sig .tc := ⟨.hbm, 219, rfl⟩
abbrev main_call13_v0 : Ref sig .tc := ⟨.hbm, 220, rfl⟩
abbrev main_call13_v1 : Ref sig .tc := ⟨.hbm, 221, rfl⟩
abbrev main_call13_c_0 : Ref sig .tc := ⟨.hbm, 222, rfl⟩
abbrev main_call13_v2 : Ref sig .tc := ⟨.hbm, 223, rfl⟩
abbrev main_call13_v3 : Ref sig .tc := ⟨.hbm, 224, rfl⟩
abbrev main_call13_v4 : Ref sig .tc := ⟨.hbm, 225, rfl⟩
abbrev main_call13_v5 : Ref sig .tc := ⟨.hbm, 226, rfl⟩
abbrev main_call13_c_1 : Ref sig .tc := ⟨.hbm, 227, rfl⟩
abbrev main_call13_c_2 : Ref sig .tc := ⟨.hbm, 228, rfl⟩
abbrev main_call13_v6 : Ref sig .tc := ⟨.hbm, 229, rfl⟩
abbrev main_call13_v7 : Ref sig .tc := ⟨.hbm, 230, rfl⟩
abbrev main_call13_v8 : Ref sig .tc := ⟨.hbm, 231, rfl⟩
abbrev main_call13_v9 : Ref sig .tc := ⟨.hbm, 232, rfl⟩
abbrev main_call13_v10 : Ref sig .tc := ⟨.hbm, 233, rfl⟩
abbrev main_call13_v11 : Ref sig .tc := ⟨.hbm, 234, rfl⟩
abbrev main_call13_c_3 : Ref sig .tc := ⟨.hbm, 235, rfl⟩
abbrev main_call13_v12 : Ref sig .tc := ⟨.hbm, 236, rfl⟩
abbrev main_call13_v13 : Ref sig .tc := ⟨.hbm, 237, rfl⟩
abbrev main_call13_cst : Ref sig .tc := ⟨.hbm, 238, rfl⟩
abbrev main_call13_v14 : Ref sig .tc := ⟨.hbm, 239, rfl⟩
abbrev main_v73 : Ref sig .tc := ⟨.hbm, 240, rfl⟩
abbrev main_c_22 : Ref sig .tc := ⟨.hbm, 241, rfl⟩
abbrev main_v74 : Ref sig .tc := ⟨.hbm, 242, rfl⟩
abbrev main_v75 : Ref sig .tc := ⟨.hbm, 243, rfl⟩
abbrev main_c_23 : Ref sig .tc := ⟨.hbm, 244, rfl⟩
abbrev main_v76 : Ref sig .tc := ⟨.hbm, 245, rfl⟩
abbrev main_v77 : Ref sig .tc := ⟨.hbm, 246, rfl⟩
abbrev main_v78 : Ref sig .tc := ⟨.hbm, 247, rfl⟩
abbrev main_v79 : Ref sig .tc := ⟨.hbm, 248, rfl⟩
abbrev main_c_24 : Ref sig .tc := ⟨.hbm, 249, rfl⟩
abbrev main_v80 : Ref sig .tc := ⟨.hbm, 250, rfl⟩
abbrev main_v81 : Ref sig .tc := ⟨.hbm, 251, rfl⟩
abbrev main_c_25 : Ref sig .tc := ⟨.hbm, 252, rfl⟩
abbrev main_v82 : Ref sig .tc := ⟨.hbm, 253, rfl⟩
abbrev main_v83 : Ref sig .tc := ⟨.hbm, 254, rfl⟩
abbrev main_v84 : Ref sig .tc := ⟨.hbm, 255, rfl⟩
abbrev main_v85 : Ref sig .tc := ⟨.hbm, 256, rfl⟩
abbrev main_v86 : Ref sig .tc := ⟨.hbm, 257, rfl⟩
abbrev main_cst_26 : Ref sig .tc := ⟨.hbm, 258, rfl⟩
abbrev main_v87 : Ref sig .tc := ⟨.hbm, 259, rfl⟩
abbrev main_v88 : Ref sig .tc := ⟨.hbm, 260, rfl⟩
abbrev main_v89 : Ref sig .tc := ⟨.hbm, 261, rfl⟩
abbrev main_v90 : Ref sig .tc := ⟨.hbm, 262, rfl⟩
abbrev main_v91 : Ref sig .tc := ⟨.hbm, 263, rfl⟩
abbrev main_v92 : Ref sig .tc := ⟨.hbm, 264, rfl⟩
abbrev main_cst_27 : Ref sig .tc := ⟨.hbm, 265, rfl⟩
abbrev main_v93 : Ref sig .tc := ⟨.hbm, 266, rfl⟩
abbrev main_cst_28 : Ref sig .tc := ⟨.hbm, 267, rfl⟩
abbrev main_v94 : Ref sig .tc := ⟨.hbm, 268, rfl⟩
abbrev main_v95 : Ref sig .tc := ⟨.hbm, 269, rfl⟩
abbrev main_cst_29 : Ref sig .tc := ⟨.hbm, 270, rfl⟩
abbrev main_v96 : Ref sig .tc := ⟨.hbm, 271, rfl⟩
abbrev main_cst_30 : Ref sig .tc := ⟨.hbm, 272, rfl⟩
abbrev main_v97 : Ref sig .tc := ⟨.hbm, 273, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc4_stg4_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem3_1 : DmaSem sig := 34
abbrev cc4_sem4_0 : DmaSem sig := 35
abbrev cc4_sem4_1 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x10004 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x10004 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x10000 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x10000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S32x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x20000 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S32x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S32x20000 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x40000 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S16x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S16x40000 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S64x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x20000 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S64x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S64x20000 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  bitsLt_bf16_f32 : FTy.bits .bf16 < FTy.bits .f32
  transposes_S10004x1024_S1024x10004_1_0 : S10004x1024.Transposes [1, 0] S1024x10004
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x10004_S1024x10004_0_0 : ∀ a, (![0, 0] : Fin 2 → Nat) a + S1024x10004.size a ≤ S1024x10004.size a
  h_S1024x10004 : 0 < S1024x10004.numel
  shapeCasts_S1024x10004_S1024x10004 : S1024x10004.ShapeCasts S1024x10004
  reduces_S64x10004_S64 : S64x10004.Reduces [1] S64
  shapeCasts_S64_S64x1 : S64.ShapeCasts S64x1
  broadcasts_S64x1_S64x10004 : S64x1.Broadcasts S64x10004
  inb_S64x10004_S64x10004_0_0 : ∀ a, (![0, 0] : Fin 2 → Nat) a + S64x10004.size a ≤ S64x10004.size a
  h_S64x10004 : 0 < S64x10004.numel
  slices_S1024x10004_S1024x10000_0_0 : S1024x10004.Slices ![0, 0] S1024x10000
  slices_S1024x10004_S1024x1_0_10000 : S1024x10004.Slices ![0, 10000] S1024x1
  slices_S1024x10004_S1024x1_0_10001 : S1024x10004.Slices ![0, 10001] S1024x1
  slices_S1024x10004_S1024x1_0_10002 : S1024x10004.Slices ![0, 10002] S1024x1
  slices_S1024x10004_S1024x1_0_10003 : S1024x10004.Slices ![0, 10003] S1024x1
  transposes_S512x1024_S1024x512_1_0 : S512x1024.Transposes [1, 0] S1024x512
  transposes_S10000x512_S512x10000_1_0 : S10000x512.Transposes [1, 0] S512x10000
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x10000_S512x10000_0_0 : ∀ a, (![0, 0] : Fin 2 → Nat) a + S512x10000.size a ≤ S512x10000.size a
  h_S512x10000 : 0 < S512x10000.numel
  shapeCasts_S512x10000_S512x10000 : S512x10000.ShapeCasts S512x10000
  reduces_S64x10000_S64 : S64x10000.Reduces [1] S64
  broadcasts_S64x1_S64x10000 : S64x1.Broadcasts S64x10000
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x10000_S64x10000_0_0 : ∀ a, (![0, 0] : Fin 2 → Nat) a + S64x10000.size a ≤ S64x10000.size a
  h_S64x10000 : 0 < S64x10000.numel
  transposes_S256x1024_S1024x256_1_0 : S256x1024.Transposes [1, 0] S1024x256
  transposes_S20000x256_S256x20000_1_0 : S20000x256.Transposes [1, 0] S256x20000
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x20000_S256x20000_0_0 : ∀ a, (![0, 0] : Fin 2 → Nat) a + S256x20000.size a ≤ S256x20000.size a
  h_S256x20000 : 0 < S256x20000.numel
  shapeCasts_S256x20000_S256x20000 : S256x20000.ShapeCasts S256x20000
  reduces_S32x20000_S32 : S32x20000.Reduces [1] S32
  shapeCasts_S32_S32x1 : S32.ShapeCasts S32x1
  broadcasts_S32x1_S32x20000 : S32x1.Broadcasts S32x20000
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x20000_S32x20000_0_0 : ∀ a, (![0, 0] : Fin 2 → Nat) a + S32x20000.size a ≤ S32x20000.size a
  h_S32x20000 : 0 < S32x20000.numel
  transposes_S128x1024_S1024x128_1_0 : S128x1024.Transposes [1, 0] S1024x128
  transposes_S40000x128_S128x40000_1_0 : S40000x128.Transposes [1, 0] S128x40000
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x40000_S128x40000_0_0 : ∀ a, (![0, 0] : Fin 2 → Nat) a + S128x40000.size a ≤ S128x40000.size a
  h_S128x40000 : 0 < S128x40000.numel
  shapeCasts_S128x40000_S128x40000 : S128x40000.ShapeCasts S128x40000
  reduces_S16x40000_S16 : S16x40000.Reduces [1] S16
  shapeCasts_S16_S16x1 : S16.ShapeCasts S16x1
  broadcasts_S16x1_S16x40000 : S16x1.Broadcasts S16x40000
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x40000_S16x40000_0_0 : ∀ a, (![0, 0] : Fin 2 → Nat) a + S16x40000.size a ≤ S16x40000.size a
  h_S16x40000 : 0 < S16x40000.numel
  transposes_S64x1024_S1024x64_1_0 : S64x1024.Transposes [1, 0] S1024x64
  transposes_S20000x64_S64x20000_1_0 : S20000x64.Transposes [1, 0] S64x20000
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x20000_S64x20000_0_0 : ∀ a, (![0, 0] : Fin 2 → Nat) a + S64x20000.size a ≤ S64x20000.size a
  h_S64x20000 : 0 < S64x20000.numel
  shapeCasts_S64x20000_S64x20000 : S64x20000.ShapeCasts S64x20000
  reduces_S64x20000_S64 : S64x20000.Reduces [1] S64
  broadcasts_S64x1_S64x20000 : S64x1.Broadcasts S64x20000
  bcast_S_S1024x128 : S_.BroadcastsInDim S1024x128 (![] : Fin 0 → Fin S1024x128.rank)
  shapeCasts_S1024x128_S1024x128x1 : S1024x128.ShapeCasts S1024x128x1
  bcast_S_S1024x128x1 : S_.BroadcastsInDim S1024x128x1 (![] : Fin 0 → Fin S1024x128x1.rank)
  bcast_S1_S1x1x1_2 : S1.BroadcastsInDim S1x1x1 (![2] : Fin 1 → Fin S1x1x1.rank)
  bcast_S1x1x1_S1024x128x1_0_1_2 : S1x1x1.BroadcastsInDim S1024x128x1 (![0, 1, 2] : Fin 3 → Fin S1024x128x1.rank)
  reducesTo_S1024x128x1_S1024x128_d2 : S1024x128x1.ReducesTo [2] S1024x128
  h_S_ : 0 < S_.numel
  bcast_S1024x128_S1024x128x1_0_1 : S1024x128.BroadcastsInDim S1024x128x1 (![0, 1] : Fin 2 → Fin S1024x128x1.rank)
  reducesTo_S1024x128_S1024_d1 : S1024x128.ReducesTo [1] S1024
  reducesTo_S1024_S_d0 : S1024.ReducesTo [0] S_
  dot_S64x1024_S1024x10004_S64x10004_1_0_0_1_n_n_wf : DotDims.WF S64x1024 S1024x10004 S64x10004 [1] [0] [0] [1] [] []
  dot_S64x1024_S1024x512_S64x512_1_0_0_1_n_n_wf : DotDims.WF S64x1024 S1024x512 S64x512 [1] [0] [0] [1] [] []
  dot_S64x512_S512x10000_S64x10000_1_0_0_1_n_n_wf : DotDims.WF S64x512 S512x10000 S64x10000 [1] [0] [0] [1] [] []
  dot_S32x1024_S1024x256_S32x256_1_0_0_1_n_n_wf : DotDims.WF S32x1024 S1024x256 S32x256 [1] [0] [0] [1] [] []
  dot_S32x256_S256x20000_S32x20000_1_0_0_1_n_n_wf : DotDims.WF S32x256 S256x20000 S32x20000 [1] [0] [0] [1] [] []
  dot_S16x1024_S1024x128_S16x128_1_0_0_1_n_n_wf : DotDims.WF S16x1024 S1024x128 S16x128 [1] [0] [0] [1] [] []
  dot_S16x128_S128x40000_S16x40000_1_0_0_1_n_n_wf : DotDims.WF S16x128 S128x40000 S16x40000 [1] [0] [0] [1] [] []
  dot_S64x1024_S1024x64_S64x64_1_0_0_1_n_n_wf : DotDims.WF S64x1024 S1024x64 S64x64 [1] [0] [0] [1] [] []
  dot_S64x64_S64x20000_S64x20000_1_0_0_1_n_n_wf : DotDims.WF S64x64 S64x20000 S64x20000 [1] [0] [0] [1] [] []
  gather_S1024x10000_S1024x128x1_S1024x128_n_1_0_0_1_2_11_wf : GatherDims.WF S1024x10000 S1024x128x1 S1024x128 [] [1] [0] [1] [0] 2 ![1, 1]
  gather_S1024x20000_S1024x128x1_S1024x128_n_1_0_0_1_2_11_wf : GatherDims.WF S1024x20000 S1024x128x1 S1024x128 [] [1] [0] [1] [0] 2 ![1, 1]
  gather_S1024x40000_S1024x128x1_S1024x128_n_1_0_0_1_2_11_wf : GatherDims.WF S1024x40000 S1024x128x1 S1024x128 [] [1] [0] [1] [0] 2 ![1, 1]
  gather_S100000_S1024x128x1_S1024x128_n_0_n_n_0_2_1_wf : GatherDims.WF S100000 S1024x128x1 S1024x128 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S1024x1024.size a
  hwx0_0 : ∀ i : grid0.Coords, EltTy.bits .bf16 = 32 ∨ (Rect.block (s := S1024x1024) S64x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x10004.size a ≤ S1024x10004.size a
  hwx0_1 : ∀ i : grid0.Coords, EltTy.bits .bf16 = 32 ∨ (Rect.block (s := S1024x10004) S1024x10004.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x10004.size a ≤ S1024x10004.size a
  hwx0_2 : ∀ i : grid0.Coords, EltTy.bits .f32 = 32 ∨ (Rect.block (s := S1024x10004) S64x10004.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S1024x1024.size a
  hwx1_0 : ∀ i : grid1.Coords, EltTy.bits .bf16 = 32 ∨ (Rect.block (s := S1024x1024) S64x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .bf16 = 32 ∨ (Rect.block (s := S1024x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x10000.size a ≤ S512x10000.size a
  hwx1_2 : ∀ i : grid1.Coords, EltTy.bits .bf16 = 32 ∨ (Rect.block (s := S512x10000) S512x10000.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S1024x1.size a
  hwx1_3 : ∀ i : grid1.Coords, EltTy.bits .f32 = 32 ∨ (Rect.block (s := S1024x1) S64x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x10000.size a ≤ S1024x10000.size a
  hwx1_4 : ∀ i : grid1.Coords, EltTy.bits .f32 = 32 ∨ (Rect.block (s := S1024x10000) S64x10000.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x1024.size a ≤ S1024x1024.size a
  hwx2_0 : ∀ i : grid2.Coords, EltTy.bits .bf16 = 32 ∨ (Rect.block (s := S1024x1024) S32x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x256.size a
  hwx2_1 : ∀ i : grid2.Coords, EltTy.bits .bf16 = 32 ∨ (Rect.block (s := S1024x256) S1024x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x20000.size a ≤ S256x20000.size a
  hwx2_2 : ∀ i : grid2.Coords, EltTy.bits .bf16 = 32 ∨ (Rect.block (s := S256x20000) S256x20000.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S32x1.size a ≤ S1024x1.size a
  hwx2_3 : ∀ i : grid2.Coords, EltTy.bits .f32 = 32 ∨ (Rect.block (s := S1024x1) S32x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S32x20000.size a ≤ S1024x20000.size a
  hwx2_4 : ∀ i : grid2.Coords, EltTy.bits .f32 = 32 ∨ (Rect.block (s := S1024x20000) S32x20000.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16x1024.size a ≤ S1024x1024.size a
  hwx3_0 : ∀ i : grid3.Coords, EltTy.bits .bf16 = 32 ∨ (Rect.block (s := S1024x1024) S16x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S1024x128.size a
  hwx3_1 : ∀ i : grid3.Coords, EltTy.bits .bf16 = 32 ∨ (Rect.block (s := S1024x128) S1024x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x40000.size a ≤ S128x40000.size a
  hwx3_2 : ∀ i : grid3.Coords, EltTy.bits .bf16 = 32 ∨ (Rect.block (s := S128x40000) S128x40000.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S16x1.size a ≤ S1024x1.size a
  hwx3_3 : ∀ i : grid3.Coords, EltTy.bits .f32 = 32 ∨ (Rect.block (s := S1024x1) S16x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S16x40000.size a ≤ S1024x40000.size a
  hwx3_4 : ∀ i : grid3.Coords, EltTy.bits .f32 = 32 ∨ (Rect.block (s := S1024x40000) S16x40000.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x1024.size a ≤ S1024x1024.size a
  hwx4_0 : ∀ i : grid4.Coords, EltTy.bits .bf16 = 32 ∨ (Rect.block (s := S1024x1024) S64x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S1024x64.size a
  hwx4_1 : ∀ i : grid4.Coords, EltTy.bits .bf16 = 32 ∨ (Rect.block (s := S1024x64) S1024x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x20000.size a ≤ S64x20000.size a
  hwx4_2 : ∀ i : grid4.Coords, EltTy.bits .bf16 = 32 ∨ (Rect.block (s := S64x20000) S64x20000.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S1024x1.size a
  hwx4_3 : ∀ i : grid4.Coords, EltTy.bits .f32 = 32 ∨ (Rect.block (s := S1024x1) S64x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S64x20000.size a ≤ S1024x20000.size a
  hwx4_4 : ∀ i : grid4.Coords, EltTy.bits .f32 = 32 ∨ (Rect.block (s := S1024x20000) S64x20000.size (cc4_transform_4 i) (hinb4_4 i)).WholeWords (EltTy.packing .f32)

variable [Facts₀]

def dot_S64x1024_S1024x10004_S64x10004_1_0_0_1_n_n : DotDims S64x1024 S1024x10004 S64x10004 where
  lhsContracting := [1]
  rhsContracting := [0]
  lhsNonContracting := [0]
  rhsNonContracting := [1]
  lhsBatch := []
  rhsBatch := []
  wf := dot_S64x1024_S1024x10004_S64x10004_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x512_S512x10000_S64x10000_1_0_0_1_n_n : DotDims S64x512 S512x10000 S64x10000 where
  lhsContracting := [1]
  rhsContracting := [0]
  lhsNonContracting := [0]
  rhsNonContracting := [1]
  lhsBatch := []
  rhsBatch := []
  wf := dot_S64x512_S512x10000_S64x10000_1_0_0_1_n_n_wf
def dot_S32x1024_S1024x256_S32x256_1_0_0_1_n_n : DotDims S32x1024 S1024x256 S32x256 where
  lhsContracting := [1]
  rhsContracting := [0]
  lhsNonContracting := [0]
  rhsNonContracting := [1]
  lhsBatch := []
  rhsBatch := []
  wf := dot_S32x1024_S1024x256_S32x256_1_0_0_1_n_n_wf
def dot_S32x256_S256x20000_S32x20000_1_0_0_1_n_n : DotDims S32x256 S256x20000 S32x20000 where
  lhsContracting := [1]
  rhsContracting := [0]
  lhsNonContracting := [0]
  rhsNonContracting := [1]
  lhsBatch := []
  rhsBatch := []
  wf := dot_S32x256_S256x20000_S32x20000_1_0_0_1_n_n_wf
def dot_S16x1024_S1024x128_S16x128_1_0_0_1_n_n : DotDims S16x1024 S1024x128 S16x128 where
  lhsContracting := [1]
  rhsContracting := [0]
  lhsNonContracting := [0]
  rhsNonContracting := [1]
  lhsBatch := []
  rhsBatch := []
  wf := dot_S16x1024_S1024x128_S16x128_1_0_0_1_n_n_wf
def dot_S16x128_S128x40000_S16x40000_1_0_0_1_n_n : DotDims S16x128 S128x40000 S16x40000 where
  lhsContracting := [1]
  rhsContracting := [0]
  lhsNonContracting := [0]
  rhsNonContracting := [1]
  lhsBatch := []
  rhsBatch := []
  wf := dot_S16x128_S128x40000_S16x40000_1_0_0_1_n_n_wf
def dot_S64x1024_S1024x64_S64x64_1_0_0_1_n_n : DotDims S64x1024 S1024x64 S64x64 where
  lhsContracting := [1]
  rhsContracting := [0]
  lhsNonContracting := [0]
  rhsNonContracting := [1]
  lhsBatch := []
  rhsBatch := []
  wf := dot_S64x1024_S1024x64_S64x64_1_0_0_1_n_n_wf
def dot_S64x64_S64x20000_S64x20000_1_0_0_1_n_n : DotDims S64x64 S64x20000 S64x20000 where
  lhsContracting := [1]
  rhsContracting := [0]
  lhsNonContracting := [0]
  rhsNonContracting := [1]
  lhsBatch := []
  rhsBatch := []
  wf := dot_S64x64_S64x20000_S64x20000_1_0_0_1_n_n_wf
def gather_S1024x10000_S1024x128x1_S1024x128_n_1_0_0_1_2_11 : GatherDims S1024x10000 S1024x128x1 S1024x128 where
  offsetDims := []
  collapsedSliceDims := [1]
  operandBatchingDims := [0]
  startIndicesBatchingDims := [0]
  startIndexMap := [1]
  indexVectorDim := 2
  sliceSizes := ![1, 1]
  wf := gather_S1024x10000_S1024x128x1_S1024x128_n_1_0_0_1_2_11_wf
def gather_S1024x20000_S1024x128x1_S1024x128_n_1_0_0_1_2_11 : GatherDims S1024x20000 S1024x128x1 S1024x128 where
  offsetDims := []
  collapsedSliceDims := [1]
  operandBatchingDims := [0]
  startIndicesBatchingDims := [0]
  startIndexMap := [1]
  indexVectorDim := 2
  sliceSizes := ![1, 1]
  wf := gather_S1024x20000_S1024x128x1_S1024x128_n_1_0_0_1_2_11_wf
def gather_S1024x40000_S1024x128x1_S1024x128_n_1_0_0_1_2_11 : GatherDims S1024x40000 S1024x128x1 S1024x128 where
  offsetDims := []
  collapsedSliceDims := [1]
  operandBatchingDims := [0]
  startIndicesBatchingDims := [0]
  startIndexMap := [1]
  indexVectorDim := 2
  sliceSizes := ![1, 1]
  wf := gather_S1024x40000_S1024x128x1_S1024x128_n_1_0_0_1_2_11_wf
def gather_S100000_S1024x128x1_S1024x128_n_0_n_n_0_2_1 : GatherDims S100000 S1024x128x1 S1024x128 where
  offsetDims := []
  collapsedSliceDims := [0]
  operandBatchingDims := []
  startIndicesBatchingDims := []
  startIndexMap := [0]
  indexVectorDim := 2
  sliceSizes := ![1]
  wf := gather_S100000_S1024x128x1_S1024x128_n_0_n_n_0_2_1_wf

abbrev win0_0 : Pipeline.Window sig grid0 :=
  Pipeline.Window.ofSpec (Memref.whole main_v0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x10004.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x10004.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S512x10000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S64x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S64x10000.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0) S32x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1024x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S256x20000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S32x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18) S32x20000.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v0) S16x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S1024x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S128x40000.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S16x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v23) S16x40000.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v0) S64x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S1024x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v27) S64x20000.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v8) S64x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v28) S64x20000.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S1024x1024 : Shape := ⟨2, ![1024, 1024]⟩
abbrev S10004x1024 : Shape := ⟨2, ![10004, 1024]⟩
abbrev S512x1024 : Shape := ⟨2, ![512, 1024]⟩
abbrev S10000x512 : Shape := ⟨2, ![10000, 512]⟩
abbrev S256x1024 : Shape := ⟨2, ![256, 1024]⟩
abbrev S20000x256 : Shape := ⟨2, ![20000, 256]⟩
abbrev S128x1024 : Shape := ⟨2, ![128, 1024]⟩
abbrev S40000x128 : Shape := ⟨2, ![40000, 128]⟩
abbrev S64x1024 : Shape := ⟨2, ![64, 1024]⟩
abbrev S20000x64 : Shape := ⟨2, ![20000, 64]⟩
abbrev S100000 : Shape := ⟨1, ![100000]⟩
abbrev S1024x128 : Shape := ⟨2, ![1024, 128]⟩
abbrev S1024x10004 : Shape := ⟨2, ![1024, 10004]⟩
abbrev S_ : Shape := ⟨0, ![]⟩
abbrev S1024 : Shape := ⟨1, ![1024]⟩
abbrev S1024x1 : Shape := ⟨2, ![1024, 1]⟩
abbrev S1024x10000 : Shape := ⟨2, ![1024, 10000]⟩
abbrev S1024x512 : Shape := ⟨2, ![1024, 512]⟩
abbrev S512x10000 : Shape := ⟨2, ![512, 10000]⟩
abbrev S1024x256 : Shape := ⟨2, ![1024, 256]⟩
abbrev S256x20000 : Shape := ⟨2, ![256, 20000]⟩
abbrev S1024x20000 : Shape := ⟨2, ![1024, 20000]⟩
abbrev S128x40000 : Shape := ⟨2, ![128, 40000]⟩
abbrev S1024x40000 : Shape := ⟨2, ![1024, 40000]⟩
abbrev S1024x64 : Shape := ⟨2, ![1024, 64]⟩
abbrev S64x20000 : Shape := ⟨2, ![64, 20000]⟩
abbrev S1024x100000 : Shape := ⟨2, ![1024, 100000]⟩
abbrev S1024x128x1 : Shape := ⟨3, ![1024, 128, 1]⟩
abbrev S1 : Shape := ⟨1, ![1]⟩
abbrev S1x1x1 : Shape := ⟨3, ![1, 1, 1]⟩

abbrev nBuf : Space → Nat
  | .hbm => 167
  | .vmem => 0
  | .smem => 0
  | _ => 0

abbrev hbmTy0_0 (i : Nat) : BufTy := match i % 128 with
  | 0 => ⟨S1024x1024, .f32⟩
  | 1 => ⟨S10004x1024, .f32⟩
  | 2 => ⟨S512x1024, .f32⟩
  | 3 => ⟨S10000x512, .f32⟩
  | 4 => ⟨S256x1024, .f32⟩
  | 5 => ⟨S20000x256, .f32⟩
  | 6 => ⟨S128x1024, .f32⟩
  | 7 => ⟨S40000x128, .f32⟩
  | 8 => ⟨S64x1024, .f32⟩
  | 9 => ⟨S20000x64, .f32⟩
  | 10 => ⟨S100000, .f32⟩
  | 11 => ⟨S1024x128, .i32⟩
  | 12 => ⟨S1024x128, .i1⟩
  | 13 => ⟨S1024x10004, .f32⟩
  | 14 => ⟨S1024x10004, .f32⟩
  | 15 => ⟨S_, .f32⟩
  | 16 => ⟨S1024, .f32⟩
  | 17 => ⟨S_, .f32⟩
  | 18 => ⟨S1024, .f32⟩
  | 19 => ⟨S1024, .f32⟩
  | 20 => ⟨S1024x1, .f32⟩
  | 21 => ⟨S1024x10004, .f32⟩
  | 22 => ⟨S1024x10004, .f32⟩
  | 23 => ⟨S1024x10004, .f32⟩
  | 24 => ⟨S_, .f32⟩
  | 25 => ⟨S1024, .f32⟩
  | 26 => ⟨S1024x1, .f32⟩
  | 27 => ⟨S1024x1, .f32⟩
  | 28 => ⟨S1024x10004, .f32⟩
  | 29 => ⟨S1024x10004, .f32⟩
  | 30 => ⟨S1024x10000, .f32⟩
  | 31 => ⟨S1024x512, .f32⟩
  | 32 => ⟨S1024x512, .f32⟩
  | 33 => ⟨S512x10000, .f32⟩
  | 34 => ⟨S1024x10000, .f32⟩
  | 35 => ⟨S_, .f32⟩
  | 36 => ⟨S1024, .f32⟩
  | 37 => ⟨S_, .f32⟩
  | 38 => ⟨S1024, .f32⟩
  | 39 => ⟨S1024, .f32⟩
  | 40 => ⟨S1024x1, .f32⟩
  | 41 => ⟨S1024x10000, .f32⟩
  | 42 => ⟨S1024x10000, .f32⟩
  | 43 => ⟨S1024x10000, .f32⟩
  | 44 => ⟨S_, .f32⟩
  | 45 => ⟨S1024, .f32⟩
  | 46 => ⟨S1024x1, .f32⟩
  | 47 => ⟨S1024x1, .f32⟩
  | 48 => ⟨S1024x10000, .f32⟩
  | 49 => ⟨S1024x10000, .f32⟩
  | 50 => ⟨S1024x1, .f32⟩
  | 51 => ⟨S1024x10000, .f32⟩
  | 52 => ⟨S1024x10000, .f32⟩
  | 53 => ⟨S1024x256, .f32⟩
  | 54 => ⟨S1024x256, .f32⟩
  | 55 => ⟨S256x20000, .f32⟩
  | 56 => ⟨S1024x20000, .f32⟩
  | 57 => ⟨S_, .f32⟩
  | 58 => ⟨S1024, .f32⟩
  | 59 => ⟨S_, .f32⟩
  | 60 => ⟨S1024, .f32⟩
  | 61 => ⟨S1024, .f32⟩
  | 62 => ⟨S1024x1, .f32⟩
  | 63 => ⟨S1024x20000, .f32⟩
  | 64 => ⟨S1024x20000, .f32⟩
  | 65 => ⟨S1024x20000, .f32⟩
  | 66 => ⟨S_, .f32⟩
  | 67 => ⟨S1024, .f32⟩
  | 68 => ⟨S1024x1, .f32⟩
  | 69 => ⟨S1024x1, .f32⟩
  | 70 => ⟨S1024x20000, .f32⟩
  | 71 => ⟨S1024x20000, .f32⟩
  | 72 => ⟨S1024x1, .f32⟩
  | 73 => ⟨S1024x20000, .f32⟩
  | 74 => ⟨S1024x20000, .f32⟩
  | 75 => ⟨S1024x128, .f32⟩
  | 76 => ⟨S1024x128, .f32⟩
  | 77 => ⟨S128x40000, .f32⟩
  | 78 => ⟨S1024x40000, .f32⟩
  | 79 => ⟨S_, .f32⟩
  | 80 => ⟨S1024, .f32⟩
  | 81 => ⟨S_, .f32⟩
  | 82 => ⟨S1024, .f32⟩
  | 83 => ⟨S1024, .f32⟩
  | 84 => ⟨S1024x1, .f32⟩
  | 85 => ⟨S1024x40000, .f32⟩
  | 86 => ⟨S1024x40000, .f32⟩
  | 87 => ⟨S1024x40000, .f32⟩
  | 88 => ⟨S_, .f32⟩
  | 89 => ⟨S1024, .f32⟩
  | 90 => ⟨S1024x1, .f32⟩
  | 91 => ⟨S1024x1, .f32⟩
  | 92 => ⟨S1024x40000, .f32⟩
  | 93 => ⟨S1024x40000, .f32⟩
  | 94 => ⟨S1024x1, .f32⟩
  | 95 => ⟨S1024x40000, .f32⟩
  | 96 => ⟨S1024x40000, .f32⟩
  | 97 => ⟨S1024x64, .f32⟩
  | 98 => ⟨S1024x64, .f32⟩
  | 99 => ⟨S64x20000, .f32⟩
  | 100 => ⟨S1024x20000, .f32⟩
  | 101 => ⟨S_, .f32⟩
  | 102 => ⟨S1024, .f32⟩
  | 103 => ⟨S_, .f32⟩
  | 104 => ⟨S1024, .f32⟩
  | 105 => ⟨S1024, .f32⟩
  | 106 => ⟨S1024x1, .f32⟩
  | 107 => ⟨S1024x20000, .f32⟩
  | 108 => ⟨S1024x20000, .f32⟩
  | 109 => ⟨S1024x20000, .f32⟩
  | 110 => ⟨S_, .f32⟩
  | 111 => ⟨S1024, .f32⟩
  | 112 => ⟨S1024x1, .f32⟩
  | 113 => ⟨S1024x1, .f32⟩
  | 114 => ⟨S1024x20000, .f32⟩
  | 115 => ⟨S1024x20000, .f32⟩
  | 116 => ⟨S1024x1, .f32⟩
  | 117 => ⟨S1024x20000, .f32⟩
  | 118 => ⟨S1024x20000, .f32⟩
  | 119 => ⟨S1024x100000, .f32⟩
  | 120 => ⟨S_, .i32⟩
  | 121 => ⟨S1024x128, .i32⟩
  | 122 => ⟨S1024x128, .i1⟩
  | 123 => ⟨S_, .i32⟩
  | 124 => ⟨S1024x128, .i32⟩
  | 125 => ⟨S1024x128, .i32⟩
  | 126 => ⟨S1024x128, .i32⟩
  | 127 => ⟨S1024x128x1, .i32⟩
  | _ => ⟨S1024x1024, .f32⟩

abbrev hbmTy0_1 (i : Nat) : BufTy := match i % 128 with
  | 0 => ⟨S1, .i32⟩
  | 1 => ⟨S_, .i32⟩
  | 2 => ⟨S1024x128x1, .i32⟩
  | 3 => ⟨S1024x128x1, .i1⟩
  | 4 => ⟨S1x1x1, .i32⟩
  | 5 => ⟨S1024x128x1, .i32⟩
  | 6 => ⟨S1024x128x1, .i1⟩
  | 7 => ⟨S1024x128x1, .i1⟩
  | 8 => ⟨S_, .i1⟩
  | 9 => ⟨S1024x128, .i1⟩
  | 10 => ⟨S1024x128, .f32⟩
  | 11 => ⟨S_, .f32⟩
  | 12 => ⟨S1024x128, .f32⟩
  | 13 => ⟨S1024x128, .f32⟩
  | 14 => ⟨S_, .i32⟩
  | 15 => ⟨S1024x128, .i32⟩
  | 16 => ⟨S1024x128, .i1⟩
  | 17 => ⟨S_, .i32⟩
  | 18 => ⟨S1024x128, .i32⟩
  | 19 => ⟨S1024x128, .i32⟩
  | 20 => ⟨S1024x128, .i32⟩
  | 21 => ⟨S1024x128x1, .i32⟩
  | 22 => ⟨S1024x128, .f32⟩
  | 23 => ⟨S_, .f32⟩
  | 24 => ⟨S1024x128, .f32⟩
  | 25 => ⟨S1024x128, .f32⟩
  | 26 => ⟨S1024x128, .f32⟩
  | 27 => ⟨S1024x128, .f32⟩
  | 28 => ⟨S1024x128, .f32⟩
  | 29 => ⟨S1024x128, .f32⟩
  | 30 => ⟨S_, .f32⟩
  | 31 => ⟨S1024, .f32⟩
  | 32 => ⟨S_, .f32⟩
  | 33 => ⟨S1024, .f32⟩
  | 34 => ⟨S1024, .f32⟩
  | 35 => ⟨S_, .f32⟩
  | 36 => ⟨S_, .f32⟩
  | 37 => ⟨S_, .f32⟩
  | 38 => ⟨S_, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_call0_cst : Ref sig .tc := ⟨.hbm, 15, rfl⟩
abbrev main_call0_v0 : Ref sig .tc := ⟨.hbm, 16, rfl⟩
abbrev main_call0_cst_0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_cst_1 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_call1_cst : Ref sig .tc := ⟨.hbm, 35, rfl⟩
abbrev main_call1_v0 : Ref sig .tc := ⟨.hbm, 36, rfl⟩
abbrev main_call1_cst_0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_cst_1 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_call2_cst : Ref sig .tc := ⟨.hbm, 57, rfl⟩
abbrev main_call2_v0 : Ref sig .tc := ⟨.hbm, 58, rfl⟩
abbrev main_call2_cst_0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_cst_1 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_call3_cst : Ref sig .tc := ⟨.hbm, 79, rfl⟩
abbrev main_call3_v0 : Ref sig .tc := ⟨.hbm, 80, rfl⟩
abbrev main_call3_cst_0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_cst_1 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_call4_cst : Ref sig .tc := ⟨.hbm, 101, rfl⟩
abbrev main_call4_v0 : Ref sig .tc := ⟨.hbm, 102, rfl⟩
abbrev main_call4_cst_0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_v6 : Ref sig .tc := ⟨.hbm, 109, rfl⟩
abbrev main_call4_cst_1 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_call5_c : Ref sig .tc := ⟨.hbm, 120, rfl⟩
abbrev main_call5_v0 : Ref sig .tc := ⟨.hbm, 121, rfl⟩
abbrev main_call5_v1 : Ref sig .tc := ⟨.hbm, 122, rfl⟩
abbrev main_call5_c_0 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_c_1 : Ref sig .tc := ⟨.hbm, 128, rfl⟩
abbrev main_call5_c_2 : Ref sig .tc := ⟨.hbm, 129, rfl⟩
abbrev main_call5_v6 : Ref sig .tc := ⟨.hbm, 130, rfl⟩
abbrev main_call5_v7 : Ref sig .tc := ⟨.hbm, 131, rfl⟩
abbrev main_call5_v8 : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_c_3 : Ref sig .tc := ⟨.hbm, 136, rfl⟩
abbrev main_call5_v12 : Ref sig .tc := ⟨.hbm, 137, rfl⟩
abbrev main_call5_v13 : Ref sig .tc := ⟨.hbm, 138, rfl⟩
abbrev main_call5_cst : Ref sig .tc := ⟨.hbm, 139, rfl⟩
abbrev main_call5_v14 : Ref sig .tc := ⟨.hbm, 140, rfl⟩
abbrev main_v37 : Ref sig .tc := ⟨.hbm, 141, rfl⟩
abbrev main_c : Ref sig .tc := ⟨.hbm, 142, rfl⟩
abbrev main_v38 : Ref sig .tc := ⟨.hbm, 143, rfl⟩
abbrev main_v39 : Ref sig .tc := ⟨.hbm, 144, rfl⟩
abbrev main_c_0 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_cst : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_v49 : Ref sig .tc := ⟨.hbm, 156, rfl⟩
abbrev main_v50 : Ref sig .tc := ⟨.hbm, 157, rfl⟩
abbrev main_cst_1 : Ref sig .tc := ⟨.hbm, 158, rfl⟩
abbrev main_v51 : Ref sig .tc := ⟨.hbm, 159, rfl⟩
abbrev main_cst_2 : Ref sig .tc := ⟨.hbm, 160, rfl⟩
abbrev main_v52 : Ref sig .tc := ⟨.hbm, 161, rfl⟩
abbrev main_v53 : Ref sig .tc := ⟨.hbm, 162, rfl⟩
abbrev main_cst_3 : Ref sig .tc := ⟨.hbm, 163, rfl⟩
abbrev main_v54 : Ref sig .tc := ⟨.hbm, 164, rfl⟩
abbrev main_cst_4 : Ref sig .tc := ⟨.hbm, 165, rfl⟩
abbrev main_v55 : Ref sig .tc := ⟨.hbm, 166, rfl⟩

abbrev nD : Nat := 1
abbrev τ : Topo := Topo.v7x

variable {F : FTy → Type} [FloatOps F]

class Facts₀ : Prop where
  transposes_S10004x1024_S1024x10004_1_0 : S10004x1024.Transposes [1, 0] S1024x10004
  reducesTo_S1024x10004_S1024_d1 : S1024x10004.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x10004_0_1 : S1024x1.BroadcastsInDim S1024x10004 (![0, 1] : Fin 2 → Fin S1024x10004.rank)
  slices_S1024x10004_S1024x10000_0_0 : S1024x10004.Slices ![0, 0] S1024x10000
  transposes_S512x1024_S1024x512_1_0 : S512x1024.Transposes [1, 0] S1024x512
  transposes_S10000x512_S512x10000_1_0 : S10000x512.Transposes [1, 0] S512x10000
  reducesTo_S1024x10000_S1024_d1 : S1024x10000.ReducesTo [1] S1024
  bcast_S1024x1_S1024x10000_0_1 : S1024x1.BroadcastsInDim S1024x10000 (![0, 1] : Fin 2 → Fin S1024x10000.rank)
  slices_S1024x10004_S1024x1_0_10000 : S1024x10004.Slices ![0, 10000] S1024x1
  transposes_S256x1024_S1024x256_1_0 : S256x1024.Transposes [1, 0] S1024x256
  transposes_S20000x256_S256x20000_1_0 : S20000x256.Transposes [1, 0] S256x20000
  reducesTo_S1024x20000_S1024_d1 : S1024x20000.ReducesTo [1] S1024
  bcast_S1024x1_S1024x20000_0_1 : S1024x1.BroadcastsInDim S1024x20000 (![0, 1] : Fin 2 → Fin S1024x20000.rank)
  slices_S1024x10004_S1024x1_0_10001 : S1024x10004.Slices ![0, 10001] S1024x1
  transposes_S128x1024_S1024x128_1_0 : S128x1024.Transposes [1, 0] S1024x128
  transposes_S40000x128_S128x40000_1_0 : S40000x128.Transposes [1, 0] S128x40000
  reducesTo_S1024x40000_S1024_d1 : S1024x40000.ReducesTo [1] S1024
  bcast_S1024x1_S1024x40000_0_1 : S1024x1.BroadcastsInDim S1024x40000 (![0, 1] : Fin 2 → Fin S1024x40000.rank)
  slices_S1024x10004_S1024x1_0_10002 : S1024x10004.Slices ![0, 10002] S1024x1
  transposes_S64x1024_S1024x64_1_0 : S64x1024.Transposes [1, 0] S1024x64
  transposes_S20000x64_S64x20000_1_0 : S20000x64.Transposes [1, 0] S64x20000
  slices_S1024x10004_S1024x1_0_10003 : S1024x10004.Slices ![0, 10003] S1024x1
  concatenates_S1024x10000_S1024x10000_S1024x20000_S1024x40000_S1024x20000_S1024x100000_d1 : Shape.Concatenates [S1024x10000, S1024x10000, S1024x20000, S1024x40000, S1024x20000] S1024x100000 1
  bcast_S_S1024x128 : S_.BroadcastsInDim S1024x128 (![] : Fin 0 → Fin S1024x128.rank)
  shapeCasts_S1024x128_S1024x128x1 : S1024x128.ShapeCasts S1024x128x1
  bcast_S_S1024x128x1 : S_.BroadcastsInDim S1024x128x1 (![] : Fin 0 → Fin S1024x128x1.rank)
  bcast_S1_S1x1x1_2 : S1.BroadcastsInDim S1x1x1 (![2] : Fin 1 → Fin S1x1x1.rank)
  bcast_S1x1x1_S1024x128x1_0_1_2 : S1x1x1.BroadcastsInDim S1024x128x1 (![0, 1, 2] : Fin 3 → Fin S1024x128x1.rank)
  reducesTo_S1024x128x1_S1024x128_d2 : S1024x128x1.ReducesTo [2] S1024x128
  bcast_S1024x128_S1024x128x1_0_1 : S1024x128.BroadcastsInDim S1024x128x1 (![0, 1] : Fin 2 → Fin S1024x128x1.rank)
  reducesTo_S1024x128_S1024_d1 : S1024x128.ReducesTo [1] S1024
  reducesTo_S1024_S_d0 : S1024.ReducesTo [0] S_
  dot_S1024x1024_S1024x10004_S1024x10004_1_0_0_1_n_n_wf : DotDims.WF S1024x1024 S1024x10004 S1024x10004 [1] [0] [0] [1] [] []
  dot_S1024x1024_S1024x512_S1024x512_1_0_0_1_n_n_wf : DotDims.WF S1024x1024 S1024x512 S1024x512 [1] [0] [0] [1] [] []
  dot_S1024x512_S512x10000_S1024x10000_1_0_0_1_n_n_wf : DotDims.WF S1024x512 S512x10000 S1024x10000 [1] [0] [0] [1] [] []
  dot_S1024x1024_S1024x256_S1024x256_1_0_0_1_n_n_wf : DotDims.WF S1024x1024 S1024x256 S1024x256 [1] [0] [0] [1] [] []
  dot_S1024x256_S256x20000_S1024x20000_1_0_0_1_n_n_wf : DotDims.WF S1024x256 S256x20000 S1024x20000 [1] [0] [0] [1] [] []
  dot_S1024x1024_S1024x128_S1024x128_1_0_0_1_n_n_wf : DotDims.WF S1024x1024 S1024x128 S1024x128 [1] [0] [0] [1] [] []
  dot_S1024x128_S128x40000_S1024x40000_1_0_0_1_n_n_wf : DotDims.WF S1024x128 S128x40000 S1024x40000 [1] [0] [0] [1] [] []
  dot_S1024x1024_S1024x64_S1024x64_1_0_0_1_n_n_wf : DotDims.WF S1024x1024 S1024x64 S1024x64 [1] [0] [0] [1] [] []
  dot_S1024x64_S64x20000_S1024x20000_1_0_0_1_n_n_wf : DotDims.WF S1024x64 S64x20000 S1024x20000 [1] [0] [0] [1] [] []
  gather_S1024x100000_S1024x128x1_S1024x128_n_1_0_0_1_2_11_wf : GatherDims.WF S1024x100000 S1024x128x1 S1024x128 [] [1] [0] [1] [0] 2 ![1, 1]
  gather_S100000_S1024x128x1_S1024x128_n_0_n_n_0_2_1_wf : GatherDims.WF S100000 S1024x128x1 S1024x128 [] [0] [] [0] [] 2 ![1]

variable [Facts₀]

def dot_S1024x1024_S1024x10004_S1024x10004_1_0_0_1_n_n : DotDims S1024x1024 S1024x10004 S1024x10004 where
  lhsContracting := [1]
  rhsContracting := [0]
  lhsNonContracting := [0]
  rhsNonContracting := [1]
  lhsBatch := []
  rhsBatch := []
  wf := dot_S1024x1024_S1024x10004_S1024x10004_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x10000_S1024x10000_1_0_0_1_n_n : DotDims S1024x512 S512x10000 S1024x10000 where
  lhsContracting := [1]
  rhsContracting := [0]
  lhsNonContracting := [0]
  rhsNonContracting := [1]
  lhsBatch := []
  rhsBatch := []
  wf := dot_S1024x512_S512x10000_S1024x10000_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x20000_S1024x20000_1_0_0_1_n_n : DotDims S1024x256 S256x20000 S1024x20000 where
  lhsContracting := [1]
  rhsContracting := [0]
  lhsNonContracting := [0]
  rhsNonContracting := [1]
  lhsBatch := []
  rhsBatch := []
  wf := dot_S1024x256_S256x20000_S1024x20000_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x40000_S1024x40000_1_0_0_1_n_n : DotDims S1024x128 S128x40000 S1024x40000 where
  lhsContracting := [1]
  rhsContracting := [0]
  lhsNonContracting := [0]
  rhsNonContracting := [1]
  lhsBatch := []
  rhsBatch := []
  wf := dot_S1024x128_S128x40000_S1024x40000_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x20000_S1024x20000_1_0_0_1_n_n : DotDims S1024x64 S64x20000 S1024x20000 where
  lhsContracting := [1]
  rhsContracting := [0]
  lhsNonContracting := [0]
  rhsNonContracting := [1]
  lhsBatch := []
  rhsBatch := []
  wf := dot_S1024x64_S64x20000_S1024x20000_1_0_0_1_n_n_wf
def gather_S1024x100000_S1024x128x1_S1024x128_n_1_0_0_1_2_11 : GatherDims S1024x100000 S1024x128x1 S1024x128 where
  offsetDims := []
  collapsedSliceDims := [1]
  operandBatchingDims := [0]
  startIndicesBatchingDims := [0]
  startIndexMap := [1]
  indexVectorDim := 2
  sliceSizes := ![1, 1]
  wf := gather_S1024x100000_S1024x128x1_S1024x128_n_1_0_0_1_2_11_wf
def gather_S100000_S1024x128x1_S1024x128_n_0_n_n_0_2_1 : GatherDims S100000 S1024x128x1 S1024x128 where
  offsetDims := []
  collapsedSliceDims := [0]
  operandBatchingDims := []
  startIndicesBatchingDims := []
  startIndexMap := [0]
  indexVectorDim := 2
  sliceSizes := ![1]
  wf := gather_S100000_S1024x128x1_S1024x128_n_0_n_n_0_2_1_wf

class Facts : Prop extends Facts₀ where

variable [Facts]
-- ==== Proof.Spec.lean ====
/-
  The mathematics both programs compute, on the extended reals.

  A row's log-softmax is  lsm z j = (z j − M) − log (Σ_k exp (z k − M))  with  M = max_k z k  (−∞ for an empty row).
  The head scores row b of the features against every row of the head weights; cluster i scores the projected
  features (a hidden vector of H_i entries) against every row of its output weights, and adds the head's
  log-probability of the cluster's own column.  Sums over a contracted axis are finite sums, whose value does not depend
  on the order or grouping in which a program takes them.
-/
import Idealize.ShloMosaic.PureOps.Ideal.Laws
import Idealize.ShloMosaic.Lib.ValueIdx

noncomputable section

open Idealize.ShloMosaic Idealize.ShloMosaic.ValueIdx

namespace Cert.Spec

/-- A rank-2 array of extended reals of the given extents. -/
abbrev Arr (a b : Nat) : Type := (⟨2, ![a, b]⟩ : Shape).Idx → EReal

/-- The largest entry of a finite family of extended reals (−∞ when the family is empty). -/
def rowMax {n : Nat} (z : Fin n → EReal) : EReal := (Finset.univ : Finset (Fin n)).fold max ⊥ z

/-- Log-softmax of a finite family at the entry j. -/
def lsm {n : Nat} (z : Fin n → EReal) (j : Fin n) : EReal :=
  (z j - rowMax z) - Ideal.log (∑ k : Fin n, Ideal.exp (z k - rowMax z))

/-- Row b of x against row j of w: the sum over the shared axis of the products. -/
def dotRows {B D N : Nat} (x : Arr B D) (w : Arr N D) (b : Fin B) (j : Fin N) : EReal :=
  ∑ k : Fin D, x (ix2 b k) * w (ix2 j k)

/-- The head's log-probability of column j for sample b. -/
def headLpAt (x : Arr 1024 1024) (hw : Arr 10004 1024) (b : Fin 1024) (j : Fin 10004) : EReal :=
  lsm (dotRows x hw b) j

/-- A cluster's score of its entry j for sample b: the hidden vector (features against the projection's rows)
    against row j of the output weights. -/
def clusterLogit {H N : Nat} (x : Arr 1024 1024) (p : Arr H 1024) (o : Arr N H) (b : Fin 1024) (j : Fin N) : EReal :=
  ∑ h : Fin H, dotRows x p b h * o (ix2 j h)

/-- A cluster's log-probability of its entry j for sample b: the log-softmax of the cluster's scores plus the head's
    log-probability of the cluster's column. -/
def clusterLpAt {H N : Nat} (col : Fin 10004) (x : Arr 1024 1024) (hw : Arr 10004 1024) (p : Arr H 1024) (o : Arr N H)
    (b : Fin 1024) (j : Fin N) : EReal :=
  lsm (clusterLogit x p o b) j + headLpAt x hw b col

/-- The shortlist's log-probabilities: the head's first 10000 columns. -/
def shortlistLp (x : Arr 1024 1024) (hw : Arr 10004 1024) : Arr 1024 10000 :=
  fun i => headLpAt x hw (i 0) ⟨(i 1).val, Nat.lt_of_lt_of_le (i 1).isLt (by decide)⟩

/-- A cluster's log-probabilities as an array. -/
def clusterLp {H N : Nat} (col : Fin 10004) (x : Arr 1024 1024) (hw : Arr 10004 1024) (p : Arr H 1024) (o : Arr N H) :
    Arr 1024 N :=
  fun i => clusterLpAt col x hw p o (i 0) (i 1)

/-- The log-probability of vocabulary entry v for sample b, read from the five arrays: the shortlist holds the
    entries below 10000, the four clusters the ranges [10000, 20000), [20000, 40000), [40000, 80000) and
    [80000, 100000), each at the entry's offset inside its range; 0 beyond the vocabulary. -/
def pick (A0 : Arr 1024 10000) (A1 : Arr 1024 10000) (A2 : Arr 1024 20000) (A3 : Arr 1024 40000) (A4 : Arr 1024 20000)
    (b : Fin 1024) (v : Nat) : EReal :=
  if h0 : v < 10000 then A0 (ix2 b ⟨v, h0⟩)
  else if h1 : v < 20000 then A1 (ix2 b ⟨v - 10000, by omega⟩)
  else if h2 : v < 40000 then A2 (ix2 b ⟨v - 20000, by omega⟩)
  else if h3 : v < 80000 then A3 (ix2 b ⟨v - 40000, by omega⟩)
  else if h4 : v < 100000 then A4 (ix2 b ⟨v - 80000, by omega⟩)
  else 0

/-- The word of −∞ denotes −∞. -/
theorem ofBits_neg_inf : Ideal.ofBits .f32 0xFF800000#32 = (⊥ : EReal) := by
  simp [Ideal.ofBits, Ideal.ieee]

/-- The maximum of −∞ and a value is the value. -/
theorem max_bot_left' (a : EReal) : max (⊥ : EReal) a = a := max_bot_left a

end Cert.Spec

end
-- ==== Proof.SpecLp.lean ====
/-
  The log-probability the loss reads, as one array over the token positions.

  For sample b and position s the target word, read as a natural number v, names a vocabulary entry; the entry's
  log-probability is picked from the five arrays (the shortlist for v below 10000, then the four clusters' ranges, each
  at v's offset inside its range).
-/
import proofs.«404181_j77000173683136_1_alg».proof.Proof.Spec

noncomputable section

open Idealize.ShloMosaic Idealize.ShloMosaic.ValueIdx

namespace Cert.Spec

/-- The picked log-probability at every token position: row i 0 of the five arrays at the target word t i. -/
def lpSpec (x : Arr 1024 1024) (hw : Arr 10004 1024) (p0 : Arr 512 1024) (o0 : Arr 10000 512) (p1 : Arr 256 1024) (o1 : Arr 20000 256) (p2 : Arr 128 1024) (o2 : Arr 40000 128) (p3 : Arr 64 1024) (o3 : Arr 20000 64) (t : (⟨2, ![1024, 128]⟩ : Shape).Idx → BitVec 32) : (⟨2, ![1024, 128]⟩ : Shape).Idx → EReal :=
  fun i => pick (shortlistLp x hw) (clusterLp (⟨10000, by decide⟩ : Fin 10004) x hw p0 o0) (clusterLp (⟨10001, by decide⟩ : Fin 10004) x hw p1 o1) (clusterLp (⟨10002, by decide⟩ : Fin 10004) x hw p2 o2) (clusterLp (⟨10003, by decide⟩ : Fin 10004) x hw p3 o3) (i 0) (t i).toNat

end Cert.Spec

end
-- ==== Proof.KTailDef.lean ====
import proofs.«404181_j77000173683136_1_alg».proof.KernelIdeal

/-! # The tail of the kernel program as one pure function

After the five row-log-probability arrays are computed, the program picks, for every token, the entry of the
array of the segment its target falls in, and averages the negated picks under a weight.  The functions below are
that computation written once over arbitrary argument arrays: each mirrors one group of the program's host
operations literally (the same shape records, the same constants, the same argument order).

* `clipT lo hi x`: `min (hi, max (lo, x))`, both bounds broadcast from a scalar.
* `wrap n x`: a negative index has `n` added to it; the result is laid out as `[1024,128,1]`.
* `inb k y`: the mask `0 ≤ y ≤ k`, reduced by conjunction over the unit axis.
* `take0 / take1 / take2 A x`: the entry `A[b, x[b,s]]` of an array of 10000 / 20000 / 40000 columns where the
  wrapped index is in bounds, the quiet-NaN word elsewhere.
* `inRange lo hi t`: the mask `lo ≤ t < hi`.
* `lp`: five rounds, one per segment `[lo, hi)` of the vocabulary: where the target is in the segment the
  entry taken at `clip (t − lo, 0, size − 1)` replaces the running value, which starts as zeros.
* `loss`: with `w = (1 − d[t']) · mk` (`t'` the target with negatives wrapped by 100000),
  `(Σ_b (Σ_s (−lp · w)) / (Σ_s w)) / 1024`. -/

noncomputable section

namespace Cert.KernelIdeal.Tail

open Idealize.ShloMosaic

variable [Facts₀]
open Facts₀

variable {F : FTy → Type} [FloatOps F]

/-- A scalar integer constant broadcast over `[1024,128]`. -/
def bcI (v : BitVec 32) : IVec S1024x128 32 :=
  broadcastInDim S1024x128 ![] bcast_S_S1024x128 (constantI S_ 32 v)

/-- A scalar float word broadcast over `[1024,128]`. -/
def bcF (v : BitVec 32) : FVec F S1024x128 .f32 :=
  broadcastInDim S1024x128 ![] bcast_S_S1024x128 (constant (F := F) S_ .f32 v)

/-- `min (hi, max (lo, x))` entry by entry. -/
def clipT (lo hi : BitVec 32) (x : IVec S1024x128 32) : IVec S1024x128 32 :=
  minsi (bcI hi) (maxsi (bcI lo) x)

/-- Negative indices wrapped by `n`, as a `[1024,128,1]` array of start indices. -/
def wrap (n : BitVec 32) (x : IVec S1024x128 32) : IVec S1024x128x1 32 :=
  shapeCast S1024x128x1 (select (cmpi .slt x (bcI 0#32)) (addi x (bcI n)) x) shapeCasts_S1024x128_S1024x128x1

/-- The mask `0 ≤ y ≤ k`, reduced by conjunction over the unit axis. -/
def inb (k : BitVec 32) (y : IVec S1024x128x1 32) : IVec S1024x128 1 :=
  Host.reduce IntOp.andi
    (andi (cmpi .sge y (broadcastInDim S1024x128x1 ![] bcast_S_S1024x128x1 (constantI S_ 32 0#32)))
      (cmpi .sle y (broadcastInDim S1024x128x1 ![0, 1, 2] bcast_S1x1x1_S1024x128x1_0_1_2
        (broadcastInDim S1x1x1 ![2] bcast_S1_S1x1x1_2 (constantI S1 32 k)))))
    (constantI S_ 1 1#1) reducesTo_S1024x128x1_S1024x128_d2 h_S_

/-- `A[b, x[b,s]]` for an array of 10000 columns; the quiet-NaN word where the wrapped index is out of bounds. -/
def take0 (A : FVec F S1024x10000 .f32) (x : IVec S1024x128 32) : FVec F S1024x128 .f32 :=
  select (inb 9999#32 (wrap 10000#32 x))
    (Host.gather gather_S1024x10000_S1024x128x1_S1024x128_n_1_0_0_1_2_11 A (wrap 10000#32 x))
    (bcF 0x7FC00000#32)

/-- The same for an array of 20000 columns. -/
def take1 (A : FVec F S1024x20000 .f32) (x : IVec S1024x128 32) : FVec F S1024x128 .f32 :=
  select (inb 19999#32 (wrap 20000#32 x))
    (Host.gather gather_S1024x20000_S1024x128x1_S1024x128_n_1_0_0_1_2_11 A (wrap 20000#32 x))
    (bcF 0x7FC00000#32)

/-- The same for an array of 40000 columns. -/
def take2 (A : FVec F S1024x40000 .f32) (x : IVec S1024x128 32) : FVec F S1024x128 .f32 :=
  select (inb 39999#32 (wrap 40000#32 x))
    (Host.gather gather_S1024x40000_S1024x128x1_S1024x128_n_1_0_0_1_2_11 A (wrap 40000#32 x))
    (bcF 0x7FC00000#32)

/-- The mask `lo ≤ t < hi`. -/
def inRange (lo hi : BitVec 32) (t : IVec S1024x128 32) : IVec S1024x128 1 :=
  andi (cmpi .sge t (bcI lo)) (cmpi .slt t (bcI hi))

/-- The index inside a segment starting at `lo` with last column `k`: `clip (t − lo, 0, k)`. -/
def segIdx (lo k : BitVec 32) (t : IVec S1024x128 32) : IVec S1024x128 32 :=
  clipT 0#32 k (subi t (bcI lo))

/-- One round over a segment held in an array of 10000 columns. -/
def round0 (A : FVec F S1024x10000 .f32) (lo hi k : BitVec 32) (t : IVec S1024x128 32)
    (prev : FVec F S1024x128 .f32) : FVec F S1024x128 .f32 :=
  select (inRange lo hi t) (take0 A (segIdx lo k t)) prev

/-- One round over a segment held in an array of 20000 columns. -/
def round1 (A : FVec F S1024x20000 .f32) (lo hi k : BitVec 32) (t : IVec S1024x128 32)
    (prev : FVec F S1024x128 .f32) : FVec F S1024x128 .f32 :=
  select (inRange lo hi t) (take1 A (segIdx lo k t)) prev

/-- One round over a segment held in an array of 40000 columns. -/
def round2 (A : FVec F S1024x40000 .f32) (lo hi k : BitVec 32) (t : IVec S1024x128 32)
    (prev : FVec F S1024x128 .f32) : FVec F S1024x128 .f32 :=
  select (inRange lo hi t) (take2 A (segIdx lo k t)) prev

/-- The target's log-probability: the five rounds over the segments
    `[0,10000)`, `[10000,20000)`, `[20000,40000)`, `[40000,80000)`, `[80000,100000)`, from the zero array. -/
def lp (A0 : FVec F S1024x10000 .f32) (A1 : FVec F S1024x10000 .f32) (A2 : FVec F S1024x20000 .f32)
    (A3 : FVec F S1024x40000 .f32) (A4 : FVec F S1024x20000 .f32) (t : IVec S1024x128 32) : FVec F S1024x128 .f32 :=
  round1 A4 80000#32 100000#32 19999#32 t
    (round2 A3 40000#32 80000#32 39999#32 t
      (round1 A2 20000#32 40000#32 19999#32 t
        (round0 A1 10000#32 20000#32 9999#32 t
          (round0 A0 0#32 10000#32 9999#32 t (bcF 0x00000000#32)))))

/-- The weight `(1 − d[t']) · mk`, `t'` the target with negatives wrapped by 100000. -/
def weight (d : FVec F S100000 .f32) (t : IVec S1024x128 32) (mk : IVec S1024x128 1) : FVec F S1024x128 .f32 :=
  mulf
    (subf (bcF 0x3F800000#32)
      (Host.gather gather_S100000_S1024x128x1_S1024x128_n_0_n_n_0_2_1 d
        (broadcastInDim S1024x128x1 ![0, 1] bcast_S1024x128_S1024x128x1_0_1
          (select (cmpi .slt t (bcI 0#32)) (addi t (bcI 100000#32)) t))))
    (uitofp .f32 mk)

/-- The weighted mean of the negated log-probabilities per row, then the mean over the 1024 rows. -/
def loss (lpv : FVec F S1024x128 .f32) (d : FVec F S100000 .f32) (t : IVec S1024x128 32) (mk : IVec S1024x128 1) :
    FVec F S_ .f32 :=
  Host.divf
    (Host.reduceAdd
      (Host.divf
        (Host.reduceAdd (mulf (Host.negf lpv) (weight d t mk)) (constant (F := F) S_ .f32 0x00000000#32)
          reducesTo_S1024x128_S1024_d1 h_S_)
        (Host.reduceAdd (weight d t mk) (constant (F := F) S_ .f32 0x00000000#32)
          reducesTo_S1024x128_S1024_d1 h_S_))
      (constant (F := F) S_ .f32 0x00000000#32) reducesTo_S1024_S_d0 h_S_)
    (constant (F := F) S_ .f32 0x44800000#32)

end Cert.KernelIdeal.Tail
-- ==== Proof.KTail.lean ====
import proofs.«404181_j77000173683136_1_alg».proof.Proof.Gen.KernelIdeal.Frame
import proofs.«404181_j77000173683136_1_alg».proof.Proof.KTailDef

/-! # The first three rounds of the program's tail

The host operations after the last region are run stretch by stretch from the buffer contents at the last
region's exit.  Five consecutive stretches make one round over a segment of the vocabulary: subtract the
segment's start, clip to the segment's width, take the entry along the row, test the target against the
segment's bounds, and select.  Each round below is read off the fold of its five stretches as one application of
`Tail.round0` / `Tail.round1` to the arrays the round finds; the arrays a round reads and no earlier stretch
writes are carried back to the contents at the region's exit. -/

set_option maxRecDepth 16384

noncomputable section

namespace Cert.KernelIdeal.TailRun

open Idealize.ShloMosaic Idealize.ShloMosaic.TcCoe
open Idealize.SL.Sem
open Cert.KernelIdeal.Gen

variable {F : FTy → Type} [FloatOps F]
variable (m : (ℓ : Loc nD τ sig) → Buf (Elt F) ℓ) (ρ : Dev nD → PrngReg)

/-- The fold of the stretches of round 1 (segment `[0,10000)`) from given contents. -/
abbrev fold1 (V : Valuation τ sig (Elt F)) : Valuation τ sig (Elt F) :=
  StableHlo.after hostOps5_4 (StableHlo.after hostOps5_3 (StableHlo.after hostOps5_2
    (StableHlo.after hostOps5_1 (StableHlo.after hostOps5 V))))

/-- The fold of the stretches of round 2 (segment `[10000,20000)`). -/
abbrev fold2 (V : Valuation τ sig (Elt F)) : Valuation τ sig (Elt F) :=
  StableHlo.after hostOps5_9 (StableHlo.after hostOps5_8 (StableHlo.after hostOps5_7
    (StableHlo.after hostOps5_6 (StableHlo.after hostOps5_5 V))))

/-- The fold of the stretches of round 3 (segment `[20000,40000)`). -/
abbrev fold3 (V : Valuation τ sig (Elt F)) : Valuation τ sig (Elt F) :=
  StableHlo.after hostOps5_14 (StableHlo.after hostOps5_13 (StableHlo.after hostOps5_12
    (StableHlo.after hostOps5_11 (StableHlo.after hostOps5_10 V))))

theorem W15_eq (c : Dev nD) : W15 m ρ c = fold1 (W10 m ρ c) := rfl
theorem W20_eq (c : Dev nD) : W20 m ρ c = fold2 (W15 m ρ c) := rfl
theorem W25_eq (c : Dev nD) : W25 m ρ c = fold3 (W20 m ρ c) := rfl

/-! ## What each round computes, from arbitrary contents -/

/-- Round 1: the entry of the `[1024,10000]` array `main_v4` where the target is below 10000, zero elsewhere. -/
theorem round1_val (V : Valuation τ sig (Elt F)) : fold1 V (Proc.devRef .tc main_v39)
    = Tail.round0 (V (Proc.devRef .tc main_v4)) 0#32 10000#32 9999#32 (V (Proc.devRef .tc main_arg11))
        (Tail.bcF 0x00000000#32) := by
  dsimp only [fold1]
  after_results_simp
  simp only [StableHlo.TRef.ofBuf, StableHlo.TRef.toBuf, cast_eq, id_eq]
  rfl

/-- Round 2: the entry of the `[1024,10000]` array `main_v13` where the target is in `[10000,20000)`. -/
theorem round2_val (V : Valuation τ sig (Elt F)) : fold2 V (Proc.devRef .tc main_v49)
    = Tail.round0 (V (Proc.devRef .tc main_v13)) 10000#32 20000#32 9999#32 (V (Proc.devRef .tc main_arg11))
        (V (Proc.devRef .tc main_v39)) := by
  dsimp only [fold2]
  after_results_simp
  simp only [StableHlo.TRef.ofBuf, StableHlo.TRef.toBuf, cast_eq, id_eq]
  rfl

/-- Round 3: the entry of the `[1024,20000]` array `main_v18` where the target is in `[20000,40000)`. -/
theorem round3_val (V : Valuation τ sig (Elt F)) : fold3 V (Proc.devRef .tc main_v59)
    = Tail.round1 (V (Proc.devRef .tc main_v18)) 20000#32 40000#32 19999#32 (V (Proc.devRef .tc main_arg11))
        (V (Proc.devRef .tc main_v49)) := by
  dsimp only [fold3]
  after_results_simp
  simp only [StableHlo.TRef.ofBuf, StableHlo.TRef.toBuf, cast_eq, id_eq]
  rfl

/-! ## The arrays no stretch of a round writes -/

theorem fold1_arg11 (V : Valuation τ sig (Elt F)) :
    fold1 V (Proc.devRef .tc main_arg11) = V (Proc.devRef .tc main_arg11) := by
  dsimp only [fold1]; after_results_simp
theorem fold1_v13 (V : Valuation τ sig (Elt F)) :
    fold1 V (Proc.devRef .tc main_v13) = V (Proc.devRef .tc main_v13) := by
  dsimp only [fold1]; after_results_simp
theorem fold1_v18 (V : Valuation τ sig (Elt F)) :
    fold1 V (Proc.devRef .tc main_v18) = V (Proc.devRef .tc main_v18) := by
  dsimp only [fold1]; after_results_simp
theorem fold2_arg11 (V : Valuation τ sig (Elt F)) :
    fold2 V (Proc.devRef .tc main_arg11) = V (Proc.devRef .tc main_arg11) := by
  dsimp only [fold2]; after_results_simp
theorem fold2_v18 (V : Valuation τ sig (Elt F)) :
    fold2 V (Proc.devRef .tc main_v18) = V (Proc.devRef .tc main_v18) := by
  dsimp only [fold2]; after_results_simp

/-! ## The three rounds composed -/

/-- After the third round the running value is the three rounds applied to the zero array, every array read
    at the last region's exit. -/
theorem v59 (c : Dev nD) : W25 m ρ c (Proc.devRef .tc main_v59)
    = Tail.round1 (W10 m ρ c (Proc.devRef .tc main_v18)) 20000#32 40000#32 19999#32 (W10 m ρ c (Proc.devRef .tc main_arg11))
        (Tail.round0 (W10 m ρ c (Proc.devRef .tc main_v13)) 10000#32 20000#32 9999#32 (W10 m ρ c (Proc.devRef .tc main_arg11))
          (Tail.round0 (W10 m ρ c (Proc.devRef .tc main_v4)) 0#32 10000#32 9999#32 (W10 m ρ c (Proc.devRef .tc main_arg11))
            (Tail.bcF 0x00000000#32))) := by
  rw [W25_eq, round3_val, W20_eq, round2_val, fold2_v18, fold2_arg11, W15_eq, round1_val, fold1_v18, fold1_arg11,
    fold1_v13]

end Cert.KernelIdeal.TailRun
-- ==== Proof.KTailB.lean ====
/-
  The second half of the program's tail: the fourth and fifth rounds of the pick of the target's log-probability, and
  the weighted mean.

  A round over the segment [lo, hi) of the vocabulary replaces the running value, where lo ≤ target < hi, by the entry
  of that segment's array at clip (target − lo, 0, size − 1); the last stretch weighs the negated picks and averages
  them. Each group of host operations is the corresponding function of the tail's definition applied to the arrays the
  group reads, operation by operation; and no operation of the tail writes an argument or a cluster's array (the table
  of what the tail writes, and that each stretch writes only arrays of the table, is the imported module's), so those are
  found unchanged wherever the tail reads them.
-/
import proofs.«404181_j77000173683136_1_alg».proof.Proof.Gen.KernelIdeal.Frame
import proofs.«404181_j77000173683136_1_alg».proof.Proof.KTailDef
import proofs.«404181_j77000173683136_1_alg».proof.Proof.KTailWrites

set_option maxRecDepth 16384

noncomputable section

namespace Cert.KernelIdeal.TailRunB

open Idealize.ShloMosaic Idealize.ShloMosaic.TcCoe
open Idealize.SL.Sem
open Cert.KernelIdeal.Gen

variable {F : FTy → Type} [FloatOps F]

variable (m : (ℓ : Loc nD τ sig) → Buf (Elt F) ℓ) (ρ : Dev nD → PrngReg)

/-! ## An array the tail does not write is found unchanged -/

/-- Through the first three rounds. -/
theorem W25_back (c : Dev nD) (b : Ref sig .tc) (hb : b ∉ tailWritten) :
    W25 m ρ c (Proc.devRef .tc b) = W10 m ρ c (Proc.devRef .tc b) :=
  (StableHlo.after_of_writes_sub hostOps5_14 (W24 m ρ c) writes5_14 hb).trans <|
  (StableHlo.after_of_writes_sub hostOps5_13 (W23 m ρ c) writes5_13 hb).trans <|
  (StableHlo.after_of_writes_sub hostOps5_12 (W22 m ρ c) writes5_12 hb).trans <|
  (StableHlo.after_of_writes_sub hostOps5_11 (W21 m ρ c) writes5_11 hb).trans <|
  (StableHlo.after_of_writes_sub hostOps5_10 (W20 m ρ c) writes5_10 hb).trans <|
  (StableHlo.after_of_writes_sub hostOps5_9 (W19 m ρ c) writes5_9 hb).trans <|
  (StableHlo.after_of_writes_sub hostOps5_8 (W18 m ρ c) writes5_8 hb).trans <|
  (StableHlo.after_of_writes_sub hostOps5_7 (W17 m ρ c) writes5_7 hb).trans <|
  (StableHlo.after_of_writes_sub hostOps5_6 (W16 m ρ c) writes5_6 hb).trans <|
  (StableHlo.after_of_writes_sub hostOps5_5 (W15 m ρ c) writes5_5 hb).trans <|
  (StableHlo.after_of_writes_sub hostOps5_4 (W14 m ρ c) writes5_4 hb).trans <|
  (StableHlo.after_of_writes_sub hostOps5_3 (W13 m ρ c) writes5_3 hb).trans <|
  (StableHlo.after_of_writes_sub hostOps5_2 (W12 m ρ c) writes5_2 hb).trans <|
  (StableHlo.after_of_writes_sub hostOps5_1 (W11 m ρ c) writes5_1 hb).trans <|
  (StableHlo.after_of_writes_sub hostOps5 (W10 m ρ c) writes5 hb)
/-- Through the fourth round. -/
theorem W30_back (c : Dev nD) (b : Ref sig .tc) (hb : b ∉ tailWritten) :
    W30 m ρ c (Proc.devRef .tc b) = W25 m ρ c (Proc.devRef .tc b) :=
  (StableHlo.after_of_writes_sub hostOps5_19 (W29 m ρ c) writes5_19 hb).trans <|
  (StableHlo.after_of_writes_sub hostOps5_18 (W28 m ρ c) writes5_18 hb).trans <|
  (StableHlo.after_of_writes_sub hostOps5_17 (W27 m ρ c) writes5_17 hb).trans <|
  (StableHlo.after_of_writes_sub hostOps5_16 (W26 m ρ c) writes5_16 hb).trans <|
  (StableHlo.after_of_writes_sub hostOps5_15 (W25 m ρ c) writes5_15 hb)
/-- Through the fifth round. -/
theorem W35_back (c : Dev nD) (b : Ref sig .tc) (hb : b ∉ tailWritten) :
    W35 m ρ c (Proc.devRef .tc b) = W30 m ρ c (Proc.devRef .tc b) :=
  (StableHlo.after_of_writes_sub hostOps5_24 (W34 m ρ c) writes5_24 hb).trans <|
  (StableHlo.after_of_writes_sub hostOps5_23 (W33 m ρ c) writes5_23 hb).trans <|
  (StableHlo.after_of_writes_sub hostOps5_22 (W32 m ρ c) writes5_22 hb).trans <|
  (StableHlo.after_of_writes_sub hostOps5_21 (W31 m ρ c) writes5_21 hb).trans <|
  (StableHlo.after_of_writes_sub hostOps5_20 (W30 m ρ c) writes5_20 hb)

theorem W25_v23 (c : Dev nD) : W25 m ρ c (Proc.devRef .tc main_v23) = W10 m ρ c (Proc.devRef .tc main_v23) :=
  W25_back m ρ c main_v23 (by decide)
theorem W25_v28 (c : Dev nD) : W25 m ρ c (Proc.devRef .tc main_v28) = W10 m ρ c (Proc.devRef .tc main_v28) :=
  W25_back m ρ c main_v28 (by decide)
theorem W25_arg10 (c : Dev nD) : W25 m ρ c (Proc.devRef .tc main_arg10) = W10 m ρ c (Proc.devRef .tc main_arg10) :=
  W25_back m ρ c main_arg10 (by decide)
theorem W25_arg11 (c : Dev nD) : W25 m ρ c (Proc.devRef .tc main_arg11) = W10 m ρ c (Proc.devRef .tc main_arg11) :=
  W25_back m ρ c main_arg11 (by decide)
theorem W25_arg12 (c : Dev nD) : W25 m ρ c (Proc.devRef .tc main_arg12) = W10 m ρ c (Proc.devRef .tc main_arg12) :=
  W25_back m ρ c main_arg12 (by decide)

/-! ## The two rounds and the mean, from arbitrary contents -/

/-- The fourth round's five groups of operations, from contents `V`. -/
abbrev fold4 (V : Valuation τ sig (Elt F)) : Valuation τ sig (Elt F) :=
  StableHlo.after hostOps5_19 (StableHlo.after hostOps5_18 (StableHlo.after hostOps5_17
    (StableHlo.after hostOps5_16 (StableHlo.after hostOps5_15 V))))

/-- The fifth round's five groups of operations, from contents `V`. -/
abbrev fold5 (V : Valuation τ sig (Elt F)) : Valuation τ sig (Elt F) :=
  StableHlo.after hostOps5_24 (StableHlo.after hostOps5_23 (StableHlo.after hostOps5_22
    (StableHlo.after hostOps5_21 (StableHlo.after hostOps5_20 V))))

/-- The fourth round: the segment [40000, 80000), held in the array of 40000 columns. -/
theorem round4 (V : Valuation τ sig (Elt F)) :
    fold4 V (Proc.devRef .tc main_v69)
      = Tail.round2 (V (Proc.devRef .tc main_v23)) 40000#32 80000#32 39999#32 (V (Proc.devRef .tc main_arg11))
          (V (Proc.devRef .tc main_v59)) := by
  dsimp only [fold4]
  after_results_simp
  simp only [StableHlo.TRef.ofBuf, StableHlo.TRef.toBuf, cast_eq, id_eq]
  rfl

/-- The fifth round: the segment [80000, 100000), held in the array of 20000 columns. -/
theorem round5 (V : Valuation τ sig (Elt F)) :
    fold5 V (Proc.devRef .tc main_v79)
      = Tail.round1 (V (Proc.devRef .tc main_v28)) 80000#32 100000#32 19999#32 (V (Proc.devRef .tc main_arg11))
          (V (Proc.devRef .tc main_v69)) := by
  dsimp only [fold5]
  after_results_simp
  simp only [StableHlo.TRef.ofBuf, StableHlo.TRef.toBuf, cast_eq, id_eq]
  rfl

/-- The last stretch: the weighted mean of the negated picks. -/
theorem mean (V : Valuation τ sig (Elt F)) :
    StableHlo.after hostOps5_25 V (Proc.devRef .tc main_v97)
      = Tail.loss (V (Proc.devRef .tc main_v79)) (V (Proc.devRef .tc main_arg10)) (V (Proc.devRef .tc main_arg11))
          (V (Proc.devRef .tc main_arg12)) := by
  after_results_simp
  rfl

/-! ## The result from the value after three rounds -/

theorem v69_eq (c : Dev nD) :
    W30 m ρ c (Proc.devRef .tc main_v69)
      = Tail.round2 (W25 m ρ c (Proc.devRef .tc main_v23)) 40000#32 80000#32 39999#32
          (W25 m ρ c (Proc.devRef .tc main_arg11)) (W25 m ρ c (Proc.devRef .tc main_v59)) :=
  round4 (W25 m ρ c)

theorem v79_eq (c : Dev nD) :
    W35 m ρ c (Proc.devRef .tc main_v79)
      = Tail.round1 (W30 m ρ c (Proc.devRef .tc main_v28)) 80000#32 100000#32 19999#32
          (W30 m ρ c (Proc.devRef .tc main_arg11)) (W30 m ρ c (Proc.devRef .tc main_v69)) :=
  round5 (W30 m ρ c)

theorem v97_eq (c : Dev nD) :
    W36 m ρ c (Proc.devRef .tc main_v97)
      = Tail.loss (W35 m ρ c (Proc.devRef .tc main_v79)) (W35 m ρ c (Proc.devRef .tc main_arg10))
          (W35 m ρ c (Proc.devRef .tc main_arg11)) (W35 m ρ c (Proc.devRef .tc main_arg12)) :=
  mean (W35 m ρ c)

/-- The program's result is the mean over the pick whose last two rounds start from the value after three rounds. -/
theorem result_from_v59 (c : Dev nD) :
    W36 m ρ c (Proc.devRef .tc main_v97)
      = Tail.loss
          (Tail.round1 (W25 m ρ c (Proc.devRef .tc main_v28)) 80000#32 100000#32 19999#32
            (W25 m ρ c (Proc.devRef .tc main_arg11))
            (Tail.round2 (W25 m ρ c (Proc.devRef .tc main_v23)) 40000#32 80000#32 39999#32
              (W25 m ρ c (Proc.devRef .tc main_arg11)) (W25 m ρ c (Proc.devRef .tc main_v59))))
          (W25 m ρ c (Proc.devRef .tc main_arg10)) (W25 m ρ c (Proc.devRef .tc main_arg11))
          (W25 m ρ c (Proc.devRef .tc main_arg12)) := by
  rw [v97_eq, v79_eq, v69_eq,
    W35_back m ρ c main_arg10 (by decide), W35_back m ρ c main_arg11 (by decide), W35_back m ρ c main_arg12 (by decide),
    W30_back m ρ c main_arg10 (by decide), W30_back m ρ c main_arg11 (by decide), W30_back m ρ c main_arg12 (by decide),
    W30_back m ρ c main_v28 (by decide)]

end Cert.KernelIdeal.TailRunB
-- ==== Proof.KHostIn.lean ====
/- What each region's input windows hold when the region is entered, in terms of the launch memory: the activations
   as launched, and each weight matrix as launched with its two coordinates swapped. A stretch of host operations
   writes only its own results; a region writes back only its output array; so an argument array holds its launch
   contents throughout, and the cast activations, an input array of every region, hold what the first stretch
   left in them. -/
import proofs.«404181_j77000173683136_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.Lib.Pipeline.Cells

set_option maxRecDepth 16384

noncomputable section

namespace Cert.KernelIdeal.HostIn

open Idealize.ShloMosaic Idealize.ShloMosaic.TcCoe Idealize.ShloMosaic.Tactic
open Idealize.ShloMosaic.ValueIdx
open Idealize.ShloMosaic.Pipeline (Dat Cfg Window)
open Cert.KernelIdeal Cert.KernelIdeal.Gen

variable (m : (ℓ : Loc nD τ sig) → Buf (Elt Ideal) ℓ) (ρ : Dev nD → PrngReg)

/-! ## What each stretch of host operations writes, and what it therefore leaves alone -/

/-- The arrays the stretch before region 0 writes: the cast of the activations, the transposed head weights and
    their cast. -/
abbrev wr0 : List (Ref sig .tc) := [main_v0, main_v1, main_v2]
/-- The arrays the stretch before region 1 writes: the shortlist columns, the four head columns, the transposed
    projection and output weights of cluster 1 and their casts. -/
abbrev wr1 : List (Ref sig .tc) := [main_v4, main_v5, main_v6, main_v7, main_v8, main_v9, main_v10, main_v11, main_v12]
/-- The transposed weights of cluster 2 and their casts. -/
abbrev wr2 : List (Ref sig .tc) := [main_v14, main_v15, main_v16, main_v17]
/-- The transposed weights of cluster 3 and their casts. -/
abbrev wr3 : List (Ref sig .tc) := [main_v19, main_v20, main_v21, main_v22]
/-- The transposed weights of cluster 4 and their casts. -/
abbrev wr4 : List (Ref sig .tc) := [main_v24, main_v25, main_v26, main_v27]

/-- Each operation of a stretch writes one array of the stretch's list. -/
local macro "writes_in_list" : tactic =>
  `(tactic| (simp only [List.Forall]
             repeat' apply And.intro
             all_goals (simp only [StableHlo.unary_writes, Finset.singleton_subset_iff, List.mem_toFinset]
                        exact List.mem_map_of_mem (by decide))))

theorem writes0 : (hostOps0 : List (HloOp τ sig (Elt Ideal))).Forall fun op =>
    op.writes ⊆ (wr0.map (Proc.devRef (τ := τ) .tc)).toFinset := by writes_in_list
theorem writes1 : (hostOps1 : List (HloOp τ sig (Elt Ideal))).Forall fun op =>
    op.writes ⊆ (wr1.map (Proc.devRef (τ := τ) .tc)).toFinset := by writes_in_list
theorem writes2 : (hostOps2 : List (HloOp τ sig (Elt Ideal))).Forall fun op =>
    op.writes ⊆ (wr2.map (Proc.devRef (τ := τ) .tc)).toFinset := by writes_in_list
theorem writes3 : (hostOps3 : List (HloOp τ sig (Elt Ideal))).Forall fun op =>
    op.writes ⊆ (wr3.map (Proc.devRef (τ := τ) .tc)).toFinset := by writes_in_list
theorem writes4 : (hostOps4 : List (HloOp τ sig (Elt Ideal))).Forall fun op =>
    op.writes ⊆ (wr4.map (Proc.devRef (τ := τ) .tc)).toFinset := by writes_in_list

/-- An array outside a stretch's list holds after the stretch what it held before. -/
theorem W1_of (c : Dev nD) (r : Ref sig .tc) (h : r ∉ wr0) :
    Gen.W1 m ρ c (Proc.devRef .tc r) = Gen.W0 m ρ c (Proc.devRef .tc r) :=
  StableHlo.after_of_writes_sub hostOps0 _ writes0 h
theorem W3_of (c : Dev nD) (r : Ref sig .tc) (h : r ∉ wr1) :
    Gen.W3 m ρ c (Proc.devRef .tc r) = Gen.W2 m ρ c (Proc.devRef .tc r) :=
  StableHlo.after_of_writes_sub hostOps1 _ writes1 h
theorem W5_of (c : Dev nD) (r : Ref sig .tc) (h : r ∉ wr2) :
    Gen.W5 m ρ c (Proc.devRef .tc r) = Gen.W4 m ρ c (Proc.devRef .tc r) :=
  StableHlo.after_of_writes_sub hostOps2 _ writes2 h
theorem W7_of (c : Dev nD) (r : Ref sig .tc) (h : r ∉ wr3) :
    Gen.W7 m ρ c (Proc.devRef .tc r) = Gen.W6 m ρ c (Proc.devRef .tc r) :=
  StableHlo.after_of_writes_sub hostOps3 _ writes3 h
theorem W9_of (c : Dev nD) (r : Ref sig .tc) (h : r ∉ wr4) :
    Gen.W9 m ρ c (Proc.devRef .tc r) = Gen.W8 m ρ c (Proc.devRef .tc r) :=
  StableHlo.after_of_writes_sub hostOps4 _ writes4 h

/-! ## An array that no stretch writes and no region stages holds the launch contents at every region's exit -/

theorem launch_W2 (c : Dev nD) (r : Ref sig .tc) (h0 : r ∉ wr0) (a0 : ∀ w, Pipeline.arrRef spec0 w ≠ r) :
    Gen.W2 m ρ c (Proc.devRef .tc r) = m ((c : Thread nD τ).loc r) :=
  (Gen.W2_of_ne m ρ c r a0).trans (W1_of m ρ c r h0)
theorem launch_W4 (c : Dev nD) (r : Ref sig .tc) (h0 : r ∉ wr0) (a0 : ∀ w, Pipeline.arrRef spec0 w ≠ r)
    (h1 : r ∉ wr1) (a1 : ∀ w, Pipeline.arrRef spec1 w ≠ r) :
    Gen.W4 m ρ c (Proc.devRef .tc r) = m ((c : Thread nD τ).loc r) :=
  (Gen.W4_of_ne m ρ c r a1).trans ((W3_of m ρ c r h1).trans (launch_W2 m ρ c r h0 a0))
theorem launch_W6 (c : Dev nD) (r : Ref sig .tc) (h0 : r ∉ wr0) (a0 : ∀ w, Pipeline.arrRef spec0 w ≠ r)
    (h1 : r ∉ wr1) (a1 : ∀ w, Pipeline.arrRef spec1 w ≠ r) (h2 : r ∉ wr2) (a2 : ∀ w, Pipeline.arrRef spec2 w ≠ r) :
    Gen.W6 m ρ c (Proc.devRef .tc r) = m ((c : Thread nD τ).loc r) :=
  (Gen.W6_of_ne m ρ c r a2).trans ((W5_of m ρ c r h2).trans (launch_W4 m ρ c r h0 a0 h1 a1))
theorem launch_W8 (c : Dev nD) (r : Ref sig .tc) (h0 : r ∉ wr0) (a0 : ∀ w, Pipeline.arrRef spec0 w ≠ r)
    (h1 : r ∉ wr1) (a1 : ∀ w, Pipeline.arrRef spec1 w ≠ r) (h2 : r ∉ wr2) (a2 : ∀ w, Pipeline.arrRef spec2 w ≠ r)
    (h3 : r ∉ wr3) (a3 : ∀ w, Pipeline.arrRef spec3 w ≠ r) :
    Gen.W8 m ρ c (Proc.devRef .tc r) = m ((c : Thread nD τ).loc r) :=
  (Gen.W8_of_ne m ρ c r a3).trans ((W7_of m ρ c r h3).trans (launch_W6 m ρ c r h0 a0 h1 a1 h2 a2))

/-! ## The cast activations: an input array of every region, never written back -/

theorem act_W2 (c : Dev nD) : Gen.W2 m ρ c (Proc.devRef .tc main_v0) = Gen.W1 m ρ c (Proc.devRef .tc main_v0) :=
  (Gen.W2_arr m ρ c 0).trans (((Gen.dat0 (Gen.V1 m ρ) c).arrAt_in 0 rfl cfg0.N).trans (Gen.A_eq0 (Gen.V1 m ρ) c 0))
theorem act_W4 (c : Dev nD) : Gen.W4 m ρ c (Proc.devRef .tc main_v0) = Gen.W1 m ρ c (Proc.devRef .tc main_v0) :=
  (Gen.W4_arr m ρ c 0).trans (((Gen.dat1 (Gen.V3 m ρ) c).arrAt_in 0 rfl cfg1.N).trans ((Gen.A_eq1 (Gen.V3 m ρ) c 0).trans
    ((W3_of m ρ c main_v0 (by decide)).trans (act_W2 m ρ c))))
theorem act_W6 (c : Dev nD) : Gen.W6 m ρ c (Proc.devRef .tc main_v0) = Gen.W1 m ρ c (Proc.devRef .tc main_v0) :=
  (Gen.W6_arr m ρ c 0).trans (((Gen.dat2 (Gen.V5 m ρ) c).arrAt_in 0 rfl cfg2.N).trans ((Gen.A_eq2 (Gen.V5 m ρ) c 0).trans
    ((W5_of m ρ c main_v0 (by decide)).trans (act_W4 m ρ c))))
theorem act_W8 (c : Dev nD) : Gen.W8 m ρ c (Proc.devRef .tc main_v0) = Gen.W1 m ρ c (Proc.devRef .tc main_v0) :=
  (Gen.W8_arr m ρ c 0).trans (((Gen.dat3 (Gen.V7 m ρ) c).arrAt_in 0 rfl cfg3.N).trans ((Gen.A_eq3 (Gen.V7 m ρ) c 0).trans
    ((W7_of m ρ c main_v0 (by decide)).trans (act_W6 m ρ c))))

/-! ## The input windows at each region's entry

At the ideal instance a change of float format is the identity and a transpose swaps the two coordinates, so each
input array of a region is an argument array as launched, read at the same or at the swapped index. -/

/-- Region 0's activations are the launch activations. -/
theorem x0 (c : Dev nD) (b k : Fin 1024) :
    Gen.V1 m ρ c main_v0 (ix2 b k) = m ((c : Thread nD τ).loc main_arg0) (ix2 b k) := by
  dsimp only [Gen.V1, Gen.W1, Gen.hostOps0]; after_results
  rfl

/-- Region 0's weights are the head weights transposed. -/
theorem w0 (c : Dev nD) (k : Fin 1024) (j : Fin 10004) :
    Gen.V1 m ρ c main_v2 (ix2 k j) = m ((c : Thread nD τ).loc main_arg1) (ix2 j k) := by
  dsimp only [Gen.V1, Gen.W1, Gen.hostOps0]; after_results
  exact transpose_ix2_apply _ _ k j

/-- Region 1's activations are the launch activations. -/
theorem x1 (c : Dev nD) (b k : Fin 1024) :
    Gen.V3 m ρ c main_v0 (ix2 b k) = m ((c : Thread nD τ).loc main_arg0) (ix2 b k) :=
  (congrFun ((W3_of m ρ c main_v0 (by decide)).trans (act_W2 m ρ c)) (ix2 b k)).trans (x0 m ρ c b k)

/-- Region 1's projection is cluster 1's projection weights transposed. -/
theorem p1 (c : Dev nD) (k : Fin 1024) (h : Fin 512) :
    Gen.V3 m ρ c main_v10 (ix2 k h) = m ((c : Thread nD τ).loc main_arg2) (ix2 h k) := by
  dsimp only [Gen.V3, Gen.W3, Gen.hostOps1]; after_results
  refine (transpose_ix2_apply _ _ k h).trans ?_
  exact congrFun (launch_W2 m ρ c main_arg2 (by decide) (by decide)) (ix2 h k)

/-- Region 1's output weights are cluster 1's output weights transposed. -/
theorem o1 (c : Dev nD) (h : Fin 512) (j : Fin 10000) :
    Gen.V3 m ρ c main_v12 (ix2 h j) = m ((c : Thread nD τ).loc main_arg3) (ix2 j h) := by
  dsimp only [Gen.V3, Gen.W3, Gen.hostOps1]; after_results
  refine (transpose_ix2_apply _ _ h j).trans ?_
  exact congrFun (launch_W2 m ρ c main_arg3 (by decide) (by decide)) (ix2 j h)

/-- Region 2's activations are the launch activations. -/
theorem x2 (c : Dev nD) (b k : Fin 1024) :
    Gen.V5 m ρ c main_v0 (ix2 b k) = m ((c : Thread nD τ).loc main_arg0) (ix2 b k) :=
  (congrFun ((W5_of m ρ c main_v0 (by decide)).trans (act_W4 m ρ c)) (ix2 b k)).trans (x0 m ρ c b k)

/-- Region 2's projection is cluster 2's projection weights transposed. -/
theorem p2 (c : Dev nD) (k : Fin 1024) (h : Fin 256) :
    Gen.V5 m ρ c main_v15 (ix2 k h) = m ((c : Thread nD τ).loc main_arg4) (ix2 h k) := by
  dsimp only [Gen.V5, Gen.W5, Gen.hostOps2]; after_results
  refine (transpose_ix2_apply _ _ k h).trans ?_
  exact congrFun (launch_W4 m ρ c main_arg4 (by decide) (by decide) (by decide) (by decide)) (ix2 h k)

/-- Region 2's output weights are cluster 2's output weights transposed. -/
theorem o2 (c : Dev nD) (h : Fin 256) (j : Fin 20000) :
    Gen.V5 m ρ c main_v17 (ix2 h j) = m ((c : Thread nD τ).loc main_arg5) (ix2 j h) := by
  dsimp only [Gen.V5, Gen.W5, Gen.hostOps2]; after_results
  refine (transpose_ix2_apply _ _ h j).trans ?_
  exact congrFun (launch_W4 m ρ c main_arg5 (by decide) (by decide) (by decide) (by decide)) (ix2 j h)

/-- Region 3's activations are the launch activations. -/
theorem x3 (c : Dev nD) (b k : Fin 1024) :
    Gen.V7 m ρ c main_v0 (ix2 b k) = m ((c : Thread nD τ).loc main_arg0) (ix2 b k) :=
  (congrFun ((W7_of m ρ c main_v0 (by decide)).trans (act_W6 m ρ c)) (ix2 b k)).trans (x0 m ρ c b k)

/-- Region 3's projection is cluster 3's projection weights transposed. -/
theorem p3 (c : Dev nD) (k : Fin 1024) (h : Fin 128) :
    Gen.V7 m ρ c main_v20 (ix2 k h) = m ((c : Thread nD τ).loc main_arg6) (ix2 h k) := by
  dsimp only [Gen.V7, Gen.W7, Gen.hostOps3]; after_results
  refine (transpose_ix2_apply _ _ k h).trans ?_
  exact congrFun (launch_W6 m ρ c main_arg6 (by decide) (by decide) (by decide) (by decide) (by decide) (by decide))
    (ix2 h k)

/-- Region 3's output weights are cluster 3's output weights transposed. -/
theorem o3 (c : Dev nD) (h : Fin 128) (j : Fin 40000) :
    Gen.V7 m ρ c main_v22 (ix2 h j) = m ((c : Thread nD τ).loc main_arg7) (ix2 j h) := by
  dsimp only [Gen.V7, Gen.W7, Gen.hostOps3]; after_results
  refine (transpose_ix2_apply _ _ h j).trans ?_
  exact congrFun (launch_W6 m ρ c main_arg7 (by decide) (by decide) (by decide) (by decide) (by decide) (by decide))
    (ix2 j h)

/-- Region 4's activations are the launch activations. -/
theorem x4 (c : Dev nD) (b k : Fin 1024) :
    Gen.V9 m ρ c main_v0 (ix2 b k) = m ((c : Thread nD τ).loc main_arg0) (ix2 b k) :=
  (congrFun ((W9_of m ρ c main_v0 (by decide)).trans (act_W8 m ρ c)) (ix2 b k)).trans (x0 m ρ c b k)

/-- Region 4's projection is cluster 4's projection weights transposed. -/
theorem p4 (c : Dev nD) (k : Fin 1024) (h : Fin 64) :
    Gen.V9 m ρ c main_v25 (ix2 k h) = m ((c : Thread nD τ).loc main_arg8) (ix2 h k) := by
  dsimp only [Gen.V9, Gen.W9, Gen.hostOps4]; after_results
  refine (transpose_ix2_apply _ _ k h).trans ?_
  exact congrFun (launch_W8 m ρ c main_arg8 (by decide) (by decide) (by decide) (by decide) (by decide) (by decide)
    (by decide) (by decide)) (ix2 h k)

/-- Region 4's output weights are cluster 4's output weights transposed. -/
theorem o4 (c : Dev nD) (h : Fin 64) (j : Fin 20000) :
    Gen.V9 m ρ c main_v27 (ix2 h j) = m ((c : Thread nD τ).loc main_arg9) (ix2 j h) := by
  dsimp only [Gen.V9, Gen.W9, Gen.hostOps4]; after_results
  refine (transpose_ix2_apply _ _ h j).trans ?_
  exact congrFun (launch_W8 m ρ c main_arg9 (by decide) (by decide) (by decide) (by decide) (by decide) (by decide)
    (by decide) (by decide)) (ix2 j h)

end Cert.KernelIdeal.HostIn
-- ==== Proof.KHostOut.lean ====
/-
  Where the arrays between the five kernel regions are found.

  Between two regions the host only cuts columns out of the head's array, transposes weight matrices and rounds them:
  every such operation writes a fresh array. A region writes its one output array and nothing else. So an array, once
  written, is found unchanged at every later boundary: the head's array (the first region's output) after the first
  region, its five column ranges (the shortlist's 10000 columns and the four cluster columns) as what the slices read
  from it, each cluster's array as what its region left, and three of the arguments, which nothing writes, as launched.
-/
import proofs.«404181_j77000173683136_1_alg».proof.Proof.Gen.KernelIdeal.Frame
import Idealize.ShloMosaic.Lib.ValueLayout

noncomputable section

namespace Cert.KernelIdeal.HostOut

open Idealize.ShloMosaic Idealize.ShloMosaic.TcCoe Idealize.ShloMosaic.ValueIdx

variable (m : (ℓ : Loc nD τ sig) → Buf (Elt Ideal) ℓ) (ρ : Dev nD → PrngReg)

/-! ## What each stretch of host operations writes -/

/-- The first stretch writes the rounded features and the transposed, then rounded, head weights. -/
theorem writes0 : (Gen.hostOps0 : List (HloOp τ sig (Elt Ideal))).Forall fun op =>
    op.writes ⊆ ([main_v0, main_v1, main_v2].map (Proc.devRef (τ := τ) .tc)).toFinset := by
  simp only [Gen.hostOps0, List.Forall, StableHlo.unary_writes, Finset.singleton_subset_iff, List.mem_toFinset]
  refine ⟨?_, ?_, ?_⟩ <;> exact List.mem_map_of_mem (by decide)

/-- The second stretch writes the five column ranges of the head's array and the first cluster's two weight matrices. -/
theorem writes1 : (Gen.hostOps1 : List (HloOp τ sig (Elt Ideal))).Forall fun op =>
    op.writes ⊆ ([main_v4, main_v5, main_v6, main_v7, main_v8, main_v9, main_v10, main_v11, main_v12].map
      (Proc.devRef (τ := τ) .tc)).toFinset := by
  simp only [Gen.hostOps1, List.Forall, StableHlo.unary_writes, Finset.singleton_subset_iff, List.mem_toFinset]
  refine ⟨?_, ?_, ?_, ?_, ?_, ?_, ?_, ?_, ?_⟩ <;> exact List.mem_map_of_mem (by decide)

/-- The third stretch writes the second cluster's two weight matrices. -/
theorem writes2 : (Gen.hostOps2 : List (HloOp τ sig (Elt Ideal))).Forall fun op =>
    op.writes ⊆ ([main_v14, main_v15, main_v16, main_v17].map (Proc.devRef (τ := τ) .tc)).toFinset := by
  simp only [Gen.hostOps2, List.Forall, StableHlo.unary_writes, Finset.singleton_subset_iff, List.mem_toFinset]
  refine ⟨?_, ?_, ?_, ?_⟩ <;> exact List.mem_map_of_mem (by decide)

/-- The fourth stretch writes the third cluster's two weight matrices. -/
theorem writes3 : (Gen.hostOps3 : List (HloOp τ sig (Elt Ideal))).Forall fun op =>
    op.writes ⊆ ([main_v19, main_v20, main_v21, main_v22].map (Proc.devRef (τ := τ) .tc)).toFinset := by
  simp only [Gen.hostOps3, List.Forall, StableHlo.unary_writes, Finset.singleton_subset_iff, List.mem_toFinset]
  refine ⟨?_, ?_, ?_, ?_⟩ <;> exact List.mem_map_of_mem (by decide)

/-- The fifth stretch writes the fourth cluster's two weight matrices. -/
theorem writes4 : (Gen.hostOps4 : List (HloOp τ sig (Elt Ideal))).Forall fun op =>
    op.writes ⊆ ([main_v24, main_v25, main_v26, main_v27].map (Proc.devRef (τ := τ) .tc)).toFinset := by
  simp only [Gen.hostOps4, List.Forall, StableHlo.unary_writes, Finset.singleton_subset_iff, List.mem_toFinset]
  refine ⟨?_, ?_, ?_, ?_⟩ <;> exact List.mem_map_of_mem (by decide)

/-! ## One step back through a stretch or a region, at an array it does not write -/

theorem back1 (c : Dev nD) (b : Ref sig .tc) (hb : b ∉ [main_v0, main_v1, main_v2]) :
    Gen.W1 m ρ c (Proc.devRef .tc b) = Gen.W0 m ρ c (Proc.devRef .tc b) :=
  StableHlo.after_of_writes_sub _ _ writes0 hb
theorem back3 (c : Dev nD) (b : Ref sig .tc)
    (hb : b ∉ [main_v4, main_v5, main_v6, main_v7, main_v8, main_v9, main_v10, main_v11, main_v12]) :
    Gen.W3 m ρ c (Proc.devRef .tc b) = Gen.W2 m ρ c (Proc.devRef .tc b) :=
  StableHlo.after_of_writes_sub _ _ writes1 hb
theorem back5 (c : Dev nD) (b : Ref sig .tc) (hb : b ∉ [main_v14, main_v15, main_v16, main_v17]) :
    Gen.W5 m ρ c (Proc.devRef .tc b) = Gen.W4 m ρ c (Proc.devRef .tc b) :=
  StableHlo.after_of_writes_sub _ _ writes2 hb
theorem back7 (c : Dev nD) (b : Ref sig .tc) (hb : b ∉ [main_v19, main_v20, main_v21, main_v22]) :
    Gen.W7 m ρ c (Proc.devRef .tc b) = Gen.W6 m ρ c (Proc.devRef .tc b) :=
  StableHlo.after_of_writes_sub _ _ writes3 hb
theorem back9 (c : Dev nD) (b : Ref sig .tc) (hb : b ∉ [main_v24, main_v25, main_v26, main_v27]) :
    Gen.W9 m ρ c (Proc.devRef .tc b) = Gen.W8 m ρ c (Proc.devRef .tc b) :=
  StableHlo.after_of_writes_sub _ _ writes4 hb

/-! ## The head's array and its column ranges -/

/-- After the first region its output array holds what the region's write-backs left. -/
theorem head_out (c : Dev nD) :
    Gen.W2 m ρ c (Proc.devRef .tc main_v3) = (Gen.dat0 (Gen.V1 m ρ) c).arrAt 2 cfg0.N :=
  Gen.W2_arr m ρ c 2

/-- The shortlist's array is the head's array cut to its first 10000 columns. -/
theorem slice_v4 (c : Dev nD) :
    (Gen.W3 m ρ c (Proc.devRef .tc main_v4) : S1024x10000.Idx → EReal)
      = extractStridedSlice S1024x10000 ![0, 0] (Gen.W2 m ρ c (Proc.devRef .tc main_v3))
          Gen.slices_S1024x10004_S1024x10000_0_0 := by
  dsimp only [Gen.W3, Gen.hostOps1]
  after_results
/-- The first cluster's column is column 10000 of the head's array. -/
theorem slice_v5 (c : Dev nD) :
    (Gen.W3 m ρ c (Proc.devRef .tc main_v5) : S1024x1.Idx → EReal)
      = extractStridedSlice S1024x1 ![0, 10000] (Gen.W2 m ρ c (Proc.devRef .tc main_v3))
          Gen.slices_S1024x10004_S1024x1_0_10000 := by
  dsimp only [Gen.W3, Gen.hostOps1]
  after_results
/-- The second cluster's column is column 10001 of the head's array. -/
theorem slice_v6 (c : Dev nD) :
    (Gen.W3 m ρ c (Proc.devRef .tc main_v6) : S1024x1.Idx → EReal)
      = extractStridedSlice S1024x1 ![0, 10001] (Gen.W2 m ρ c (Proc.devRef .tc main_v3))
          Gen.slices_S1024x10004_S1024x1_0_10001 := by
  dsimp only [Gen.W3, Gen.hostOps1]
  after_results
/-- The third cluster's column is column 10002 of the head's array. -/
theorem slice_v7 (c : Dev nD) :
    (Gen.W3 m ρ c (Proc.devRef .tc main_v7) : S1024x1.Idx → EReal)
      = extractStridedSlice S1024x1 ![0, 10002] (Gen.W2 m ρ c (Proc.devRef .tc main_v3))
          Gen.slices_S1024x10004_S1024x1_0_10002 := by
  dsimp only [Gen.W3, Gen.hostOps1]
  after_results
/-- The fourth cluster's column is column 10003 of the head's array. -/
theorem slice_v8 (c : Dev nD) :
    (Gen.W3 m ρ c (Proc.devRef .tc main_v8) : S1024x1.Idx → EReal)
      = extractStridedSlice S1024x1 ![0, 10003] (Gen.W2 m ρ c (Proc.devRef .tc main_v3))
          Gen.slices_S1024x10004_S1024x1_0_10003 := by
  dsimp only [Gen.W3, Gen.hostOps1]
  after_results

/-- The column the first cluster's region reads is column 10000 of the head's array. -/
theorem hc1 (c : Dev nD) (b : Fin 1024) :
    Gen.V3 m ρ c main_v5 (ix2 b (0 : Fin 1))
      = Gen.W2 m ρ c (Proc.devRef .tc main_v3) (ix2 b (⟨10000, by decide⟩ : Fin 10004)) := by
  show Gen.W3 m ρ c (Proc.devRef .tc main_v5) (ix2 b (0 : Fin 1)) = _
  rw [slice_v5]
  exact slice2_axis1_apply 10000 _ _ b 0 _ rfl

/-- The column the second cluster's region reads is column 10001 of the head's array. -/
theorem hc2 (c : Dev nD) (b : Fin 1024) :
    Gen.V5 m ρ c main_v6 (ix2 b (0 : Fin 1))
      = Gen.W2 m ρ c (Proc.devRef .tc main_v3) (ix2 b (⟨10001, by decide⟩ : Fin 10004)) := by
  have e : Gen.V5 m ρ c main_v6 = Gen.W3 m ρ c (Proc.devRef .tc main_v6) :=
    calc Gen.W5 m ρ c (Proc.devRef .tc main_v6)
      _ = Gen.W4 m ρ c (Proc.devRef .tc main_v6) := back5 m ρ c main_v6 (by decide)
      _ = Gen.W3 m ρ c (Proc.devRef .tc main_v6) := Gen.W4_of_ne m ρ c main_v6 (by decide)
  rw [e, slice_v6]
  exact slice2_axis1_apply 10001 _ _ b 0 _ rfl

/-- The column the third cluster's region reads is column 10002 of the head's array. -/
theorem hc3 (c : Dev nD) (b : Fin 1024) :
    Gen.V7 m ρ c main_v7 (ix2 b (0 : Fin 1))
      = Gen.W2 m ρ c (Proc.devRef .tc main_v3) (ix2 b (⟨10002, by decide⟩ : Fin 10004)) := by
  have e : Gen.V7 m ρ c main_v7 = Gen.W3 m ρ c (Proc.devRef .tc main_v7) :=
    calc Gen.W7 m ρ c (Proc.devRef .tc main_v7)
      _ = Gen.W6 m ρ c (Proc.devRef .tc main_v7) := back7 m ρ c main_v7 (by decide)
      _ = Gen.W5 m ρ c (Proc.devRef .tc main_v7) := Gen.W6_of_ne m ρ c main_v7 (by decide)
      _ = Gen.W4 m ρ c (Proc.devRef .tc main_v7) := back5 m ρ c main_v7 (by decide)
      _ = Gen.W3 m ρ c (Proc.devRef .tc main_v7) := Gen.W4_of_ne m ρ c main_v7 (by decide)
  rw [e, slice_v7]
  exact slice2_axis1_apply 10002 _ _ b 0 _ rfl

/-- The column the fourth cluster's region reads is column 10003 of the head's array. -/
theorem hc4 (c : Dev nD) (b : Fin 1024) :
    Gen.V9 m ρ c main_v8 (ix2 b (0 : Fin 1))
      = Gen.W2 m ρ c (Proc.devRef .tc main_v3) (ix2 b (⟨10003, by decide⟩ : Fin 10004)) := by
  have e : Gen.V9 m ρ c main_v8 = Gen.W3 m ρ c (Proc.devRef .tc main_v8) :=
    calc Gen.W9 m ρ c (Proc.devRef .tc main_v8)
      _ = Gen.W8 m ρ c (Proc.devRef .tc main_v8) := back9 m ρ c main_v8 (by decide)
      _ = Gen.W7 m ρ c (Proc.devRef .tc main_v8) := Gen.W8_of_ne m ρ c main_v8 (by decide)
      _ = Gen.W6 m ρ c (Proc.devRef .tc main_v8) := back7 m ρ c main_v8 (by decide)
      _ = Gen.W5 m ρ c (Proc.devRef .tc main_v8) := Gen.W6_of_ne m ρ c main_v8 (by decide)
      _ = Gen.W4 m ρ c (Proc.devRef .tc main_v8) := back5 m ρ c main_v8 (by decide)
      _ = Gen.W3 m ρ c (Proc.devRef .tc main_v8) := Gen.W4_of_ne m ρ c main_v8 (by decide)
  rw [e, slice_v8]
  exact slice2_axis1_apply 10003 _ _ b 0 _ rfl

/-- When the tail begins, the shortlist's array still holds the first 10000 columns of the head's array. -/
theorem short (c : Dev nD) (b : Fin 1024) (j : Fin 10000) :
    Gen.W10 m ρ c (Proc.devRef .tc main_v4) (ix2 b j)
      = Gen.W2 m ρ c (Proc.devRef .tc main_v3) (ix2 b (⟨j.val, by omega⟩ : Fin 10004)) := by
  have e : Gen.W10 m ρ c (Proc.devRef .tc main_v4) = Gen.W3 m ρ c (Proc.devRef .tc main_v4) :=
    calc Gen.W10 m ρ c (Proc.devRef .tc main_v4)
      _ = Gen.W9 m ρ c (Proc.devRef .tc main_v4) := Gen.W10_of_ne m ρ c main_v4 (by decide)
      _ = Gen.W8 m ρ c (Proc.devRef .tc main_v4) := back9 m ρ c main_v4 (by decide)
      _ = Gen.W7 m ρ c (Proc.devRef .tc main_v4) := Gen.W8_of_ne m ρ c main_v4 (by decide)
      _ = Gen.W6 m ρ c (Proc.devRef .tc main_v4) := back7 m ρ c main_v4 (by decide)
      _ = Gen.W5 m ρ c (Proc.devRef .tc main_v4) := Gen.W6_of_ne m ρ c main_v4 (by decide)
      _ = Gen.W4 m ρ c (Proc.devRef .tc main_v4) := back5 m ρ c main_v4 (by decide)
      _ = Gen.W3 m ρ c (Proc.devRef .tc main_v4) := Gen.W4_of_ne m ρ c main_v4 (by decide)
  rw [e, slice_v4]
  exact slice2_axis1_apply 0 _ _ b j _ (Nat.zero_add _).symm

/-! ## The clusters' arrays when the tail begins -/

/-- The first cluster's array holds what its region's write-backs left. -/
theorem out1 (c : Dev nD) :
    Gen.W10 m ρ c (Proc.devRef .tc main_v13) = (Gen.dat1 (Gen.V3 m ρ) c).arrAt 4 cfg1.N :=
  calc Gen.W10 m ρ c (Proc.devRef .tc main_v13)
    _ = Gen.W9 m ρ c (Proc.devRef .tc main_v13) := Gen.W10_of_ne m ρ c main_v13 (by decide)
    _ = Gen.W8 m ρ c (Proc.devRef .tc main_v13) := back9 m ρ c main_v13 (by decide)
    _ = Gen.W7 m ρ c (Proc.devRef .tc main_v13) := Gen.W8_of_ne m ρ c main_v13 (by decide)
    _ = Gen.W6 m ρ c (Proc.devRef .tc main_v13) := back7 m ρ c main_v13 (by decide)
    _ = Gen.W5 m ρ c (Proc.devRef .tc main_v13) := Gen.W6_of_ne m ρ c main_v13 (by decide)
    _ = Gen.W4 m ρ c (Proc.devRef .tc main_v13) := back5 m ρ c main_v13 (by decide)
    _ = (Gen.dat1 (Gen.V3 m ρ) c).arrAt 4 cfg1.N := Gen.W4_arr m ρ c 4

/-- The second cluster's array holds what its region's write-backs left. -/
theorem out2 (c : Dev nD) :
    Gen.W10 m ρ c (Proc.devRef .tc main_v18) = (Gen.dat2 (Gen.V5 m ρ) c).arrAt 4 cfg2.N :=
  calc Gen.W10 m ρ c (Proc.devRef .tc main_v18)
    _ = Gen.W9 m ρ c (Proc.devRef .tc main_v18) := Gen.W10_of_ne m ρ c main_v18 (by decide)
    _ = Gen.W8 m ρ c (Proc.devRef .tc main_v18) := back9 m ρ c main_v18 (by decide)
    _ = Gen.W7 m ρ c (Proc.devRef .tc main_v18) := Gen.W8_of_ne m ρ c main_v18 (by decide)
    _ = Gen.W6 m ρ c (Proc.devRef .tc main_v18) := back7 m ρ c main_v18 (by decide)
    _ = (Gen.dat2 (Gen.V5 m ρ) c).arrAt 4 cfg2.N := Gen.W6_arr m ρ c 4

/-- The third cluster's array holds what its region's write-backs left. -/
theorem out3 (c : Dev nD) :
    Gen.W10 m ρ c (Proc.devRef .tc main_v23) = (Gen.dat3 (Gen.V7 m ρ) c).arrAt 4 cfg3.N :=
  calc Gen.W10 m ρ c (Proc.devRef .tc main_v23)
    _ = Gen.W9 m ρ c (Proc.devRef .tc main_v23) := Gen.W10_of_ne m ρ c main_v23 (by decide)
    _ = Gen.W8 m ρ c (Proc.devRef .tc main_v23) := back9 m ρ c main_v23 (by decide)
    _ = (Gen.dat3 (Gen.V7 m ρ) c).arrAt 4 cfg3.N := Gen.W8_arr m ρ c 4

/-- The fourth cluster's array holds what its region's write-backs left. -/
theorem out4 (c : Dev nD) :
    Gen.W10 m ρ c (Proc.devRef .tc main_v28) = (Gen.dat4 (Gen.V9 m ρ) c).arrAt 4 cfg4.N :=
  Gen.W10_arr m ρ c 4

/-! ## Three arguments nothing writes -/

/-- An array that no host stretch and no region writes holds, when the tail begins, what it held at launch. -/
theorem kept (c : Dev nD) (b : Ref sig .tc)
    (h0 : b ∉ [main_v0, main_v1, main_v2]) (hr0 : ∀ w, Pipeline.arrRef spec0 w ≠ b)
    (h1 : b ∉ [main_v4, main_v5, main_v6, main_v7, main_v8, main_v9, main_v10, main_v11, main_v12])
    (hr1 : ∀ w, Pipeline.arrRef spec1 w ≠ b)
    (h2 : b ∉ [main_v14, main_v15, main_v16, main_v17]) (hr2 : ∀ w, Pipeline.arrRef spec2 w ≠ b)
    (h3 : b ∉ [main_v19, main_v20, main_v21, main_v22]) (hr3 : ∀ w, Pipeline.arrRef spec3 w ≠ b)
    (h4 : b ∉ [main_v24, main_v25, main_v26, main_v27]) (hr4 : ∀ w, Pipeline.arrRef spec4 w ≠ b) :
    Gen.W10 m ρ c (Proc.devRef .tc b) = m ((c : Thread nD τ).loc b) :=
  calc Gen.W10 m ρ c (Proc.devRef .tc b)
    _ = Gen.W9 m ρ c (Proc.devRef .tc b) := Gen.W10_of_ne m ρ c b hr4
    _ = Gen.W8 m ρ c (Proc.devRef .tc b) := back9 m ρ c b h4
    _ = Gen.W7 m ρ c (Proc.devRef .tc b) := Gen.W8_of_ne m ρ c b hr3
    _ = Gen.W6 m ρ c (Proc.devRef .tc b) := back7 m ρ c b h3
    _ = Gen.W5 m ρ c (Proc.devRef .tc b) := Gen.W6_of_ne m ρ c b hr2
    _ = Gen.W4 m ρ c (Proc.devRef .tc b) := back5 m ρ c b h2
    _ = Gen.W3 m ρ c (Proc.devRef .tc b) := Gen.W4_of_ne m ρ c b hr1
    _ = Gen.W2 m ρ c (Proc.devRef .tc b) := back3 m ρ c b h1
    _ = Gen.W1 m ρ c (Proc.devRef .tc b) := Gen.W2_of_ne m ρ c b hr0
    _ = Gen.W0 m ρ c (Proc.devRef .tc b) := back1 m ρ c b h0
    _ = m ((c : Thread nD τ).loc b) := rfl

theorem arg10_kept (c : Dev nD) :
    Gen.W10 m ρ c (Proc.devRef .tc main_arg10) = m ((c : Thread nD τ).loc main_arg10) :=
  kept m ρ c main_arg10 (by decide) (by decide) (by decide) (by decide) (by decide) (by decide) (by decide) (by decide)
    (by decide) (by decide)
theorem arg11_kept (c : Dev nD) :
    Gen.W10 m ρ c (Proc.devRef .tc main_arg11) = m ((c : Thread nD τ).loc main_arg11) :=
  kept m ρ c main_arg11 (by decide) (by decide) (by decide) (by decide) (by decide) (by decide) (by decide) (by decide)
    (by decide) (by decide)
theorem arg12_kept (c : Dev nD) :
    Gen.W10 m ρ c (Proc.devRef .tc main_arg12) = m ((c : Thread nD τ).loc main_arg12) :=
  kept m ρ c main_arg12 (by decide) (by decide) (by decide) (by decide) (by decide) (by decide) (by decide) (by decide)
    (by decide) (by decide)

end Cert.KernelIdeal.HostOut
-- ==== Proof.KReg0.lean ====
/-
  The head region of the kernel: what its output array holds afterwards.

  The region walks the 1024 sample rows in 16 blocks of 64. At block t it takes rows 64 t … 64 t + 63 of the features
  x [1024, 1024] and the whole of the head weights w [1024, 10004] (shared axis first), forms the scores
  z = x_block · w, a [64, 10004] block, and stores, for each row, the row's log-softmax
  (z − M) − log Σ exp (z − M), M the row's maximum. A change of float format is the identity on the extended reals, the
  matrix product into a zero accumulator is the sum over the shared axis, the row maximum taken from −∞ and the row sum
  taken from 0 are the fold and the sum over the row; the maxima and the logarithms are kept as a column [64, 1] and
  spread back over the columns. Row r of the array lies in block r / 64 only, so the array ends holding, at (b, j), the
  log-softmax along row b of  Σ_k x(b, k) · w(k, j).
-/
import proofs.«404181_j77000173683136_1_alg».proof.Proof.Gen.KernelIdeal.Frame
import proofs.«404181_j77000173683136_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.ShloMosaic.ValueIdx

/-! ## Two layout operations read at an index -/

/-- A vector of `a` entries cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a row block with the weights, read at an index -/

theorem lhs_head_0 (i : S64x10004.Idx) (q : dot_S64x1024_S1024x10004_S64x10004_1_0_0_1_n_n.contr.Idx) :
    (dot_S64x1024_S1024x10004_S64x10004_1_0_0_1_n_n.lhsIdx i q 0).val = (i 0).val := by
  unfold DotDims.lhsIdx
  rw [dif_neg (show ¬(0 : Fin S64x1024.rank) ∈ dot_S64x1024_S1024x10004_S64x10004_1_0_0_1_n_n.lhsBatch by decide), dif_pos (show (0 : Fin S64x1024.rank) ∈ dot_S64x1024_S1024x10004_S64x10004_1_0_0_1_n_n.lhsNonContracting by decide)]
  rfl
theorem lhs_head_1 (i : S64x10004.Idx) (q : dot_S64x1024_S1024x10004_S64x10004_1_0_0_1_n_n.contr.Idx) :
    (dot_S64x1024_S1024x10004_S64x10004_1_0_0_1_n_n.lhsIdx i q 1).val = (q ⟨0, by decide⟩).val :=
  dot_S64x1024_S1024x10004_S64x10004_1_0_0_1_n_n.lhsIdx_val_of_single rfl i q
theorem rhs_head_0 (i : S64x10004.Idx) (q : dot_S64x1024_S1024x10004_S64x10004_1_0_0_1_n_n.contr.Idx) :
    (dot_S64x1024_S1024x10004_S64x10004_1_0_0_1_n_n.rhsIdx i q 0).val = (q ⟨0, by decide⟩).val :=
  dot_S64x1024_S1024x10004_S64x10004_1_0_0_1_n_n.rhsIdx_val_of_single rfl i q
theorem rhs_head_1 (i : S64x10004.Idx) (q : dot_S64x1024_S1024x10004_S64x10004_1_0_0_1_n_n.contr.Idx) :
    (dot_S64x1024_S1024x10004_S64x10004_1_0_0_1_n_n.rhsIdx i q 1).val = (i 1).val := by
  unfold DotDims.rhsIdx
  rw [dif_neg (show ¬(1 : Fin S1024x10004.rank) ∈ dot_S64x1024_S1024x10004_S64x10004_1_0_0_1_n_n.rhsBatch by decide), dif_pos (show (1 : Fin S1024x10004.rank) ∈ dot_S64x1024_S1024x10004_S64x10004_1_0_0_1_n_n.rhsNonContracting by decide)]
  rfl

/-- The matrix product into a zero accumulator, at row `r` and column `j`: the sum over the shared axis of the
    products of row `r` of the left factor with column `j` of the right. -/
theorem matmul_head_apply (x0 : FVec Ideal S64x1024 .bf16) (x1 : FVec Ideal S1024x10004 .bf16) (r : Fin 64) (j : Fin 10004) :
    matmul dot_S64x1024_S1024x10004_S64x10004_1_0_0_1_n_n none x0 x1 (constant (F := Ideal) S64x10004 .f32 0x00000000#32) (ix2 r j)
      = ∑ k : Fin 1024, x0 (ix2 r k) * x1 (ix2 k j) := by
  simp only [matmul]
  rw [Ideal.matmul_constant_zero_apply, ← Equiv.sum_comp (ValueIdx.contrEquiv1 dot_S64x1024_S1024x10004_S64x10004_1_0_0_1_n_n 1024 rfl rfl).symm]
  refine Finset.sum_congr rfl fun k _ => ?_
  have hk := ValueIdx.contrEquiv1_symm_val dot_S64x1024_S1024x10004_S64x10004_1_0_0_1_n_n 1024 rfl rfl k
  have el : dot_S64x1024_S1024x10004_S64x10004_1_0_0_1_n_n.lhsIdx (ix2 r j) ((ValueIdx.contrEquiv1 dot_S64x1024_S1024x10004_S64x10004_1_0_0_1_n_n 1024 rfl rfl).symm k) = ix2 r k := funext fun a => Fin.ext (by
    match a with
    | ⟨0, _⟩ => exact lhs_head_0 _ _
    | ⟨1, _⟩ => exact (lhs_head_1 _ _).trans hk)
  have er : dot_S64x1024_S1024x10004_S64x10004_1_0_0_1_n_n.rhsIdx (ix2 r j) ((ValueIdx.contrEquiv1 dot_S64x1024_S1024x10004_S64x10004_1_0_0_1_n_n 1024 rfl rfl).symm k) = ix2 k j := funext fun a => Fin.ext (by
    match a with
    | ⟨0, _⟩ => exact (rhs_head_0 _ _).trans hk
    | ⟨1, _⟩ => exact rhs_head_1 _ _)
  rw [el, er]

/-! ## A block's rows: maximum, sum, log-softmax -/

/-- The maximum over the columns taken from −∞, at row `r`, is the largest entry of row `r`. -/
theorem rowMax_block (z : FVec Ideal S64x10004 .f32) (r : Fin 64) :
    multiReduction (F := Ideal) .maximumf [1] S64 z 0xFF800000#32 reduces_S64x10004_S64 (.inl rfl) rfl (ix1 r)
      = Spec.rowMax (fun j' : Fin 10004 => z (ix2 r j')) := by
  refine (Ideal.multiReduction_maximumf_single z 0xFF800000#32 reduces_S64x10004_S64 (.inl rfl) rfl (ix1 r)).trans ?_
  show (Finset.univ : Finset (Fin 10004)).fold max (Ideal.ofBits .f32 0xFF800000#32) (fun k => z (reduces_S64x10004_S64.lift (ix1 r) k)) = _
  rw [Spec.ofBits_neg_inf]
  unfold Spec.rowMax
  exact congrArg (fun f => (Finset.univ : Finset (Fin 10004)).fold max (⊥ : EReal) f)
    (funext fun k => congrArg z (funext fun a => Fin.ext (by match a with | ⟨0, _⟩ => rfl | ⟨1, _⟩ => rfl)))

/-- The sum over the columns from zero, at row `r`, is the sum of row `r`. -/
theorem rowSum_block (e : FVec Ideal S64x10004 .f32) (r : Fin 64) :
    multiReduction (F := Ideal) .add [1] S64 e 0x00000000#32 reduces_S64x10004_S64 (.inl rfl) rfl (ix1 r)
      = ∑ k : Fin 10004, e (ix2 r k) := by
  refine (Ideal.multiReduction_add_single e 0x00000000#32 reduces_S64x10004_S64 (.inl rfl) rfl (ix1 r)).trans ?_
  show ∑ k : Fin 10004, e (reduces_S64x10004_S64.lift (ix1 r) k) = _
  exact Finset.sum_congr rfl fun k _ => congrArg e (funext fun a => Fin.ext (by match a with | ⟨0, _⟩ => rfl | ⟨1, _⟩ => rfl))

/-- The row maxima, kept as a column and spread back over the columns, read at `(r, c)`: row `r`'s maximum. -/
theorem rowMax_spread (z : FVec Ideal S64x10004 .f32) (r : Fin 64) (c : Fin 10004) :
    broadcastTo S64x10004 (shapeCast S64x1 (multiReduction (F := Ideal) .maximumf [1] S64 z 0xFF800000#32 reduces_S64x10004_S64 (.inl rfl) rfl) shapeCasts_S64_S64x1) broadcasts_S64x1_S64x10004 (ix2 r c)
      = Spec.rowMax (fun j' : Fin 10004 => z (ix2 r j')) :=
  (broadcastTo_a1_ab_apply _ broadcasts_S64x1_S64x10004 r c).trans
    ((shapeCast_a_a1_apply _ shapeCasts_S64_S64x1 r 0).trans (rowMax_block z r))

/-- Subtracting each row's maximum, then the logarithm of the row's sum of exponentials, is the row's log-softmax. -/
theorem lsm_block_apply (z : FVec Ideal S64x10004 .f32) (r : Fin 64) (j : Fin 10004) :
    subf (subf z (broadcastTo S64x10004 (shapeCast S64x1 (multiReduction (F := Ideal) .maximumf [1] S64 z 0xFF800000#32 reduces_S64x10004_S64 (.inl rfl) rfl) shapeCasts_S64_S64x1) broadcasts_S64x1_S64x10004))
      (broadcastTo S64x10004 (log (shapeCast S64x1 (multiReduction (F := Ideal) .add [1] S64 (exp (subf z (broadcastTo S64x10004 (shapeCast S64x1 (multiReduction (F := Ideal) .maximumf [1] S64 z 0xFF800000#32 reduces_S64x10004_S64 (.inl rfl) rfl) shapeCasts_S64_S64x1) broadcasts_S64x1_S64x10004))) 0x00000000#32 reduces_S64x10004_S64 (.inl rfl) rfl) shapeCasts_S64_S64x1)) broadcasts_S64x1_S64x10004) (ix2 r j)
    = Spec.lsm (fun j' : Fin 10004 => z (ix2 r j')) j := by
  have hL : broadcastTo S64x10004 (log (shapeCast S64x1 (multiReduction (F := Ideal) .add [1] S64 (exp (subf z (broadcastTo S64x10004 (shapeCast S64x1 (multiReduction (F := Ideal) .maximumf [1] S64 z 0xFF800000#32 reduces_S64x10004_S64 (.inl rfl) rfl) shapeCasts_S64_S64x1) broadcasts_S64x1_S64x10004))) 0x00000000#32 reduces_S64x10004_S64 (.inl rfl) rfl) shapeCasts_S64_S64x1)) broadcasts_S64x1_S64x10004 (ix2 r j)
      = Ideal.log (∑ k : Fin 10004, Ideal.exp (z (ix2 r k) - Spec.rowMax (fun j' : Fin 10004 => z (ix2 r j')))) := by
    refine (broadcastTo_a1_ab_apply _ broadcasts_S64x1_S64x10004 r j).trans ?_
    refine (congrArg Ideal.log ((shapeCast_a_a1_apply _ shapeCasts_S64_S64x1 r 0).trans (rowSum_block _ r))).trans ?_
    refine congrArg Ideal.log (Finset.sum_congr rfl fun k _ => ?_)
    exact congrArg (fun m => Ideal.exp (z (ix2 r k) - m)) (rowMax_spread z r k)
  unfold Spec.lsm
  exact congrArg₂ (fun m l => (z (ix2 r j) - m) - l) (rowMax_spread z r j) hL

/-! ## What the body stores, at an index -/

/-- The body's value at row `r`, column `j` of its block: the log-softmax, along the row, of row `r` of the left block
    against the columns of the right block. -/
theorem pay_apply (x0 : FVec Ideal S64x1024 .bf16) (x1 : FVec Ideal S1024x10004 .bf16) (r : Fin 64) (j : Fin 10004) :
    k0_pay1 (F := Ideal) x0 x1 (ix2 r j)
      = Spec.lsm (fun j' : Fin 10004 => ∑ k : Fin 1024, x0 (ix2 r k) * x1 (ix2 k j')) j := by
  unfold k0_pay1
  simp only [shapeCast_self]
  refine (lsm_block_apply _ r j).trans ?_
  exact congrArg (fun f => Spec.lsm f j) (funext fun j' => matmul_head_apply x0 x1 r j')

theorem hz : (![0, 0] : Fin 2 → Nat) = fun _ => 0 := funext fun a => by fin_cases a <;> rfl

/-- The output's staging buffer after the body is the body's value of the two input blocks: one store of the whole block. -/
theorem out_eq (x0 : FVec Ideal S64x1024 .bf16) (x1 : FVec Ideal S1024x10004 .bf16) :
    out0_2 (F := Ideal) x0 x1 = k0_pay1 (F := Ideal) x0 x1 := by
  unfold out0_2
  rw [View.canon_unit_zero hz]
  simp only [View.ld_unit_zero (S := S64x1024) hz, View.ld_unit_zero (S := S1024x10004) hz]

/-! ## From blocks to the array -/

section Array

variable (V : (c : Dev nD) → (b : Ref sig .tc) → Buf (Elt Ideal) ((c : Thread nD τ).loc b))

/-- The features [1024, 1024] as the region finds them. -/
abbrev xArr (c : Dev nD) : FVec Ideal S1024x1024 .bf16 := V c main_v0
/-- The head weights laid out [1024, 10004] (shared axis first) as the region finds them. -/
abbrev wArr (c : Dev nD) : FVec Ideal S1024x10004 .bf16 := V c main_v2

/-- The features' block at point `t`. -/
abbrev xBlk (c : Dev nD) (t : Fin cfg0.N) : FVec Ideal S64x1024 .bf16 := iblk0 V c 0 t
/-- The weights' block at point `t`. -/
abbrev wBlk (c : Dev nD) (t : Fin cfg0.N) : FVec Ideal S1024x10004 .bf16 := iblk0 V c 1 t

/-- What the output array ends holding: at `(b, j)` the log-softmax, along row `b`, of the features' row `b` against
    the weights' columns. -/
def headLp (c : Dev nD) : S1024x10004.Idx → EReal := fun i =>
  Spec.lsm (fun j' : Fin 10004 => ∑ k : Fin 1024, xArr V c (ix2 (i 0) k) * wArr V c (ix2 k j')) (i 1)

/-- That function at an index whose coordinates are `a` and `q`. -/
theorem headLp_at (c : Dev nD) (i : S1024x10004.Idx) (a : Fin 1024) (q : Fin 10004) (h0 : (i 0).val = a.val) (h1 : (i 1).val = q.val) :
    headLp V c i = Spec.lsm (fun j' : Fin 10004 => ∑ k : Fin 1024, xArr V c (ix2 a k) * wArr V c (ix2 k j')) q := by
  have e : i = ix2 a q := funext fun d => Fin.ext (by
    match d with
    | ⟨0, _⟩ => exact h0
    | ⟨1, _⟩ => exact h1)
  subst e
  rfl

/-- The windows' index maps over the grid: at point `t` the features' window and the output's are at row block `t`, the
    weights' window stays at the one whole block. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Row `p` of block `t` is row `64 t + p` of the array. -/
def rowOf (t : Fin cfg0.N) (p : Fin 64) : Fin 1024 :=
  ⟨64 * t.val + p.val, by have h : t.val < grid0.N := t.isLt; rw [N_0] at h; omega⟩

/-- The features' block at point `t` is rows `64 t … 64 t + 63` of the features. -/
theorem blk0_apply (c : Dev nD) (t : Fin cfg0.N) (p : Fin 64) (k : Fin 1024) :
    xBlk V c t (ix2 p k) = xArr V c (ix2 (rowOf t p) k) := by
  obtain ⟨e0, e1, -, -, -, -⟩ := idx_facts t
  unfold xBlk iblk0
  rw [View.read_apply]
  show xArr V c _ = xArr V c _
  congr 1
  funext a
  apply Fin.ext
  match a with
  | ⟨0, _⟩ => show win0_0.index t (0 : Fin 2) * 64 + 1 * p.val = 64 * t.val + p.val; rw [e0]; omega
  | ⟨1, _⟩ => show win0_0.index t (1 : Fin 2) * 1024 + 1 * k.val = k.val; rw [e1]; omega

/-- The weights' block at every point is the whole of the weights. -/
theorem blk1_apply (c : Dev nD) (t : Fin cfg0.N) (k : Fin 1024) (j : Fin 10004) :
    wBlk V c t (ix2 k j) = wArr V c (ix2 k j) := by
  obtain ⟨-, -, e2, e3, -, -⟩ := idx_facts t
  unfold wBlk iblk0
  rw [View.read_apply]
  show wArr V c _ = wArr V c _
  congr 1
  funext a
  apply Fin.ext
  match a with
  | ⟨0, _⟩ => show win0_1.index t (0 : Fin 2) * 1024 + 1 * k.val = k.val; rw [e2]; omega
  | ⟨1, _⟩ => show win0_1.index t (1 : Fin 2) * 10004 + 1 * j.val = j.val; rw [e3]; omega

/-- What point `t` writes back is block `t` of `headLp`: rows `64 t … 64 t + 63`, every column. -/
theorem flushed_eq (c : Dev nD) (t : Fin cfg0.N) :
    (dat0 (F := Ideal) V c).flushed 2 t = ((cfg0.win 2).blk t).view.read (Elt Ideal) (headLp V c) := by
  show (cfg0.win 2).cut (grid0.coords t) ((dat0 V c).after 2 t) = _
  rw [after0_2]
  obtain ⟨-, -, -, -, e4, e5⟩ := idx_facts t
  refine funext fun (y : S64x10004.Idx) => ?_
  obtain ⟨p, q, rfl⟩ : ∃ (p : Fin 64) (q : Fin 10004), y = ix2 p q := ⟨y 0, y 1, eq_ix2 y⟩
  show out0_2 (F := Ideal) (iblk0 V c 0 t) (iblk0 V c 1 t) (ix2 p q) = headLp V c (((cfg0.win 2).blk t).view.emb (ix2 p q))
  refine (congrFun (out_eq (xBlk V c t) (wBlk V c t)) (ix2 p q)).trans ?_
  refine (pay_apply (xBlk V c t) (wBlk V c t) p q).trans ?_
  have hfun : (fun j' : Fin 10004 => ∑ k : Fin 1024, xBlk V c t (ix2 p k) * wBlk V c t (ix2 k j'))
      = (fun j' : Fin 10004 => ∑ k : Fin 1024, xArr V c (ix2 (rowOf t p) k) * wArr V c (ix2 k j')) :=
    funext fun j' => Finset.sum_congr rfl fun k _ => congrArg₂ (· * ·) (blk0_apply V c t p k) (blk1_apply V c t k j')
  refine (congrArg (fun f => Spec.lsm f q) hfun).trans ?_
  refine (headLp_at V c _ (rowOf t p) q ?_ ?_).symm
  · show win0_2.index t (0 : Fin 2) * 64 + 1 * p.val = 64 * t.val + p.val
    rw [e4]; omega
  · show win0_2.index t (1 : Fin 2) * 10004 + 1 * q.val = q.val
    rw [e5]; omega

/-- An index of the array is in point `t`'s block iff each coordinate is in the block's range on its axis. -/
theorem mem_blk (t : Fin cfg0.N) (i : S1024x10004.Idx) :
    i ∈ ((cfg0.win 2).blk t).view.set ↔ ∀ a : Fin 2, win0_2.index t a * S64x10004.size a ≤ (i a).val ∧ (i a).val < win0_2.index t a * S64x10004.size a + S64x10004.size a := by
  show i ∈ ((View.whole main_v3).slice (win0_2.rect t)).set ↔ _
  rw [View.set_slice_whole, Rect.mem_set_unit]
  exact Iff.rfl

/-- Every index of the array is in some point's block: row `r` is in block `r / 64`. -/
theorem cover (i : S1024x10004.Idx) : ∃ t : Fin cfg0.N, (cfg0.win 2).flush t = true ∧ i ∈ ((cfg0.win 2).blk t).view.set := by
  have hi0 : (i 0).val < 1024 := (i 0).isLt
  have hi1 : (i 1).val < 10004 := (i 1).isLt
  have hN : grid0.N = 16 := N_0
  obtain ⟨t, ht⟩ : ∃ t : Fin cfg0.N, t.val = (i 0).val / 64 :=
    ⟨⟨(i 0).val / 64, by show (i 0).val / 64 < grid0.N; rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 64 ≤ (i 0).val ∧ (i 0).val < win0_2.index t (0 : Fin 2) * 64 + 64
    rw [e4, ht]; omega
  | ⟨1, _⟩ =>
    show win0_2.index t (1 : Fin 2) * 10004 ≤ (i 1).val ∧ (i 1).val < win0_2.index t (1 : Fin 2) * 10004 + 10004
    rw [e5]; omega

/-- The output array after the region is `headLp`. -/
theorem final (c : Dev nD) : (dat0 (F := Ideal) V c).arrAt 2 cfg0.N = headLp V c :=
  (dat0 V c).arrAt_eq_of_cover 2 (headLp V c) (fun t _ => flushed_eq V c t) cover

/-- The output array after the region, at row `b` and column `j`: the log-softmax, along row `b`, of the features' row `b`
    against the weights' columns. -/
theorem final_apply (c : Dev nD) (b : Fin 1024) (j : Fin 10004) :
    (Gen.dat0 (F := Ideal) V c).arrAt 2 cfg0.N (ix2 b j)
      = Cert.Spec.lsm (fun j' : Fin 10004 => ∑ k : Fin 1024, xArr V c (ix2 b k) * wArr V c (ix2 k j')) j :=
  (congrFun (final V c) (ix2 b j)).trans (headLp_at V c (ix2 b j) b j rfl rfl)

/-- The same with the two arrays named by what they are known to hold. -/
theorem final_apply_of (c : Dev nD) (X : FVec Ideal S1024x1024 .bf16) (W : FVec Ideal S1024x10004 .bf16)
    (hX : V c main_v0 = X) (hW : V c main_v2 = W) (b : Fin 1024) (j : Fin 10004) :
    (Gen.dat0 (F := Ideal) V c).arrAt 2 cfg0.N (ix2 b j)
      = Cert.Spec.lsm (fun j' : Fin 10004 => ∑ k : Fin 1024, X (ix2 b k) * W (ix2 k j')) j := by
  subst hX hW
  exact final_apply V c b j

end Array

end Cert.KernelIdeal.Reg0

end
-- ==== Proof.KReg1.lean ====
/-
  The first cluster's region: from the region's entry contents to the array it leaves.

  A grid point t owns rows 64·t … 64·t+63. Its block is, row by row, the log-softmax along the row of the features' row
  against the projection (a hidden vector of 512 entries) against the output weights (10000 scores), plus the head
  column's entry of that row.
-/
import proofs.«404181_j77000173683136_1_alg».proof.Proof.Gen.KernelIdeal.Frame
import proofs.«404181_j77000173683136_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

/-! ## The two products at an entry -/

theorem lhsA_0 (i : S64x512.Idx) (q : dot_S64x1024_S1024x512_S64x512_1_0_0_1_n_n.contr.Idx) :
    (dot_S64x1024_S1024x512_S64x512_1_0_0_1_n_n.lhsIdx i q 0).val = (i 0).val := by
  unfold DotDims.lhsIdx
  rw [dif_neg (show ¬(0 : Fin S64x1024.rank) ∈ dot_S64x1024_S1024x512_S64x512_1_0_0_1_n_n.lhsBatch by decide), dif_pos (show (0 : Fin S64x1024.rank) ∈ dot_S64x1024_S1024x512_S64x512_1_0_0_1_n_n.lhsNonContracting by decide)]
  rfl
theorem lhsA_1 (i : S64x512.Idx) (q : dot_S64x1024_S1024x512_S64x512_1_0_0_1_n_n.contr.Idx) :
    (dot_S64x1024_S1024x512_S64x512_1_0_0_1_n_n.lhsIdx i q 1).val = (q ⟨0, by decide⟩).val :=
  dot_S64x1024_S1024x512_S64x512_1_0_0_1_n_n.lhsIdx_val_of_single rfl i q
theorem rhsA_0 (i : S64x512.Idx) (q : dot_S64x1024_S1024x512_S64x512_1_0_0_1_n_n.contr.Idx) :
    (dot_S64x1024_S1024x512_S64x512_1_0_0_1_n_n.rhsIdx i q 0).val = (q ⟨0, by decide⟩).val :=
  dot_S64x1024_S1024x512_S64x512_1_0_0_1_n_n.rhsIdx_val_of_single rfl i q
theorem rhsA_1 (i : S64x512.Idx) (q : dot_S64x1024_S1024x512_S64x512_1_0_0_1_n_n.contr.Idx) :
    (dot_S64x1024_S1024x512_S64x512_1_0_0_1_n_n.rhsIdx i q 1).val = (i 1).val := by
  unfold DotDims.rhsIdx
  rw [dif_neg (show ¬(1 : Fin S1024x512.rank) ∈ dot_S64x1024_S1024x512_S64x512_1_0_0_1_n_n.rhsBatch by decide), dif_pos (show (1 : Fin S1024x512.rank) ∈ dot_S64x1024_S1024x512_S64x512_1_0_0_1_n_n.rhsNonContracting by decide)]
  rfl

/-- The hidden vector: row r of the features against column h of the projection. -/
theorem mmA_apply (x : FVec Ideal S64x1024 .bf16) (w : FVec Ideal S1024x512 .bf16) (r : Fin 64) (h : Fin 512) :
    matmul dot_S64x1024_S1024x512_S64x512_1_0_0_1_n_n none x w (constant (F := Ideal) S64x512 .f32 0x00000000#32) (ix2 r h)
      = ∑ k : Fin 1024, x (ix2 r k) * w (ix2 k h) := by
  refine (Ideal.matmul_constant_zero_apply dot_S64x1024_S1024x512_S64x512_1_0_0_1_n_n none x w (ix2 r h)).trans ?_
  rw [← Equiv.sum_comp (contrEquiv1 dot_S64x1024_S1024x512_S64x512_1_0_0_1_n_n 1024 rfl rfl).symm]
  refine Finset.sum_congr rfl fun k _ => ?_
  have hk := contrEquiv1_symm_val dot_S64x1024_S1024x512_S64x512_1_0_0_1_n_n 1024 rfl rfl k
  have el : dot_S64x1024_S1024x512_S64x512_1_0_0_1_n_n.lhsIdx (ix2 r h) ((contrEquiv1 dot_S64x1024_S1024x512_S64x512_1_0_0_1_n_n 1024 rfl rfl).symm k) = ix2 r k := funext fun a => Fin.ext (by
    match a with
    | ⟨0, _⟩ => exact lhsA_0 _ _
    | ⟨1, _⟩ => exact (lhsA_1 _ _).trans hk)
  have er : dot_S64x1024_S1024x512_S64x512_1_0_0_1_n_n.rhsIdx (ix2 r h) ((contrEquiv1 dot_S64x1024_S1024x512_S64x512_1_0_0_1_n_n 1024 rfl rfl).symm k) = ix2 k h := funext fun a => Fin.ext (by
    match a with
    | ⟨0, _⟩ => exact (rhsA_0 _ _).trans hk
    | ⟨1, _⟩ => exact rhsA_1 _ _)
  rw [el, er]

theorem lhsB_0 (i : S64x10000.Idx) (q : dot_S64x512_S512x10000_S64x10000_1_0_0_1_n_n.contr.Idx) :
    (dot_S64x512_S512x10000_S64x10000_1_0_0_1_n_n.lhsIdx i q 0).val = (i 0).val := by
  unfold DotDims.lhsIdx
  rw [dif_neg (show ¬(0 : Fin S64x512.rank) ∈ dot_S64x512_S512x10000_S64x10000_1_0_0_1_n_n.lhsBatch by decide), dif_pos (show (0 : Fin S64x512.rank) ∈ dot_S64x512_S512x10000_S64x10000_1_0_0_1_n_n.lhsNonContracting by decide)]
  rfl
theorem lhsB_1 (i : S64x10000.Idx) (q : dot_S64x512_S512x10000_S64x10000_1_0_0_1_n_n.contr.Idx) :
    (dot_S64x512_S512x10000_S64x10000_1_0_0_1_n_n.lhsIdx i q 1).val = (q ⟨0, by decide⟩).val :=
  dot_S64x512_S512x10000_S64x10000_1_0_0_1_n_n.lhsIdx_val_of_single rfl i q
theorem rhsB_0 (i : S64x10000.Idx) (q : dot_S64x512_S512x10000_S64x10000_1_0_0_1_n_n.contr.Idx) :
    (dot_S64x512_S512x10000_S64x10000_1_0_0_1_n_n.rhsIdx i q 0).val = (q ⟨0, by decide⟩).val :=
  dot_S64x512_S512x10000_S64x10000_1_0_0_1_n_n.rhsIdx_val_of_single rfl i q
theorem rhsB_1 (i : S64x10000.Idx) (q : dot_S64x512_S512x10000_S64x10000_1_0_0_1_n_n.contr.Idx) :
    (dot_S64x512_S512x10000_S64x10000_1_0_0_1_n_n.rhsIdx i q 1).val = (i 1).val := by
  unfold DotDims.rhsIdx
  rw [dif_neg (show ¬(1 : Fin S512x10000.rank) ∈ dot_S64x512_S512x10000_S64x10000_1_0_0_1_n_n.rhsBatch by decide), dif_pos (show (1 : Fin S512x10000.rank) ∈ dot_S64x512_S512x10000_S64x10000_1_0_0_1_n_n.rhsNonContracting by decide)]
  rfl

/-- The scores: row r of the hidden block against column j of the output weights. -/
theorem mmB_apply (y : FVec Ideal S64x512 .bf16) (w : FVec Ideal S512x10000 .bf16) (r : Fin 64) (j : Fin 10000) :
    matmul dot_S64x512_S512x10000_S64x10000_1_0_0_1_n_n none y w (constant (F := Ideal) S64x10000 .f32 0x00000000#32) (ix2 r j)
      = ∑ h : Fin 512, y (ix2 r h) * w (ix2 h j) := by
  refine (Ideal.matmul_constant_zero_apply dot_S64x512_S512x10000_S64x10000_1_0_0_1_n_n none y w (ix2 r j)).trans ?_
  rw [← Equiv.sum_comp (contrEquiv1 dot_S64x512_S512x10000_S64x10000_1_0_0_1_n_n 512 rfl rfl).symm]
  refine Finset.sum_congr rfl fun k _ => ?_
  have hk := contrEquiv1_symm_val dot_S64x512_S512x10000_S64x10000_1_0_0_1_n_n 512 rfl rfl k
  have el : dot_S64x512_S512x10000_S64x10000_1_0_0_1_n_n.lhsIdx (ix2 r j) ((contrEquiv1 dot_S64x512_S512x10000_S64x10000_1_0_0_1_n_n 512 rfl rfl).symm k) = ix2 r k := funext fun a => Fin.ext (by
    match a with
    | ⟨0, _⟩ => exact lhsB_0 _ _
    | ⟨1, _⟩ => exact (lhsB_1 _ _).trans hk)
  have er : dot_S64x512_S512x10000_S64x10000_1_0_0_1_n_n.rhsIdx (ix2 r j) ((contrEquiv1 dot_S64x512_S512x10000_S64x10000_1_0_0_1_n_n 512 rfl rfl).symm k) = ix2 k j := funext fun a => Fin.ext (by
    match a with
    | ⟨0, _⟩ => exact (rhsB_0 _ _).trans hk
    | ⟨1, _⟩ => exact rhsB_1 _ _)
  rw [el, er]

/-! ## A row's maximum and sum, the keepdims column and its broadcast along the row -/

/-- The row maximum: the fold of max from −∞ over the row. -/
theorem rowMax_apply (v : FVec Ideal S64x10000 .f32) (hφ : FKind.Formats .f32)
    (hacc : (0xFF800000#32 : BitVec 32) = FKind.maximumf.neutral .f32 hφ) (r : Fin 64) :
    multiReduction (F := Ideal) .maximumf [1] S64 v 0xFF800000#32 reduces_S64x10000_S64 hφ hacc (ix1 r)
      = Cert.Spec.rowMax (fun j : Fin 10000 => v (ix2 r j)) := by
  refine (Ideal.multiReduction_maximumf_single v 0xFF800000#32 reduces_S64x10000_S64 hφ hacc (ix1 r)).trans ?_
  unfold Cert.Spec.rowMax
  show (Finset.univ : Finset (Fin 10000)).fold max (Ideal.ofBits .f32 0xFF800000#32) (fun j : Fin 10000 => v (reduces_S64x10000_S64.lift (ix1 r) j)) = _
  rw [Cert.Spec.ofBits_neg_inf]
  congr 1
  funext j
  refine congrArg v (funext fun a => Fin.ext ?_)
  match a with
  | ⟨0, _⟩ => rfl
  | ⟨1, _⟩ => rfl

/-- The row sum. -/
theorem rowSum_apply (v : FVec Ideal S64x10000 .f32) (hφ : FKind.Formats .f32)
    (hacc : (0x00000000#32 : BitVec 32) = FKind.add.neutral .f32 hφ) (r : Fin 64) :
    multiReduction (F := Ideal) .add [1] S64 v 0x00000000#32 reduces_S64x10000_S64 hφ hacc (ix1 r)
      = ∑ j : Fin 10000, v (ix2 r j) := by
  refine (Ideal.multiReduction_add_single v 0x00000000#32 reduces_S64x10000_S64 hφ hacc (ix1 r)).trans ?_
  show ∑ j : Fin 10000, v (reduces_S64x10000_S64.lift (ix1 r) j) = _
  refine Finset.sum_congr rfl fun j _ => ?_
  refine congrArg v (funext fun a => Fin.ext ?_)
  match a with
  | ⟨0, _⟩ => rfl
  | ⟨1, _⟩ => rfl

/-- A per-row value as a one-entry-wide column. -/
theorem col_apply (u : FVec Ideal S64 .f32) (r : Fin 64) (q : Fin 1) :
    shapeCast S64x1 u shapeCasts_S64_S64x1 (ix2 r q) = u (ix1 r) := by
  refine shapeCast_apply u shapeCasts_S64_S64x1 (ix2 r q) (ix1 r) ?_
  rw [Shape.rowMajor_val_one, Shape.rowMajor_val_two]
  show r.val = r.val * 1 + q.val
  omega

/-- A column spread along the row. -/
theorem spread_apply (w : FVec Ideal S64x1 .f32) (r : Fin 64) (j : Fin 10000) :
    broadcastTo S64x10000 w broadcasts_S64x1_S64x10000 (ix2 r j) = w (ix2 r (0 : Fin 1)) := by
  refine broadcastTo_apply w broadcasts_S64x1_S64x10000 (ix2 r j) (ix2 r (0 : Fin 1)) fun a => ?_
  match a with
  | ⟨0, _⟩ => rfl
  | ⟨1, _⟩ => rfl

/-! ## The body's arithmetic, entry by entry -/

/-- The scores block: the features' block against the projection, then against the output weights. -/
def scores (x0 : FVec Ideal S64x1024 .bf16) (x1 : FVec Ideal S1024x512 .bf16) (x2 : FVec Ideal S512x10000 .bf16) : FVec Ideal S64x10000 .f32 :=
  matmul dot_S64x512_S512x10000_S64x10000_1_0_0_1_n_n none
    (truncf .bf16 (matmul dot_S64x1024_S1024x512_S64x512_1_0_0_1_n_n none x0 x1 (constant (F := Ideal) S64x512 .f32 0x00000000#32)) bitsLt_bf16_f32)
    x2 (constant (F := Ideal) S64x10000 .f32 0x00000000#32)

/-- Row-wise log-softmax of a block as the body takes it: subtract the row maximum, then the logarithm of the row sum of
    the exponentials. -/
def lsmBlock (v : FVec Ideal S64x10000 .f32) : FVec Ideal S64x10000 .f32 :=
  subf
    (subf v (broadcastTo S64x10000 (shapeCast S64x1 (multiReduction (F := Ideal) .maximumf [1] S64 v 0xFF800000#32 reduces_S64x10000_S64 (.inl rfl) rfl) shapeCasts_S64_S64x1) broadcasts_S64x1_S64x10000))
    (broadcastTo S64x10000
      (log (shapeCast S64x1
        (multiReduction (F := Ideal) .add [1] S64
          (exp (subf v (broadcastTo S64x10000 (shapeCast S64x1 (multiReduction (F := Ideal) .maximumf [1] S64 v 0xFF800000#32 reduces_S64x10000_S64 (.inl rfl) rfl) shapeCasts_S64_S64x1) broadcasts_S64x1_S64x10000)))
          0x00000000#32 reduces_S64x10000_S64 (.inl rfl) rfl)
        shapeCasts_S64_S64x1))
      broadcasts_S64x1_S64x10000)

/-- The payload is the log-softmax of the scores plus the head column spread along the row (identity shape casts dropped). -/
theorem pay_eq (x0 : Vec Ideal S64x1024 .bf16) (x1 : Vec Ideal S1024x512 .bf16) (x2 : Vec Ideal S512x10000 .bf16) (x3 : Vec Ideal S64x1 .f32) :
    k1_pay1 (F := Ideal) x0 x1 x2 x3 = addf (lsmBlock (scores x0 x1 x2)) (broadcastTo S64x10000 x3 broadcasts_S64x1_S64x10000) := by
  unfold k1_pay1 lsmBlock scores
  simp only [shapeCast_self]

/-- An entry of the scores block. -/
theorem scores_apply (x0 : FVec Ideal S64x1024 .bf16) (x1 : FVec Ideal S1024x512 .bf16) (x2 : FVec Ideal S512x10000 .bf16) (r : Fin 64) (j : Fin 10000) :
    scores x0 x1 x2 (ix2 r j) = ∑ h : Fin 512, (∑ k : Fin 1024, x0 (ix2 r k) * x1 (ix2 k h)) * x2 (ix2 h j) := by
  unfold scores
  refine (mmB_apply _ x2 r j).trans ?_
  refine Finset.sum_congr rfl fun h _ => ?_
  refine congrArg (· * x2 (ix2 h j)) ?_
  exact mmA_apply x0 x1 r h

/-- The logarithm and the exponential of a block, at an entry. -/
theorem log_at {s : Shape} (w : FVec Ideal s .f32) (i : s.Idx) : log w i = Ideal.log (w i) := rfl
theorem exp_at {s : Shape} (w : FVec Ideal s .f32) (i : s.Idx) : exp w i = Ideal.exp (w i) := rfl

/-- An entry of the block's log-softmax is the row's log-softmax at that entry. -/
theorem lsmBlock_apply (v : FVec Ideal S64x10000 .f32) (r : Fin 64) (j : Fin 10000) :
    lsmBlock v (ix2 r j) = Cert.Spec.lsm (fun j' : Fin 10000 => v (ix2 r j')) j := by
  have hM : ∀ j' : Fin 10000, broadcastTo S64x10000 (shapeCast S64x1 (multiReduction (F := Ideal) .maximumf [1] S64 v 0xFF800000#32 reduces_S64x10000_S64 (.inl rfl) rfl) shapeCasts_S64_S64x1) broadcasts_S64x1_S64x10000 (ix2 r j')
      = Cert.Spec.rowMax (fun j' : Fin 10000 => v (ix2 r j')) := fun j' =>
    (spread_apply _ r j').trans ((col_apply _ r 0).trans (rowMax_apply v (.inl rfl) rfl r))
  have hS : ∀ k : Fin 10000, exp (subf v (broadcastTo S64x10000 (shapeCast S64x1 (multiReduction (F := Ideal) .maximumf [1] S64 v 0xFF800000#32 reduces_S64x10000_S64 (.inl rfl) rfl) shapeCasts_S64_S64x1) broadcasts_S64x1_S64x10000)) (ix2 r k)
      = Ideal.exp (v (ix2 r k) - Cert.Spec.rowMax (fun j' : Fin 10000 => v (ix2 r j'))) := fun k =>
    (exp_at _ _).trans (congrArg Ideal.exp ((subf_apply _ _ _).trans (congrArg (fun z => v (ix2 r k) - z) (hM k))))
  unfold lsmBlock Cert.Spec.lsm
  refine (subf_apply _ _ _).trans ?_
  refine congrArg₂ (fun a z => a - z) ((subf_apply _ _ _).trans (congrArg (fun z => v (ix2 r j) - z) (hM j))) ?_
  refine (spread_apply _ r j).trans ((log_at _ _).trans (congrArg Ideal.log ?_))
  refine (col_apply _ r 0).trans ((rowSum_apply _ (.inl rfl) rfl r).trans ?_)
  exact Finset.sum_congr rfl fun k _ => hS k

/-- The payload at an entry: the row's log-softmax of the scores plus the row's head-column entry. -/
theorem pay_apply (x0 : Vec Ideal S64x1024 .bf16) (x1 : Vec Ideal S1024x512 .bf16) (x2 : Vec Ideal S512x10000 .bf16) (x3 : Vec Ideal S64x1 .f32)
    (r : Fin 64) (j : Fin 10000) :
    k1_pay1 (F := Ideal) x0 x1 x2 x3 (ix2 r j)
      = Cert.Spec.lsm (fun j' : Fin 10000 => ∑ h : Fin 512, (∑ k : Fin 1024, x0 (ix2 r k) * x1 (ix2 k h)) * x2 (ix2 h j')) j
        + x3 (ix2 r (0 : Fin 1)) := by
  rw [pay_eq]
  refine (addf_apply _ _ _).trans ?_
  refine congrArg₂ (fun a z => a + z) ((lsmBlock_apply _ r j).trans ?_) (spread_apply x3 r j)
  refine congrArg (fun z => Cert.Spec.lsm z j) ?_
  funext j'
  exact scores_apply x0 x1 x2 r j'

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Entry (b, j) of the result from whole arrays: the log-softmax along row b of the features' row against the projection
    against the output weights, plus row b of the head column. -/
def rowLp (A0 : Vec Ideal S1024x1024 .bf16) (A1 : Vec Ideal S1024x512 .bf16) (A2 : Vec Ideal S512x10000 .bf16) (A3 : Vec Ideal S1024x1 .f32)
    (b : Fin 1024) (j : Fin 10000) : EReal :=
  Cert.Spec.lsm (fun j' : Fin 10000 => ∑ h : Fin 512, (∑ k : Fin 1024, A0 (ix2 b k) * A1 (ix2 k h)) * A2 (ix2 h j')) j
    + A3 (ix2 b (0 : Fin 1))

/-- A block of 64 rows of the result is the body's payload of: those rows of the features and of the head column, the whole
    projection, the whole output weights. -/
theorem pay_rows (A0 : Vec Ideal S1024x1024 .bf16) (A1 : Vec Ideal S1024x512 .bf16) (A2 : Vec Ideal S512x10000 .bf16) (A3 : Vec Ideal S1024x1 .f32)
    (x0 : Vec Ideal S64x1024 .bf16) (x1 : Vec Ideal S1024x512 .bf16) (x2 : Vec Ideal S512x10000 .bf16) (x3 : Vec Ideal S64x1 .f32)
    (r : Fin 64) (j : Fin 10000) (b : Fin 1024)
    (h0 : ∀ k : Fin 1024, x0 (ix2 r k) = A0 (ix2 b k)) (h1 : ∀ (k : Fin 1024) (h : Fin 512), x1 (ix2 k h) = A1 (ix2 k h))
    (h2 : ∀ (h : Fin 512) (j' : Fin 10000), x2 (ix2 h j') = A2 (ix2 h j')) (h3 : x3 (ix2 r (0 : Fin 1)) = A3 (ix2 b (0 : Fin 1))) :
    k1_pay1 (F := Ideal) x0 x1 x2 x3 (ix2 r j) = rowLp A0 A1 A2 A3 b j := by
  rw [pay_apply, h3]
  unfold rowLp
  refine congrArg (fun z => Cert.Spec.lsm z j + A3 (ix2 b (0 : Fin 1))) ?_
  funext j'
  refine Finset.sum_congr rfl fun h _ => ?_
  rw [h2 h j']
  refine congrArg (· * A2 (ix2 h j')) ?_
  refine Finset.sum_congr rfl fun k _ => ?_
  rw [h0 k, h1 k h]

/-- The printed index maps over the grid: the features', the head column's and the result's blocks move with the point
    along the rows; the projection and the output weights are whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What the region leaves in its result array. -/
def G (c : Dev nD) : S1024x10000.Idx → EReal := fun i =>
  rowLp (V c main_v0) (V c main_v10) (V c main_v12) (V c main_v5) ⟨(i 0).val, idx2_lt0 i⟩ ⟨(i 1).val, idx2_lt1 i⟩

/-- G at an index with the given coordinates. -/
theorem G_apply (c : Dev nD) (i : S1024x10000.Idx) (b : Fin 1024) (j : Fin 10000) (h0 : (i 0).val = b.val) (h1 : (i 1).val = j.val) :
    G V c i = rowLp (V c main_v0) (V c main_v10) (V c main_v12) (V c main_v5) b j := by
  have e0 : (⟨(i 0).val, idx2_lt0 i⟩ : Fin 1024) = b := Fin.ext h0
  have e1 : (⟨(i 1).val, idx2_lt1 i⟩ : Fin 10000) = j := Fin.ext h1
  unfold G
  rw [e0, e1]

/-- The features' block at point t is rows 64·t … 64·t+63 of the features. -/
theorem blk0_apply (c : Dev nD) (t : Fin cfg1.N) (r : Fin 64) (k : Fin 1024) (b : Fin 1024) (hb : b.val = 64 * t.val + r.val) :
    (iblk1 V c 0 t : Vec Ideal S64x1024 .bf16) (ix2 r k) = (V c main_v0 : Vec Ideal S1024x1024 .bf16) (ix2 b k) := by
  obtain ⟨e0, e1, -⟩ := idx_facts t
  unfold iblk1
  rw [View.read_apply]
  show (V c main_v0 : Vec Ideal S1024x1024 .bf16) _ = _
  refine congrArg (V c main_v0 : Vec Ideal S1024x1024 .bf16) (funext fun a => Fin.ext ?_)
  match a with
  | ⟨0, _⟩ => show win1_0.index t (0 : Fin 2) * 64 + 1 * r.val = b.val; rw [e0, hb]; omega
  | ⟨1, _⟩ => show win1_0.index t (1 : Fin 2) * 1024 + 1 * k.val = k.val; rw [e1]; omega

/-- The projection's block is the whole projection. -/
theorem blk1_apply (c : Dev nD) (t : Fin cfg1.N) (k : Fin 1024) (h : Fin 512) :
    (iblk1 V c 1 t : Vec Ideal S1024x512 .bf16) (ix2 k h) = (V c main_v10 : Vec Ideal S1024x512 .bf16) (ix2 k h) := by
  obtain ⟨-, -, e0, e1, -⟩ := idx_facts t
  unfold iblk1
  rw [View.read_apply]
  show (V c main_v10 : Vec Ideal S1024x512 .bf16) _ = _
  refine congrArg (V c main_v10 : Vec Ideal S1024x512 .bf16) (funext fun a => Fin.ext ?_)
  match a with
  | ⟨0, _⟩ => show win1_1.index t (0 : Fin 2) * 1024 + 1 * k.val = k.val; rw [e0]; omega
  | ⟨1, _⟩ => show win1_1.index t (1 : Fin 2) * 512 + 1 * h.val = h.val; rw [e1]; omega

/-- The output weights' block is the whole array. -/
theorem blk2_apply (c : Dev nD) (t : Fin cfg1.N) (h : Fin 512) (j : Fin 10000) :
    (iblk1 V c 2 t : Vec Ideal S512x10000 .bf16) (ix2 h j) = (V c main_v12 : Vec Ideal S512x10000 .bf16) (ix2 h j) := by
  obtain ⟨-, -, -, -, e0, e1, -⟩ := idx_facts t
  unfold iblk1
  rw [View.read_apply]
  show (V c main_v12 : Vec Ideal S512x10000 .bf16) _ = _
  refine congrArg (V c main_v12 : Vec Ideal S512x10000 .bf16) (funext fun a => Fin.ext ?_)
  match a with
  | ⟨0, _⟩ => show win1_2.index t (0 : Fin 2) * 512 + 1 * h.val = h.val; rw [e0]; omega
  | ⟨1, _⟩ => show win1_2.index t (1 : Fin 2) * 10000 + 1 * j.val = j.val; rw [e1]; omega

/-- The head column's block at point t is rows 64·t … 64·t+63 of the column. -/
theorem blk3_apply (c : Dev nD) (t : Fin cfg1.N) (r : Fin 64) (b : Fin 1024) (hb : b.val = 64 * t.val + r.val) :
    (iblk1 V c 3 t : Vec Ideal S64x1 .f32) (ix2 r (0 : Fin 1)) = (V c main_v5 : Vec Ideal S1024x1 .f32) (ix2 b (0 : Fin 1)) := by
  obtain ⟨-, -, -, -, -, -, e0, e1, -⟩ := idx_facts t
  unfold iblk1
  rw [View.read_apply]
  show (V c main_v5 : Vec Ideal S1024x1 .f32) _ = _
  refine congrArg (V c main_v5 : Vec Ideal S1024x1 .f32) (funext fun a => Fin.ext ?_)
  match a with
  | ⟨0, _⟩ => show win1_3.index t (0 : Fin 2) * 64 + 1 * r.val = b.val; rw [e0, hb]; omega
  | ⟨1, _⟩ => show win1_3.index t (1 : Fin 2) * 1 + 1 * (0 : Fin 1).val = (0 : Fin 1).val; rw [e1]; rfl

/-- Point t writes back rows 64·t … 64·t+63 of G. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz]
  simp only [View.ld_unit_zero (S := S64x1024) hz, View.ld_unit_zero (S := S1024x512) hz, View.ld_unit_zero (S := S512x10000) hz, View.ld_unit_zero (S := S64x1) hz]
  obtain ⟨e00, e01, e10, e11, e20, e21, e30, e31, e40, e41⟩ := idx_facts t
  have hN : cfg1.N = 16 := N_1
  have ht : t.val < 16 := hN ▸ t.isLt
  funext y
  obtain ⟨r, j, rfl⟩ : ∃ (r : Fin 64) (j : Fin 10000), y = ix2 r j := ⟨y 0, y 1, eq_ix2 y⟩
  have hb : 64 * t.val + r.val < 1024 := by omega
  show k1_pay1 (F := Ideal) (iblk1 V c 0 t) (iblk1 V c 1 t) (iblk1 V c 2 t) (iblk1 V c 3 t) (ix2 r j)
    = G V c (((cfg1.win 4).blk t).view.emb (ix2 r j))
  refine (pay_rows (V c main_v0) (V c main_v10) (V c main_v12) (V c main_v5)
    (iblk1 V c 0 t) (iblk1 V c 1 t) (iblk1 V c 2 t) (iblk1 V c 3 t) r j ⟨64 * t.val + r.val, hb⟩
    (fun k => blk0_apply V c t r k ⟨64 * t.val + r.val, hb⟩ rfl) (fun k h => blk1_apply V c t k h)
    (fun h j' => blk2_apply V c t h j') (blk3_apply V c t r ⟨64 * t.val + r.val, hb⟩ rfl)).trans ?_
  refine (G_apply V c _ ⟨64 * t.val + r.val, hb⟩ j ?_ ?_).symm
  · show win1_4.index t (0 : Fin 2) * 64 + 1 * r.val = 64 * t.val + r.val
    rw [e40]; omega
  · show win1_4.index t (1 : Fin 2) * 10000 + 1 * j.val = j.val
    rw [e41]; omega

/-- An index of the result array is in point t's block iff each coordinate is in the block's range on its axis. -/
theorem mem_blk (t : Fin cfg1.N) (i : S1024x10000.Idx) :
    i ∈ ((cfg1.win 4).blk t).view.set ↔ ∀ a : Fin 2, win1_4.index t a * S64x10000.size a ≤ (i a).val ∧ (i a).val < win1_4.index t a * S64x10000.size a + S64x10000.size a := by
  show i ∈ ((View.whole main_v13).slice (win1_4.rect t)).set ↔ _
  rw [View.set_slice_whole, Rect.mem_set_unit]
  exact Iff.rfl

/-- Every entry of the result array is written back by the point that owns its row: row b by point b / 64. -/
theorem cover (i : S1024x10000.Idx) : ∃ t : Fin cfg1.N, (cfg1.win 4).flush t = true ∧ i ∈ ((cfg1.win 4).blk t).view.set := by
  have hi0 : (i 0).val < 1024 := idx2_lt0 i
  have hi1 : (i 1).val < 10000 := idx2_lt1 i
  have hN : cfg1.N = 16 := N_1
  obtain ⟨t, ht⟩ : ∃ t : Fin cfg1.N, t.val = (i 0).val / 64 := ⟨⟨(i 0).val / 64, by rw [hN]; omega⟩, rfl⟩
  obtain ⟨-, -, -, -, -, -, -, -, e40, e41⟩ := idx_facts t
  refine ⟨t, flush1_4 t, ?_⟩
  rw [mem_blk]
  intro a
  match a with
  | ⟨0, _⟩ => show win1_4.index t (0 : Fin 2) * 64 ≤ (i 0).val ∧ (i 0).val < win1_4.index t (0 : Fin 2) * 64 + 64; rw [e40, ht]; omega
  | ⟨1, _⟩ => show win1_4.index t (1 : Fin 2) * 10000 ≤ (i 1).val ∧ (i 1).val < win1_4.index t (1 : Fin 2) * 10000 + 10000; rw [e41]; omega

/-- The result array when the region is left. -/
theorem final (c : Dev nD) : (dat1 (F := Ideal) V c).arrAt 4 cfg1.N = G V c :=
  (dat1 (F := Ideal) V c).arrAt_eq_of_cover 4 (G V c) (fun t _ => flushed_eq V c t) cover

/-- Entry (b, j) of the result array when the region is left, over the entry contents themselves. -/
theorem final_apply (c : Dev nD) (b : Fin 1024) (j : Fin 10000) :
    (Gen.dat1 (F := Ideal) V c).arrAt 4 cfg1.N (ix2 b j) = rowLp (V c main_v0) (V c main_v10) (V c main_v12) (V c main_v5) b j := by
  rw [final]
  rfl

/-- Entry (b, j) of the result array when the region is left: the log-softmax along row b of the features' row against the
    projection against the output weights, plus row b of the head column; the four arrays the region reads named by
    variables of their literal types. -/
theorem final_apply_of (c : Dev nD) (X : FVec Ideal S1024x1024 .bf16) (P : FVec Ideal S1024x512 .bf16) (O : FVec Ideal S512x10000 .bf16)
    (HC : FVec Ideal S1024x1 .f32) (hX : V c main_v0 = X) (hP : V c main_v10 = P) (hO : V c main_v12 = O) (hHC : V c main_v5 = HC)
    (b : Fin 1024) (j : Fin 10000) :
    (Gen.dat1 (F := Ideal) V c).arrAt 4 cfg1.N (ix2 b j)
      = Cert.Spec.lsm (fun j' : Fin 10000 => ∑ h : Fin 512, (∑ k : Fin 1024, X (ix2 b k) * P (ix2 k h)) * O (ix2 h j')) j
        + HC (ix2 b (0 : Fin 1)) := by
  subst hX hP hO hHC
  rw [final_apply]
  rfl

end Cert.KernelIdeal.Reg1

end
-- ==== Proof.KReg2.lean ====
/-
  The second cluster's region: from the region's entry contents to the array it leaves.

  A grid point t owns rows 32·t … 32·t+31. Its block is, row by row, the log-softmax along the row of the features' row
  against the projection (a hidden vector of 256 entries) against the output weights (20000 scores), plus the head
  column's entry of that row.
-/
import proofs.«404181_j77000173683136_1_alg».proof.Proof.Gen.KernelIdeal.Frame
import proofs.«404181_j77000173683136_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)

/-! ## The two products at an entry -/

theorem lhsA_0 (i : S32x256.Idx) (q : dot_S32x1024_S1024x256_S32x256_1_0_0_1_n_n.contr.Idx) :
    (dot_S32x1024_S1024x256_S32x256_1_0_0_1_n_n.lhsIdx i q 0).val = (i 0).val := by
  unfold DotDims.lhsIdx
  rw [dif_neg (show ¬(0 : Fin S32x1024.rank) ∈ dot_S32x1024_S1024x256_S32x256_1_0_0_1_n_n.lhsBatch by decide), dif_pos (show (0 : Fin S32x1024.rank) ∈ dot_S32x1024_S1024x256_S32x256_1_0_0_1_n_n.lhsNonContracting by decide)]
  rfl
theorem lhsA_1 (i : S32x256.Idx) (q : dot_S32x1024_S1024x256_S32x256_1_0_0_1_n_n.contr.Idx) :
    (dot_S32x1024_S1024x256_S32x256_1_0_0_1_n_n.lhsIdx i q 1).val = (q ⟨0, by decide⟩).val :=
  dot_S32x1024_S1024x256_S32x256_1_0_0_1_n_n.lhsIdx_val_of_single rfl i q
theorem rhsA_0 (i : S32x256.Idx) (q : dot_S32x1024_S1024x256_S32x256_1_0_0_1_n_n.contr.Idx) :
    (dot_S32x1024_S1024x256_S32x256_1_0_0_1_n_n.rhsIdx i q 0).val = (q ⟨0, by decide⟩).val :=
  dot_S32x1024_S1024x256_S32x256_1_0_0_1_n_n.rhsIdx_val_of_single rfl i q
theorem rhsA_1 (i : S32x256.Idx) (q : dot_S32x1024_S1024x256_S32x256_1_0_0_1_n_n.contr.Idx) :
    (dot_S32x1024_S1024x256_S32x256_1_0_0_1_n_n.rhsIdx i q 1).val = (i 1).val := by
  unfold DotDims.rhsIdx
  rw [dif_neg (show ¬(1 : Fin S1024x256.rank) ∈ dot_S32x1024_S1024x256_S32x256_1_0_0_1_n_n.rhsBatch by decide), dif_pos (show (1 : Fin S1024x256.rank) ∈ dot_S32x1024_S1024x256_S32x256_1_0_0_1_n_n.rhsNonContracting by decide)]
  rfl

/-- The hidden vector: row r of the features against column h of the projection. -/
theorem mmA_apply (x : FVec Ideal S32x1024 .bf16) (w : FVec Ideal S1024x256 .bf16) (r : Fin 32) (h : Fin 256) :
    matmul dot_S32x1024_S1024x256_S32x256_1_0_0_1_n_n none x w (constant (F := Ideal) S32x256 .f32 0x00000000#32) (ix2 r h)
      = ∑ k : Fin 1024, x (ix2 r k) * w (ix2 k h) := by
  refine (Ideal.matmul_constant_zero_apply dot_S32x1024_S1024x256_S32x256_1_0_0_1_n_n none x w (ix2 r h)).trans ?_
  rw [← Equiv.sum_comp (contrEquiv1 dot_S32x1024_S1024x256_S32x256_1_0_0_1_n_n 1024 rfl rfl).symm]
  refine Finset.sum_congr rfl fun k _ => ?_
  have hk := contrEquiv1_symm_val dot_S32x1024_S1024x256_S32x256_1_0_0_1_n_n 1024 rfl rfl k
  have el : dot_S32x1024_S1024x256_S32x256_1_0_0_1_n_n.lhsIdx (ix2 r h) ((contrEquiv1 dot_S32x1024_S1024x256_S32x256_1_0_0_1_n_n 1024 rfl rfl).symm k) = ix2 r k := funext fun a => Fin.ext (by
    match a with
    | ⟨0, _⟩ => exact lhsA_0 _ _
    | ⟨1, _⟩ => exact (lhsA_1 _ _).trans hk)
  have er : dot_S32x1024_S1024x256_S32x256_1_0_0_1_n_n.rhsIdx (ix2 r h) ((contrEquiv1 dot_S32x1024_S1024x256_S32x256_1_0_0_1_n_n 1024 rfl rfl).symm k) = ix2 k h := funext fun a => Fin.ext (by
    match a with
    | ⟨0, _⟩ => exact (rhsA_0 _ _).trans hk
    | ⟨1, _⟩ => exact rhsA_1 _ _)
  rw [el, er]

theorem lhsB_0 (i : S32x20000.Idx) (q : dot_S32x256_S256x20000_S32x20000_1_0_0_1_n_n.contr.Idx) :
    (dot_S32x256_S256x20000_S32x20000_1_0_0_1_n_n.lhsIdx i q 0).val = (i 0).val := by
  unfold DotDims.lhsIdx
  rw [dif_neg (show ¬(0 : Fin S32x256.rank) ∈ dot_S32x256_S256x20000_S32x20000_1_0_0_1_n_n.lhsBatch by decide), dif_pos (show (0 : Fin S32x256.rank) ∈ dot_S32x256_S256x20000_S32x20000_1_0_0_1_n_n.lhsNonContracting by decide)]
  rfl
theorem lhsB_1 (i : S32x20000.Idx) (q : dot_S32x256_S256x20000_S32x20000_1_0_0_1_n_n.contr.Idx) :
    (dot_S32x256_S256x20000_S32x20000_1_0_0_1_n_n.lhsIdx i q 1).val = (q ⟨0, by decide⟩).val :=
  dot_S32x256_S256x20000_S32x20000_1_0_0_1_n_n.lhsIdx_val_of_single rfl i q
theorem rhsB_0 (i : S32x20000.Idx) (q : dot_S32x256_S256x20000_S32x20000_1_0_0_1_n_n.contr.Idx) :
    (dot_S32x256_S256x20000_S32x20000_1_0_0_1_n_n.rhsIdx i q 0).val = (q ⟨0, by decide⟩).val :=
  dot_S32x256_S256x20000_S32x20000_1_0_0_1_n_n.rhsIdx_val_of_single rfl i q
theorem rhsB_1 (i : S32x20000.Idx) (q : dot_S32x256_S256x20000_S32x20000_1_0_0_1_n_n.contr.Idx) :
    (dot_S32x256_S256x20000_S32x20000_1_0_0_1_n_n.rhsIdx i q 1).val = (i 1).val := by
  unfold DotDims.rhsIdx
  rw [dif_neg (show ¬(1 : Fin S256x20000.rank) ∈ dot_S32x256_S256x20000_S32x20000_1_0_0_1_n_n.rhsBatch by decide), dif_pos (show (1 : Fin S256x20000.rank) ∈ dot_S32x256_S256x20000_S32x20000_1_0_0_1_n_n.rhsNonContracting by decide)]
  rfl

/-- The scores: row r of the hidden block against column j of the output weights. -/
theorem mmB_apply (y : FVec Ideal S32x256 .bf16) (w : FVec Ideal S256x20000 .bf16) (r : Fin 32) (j : Fin 20000) :
    matmul dot_S32x256_S256x20000_S32x20000_1_0_0_1_n_n none y w (constant (F := Ideal) S32x20000 .f32 0x00000000#32) (ix2 r j)
      = ∑ h : Fin 256, y (ix2 r h) * w (ix2 h j) := by
  refine (Ideal.matmul_constant_zero_apply dot_S32x256_S256x20000_S32x20000_1_0_0_1_n_n none y w (ix2 r j)).trans ?_
  rw [← Equiv.sum_comp (contrEquiv1 dot_S32x256_S256x20000_S32x20000_1_0_0_1_n_n 256 rfl rfl).symm]
  refine Finset.sum_congr rfl fun k _ => ?_
  have hk := contrEquiv1_symm_val dot_S32x256_S256x20000_S32x20000_1_0_0_1_n_n 256 rfl rfl k
  have el : dot_S32x256_S256x20000_S32x20000_1_0_0_1_n_n.lhsIdx (ix2 r j) ((contrEquiv1 dot_S32x256_S256x20000_S32x20000_1_0_0_1_n_n 256 rfl rfl).symm k) = ix2 r k := funext fun a => Fin.ext (by
    match a with
    | ⟨0, _⟩ => exact lhsB_0 _ _
    | ⟨1, _⟩ => exact (lhsB_1 _ _).trans hk)
  have er : dot_S32x256_S256x20000_S32x20000_1_0_0_1_n_n.rhsIdx (ix2 r j) ((contrEquiv1 dot_S32x256_S256x20000_S32x20000_1_0_0_1_n_n 256 rfl rfl).symm k) = ix2 k j := funext fun a => Fin.ext (by
    match a with
    | ⟨0, _⟩ => exact (rhsB_0 _ _).trans hk
    | ⟨1, _⟩ => exact rhsB_1 _ _)
  rw [el, er]

/-! ## A row's maximum and sum, the keepdims column and its broadcast along the row -/

/-- The row maximum: the fold of max from −∞ over the row. -/
theorem rowMax_apply (v : FVec Ideal S32x20000 .f32) (hφ : FKind.Formats .f32)
    (hacc : (0xFF800000#32 : BitVec 32) = FKind.maximumf.neutral .f32 hφ) (r : Fin 32) :
    multiReduction (F := Ideal) .maximumf [1] S32 v 0xFF800000#32 reduces_S32x20000_S32 hφ hacc (ix1 r)
      = Cert.Spec.rowMax (fun j : Fin 20000 => v (ix2 r j)) := by
  refine (Ideal.multiReduction_maximumf_single v 0xFF800000#32 reduces_S32x20000_S32 hφ hacc (ix1 r)).trans ?_
  unfold Cert.Spec.rowMax
  show (Finset.univ : Finset (Fin 20000)).fold max (Ideal.ofBits .f32 0xFF800000#32) (fun j : Fin 20000 => v (reduces_S32x20000_S32.lift (ix1 r) j)) = _
  rw [Cert.Spec.ofBits_neg_inf]
  congr 1
  funext j
  refine congrArg v (funext fun a => Fin.ext ?_)
  match a with
  | ⟨0, _⟩ => rfl
  | ⟨1, _⟩ => rfl

/-- The row sum. -/
theorem rowSum_apply (v : FVec Ideal S32x20000 .f32) (hφ : FKind.Formats .f32)
    (hacc : (0x00000000#32 : BitVec 32) = FKind.add.neutral .f32 hφ) (r : Fin 32) :
    multiReduction (F := Ideal) .add [1] S32 v 0x00000000#32 reduces_S32x20000_S32 hφ hacc (ix1 r)
      = ∑ j : Fin 20000, v (ix2 r j) := by
  refine (Ideal.multiReduction_add_single v 0x00000000#32 reduces_S32x20000_S32 hφ hacc (ix1 r)).trans ?_
  show ∑ j : Fin 20000, v (reduces_S32x20000_S32.lift (ix1 r) j) = _
  refine Finset.sum_congr rfl fun j _ => ?_
  refine congrArg v (funext fun a => Fin.ext ?_)
  match a with
  | ⟨0, _⟩ => rfl
  | ⟨1, _⟩ => rfl

/-- A per-row value as a one-entry-wide column. -/
theorem col_apply (u : FVec Ideal S32 .f32) (r : Fin 32) (q : Fin 1) :
    shapeCast S32x1 u shapeCasts_S32_S32x1 (ix2 r q) = u (ix1 r) := by
  refine shapeCast_apply u shapeCasts_S32_S32x1 (ix2 r q) (ix1 r) ?_
  rw [Shape.rowMajor_val_one, Shape.rowMajor_val_two]
  show r.val = r.val * 1 + q.val
  omega

/-- A column spread along the row. -/
theorem spread_apply (w : FVec Ideal S32x1 .f32) (r : Fin 32) (j : Fin 20000) :
    broadcastTo S32x20000 w broadcasts_S32x1_S32x20000 (ix2 r j) = w (ix2 r (0 : Fin 1)) := by
  refine broadcastTo_apply w broadcasts_S32x1_S32x20000 (ix2 r j) (ix2 r (0 : Fin 1)) fun a => ?_
  match a with
  | ⟨0, _⟩ => rfl
  | ⟨1, _⟩ => rfl

/-! ## The body's arithmetic, entry by entry -/

/-- The scores block: the features' block against the projection, then against the output weights. -/
def scores (x0 : FVec Ideal S32x1024 .bf16) (x1 : FVec Ideal S1024x256 .bf16) (x2 : FVec Ideal S256x20000 .bf16) : FVec Ideal S32x20000 .f32 :=
  matmul dot_S32x256_S256x20000_S32x20000_1_0_0_1_n_n none
    (truncf .bf16 (matmul dot_S32x1024_S1024x256_S32x256_1_0_0_1_n_n none x0 x1 (constant (F := Ideal) S32x256 .f32 0x00000000#32)) bitsLt_bf16_f32)
    x2 (constant (F := Ideal) S32x20000 .f32 0x00000000#32)

/-- Row-wise log-softmax of a block as the body takes it: subtract the row maximum, then the logarithm of the row sum of
    the exponentials. -/
def lsmBlock (v : FVec Ideal S32x20000 .f32) : FVec Ideal S32x20000 .f32 :=
  subf
    (subf v (broadcastTo S32x20000 (shapeCast S32x1 (multiReduction (F := Ideal) .maximumf [1] S32 v 0xFF800000#32 reduces_S32x20000_S32 (.inl rfl) rfl) shapeCasts_S32_S32x1) broadcasts_S32x1_S32x20000))
    (broadcastTo S32x20000
      (log (shapeCast S32x1
        (multiReduction (F := Ideal) .add [1] S32
          (exp (subf v (broadcastTo S32x20000 (shapeCast S32x1 (multiReduction (F := Ideal) .maximumf [1] S32 v 0xFF800000#32 reduces_S32x20000_S32 (.inl rfl) rfl) shapeCasts_S32_S32x1) broadcasts_S32x1_S32x20000)))
          0x00000000#32 reduces_S32x20000_S32 (.inl rfl) rfl)
        shapeCasts_S32_S32x1))
      broadcasts_S32x1_S32x20000)

/-- The payload is the log-softmax of the scores plus the head column spread along the row (identity shape casts dropped). -/
theorem pay_eq (x0 : Vec Ideal S32x1024 .bf16) (x1 : Vec Ideal S1024x256 .bf16) (x2 : Vec Ideal S256x20000 .bf16) (x3 : Vec Ideal S32x1 .f32) :
    k2_pay1 (F := Ideal) x0 x1 x2 x3 = addf (lsmBlock (scores x0 x1 x2)) (broadcastTo S32x20000 x3 broadcasts_S32x1_S32x20000) := by
  unfold k2_pay1 lsmBlock scores
  simp only [shapeCast_self]

/-- An entry of the scores block. -/
theorem scores_apply (x0 : FVec Ideal S32x1024 .bf16) (x1 : FVec Ideal S1024x256 .bf16) (x2 : FVec Ideal S256x20000 .bf16) (r : Fin 32) (j : Fin 20000) :
    scores x0 x1 x2 (ix2 r j) = ∑ h : Fin 256, (∑ k : Fin 1024, x0 (ix2 r k) * x1 (ix2 k h)) * x2 (ix2 h j) := by
  unfold scores
  refine (mmB_apply _ x2 r j).trans ?_
  refine Finset.sum_congr rfl fun h _ => ?_
  refine congrArg (· * x2 (ix2 h j)) ?_
  exact mmA_apply x0 x1 r h

/-- The logarithm and the exponential of a block, at an entry. -/
theorem log_at {s : Shape} (w : FVec Ideal s .f32) (i : s.Idx) : log w i = Ideal.log (w i) := rfl
theorem exp_at {s : Shape} (w : FVec Ideal s .f32) (i : s.Idx) : exp w i = Ideal.exp (w i) := rfl

/-- An entry of the block's log-softmax is the row's log-softmax at that entry. -/
theorem lsmBlock_apply (v : FVec Ideal S32x20000 .f32) (r : Fin 32) (j : Fin 20000) :
    lsmBlock v (ix2 r j) = Cert.Spec.lsm (fun j' : Fin 20000 => v (ix2 r j')) j := by
  have hM : ∀ j' : Fin 20000, broadcastTo S32x20000 (shapeCast S32x1 (multiReduction (F := Ideal) .maximumf [1] S32 v 0xFF800000#32 reduces_S32x20000_S32 (.inl rfl) rfl) shapeCasts_S32_S32x1) broadcasts_S32x1_S32x20000 (ix2 r j')
      = Cert.Spec.rowMax (fun j' : Fin 20000 => v (ix2 r j')) := fun j' =>
    (spread_apply _ r j').trans ((col_apply _ r 0).trans (rowMax_apply v (.inl rfl) rfl r))
  have hS : ∀ k : Fin 20000, exp (subf v (broadcastTo S32x20000 (shapeCast S32x1 (multiReduction (F := Ideal) .maximumf [1] S32 v 0xFF800000#32 reduces_S32x20000_S32 (.inl rfl) rfl) shapeCasts_S32_S32x1) broadcasts_S32x1_S32x20000)) (ix2 r k)
      = Ideal.exp (v (ix2 r k) - Cert.Spec.rowMax (fun j' : Fin 20000 => v (ix2 r j'))) := fun k =>
    (exp_at _ _).trans (congrArg Ideal.exp ((subf_apply _ _ _).trans (congrArg (fun z => v (ix2 r k) - z) (hM k))))
  unfold lsmBlock Cert.Spec.lsm
  refine (subf_apply _ _ _).trans ?_
  refine congrArg₂ (fun a z => a - z) ((subf_apply _ _ _).trans (congrArg (fun z => v (ix2 r j) - z) (hM j))) ?_
  refine (spread_apply _ r j).trans ((log_at _ _).trans (congrArg Ideal.log ?_))
  refine (col_apply _ r 0).trans ((rowSum_apply _ (.inl rfl) rfl r).trans ?_)
  exact Finset.sum_congr rfl fun k _ => hS k

/-- The payload at an entry: the row's log-softmax of the scores plus the row's head-column entry. -/
theorem pay_apply (x0 : Vec Ideal S32x1024 .bf16) (x1 : Vec Ideal S1024x256 .bf16) (x2 : Vec Ideal S256x20000 .bf16) (x3 : Vec Ideal S32x1 .f32)
    (r : Fin 32) (j : Fin 20000) :
    k2_pay1 (F := Ideal) x0 x1 x2 x3 (ix2 r j)
      = Cert.Spec.lsm (fun j' : Fin 20000 => ∑ h : Fin 256, (∑ k : Fin 1024, x0 (ix2 r k) * x1 (ix2 k h)) * x2 (ix2 h j')) j
        + x3 (ix2 r (0 : Fin 1)) := by
  rw [pay_eq]
  refine (addf_apply _ _ _).trans ?_
  refine congrArg₂ (fun a z => a + z) ((lsmBlock_apply _ r j).trans ?_) (spread_apply x3 r j)
  refine congrArg (fun z => Cert.Spec.lsm z j) ?_
  funext j'
  exact scores_apply x0 x1 x2 r j'

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Entry (b, j) of the result from whole arrays: the log-softmax along row b of the features' row against the projection
    against the output weights, plus row b of the head column. -/
def rowLp (A0 : Vec Ideal S1024x1024 .bf16) (A1 : Vec Ideal S1024x256 .bf16) (A2 : Vec Ideal S256x20000 .bf16) (A3 : Vec Ideal S1024x1 .f32)
    (b : Fin 1024) (j : Fin 20000) : EReal :=
  Cert.Spec.lsm (fun j' : Fin 20000 => ∑ h : Fin 256, (∑ k : Fin 1024, A0 (ix2 b k) * A1 (ix2 k h)) * A2 (ix2 h j')) j
    + A3 (ix2 b (0 : Fin 1))

/-- A block of 32 rows of the result is the body's payload of: those rows of the features and of the head column, the whole
    projection, the whole output weights. -/
theorem pay_rows (A0 : Vec Ideal S1024x1024 .bf16) (A1 : Vec Ideal S1024x256 .bf16) (A2 : Vec Ideal S256x20000 .bf16) (A3 : Vec Ideal S1024x1 .f32)
    (x0 : Vec Ideal S32x1024 .bf16) (x1 : Vec Ideal S1024x256 .bf16) (x2 : Vec Ideal S256x20000 .bf16) (x3 : Vec Ideal S32x1 .f32)
    (r : Fin 32) (j : Fin 20000) (b : Fin 1024)
    (h0 : ∀ k : Fin 1024, x0 (ix2 r k) = A0 (ix2 b k)) (h1 : ∀ (k : Fin 1024) (h : Fin 256), x1 (ix2 k h) = A1 (ix2 k h))
    (h2 : ∀ (h : Fin 256) (j' : Fin 20000), x2 (ix2 h j') = A2 (ix2 h j')) (h3 : x3 (ix2 r (0 : Fin 1)) = A3 (ix2 b (0 : Fin 1))) :
    k2_pay1 (F := Ideal) x0 x1 x2 x3 (ix2 r j) = rowLp A0 A1 A2 A3 b j := by
  rw [pay_apply, h3]
  unfold rowLp
  refine congrArg (fun z => Cert.Spec.lsm z j + A3 (ix2 b (0 : Fin 1))) ?_
  funext j'
  refine Finset.sum_congr rfl fun h _ => ?_
  rw [h2 h j']
  refine congrArg (· * A2 (ix2 h j')) ?_
  refine Finset.sum_congr rfl fun k _ => ?_
  rw [h0 k, h1 k h]

/-- The printed index maps over the grid: the features', the head column's and the result's blocks move with the point
    along the rows; the projection and the output weights are whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What the region leaves in its result array. -/
def G (c : Dev nD) : S1024x20000.Idx → EReal := fun i =>
  rowLp (V c main_v0) (V c main_v15) (V c main_v17) (V c main_v6) ⟨(i 0).val, idx2_lt0 i⟩ ⟨(i 1).val, idx2_lt1 i⟩

/-- G at an index with the given coordinates. -/
theorem G_apply (c : Dev nD) (i : S1024x20000.Idx) (b : Fin 1024) (j : Fin 20000) (h0 : (i 0).val = b.val) (h1 : (i 1).val = j.val) :
    G V c i = rowLp (V c main_v0) (V c main_v15) (V c main_v17) (V c main_v6) b j := by
  have e0 : (⟨(i 0).val, idx2_lt0 i⟩ : Fin 1024) = b := Fin.ext h0
  have e1 : (⟨(i 1).val, idx2_lt1 i⟩ : Fin 20000) = j := Fin.ext h1
  unfold G
  rw [e0, e1]

/-- The features' block at point t is rows 32·t … 32·t+31 of the features. -/
theorem blk0_apply (c : Dev nD) (t : Fin cfg2.N) (r : Fin 32) (k : Fin 1024) (b : Fin 1024) (hb : b.val = 32 * t.val + r.val) :
    (iblk2 V c 0 t : Vec Ideal S32x1024 .bf16) (ix2 r k) = (V c main_v0 : Vec Ideal S1024x1024 .bf16) (ix2 b k) := by
  obtain ⟨e0, e1, -⟩ := idx_facts t
  unfold iblk2
  rw [View.read_apply]
  show (V c main_v0 : Vec Ideal S1024x1024 .bf16) _ = _
  refine congrArg (V c main_v0 : Vec Ideal S1024x1024 .bf16) (funext fun a => Fin.ext ?_)
  match a with
  | ⟨0, _⟩ => show win2_0.index t (0 : Fin 2) * 32 + 1 * r.val = b.val; rw [e0, hb]; omega
  | ⟨1, _⟩ => show win2_0.index t (1 : Fin 2) * 1024 + 1 * k.val = k.val; rw [e1]; omega

/-- The projection's block is the whole projection. -/
theorem blk1_apply (c : Dev nD) (t : Fin cfg2.N) (k : Fin 1024) (h : Fin 256) :
    (iblk2 V c 1 t : Vec Ideal S1024x256 .bf16) (ix2 k h) = (V c main_v15 : Vec Ideal S1024x256 .bf16) (ix2 k h) := by
  obtain ⟨-, -, e0, e1, -⟩ := idx_facts t
  unfold iblk2
  rw [View.read_apply]
  show (V c main_v15 : Vec Ideal S1024x256 .bf16) _ = _
  refine congrArg (V c main_v15 : Vec Ideal S1024x256 .bf16) (funext fun a => Fin.ext ?_)
  match a with
  | ⟨0, _⟩ => show win2_1.index t (0 : Fin 2) * 1024 + 1 * k.val = k.val; rw [e0]; omega
  | ⟨1, _⟩ => show win2_1.index t (1 : Fin 2) * 256 + 1 * h.val = h.val; rw [e1]; omega

/-- The output weights' block is the whole array. -/
theorem blk2_apply (c : Dev nD) (t : Fin cfg2.N) (h : Fin 256) (j : Fin 20000) :
    (iblk2 V c 2 t : Vec Ideal S256x20000 .bf16) (ix2 h j) = (V c main_v17 : Vec Ideal S256x20000 .bf16) (ix2 h j) := by
  obtain ⟨-, -, -, -, e0, e1, -⟩ := idx_facts t
  unfold iblk2
  rw [View.read_apply]
  show (V c main_v17 : Vec Ideal S256x20000 .bf16) _ = _
  refine congrArg (V c main_v17 : Vec Ideal S256x20000 .bf16) (funext fun a => Fin.ext ?_)
  match a with
  | ⟨0, _⟩ => show win2_2.index t (0 : Fin 2) * 256 + 1 * h.val = h.val; rw [e0]; omega
  | ⟨1, _⟩ => show win2_2.index t (1 : Fin 2) * 20000 + 1 * j.val = j.val; rw [e1]; omega

/-- The head column's block at point t is rows 32·t … 32·t+31 of the column. -/
theorem blk3_apply (c : Dev nD) (t : Fin cfg2.N) (r : Fin 32) (b : Fin 1024) (hb : b.val = 32 * t.val + r.val) :
    (iblk2 V c 3 t : Vec Ideal S32x1 .f32) (ix2 r (0 : Fin 1)) = (V c main_v6 : Vec Ideal S1024x1 .f32) (ix2 b (0 : Fin 1)) := by
  obtain ⟨-, -, -, -, -, -, e0, e1, -⟩ := idx_facts t
  unfold iblk2
  rw [View.read_apply]
  show (V c main_v6 : Vec Ideal S1024x1 .f32) _ = _
  refine congrArg (V c main_v6 : Vec Ideal S1024x1 .f32) (funext fun a => Fin.ext ?_)
  match a with
  | ⟨0, _⟩ => show win2_3.index t (0 : Fin 2) * 32 + 1 * r.val = b.val; rw [e0, hb]; omega
  | ⟨1, _⟩ => show win2_3.index t (1 : Fin 2) * 1 + 1 * (0 : Fin 1).val = (0 : Fin 1).val; rw [e1]; rfl

/-- Point t writes back rows 32·t … 32·t+31 of G. -/
theorem flushed_eq (c : Dev nD) (t : Fin cfg2.N) :
    (dat2 (F := Ideal) V c).flushed 4 t = ((cfg2.win 4).blk t).view.read (Elt Ideal) (G V c) := by
  show (cfg2.win 4).cut (grid2.coords t) ((dat2 (F := Ideal) V c).after 4 t) = _
  rw [after2_4]
  unfold out2_4
  rw [View.canon_unit_zero hz]
  simp only [View.ld_unit_zero (S := S32x1024) hz, View.ld_unit_zero (S := S1024x256) hz, View.ld_unit_zero (S := S256x20000) hz, View.ld_unit_zero (S := S32x1) hz]
  obtain ⟨e00, e01, e10, e11, e20, e21, e30, e31, e40, e41⟩ := idx_facts t
  have hN : cfg2.N = 32 := N_2
  have ht : t.val < 32 := hN ▸ t.isLt
  funext y
  obtain ⟨r, j, rfl⟩ : ∃ (r : Fin 32) (j : Fin 20000), y = ix2 r j := ⟨y 0, y 1, eq_ix2 y⟩
  have hb : 32 * t.val + r.val < 1024 := by omega
  show k2_pay1 (F := Ideal) (iblk2 V c 0 t) (iblk2 V c 1 t) (iblk2 V c 2 t) (iblk2 V c 3 t) (ix2 r j)
    = G V c (((cfg2.win 4).blk t).view.emb (ix2 r j))
  refine (pay_rows (V c main_v0) (V c main_v15) (V c main_v17) (V c main_v6)
    (iblk2 V c 0 t) (iblk2 V c 1 t) (iblk2 V c 2 t) (iblk2 V c 3 t) r j ⟨32 * t.val + r.val, hb⟩
    (fun k => blk0_apply V c t r k ⟨32 * t.val + r.val, hb⟩ rfl) (fun k h => blk1_apply V c t k h)
    (fun h j' => blk2_apply V c t h j') (blk3_apply V c t r ⟨32 * t.val + r.val, hb⟩ rfl)).trans ?_
  refine (G_apply V c _ ⟨32 * t.val + r.val, hb⟩ j ?_ ?_).symm
  · show win2_4.index t (0 : Fin 2) * 32 + 1 * r.val = 32 * t.val + r.val
    rw [e40]; omega
  · show win2_4.index t (1 : Fin 2) * 20000 + 1 * j.val = j.val
    rw [e41]; omega

/-- An index of the result array is in point t's block iff each coordinate is in the block's range on its axis. -/
theorem mem_blk (t : Fin cfg2.N) (i : S1024x20000.Idx) :
    i ∈ ((cfg2.win 4).blk t).view.set ↔ ∀ a : Fin 2, win2_4.index t a * S32x20000.size a ≤ (i a).val ∧ (i a).val < win2_4.index t a * S32x20000.size a + S32x20000.size a := by
  show i ∈ ((View.whole main_v18).slice (win2_4.rect t)).set ↔ _
  rw [View.set_slice_whole, Rect.mem_set_unit]
  exact Iff.rfl

/-- Every entry of the result array is written back by the point that owns its row: row b by point b / 32. -/
theorem cover (i : S1024x20000.Idx) : ∃ t : Fin cfg2.N, (cfg2.win 4).flush t = true ∧ i ∈ ((cfg2.win 4).blk t).view.set := by
  have hi0 : (i 0).val < 1024 := idx2_lt0 i
  have hi1 : (i 1).val < 20000 := idx2_lt1 i
  have hN : cfg2.N = 32 := N_2
  obtain ⟨t, ht⟩ : ∃ t : Fin cfg2.N, t.val = (i 0).val / 32 := ⟨⟨(i 0).val / 32, by rw [hN]; omega⟩, rfl⟩
  obtain ⟨-, -, -, -, -, -, -, -, e40, e41⟩ := idx_facts t
  refine ⟨t, flush2_4 t, ?_⟩
  rw [mem_blk]
  intro a
  match a with
  | ⟨0, _⟩ => show win2_4.index t (0 : Fin 2) * 32 ≤ (i 0).val ∧ (i 0).val < win2_4.index t (0 : Fin 2) * 32 + 32; rw [e40, ht]; omega
  | ⟨1, _⟩ => show win2_4.index t (1 : Fin 2) * 20000 ≤ (i 1).val ∧ (i 1).val < win2_4.index t (1 : Fin 2) * 20000 + 20000; rw [e41]; omega

/-- The result array when the region is left. -/
theorem final (c : Dev nD) : (dat2 (F := Ideal) V c).arrAt 4 cfg2.N = G V c :=
  (dat2 (F := Ideal) V c).arrAt_eq_of_cover 4 (G V c) (fun t _ => flushed_eq V c t) cover

/-- Entry (b, j) of the result array when the region is left, over the entry contents themselves. -/
theorem final_apply (c : Dev nD) (b : Fin 1024) (j : Fin 20000) :
    (Gen.dat2 (F := Ideal) V c).arrAt 4 cfg2.N (ix2 b j) = rowLp (V c main_v0) (V c main_v15) (V c main_v17) (V c main_v6) b j := by
  rw [final]
  rfl

/-- Entry (b, j) of the result array when the region is left: the log-softmax along row b of the features' row against the
    projection against the output weights, plus row b of the head column; the four arrays the region reads named by
    variables of their literal types. -/
theorem final_apply_of (c : Dev nD) (X : FVec Ideal S1024x1024 .bf16) (P : FVec Ideal S1024x256 .bf16) (O : FVec Ideal S256x20000 .bf16)
    (HC : FVec Ideal S1024x1 .f32) (hX : V c main_v0 = X) (hP : V c main_v15 = P) (hO : V c main_v17 = O) (hHC : V c main_v6 = HC)
    (b : Fin 1024) (j : Fin 20000) :
    (Gen.dat2 (F := Ideal) V c).arrAt 4 cfg2.N (ix2 b j)
      = Cert.Spec.lsm (fun j' : Fin 20000 => ∑ h : Fin 256, (∑ k : Fin 1024, X (ix2 b k) * P (ix2 k h)) * O (ix2 h j')) j
        + HC (ix2 b (0 : Fin 1)) := by
  subst hX hP hO hHC
  rw [final_apply]
  rfl

end Cert.KernelIdeal.Reg2

end
-- ==== Proof.KReg3.lean ====
/-
  The third cluster's region: from the region's entry contents to the array it leaves.

  A grid point t owns rows 16·t … 16·t+15. Its block is, row by row, the log-softmax along the row of the features' row
  against the projection (a hidden vector of 128 entries) against the output weights (40000 scores), plus the head
  column's entry of that row.
-/
import proofs.«404181_j77000173683136_1_alg».proof.Proof.Gen.KernelIdeal.Frame
import proofs.«404181_j77000173683136_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg3

open Cert.KernelIdeal Cert.KernelIdeal.Gen Idealize.ShloMosaic Idealize.ShloMosaic.TcCoe Idealize.SL.Sem
open Idealize.ShloMosaic.ValueIdx
open Idealize.ShloMosaic.Pipeline (Dat)

/-! ## The two products at an entry -/

theorem lhsA_0 (i : S16x128.Idx) (q : dot_S16x1024_S1024x128_S16x128_1_0_0_1_n_n.contr.Idx) :
    (dot_S16x1024_S1024x128_S16x128_1_0_0_1_n_n.lhsIdx i q 0).val = (i 0).val := by
  unfold DotDims.lhsIdx
  rw [dif_neg (show ¬(0 : Fin S16x1024.rank) ∈ dot_S16x1024_S1024x128_S16x128_1_0_0_1_n_n.lhsBatch by decide), dif_pos (show (0 : Fin S16x1024.rank) ∈ dot_S16x1024_S1024x128_S16x128_1_0_0_1_n_n.lhsNonContracting by decide)]
  rfl
theorem lhsA_1 (i : S16x128.Idx) (q : dot_S16x1024_S1024x128_S16x128_1_0_0_1_n_n.contr.Idx) :
    (dot_S16x1024_S1024x128_S16x128_1_0_0_1_n_n.lhsIdx i q 1).val = (q ⟨0, by decide⟩).val :=
  dot_S16x1024_S1024x128_S16x128_1_0_0_1_n_n.lhsIdx_val_of_single rfl i q
theorem rhsA_0 (i : S16x128.Idx) (q : dot_S16x1024_S1024x128_S16x128_1_0_0_1_n_n.contr.Idx) :
    (dot_S16x1024_S1024x128_S16x128_1_0_0_1_n_n.rhsIdx i q 0).val = (q ⟨0, by decide⟩).val :=
  dot_S16x1024_S1024x128_S16x128_1_0_0_1_n_n.rhsIdx_val_of_single rfl i q
theorem rhsA_1 (i : S16x128.Idx) (q : dot_S16x1024_S1024x128_S16x128_1_0_0_1_n_n.contr.Idx) :
    (dot_S16x1024_S1024x128_S16x128_1_0_0_1_n_n.rhsIdx i q 1).val = (i 1).val := by
  unfold DotDims.rhsIdx
  rw [dif_neg (show ¬(1 : Fin S1024x128.rank) ∈ dot_S16x1024_S1024x128_S16x128_1_0_0_1_n_n.rhsBatch by decide), dif_pos (show (1 : Fin S1024x128.rank) ∈ dot_S16x1024_S1024x128_S16x128_1_0_0_1_n_n.rhsNonContracting by decide)]
  rfl

/-- The hidden vector: row r of the features against column h of the projection. -/
theorem mmA_apply (x : FVec Ideal S16x1024 .bf16) (w : FVec Ideal S1024x128 .bf16) (r : Fin 16) (h : Fin 128) :
    matmul dot_S16x1024_S1024x128_S16x128_1_0_0_1_n_n none x w (constant (F := Ideal) S16x128 .f32 0x00000000#32) (ix2 r h)
      = ∑ k : Fin 1024, x (ix2 r k) * w (ix2 k h) := by
  refine (Ideal.matmul_constant_zero_apply dot_S16x1024_S1024x128_S16x128_1_0_0_1_n_n none x w (ix2 r h)).trans ?_
  rw [← Equiv.sum_comp (contrEquiv1 dot_S16x1024_S1024x128_S16x128_1_0_0_1_n_n 1024 rfl rfl).symm]
  refine Finset.sum_congr rfl fun k _ => ?_
  have hk := contrEquiv1_symm_val dot_S16x1024_S1024x128_S16x128_1_0_0_1_n_n 1024 rfl rfl k
  have el : dot_S16x1024_S1024x128_S16x128_1_0_0_1_n_n.lhsIdx (ix2 r h) ((contrEquiv1 dot_S16x1024_S1024x128_S16x128_1_0_0_1_n_n 1024 rfl rfl).symm k) = ix2 r k := funext fun a => Fin.ext (by
    match a with
    | ⟨0, _⟩ => exact lhsA_0 _ _
    | ⟨1, _⟩ => exact (lhsA_1 _ _).trans hk)
  have er : dot_S16x1024_S1024x128_S16x128_1_0_0_1_n_n.rhsIdx (ix2 r h) ((contrEquiv1 dot_S16x1024_S1024x128_S16x128_1_0_0_1_n_n 1024 rfl rfl).symm k) = ix2 k h := funext fun a => Fin.ext (by
    match a with
    | ⟨0, _⟩ => exact (rhsA_0 _ _).trans hk
    | ⟨1, _⟩ => exact rhsA_1 _ _)
  rw [el, er]

theorem lhsB_0 (i : S16x40000.Idx) (q : dot_S16x128_S128x40000_S16x40000_1_0_0_1_n_n.contr.Idx) :
    (dot_S16x128_S128x40000_S16x40000_1_0_0_1_n_n.lhsIdx i q 0).val = (i 0).val := by
  unfold DotDims.lhsIdx
  rw [dif_neg (show ¬(0 : Fin S16x128.rank) ∈ dot_S16x128_S128x40000_S16x40000_1_0_0_1_n_n.lhsBatch by decide), dif_pos (show (0 : Fin S16x128.rank) ∈ dot_S16x128_S128x40000_S16x40000_1_0_0_1_n_n.lhsNonContracting by decide)]
  rfl
theorem lhsB_1 (i : S16x40000.Idx) (q : dot_S16x128_S128x40000_S16x40000_1_0_0_1_n_n.contr.Idx) :
    (dot_S16x128_S128x40000_S16x40000_1_0_0_1_n_n.lhsIdx i q 1).val = (q ⟨0, by decide⟩).val :=
  dot_S16x128_S128x40000_S16x40000_1_0_0_1_n_n.lhsIdx_val_of_single rfl i q
theorem rhsB_0 (i : S16x40000.Idx) (q : dot_S16x128_S128x40000_S16x40000_1_0_0_1_n_n.contr.Idx) :
    (dot_S16x128_S128x40000_S16x40000_1_0_0_1_n_n.rhsIdx i q 0).val = (q ⟨0, by decide⟩).val :=
  dot_S16x128_S128x40000_S16x40000_1_0_0_1_n_n.rhsIdx_val_of_single rfl i q
theorem rhsB_1 (i : S16x40000.Idx) (q : dot_S16x128_S128x40000_S16x40000_1_0_0_1_n_n.contr.Idx) :
    (dot_S16x128_S128x40000_S16x40000_1_0_0_1_n_n.rhsIdx i q 1).val = (i 1).val := by
  unfold DotDims.rhsIdx
  rw [dif_neg (show ¬(1 : Fin S128x40000.rank) ∈ dot_S16x128_S128x40000_S16x40000_1_0_0_1_n_n.rhsBatch by decide), dif_pos (show (1 : Fin S128x40000.rank) ∈ dot_S16x128_S128x40000_S16x40000_1_0_0_1_n_n.rhsNonContracting by decide)]
  rfl

/-- The scores: row r of the hidden block against column j of the output weights. -/
theorem mmB_apply (y : FVec Ideal S16x128 .bf16) (w : FVec Ideal S128x40000 .bf16) (r : Fin 16) (j : Fin 40000) :
    matmul dot_S16x128_S128x40000_S16x40000_1_0_0_1_n_n none y w (constant (F := Ideal) S16x40000 .f32 0x00000000#32) (ix2 r j)
      = ∑ h : Fin 128, y (ix2 r h) * w (ix2 h j) := by
  refine (Ideal.matmul_constant_zero_apply dot_S16x128_S128x40000_S16x40000_1_0_0_1_n_n none y w (ix2 r j)).trans ?_
  rw [← Equiv.sum_comp (contrEquiv1 dot_S16x128_S128x40000_S16x40000_1_0_0_1_n_n 128 rfl rfl).symm]
  refine Finset.sum_congr rfl fun k _ => ?_
  have hk := contrEquiv1_symm_val dot_S16x128_S128x40000_S16x40000_1_0_0_1_n_n 128 rfl rfl k
  have el : dot_S16x128_S128x40000_S16x40000_1_0_0_1_n_n.lhsIdx (ix2 r j) ((contrEquiv1 dot_S16x128_S128x40000_S16x40000_1_0_0_1_n_n 128 rfl rfl).symm k) = ix2 r k := funext fun a => Fin.ext (by
    match a with
    | ⟨0, _⟩ => exact lhsB_0 _ _
    | ⟨1, _⟩ => exact (lhsB_1 _ _).trans hk)
  have er : dot_S16x128_S128x40000_S16x40000_1_0_0_1_n_n.rhsIdx (ix2 r j) ((contrEquiv1 dot_S16x128_S128x40000_S16x40000_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-! ## A row's maximum and sum, the keepdims column and its broadcast along the row -/

/-- The row maximum: the fold of max from −∞ over the row. -/
theorem rowMax_apply (v : FVec Ideal S16x40000 .f32) (hφ : FKind.Formats .f32)
    (hacc : (0xFF800000#32 : BitVec 32) = FKind.maximumf.neutral .f32 hφ) (r : Fin 16) :
    multiReduction (F := Ideal) .maximumf [1] S16 v 0xFF800000#32 reduces_S16x40000_S16 hφ hacc (ix1 r)
      = Cert.Spec.rowMax (fun j : Fin 40000 => v (ix2 r j)) := by
  refine (Ideal.multiReduction_maximumf_single v 0xFF800000#32 reduces_S16x40000_S16 hφ hacc (ix1 r)).trans ?_
  unfold Cert.Spec.rowMax
  show (Finset.univ : Finset (Fin 40000)).fold max (Ideal.ofBits .f32 0xFF800000#32) (fun j : Fin 40000 => v (reduces_S16x40000_S16.lift (ix1 r) j)) = _
  rw [Cert.Spec.ofBits_neg_inf]
  congr 1
  funext j
  refine congrArg v (funext fun a => Fin.ext ?_)
  match a with
  | ⟨0, _⟩ => rfl
  | ⟨1, _⟩ => rfl

/-- The row sum. -/
theorem rowSum_apply (v : FVec Ideal S16x40000 .f32) (hφ : FKind.Formats .f32)
    (hacc : (0x00000000#32 : BitVec 32) = FKind.add.neutral .f32 hφ) (r : Fin 16) :
    multiReduction (F := Ideal) .add [1] S16 v 0x00000000#32 reduces_S16x40000_S16 hφ hacc (ix1 r)
      = ∑ j : Fin 40000, v (ix2 r j) := by
  refine (Ideal.multiReduction_add_single v 0x00000000#32 reduces_S16x40000_S16 hφ hacc (ix1 r)).trans ?_
  show ∑ j : Fin 40000, v (reduces_S16x40000_S16.lift (ix1 r) j) = _
  refine Finset.sum_congr rfl fun j _ => ?_
  refine congrArg v (funext fun a => Fin.ext ?_)
  match a with
  | ⟨0, _⟩ => rfl
  | ⟨1, _⟩ => rfl

/-- A per-row value as a one-entry-wide column. -/
theorem col_apply (u : FVec Ideal S16 .f32) (r : Fin 16) (q : Fin 1) :
    shapeCast S16x1 u shapeCasts_S16_S16x1 (ix2 r q) = u (ix1 r) := by
  refine shapeCast_apply u shapeCasts_S16_S16x1 (ix2 r q) (ix1 r) ?_
  rw [Shape.rowMajor_val_one, Shape.rowMajor_val_two]
  show r.val = r.val * 1 + q.val
  omega

/-- A column spread along the row. -/
theorem spread_apply (w : FVec Ideal S16x1 .f32) (r : Fin 16) (j : Fin 40000) :
    broadcastTo S16x40000 w broadcasts_S16x1_S16x40000 (ix2 r j) = w (ix2 r (0 : Fin 1)) := by
  refine broadcastTo_apply w broadcasts_S16x1_S16x40000 (ix2 r j) (ix2 r (0 : Fin 1)) fun a => ?_
  match a with
  | ⟨0, _⟩ => rfl
  | ⟨1, _⟩ => rfl

/-! ## The body's arithmetic, entry by entry -/

/-- The scores block: the features' block against the projection, then against the output weights. -/
def scores (x0 : FVec Ideal S16x1024 .bf16) (x1 : FVec Ideal S1024x128 .bf16) (x2 : FVec Ideal S128x40000 .bf16) : FVec Ideal S16x40000 .f32 :=
  matmul dot_S16x128_S128x40000_S16x40000_1_0_0_1_n_n none
    (truncf .bf16 (matmul dot_S16x1024_S1024x128_S16x128_1_0_0_1_n_n none x0 x1 (constant (F := Ideal) S16x128 .f32 0x00000000#32)) bitsLt_bf16_f32)
    x2 (constant (F := Ideal) S16x40000 .f32 0x00000000#32)

/-- Row-wise log-softmax of a block as the body takes it: subtract the row maximum, then the logarithm of the row sum of
    the exponentials. -/
def lsmBlock (v : FVec Ideal S16x40000 .f32) : FVec Ideal S16x40000 .f32 :=
  subf
    (subf v (broadcastTo S16x40000 (shapeCast S16x1 (multiReduction (F := Ideal) .maximumf [1] S16 v 0xFF800000#32 reduces_S16x40000_S16 (.inl rfl) rfl) shapeCasts_S16_S16x1) broadcasts_S16x1_S16x40000))
    (broadcastTo S16x40000
      (log (shapeCast S16x1
        (multiReduction (F := Ideal) .add [1] S16
          (exp (subf v (broadcastTo S16x40000 (shapeCast S16x1 (multiReduction (F := Ideal) .maximumf [1] S16 v 0xFF800000#32 reduces_S16x40000_S16 (.inl rfl) rfl) shapeCasts_S16_S16x1) broadcasts_S16x1_S16x40000)))
          0x00000000#32 reduces_S16x40000_S16 (.inl rfl) rfl)
        shapeCasts_S16_S16x1))
      broadcasts_S16x1_S16x40000)

/-- The payload is the log-softmax of the scores plus the head column spread along the row (identity shape casts dropped). -/
theorem pay_eq (x0 : Vec Ideal S16x1024 .bf16) (x1 : Vec Ideal S1024x128 .bf16) (x2 : Vec Ideal S128x40000 .bf16) (x3 : Vec Ideal S16x1 .f32) :
    k3_pay1 (F := Ideal) x0 x1 x2 x3 = addf (lsmBlock (scores x0 x1 x2)) (broadcastTo S16x40000 x3 broadcasts_S16x1_S16x40000) := by
  unfold k3_pay1 lsmBlock scores
  simp only [shapeCast_self]

/-- An entry of the scores block. -/
theorem scores_apply (x0 : FVec Ideal S16x1024 .bf16) (x1 : FVec Ideal S1024x128 .bf16) (x2 : FVec Ideal S128x40000 .bf16) (r : Fin 16) (j : Fin 40000) :
    scores x0 x1 x2 (ix2 r j) = ∑ h : Fin 128, (∑ k : Fin 1024, x0 (ix2 r k) * x1 (ix2 k h)) * x2 (ix2 h j) := by
  unfold scores
  refine (mmB_apply _ x2 r j).trans ?_
  refine Finset.sum_congr rfl fun h _ => ?_
  refine congrArg (· * x2 (ix2 h j)) ?_
  exact mmA_apply x0 x1 r h

/-- The logarithm and the exponential of a block, at an entry. -/
theorem log_at {s : Shape} (w : FVec Ideal s .f32) (i : s.Idx) : log w i = Ideal.log (w i) := rfl
theorem exp_at {s : Shape} (w : FVec Ideal s .f32) (i : s.Idx) : exp w i = Ideal.exp (w i) := rfl

/-- An entry of the block's log-softmax is the row's log-softmax at that entry. -/
theorem lsmBlock_apply (v : FVec Ideal S16x40000 .f32) (r : Fin 16) (j : Fin 40000) :
    lsmBlock v (ix2 r j) = Cert.Spec.lsm (fun j' : Fin 40000 => v (ix2 r j')) j := by
  have hM : ∀ j' : Fin 40000, broadcastTo S16x40000 (shapeCast S16x1 (multiReduction (F := Ideal) .maximumf [1] S16 v 0xFF800000#32 reduces_S16x40000_S16 (.inl rfl) rfl) shapeCasts_S16_S16x1) broadcasts_S16x1_S16x40000 (ix2 r j')
      = Cert.Spec.rowMax (fun j' : Fin 40000 => v (ix2 r j')) := fun j' =>
    (spread_apply _ r j').trans ((col_apply _ r 0).trans (rowMax_apply v (.inl rfl) rfl r))
  have hS : ∀ k : Fin 40000, exp (subf v (broadcastTo S16x40000 (shapeCast S16x1 (multiReduction (F := Ideal) .maximumf [1] S16 v 0xFF800000#32 reduces_S16x40000_S16 (.inl rfl) rfl) shapeCasts_S16_S16x1) broadcasts_S16x1_S16x40000)) (ix2 r k)
      = Ideal.exp (v (ix2 r k) - Cert.Spec.rowMax (fun j' : Fin 40000 => v (ix2 r j'))) := fun k =>
    (exp_at _ _).trans (congrArg Ideal.exp ((subf_apply _ _ _).trans (congrArg (fun z => v (ix2 r k) - z) (hM k))))
  unfold lsmBlock Cert.Spec.lsm
  refine (subf_apply _ _ _).trans ?_
  refine congrArg₂ (fun a z => a - z) ((subf_apply _ _ _).trans (congrArg (fun z => v (ix2 r j) - z) (hM j))) ?_
  refine (spread_apply _ r j).trans ((log_at _ _).trans (congrArg Ideal.log ?_))
  refine (col_apply _ r 0).trans ((rowSum_apply _ (.inl rfl) rfl r).trans ?_)
  exact Finset.sum_congr rfl fun k _ => hS k

/-- The payload at an entry: the row's log-softmax of the scores plus the row's head-column entry. -/
theorem pay_apply (x0 : Vec Ideal S16x1024 .bf16) (x1 : Vec Ideal S1024x128 .bf16) (x2 : Vec Ideal S128x40000 .bf16) (x3 : Vec Ideal S16x1 .f32)
    (r : Fin 16) (j : Fin 40000) :
    k3_pay1 (F := Ideal) x0 x1 x2 x3 (ix2 r j)
      = Cert.Spec.lsm (fun j' : Fin 40000 => ∑ h : Fin 128, (∑ k : Fin 1024, x0 (ix2 r k) * x1 (ix2 k h)) * x2 (ix2 h j')) j
        + x3 (ix2 r (0 : Fin 1)) := by
  rw [pay_eq]
  refine (addf_apply _ _ _).trans ?_
  refine congrArg₂ (fun a z => a + z) ((lsmBlock_apply _ r j).trans ?_) (spread_apply x3 r j)
  refine congrArg (fun z => Cert.Spec.lsm z j) ?_
  funext j'
  exact scores_apply x0 x1 x2 r j'

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Entry (b, j) of the result from whole arrays: the log-softmax along row b of the features' row against the projection
    against the output weights, plus row b of the head column. -/
def rowLp (A0 : Vec Ideal S1024x1024 .bf16) (A1 : Vec Ideal S1024x128 .bf16) (A2 : Vec Ideal S128x40000 .bf16) (A3 : Vec Ideal S1024x1 .f32)
    (b : Fin 1024) (j : Fin 40000) : EReal :=
  Cert.Spec.lsm (fun j' : Fin 40000 => ∑ h : Fin 128, (∑ k : Fin 1024, A0 (ix2 b k) * A1 (ix2 k h)) * A2 (ix2 h j')) j
    + A3 (ix2 b (0 : Fin 1))

/-- A block of 16 rows of the result is the body's payload of: those rows of the features and of the head column, the whole
    projection, the whole output weights. -/
theorem pay_rows (A0 : Vec Ideal S1024x1024 .bf16) (A1 : Vec Ideal S1024x128 .bf16) (A2 : Vec Ideal S128x40000 .bf16) (A3 : Vec Ideal S1024x1 .f32)
    (x0 : Vec Ideal S16x1024 .bf16) (x1 : Vec Ideal S1024x128 .bf16) (x2 : Vec Ideal S128x40000 .bf16) (x3 : Vec Ideal S16x1 .f32)
    (r : Fin 16) (j : Fin 40000) (b : Fin 1024)
    (h0 : ∀ k : Fin 1024, x0 (ix2 r k) = A0 (ix2 b k)) (h1 : ∀ (k : Fin 1024) (h : Fin 128), x1 (ix2 k h) = A1 (ix2 k h))
    (h2 : ∀ (h : Fin 128) (j' : Fin 40000), x2 (ix2 h j') = A2 (ix2 h j')) (h3 : x3 (ix2 r (0 : Fin 1)) = A3 (ix2 b (0 : Fin 1))) :
    k3_pay1 (F := Ideal) x0 x1 x2 x3 (ix2 r j) = rowLp A0 A1 A2 A3 b j := by
  rw [pay_apply, h3]
  unfold rowLp
  refine congrArg (fun z => Cert.Spec.lsm z j + A3 (ix2 b (0 : Fin 1))) ?_
  funext j'
  refine Finset.sum_congr rfl fun h _ => ?_
  rw [h2 h j']
  refine congrArg (· * A2 (ix2 h j')) ?_
  refine Finset.sum_congr rfl fun k _ => ?_
  rw [h0 k, h1 k h]

/-- The printed index maps over the grid: the features', the head column's and the result's blocks move with the point
    along the rows; the projection and the output weights are whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What the region leaves in its result array. -/
def G (c : Dev nD) : S1024x40000.Idx → EReal := fun i =>
  rowLp (V c main_v0) (V c main_v20) (V c main_v22) (V c main_v7) ⟨(i 0).val, idx2_lt0 i⟩ ⟨(i 1).val, idx2_lt1 i⟩

/-- G at an index with the given coordinates. -/
theorem G_apply (c : Dev nD) (i : S1024x40000.Idx) (b : Fin 1024) (j : Fin 40000) (h0 : (i 0).val = b.val) (h1 : (i 1).val = j.val) :
    G V c i = rowLp (V c main_v0) (V c main_v20) (V c main_v22) (V c main_v7) b j := by
  have e0 : (⟨(i 0).val, idx2_lt0 i⟩ : Fin 1024) = b := Fin.ext h0
  have e1 : (⟨(i 1).val, idx2_lt1 i⟩ : Fin 40000) = j := Fin.ext h1
  unfold G
  rw [e0, e1]

/-- The features' block at point t is rows 16·t … 16·t+15 of the features. -/
theorem blk0_apply (c : Dev nD) (t : Fin cfg3.N) (r : Fin 16) (k : Fin 1024) (b : Fin 1024) (hb : b.val = 16 * t.val + r.val) :
    (iblk3 V c 0 t : Vec Ideal S16x1024 .bf16) (ix2 r k) = (V c main_v0 : Vec Ideal S1024x1024 .bf16) (ix2 b k) := by
  obtain ⟨e0, e1, -⟩ := idx_facts t
  unfold iblk3
  rw [View.read_apply]
  show (V c main_v0 : Vec Ideal S1024x1024 .bf16) _ = _
  refine congrArg (V c main_v0 : Vec Ideal S1024x1024 .bf16) (funext fun a => Fin.ext ?_)
  match a with
  | ⟨0, _⟩ => show win3_0.index t (0 : Fin 2) * 16 + 1 * r.val = b.val; rw [e0, hb]; omega
  | ⟨1, _⟩ => show win3_0.index t (1 : Fin 2) * 1024 + 1 * k.val = k.val; rw [e1]; omega

/-- The projection's block is the whole projection. -/
theorem blk1_apply (c : Dev nD) (t : Fin cfg3.N) (k : Fin 1024) (h : Fin 128) :
    (iblk3 V c 1 t : Vec Ideal S1024x128 .bf16) (ix2 k h) = (V c main_v20 : Vec Ideal S1024x128 .bf16) (ix2 k h) := by
  obtain ⟨-, -, e0, e1, -⟩ := idx_facts t
  unfold iblk3
  rw [View.read_apply]
  show (V c main_v20 : Vec Ideal S1024x128 .bf16) _ = _
  refine congrArg (V c main_v20 : Vec Ideal S1024x128 .bf16) (funext fun a => Fin.ext ?_)
  match a with
  | ⟨0, _⟩ => show win3_1.index t (0 : Fin 2) * 1024 + 1 * k.val = k.val; rw [e0]; omega
  | ⟨1, _⟩ => show win3_1.index t (1 : Fin 2) * 128 + 1 * h.val = h.val; rw [e1]; omega

/-- The output weights' block is the whole array. -/
theorem blk2_apply (c : Dev nD) (t : Fin cfg3.N) (h : Fin 128) (j : Fin 40000) :
    (iblk3 V c 2 t : Vec Ideal S128x40000 .bf16) (ix2 h j) = (V c main_v22 : Vec Ideal S128x40000 .bf16) (ix2 h j) := by
  obtain ⟨-, -, -, -, e0, e1, -⟩ := idx_facts t
  unfold iblk3
  rw [View.read_apply]
  show (V c main_v22 : Vec Ideal S128x40000 .bf16) _ = _
  refine congrArg (V c main_v22 : Vec Ideal S128x40000 .bf16) (funext fun a => Fin.ext ?_)
  match a with
  | ⟨0, _⟩ => show win3_2.index t (0 : Fin 2) * 128 + 1 * h.val = h.val; rw [e0]; omega
  | ⟨1, _⟩ => show win3_2.index t (1 : Fin 2) * 40000 + 1 * j.val = j.val; rw [e1]; omega

/-- The head column's block at point t is rows 16·t … 16·t+15 of the column. -/
theorem blk3_apply (c : Dev nD) (t : Fin cfg3.N) (r : Fin 16) (b : Fin 1024) (hb : b.val = 16 * t.val + r.val) :
    (iblk3 V c 3 t : Vec Ideal S16x1 .f32) (ix2 r (0 : Fin 1)) = (V c main_v7 : Vec Ideal S1024x1 .f32) (ix2 b (0 : Fin 1)) := by
  obtain ⟨-, -, -, -, -, -, e0, e1, -⟩ := idx_facts t
  unfold iblk3
  rw [View.read_apply]
  show (V c main_v7 : Vec Ideal S1024x1 .f32) _ = _
  refine congrArg (V c main_v7 : Vec Ideal S1024x1 .f32) (funext fun a => Fin.ext ?_)
  match a with
  | ⟨0, _⟩ => show win3_3.index t (0 : Fin 2) * 16 + 1 * r.val = b.val; rw [e0, hb]; omega
  | ⟨1, _⟩ => show win3_3.index t (1 : Fin 2) * 1 + 1 * (0 : Fin 1).val = (0 : Fin 1).val; rw [e1]; rfl

/-- Point t writes back rows 16·t … 16·t+15 of G. -/
theorem flushed_eq (c : Dev nD) (t : Fin cfg3.N) :
    (dat3 (F := Ideal) V c).flushed 4 t = ((cfg3.win 4).blk t).view.read (Elt Ideal) (G V c) := by
  show (cfg3.win 4).cut (grid3.coords t) ((dat3 (F := Ideal) V c).after 4 t) = _
  rw [after3_4]
  unfold out3_4
  rw [View.canon_unit_zero hz]
  simp only [View.ld_unit_zero (S := S16x1024) hz, View.ld_unit_zero (S := S1024x128) hz, View.ld_unit_zero (S := S128x40000) hz, View.ld_unit_zero (S := S16x1) hz]
  obtain ⟨e00, e01, e10, e11, e20, e21, e30, e31, e40, e41⟩ := idx_facts t
  have hN : cfg3.N = 64 := N_3
  have ht : t.val < 64 := hN ▸ t.isLt
  funext y
  obtain ⟨r, j, rfl⟩ : ∃ (r : Fin 16) (j : Fin 40000), y = ix2 r j := ⟨y 0, y 1, eq_ix2 y⟩
  have hb : 16 * t.val + r.val < 1024 := by omega
  show k3_pay1 (F := Ideal) (iblk3 V c 0 t) (iblk3 V c 1 t) (iblk3 V c 2 t) (iblk3 V c 3 t) (ix2 r j)
    = G V c (((cfg3.win 4).blk t).view.emb (ix2 r j))
  refine (pay_rows (V c main_v0) (V c main_v20) (V c main_v22) (V c main_v7)
    (iblk3 V c 0 t) (iblk3 V c 1 t) (iblk3 V c 2 t) (iblk3 V c 3 t) r j ⟨16 * t.val + r.val, hb⟩
    (fun k => blk0_apply V c t r k ⟨16 * t.val + r.val, hb⟩ rfl) (fun k h => blk1_apply V c t k h)
    (fun h j' => blk2_apply V c t h j') (blk3_apply V c t r ⟨16 * t.val + r.val, hb⟩ rfl)).trans ?_
  refine (G_apply V c _ ⟨16 * t.val + r.val, hb⟩ j ?_ ?_).symm
  · show win3_4.index t (0 : Fin 2) * 16 + 1 * r.val = 16 * t.val + r.val
    rw [e40]; omega
  · show win3_4.index t (1 : Fin 2) * 40000 + 1 * j.val = j.val
    rw [e41]; omega

/-- An index of the result array is in point t's block iff each coordinate is in the block's range on its axis. -/
theorem mem_blk (t : Fin cfg3.N) (i : S1024x40000.Idx) :
    i ∈ ((cfg3.win 4).blk t).view.set ↔ ∀ a : Fin 2, win3_4.index t a * S16x40000.size a ≤ (i a).val ∧ (i a).val < win3_4.index t a * S16x40000.size a + S16x40000.size a := by
  show i ∈ ((View.whole main_v23).slice (win3_4.rect t)).set ↔ _
  rw [View.set_slice_whole, Rect.mem_set_unit]
  exact Iff.rfl

/-- Every entry of the result array is written back by the point that owns its row: row b by point b / 16. -/
theorem cover (i : S1024x40000.Idx) : ∃ t : Fin cfg3.N, (cfg3.win 4).flush t = true ∧ i ∈ ((cfg3.win 4).blk t).view.set := by
  have hi0 : (i 0).val < 1024 := idx2_lt0 i
  have hi1 : (i 1).val < 40000 := idx2_lt1 i
  have hN : cfg3.N = 64 := N_3
  obtain ⟨t, ht⟩ : ∃ t : Fin cfg3.N, t.val = (i 0).val / 16 := ⟨⟨(i 0).val / 16, by rw [hN]; omega⟩, rfl⟩
  obtain ⟨-, -, -, -, -, -, -, -, e40, e41⟩ := idx_facts t
  refine ⟨t, flush3_4 t, ?_⟩
  rw [mem_blk]
  intro a
  match a with
  | ⟨0, _⟩ => show win3_4.index t (0 : Fin 2) * 16 ≤ (i 0).val ∧ (i 0).val < win3_4.index t (0 : Fin 2) * 16 + 16; rw [e40, ht]; omega
  | ⟨1, _⟩ => show win3_4.index t (1 : Fin 2) * 40000 ≤ (i 1).val ∧ (i 1).val < win3_4.index t (1 : Fin 2) * 40000 + 40000; rw [e41]; omega

/-- The result array when the region is left. -/
theorem final (c : Dev nD) : (dat3 (F := Ideal) V c).arrAt 4 cfg3.N = G V c :=
  (dat3 (F := Ideal) V c).arrAt_eq_of_cover 4 (G V c) (fun t _ => flushed_eq V c t) cover

/-- Entry (b, j) of the result array when the region is left, over the entry contents themselves. -/
theorem final_apply (c : Dev nD) (b : Fin 1024) (j : Fin 40000) :
    (Gen.dat3 (F := Ideal) V c).arrAt 4 cfg3.N (ix2 b j) = rowLp (V c main_v0) (V c main_v20) (V c main_v22) (V c main_v7) b j := by
  rw [final]
  rfl

/-- Entry (b, j) of the result array when the region is left: the log-softmax along row b of the features' row against the
    projection against the output weights, plus row b of the head column; the four arrays the region reads named by
    variables of their literal types. -/
theorem final_apply_of (c : Dev nD) (X : FVec Ideal S1024x1024 .bf16) (P : FVec Ideal S1024x128 .bf16) (O : FVec Ideal S128x40000 .bf16)
    (HC : FVec Ideal S1024x1 .f32) (hX : V c main_v0 = X) (hP : V c main_v20 = P) (hO : V c main_v22 = O) (hHC : V c main_v7 = HC)
    (b : Fin 1024) (j : Fin 40000) :
    (Gen.dat3 (F := Ideal) V c).arrAt 4 cfg3.N (ix2 b j)
      = Cert.Spec.lsm (fun j' : Fin 40000 => ∑ h : Fin 128, (∑ k : Fin 1024, X (ix2 b k) * P (ix2 k h)) * O (ix2 h j')) j
        + HC (ix2 b (0 : Fin 1)) := by
  subst hX hP hO hHC
  rw [final_apply]
  rfl

end Cert.KernelIdeal.Reg3

end
-- ==== Proof.KReg4.lean ====
/-
  The fourth cluster's region: from the region's entry contents to the array it leaves.

  A grid point t owns rows 64·t … 64·t+63. Its block is, row by row, the log-softmax along the row of the features' row
  against the projection (a hidden vector of 64 entries) against the output weights (20000 scores), plus the head
  column's entry of that row.
-/
import proofs.«404181_j77000173683136_1_alg».proof.Proof.Gen.KernelIdeal.Frame
import proofs.«404181_j77000173683136_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Reg4

open Cert.KernelIdeal Cert.KernelIdeal.Gen Idealize.ShloMosaic Idealize.ShloMosaic.TcCoe Idealize.SL.Sem
open Idealize.ShloMosaic.ValueIdx
open Idealize.ShloMosaic.Pipeline (Dat)

/-! ## The two products at an entry -/

theorem lhsA_0 (i : S64x64.Idx) (q : dot_S64x1024_S1024x64_S64x64_1_0_0_1_n_n.contr.Idx) :
    (dot_S64x1024_S1024x64_S64x64_1_0_0_1_n_n.lhsIdx i q 0).val = (i 0).val := by
  unfold DotDims.lhsIdx
  rw [dif_neg (show ¬(0 : Fin S64x1024.rank) ∈ dot_S64x1024_S1024x64_S64x64_1_0_0_1_n_n.lhsBatch by decide), dif_pos (show (0 : Fin S64x1024.rank) ∈ dot_S64x1024_S1024x64_S64x64_1_0_0_1_n_n.lhsNonContracting by decide)]
  rfl
theorem lhsA_1 (i : S64x64.Idx) (q : dot_S64x1024_S1024x64_S64x64_1_0_0_1_n_n.contr.Idx) :
    (dot_S64x1024_S1024x64_S64x64_1_0_0_1_n_n.lhsIdx i q 1).val = (q ⟨0, by decide⟩).val :=
  dot_S64x1024_S1024x64_S64x64_1_0_0_1_n_n.lhsIdx_val_of_single rfl i q
theorem rhsA_0 (i : S64x64.Idx) (q : dot_S64x1024_S1024x64_S64x64_1_0_0_1_n_n.contr.Idx) :
    (dot_S64x1024_S1024x64_S64x64_1_0_0_1_n_n.rhsIdx i q 0).val = (q ⟨0, by decide⟩).val :=
  dot_S64x1024_S1024x64_S64x64_1_0_0_1_n_n.rhsIdx_val_of_single rfl i q
theorem rhsA_1 (i : S64x64.Idx) (q : dot_S64x1024_S1024x64_S64x64_1_0_0_1_n_n.contr.Idx) :
    (dot_S64x1024_S1024x64_S64x64_1_0_0_1_n_n.rhsIdx i q 1).val = (i 1).val := by
  unfold DotDims.rhsIdx
  rw [dif_neg (show ¬(1 : Fin S1024x64.rank) ∈ dot_S64x1024_S1024x64_S64x64_1_0_0_1_n_n.rhsBatch by decide), dif_pos (show (1 : Fin S1024x64.rank) ∈ dot_S64x1024_S1024x64_S64x64_1_0_0_1_n_n.rhsNonContracting by decide)]
  rfl

/-- The hidden vector: row r of the features against column h of the projection. -/
theorem mmA_apply (x : FVec Ideal S64x1024 .bf16) (w : FVec Ideal S1024x64 .bf16) (r : Fin 64) (h : Fin 64) :
    matmul dot_S64x1024_S1024x64_S64x64_1_0_0_1_n_n none x w (constant (F := Ideal) S64x64 .f32 0x00000000#32) (ix2 r h)
      = ∑ k : Fin 1024, x (ix2 r k) * w (ix2 k h) := by
  refine (Ideal.matmul_constant_zero_apply dot_S64x1024_S1024x64_S64x64_1_0_0_1_n_n none x w (ix2 r h)).trans ?_
  rw [← Equiv.sum_comp (contrEquiv1 dot_S64x1024_S1024x64_S64x64_1_0_0_1_n_n 1024 rfl rfl).symm]
  refine Finset.sum_congr rfl fun k _ => ?_
  have hk := contrEquiv1_symm_val dot_S64x1024_S1024x64_S64x64_1_0_0_1_n_n 1024 rfl rfl k
  have el : dot_S64x1024_S1024x64_S64x64_1_0_0_1_n_n.lhsIdx (ix2 r h) ((contrEquiv1 dot_S64x1024_S1024x64_S64x64_1_0_0_1_n_n 1024 rfl rfl).symm k) = ix2 r k := funext fun a => Fin.ext (by
    match a with
    | ⟨0, _⟩ => exact lhsA_0 _ _
    | ⟨1, _⟩ => exact (lhsA_1 _ _).trans hk)
  have er : dot_S64x1024_S1024x64_S64x64_1_0_0_1_n_n.rhsIdx (ix2 r h) ((contrEquiv1 dot_S64x1024_S1024x64_S64x64_1_0_0_1_n_n 1024 rfl rfl).symm k) = ix2 k h := funext fun a => Fin.ext (by
    match a with
    | ⟨0, _⟩ => exact (rhsA_0 _ _).trans hk
    | ⟨1, _⟩ => exact rhsA_1 _ _)
  rw [el, er]

theorem lhsB_0 (i : S64x20000.Idx) (q : dot_S64x64_S64x20000_S64x20000_1_0_0_1_n_n.contr.Idx) :
    (dot_S64x64_S64x20000_S64x20000_1_0_0_1_n_n.lhsIdx i q 0).val = (i 0).val := by
  unfold DotDims.lhsIdx
  rw [dif_neg (show ¬(0 : Fin S64x64.rank) ∈ dot_S64x64_S64x20000_S64x20000_1_0_0_1_n_n.lhsBatch by decide), dif_pos (show (0 : Fin S64x64.rank) ∈ dot_S64x64_S64x20000_S64x20000_1_0_0_1_n_n.lhsNonContracting by decide)]
  rfl
theorem lhsB_1 (i : S64x20000.Idx) (q : dot_S64x64_S64x20000_S64x20000_1_0_0_1_n_n.contr.Idx) :
    (dot_S64x64_S64x20000_S64x20000_1_0_0_1_n_n.lhsIdx i q 1).val = (q ⟨0, by decide⟩).val :=
  dot_S64x64_S64x20000_S64x20000_1_0_0_1_n_n.lhsIdx_val_of_single rfl i q
theorem rhsB_0 (i : S64x20000.Idx) (q : dot_S64x64_S64x20000_S64x20000_1_0_0_1_n_n.contr.Idx) :
    (dot_S64x64_S64x20000_S64x20000_1_0_0_1_n_n.rhsIdx i q 0).val = (q ⟨0, by decide⟩).val :=
  dot_S64x64_S64x20000_S64x20000_1_0_0_1_n_n.rhsIdx_val_of_single rfl i q
theorem rhsB_1 (i : S64x20000.Idx) (q : dot_S64x64_S64x20000_S64x20000_1_0_0_1_n_n.contr.Idx) :
    (dot_S64x64_S64x20000_S64x20000_1_0_0_1_n_n.rhsIdx i q 1).val = (i 1).val := by
  unfold DotDims.rhsIdx
  rw [dif_neg (show ¬(1 : Fin S64x20000.rank) ∈ dot_S64x64_S64x20000_S64x20000_1_0_0_1_n_n.rhsBatch by decide), dif_pos (show (1 : Fin S64x20000.rank) ∈ dot_S64x64_S64x20000_S64x20000_1_0_0_1_n_n.rhsNonContracting by decide)]
  rfl

/-- The scores: row r of the hidden block against column j of the output weights. -/
theorem mmB_apply (y : FVec Ideal S64x64 .bf16) (w : FVec Ideal S64x20000 .bf16) (r : Fin 64) (j : Fin 20000) :
    matmul dot_S64x64_S64x20000_S64x20000_1_0_0_1_n_n none y w (constant (F := Ideal) S64x20000 .f32 0x00000000#32) (ix2 r j)
      = ∑ h : Fin 64, y (ix2 r h) * w (ix2 h j) := by
  refine (Ideal.matmul_constant_zero_apply dot_S64x64_S64x20000_S64x20000_1_0_0_1_n_n none y w (ix2 r j)).trans ?_
  rw [← Equiv.sum_comp (contrEquiv1 dot_S64x64_S64x20000_S64x20000_1_0_0_1_n_n 64 rfl rfl).symm]
  refine Finset.sum_congr rfl fun k _ => ?_
  have hk := contrEquiv1_symm_val dot_S64x64_S64x20000_S64x20000_1_0_0_1_n_n 64 rfl rfl k
  have el : dot_S64x64_S64x20000_S64x20000_1_0_0_1_n_n.lhsIdx (ix2 r j) ((contrEquiv1 dot_S64x64_S64x20000_S64x20000_1_0_0_1_n_n 64 rfl rfl).symm k) = ix2 r k := funext fun a => Fin.ext (by
    match a with
    | ⟨0, _⟩ => exact lhsB_0 _ _
    | ⟨1, _⟩ => exact (lhsB_1 _ _).trans hk)
  have er : dot_S64x64_S64x20000_S64x20000_1_0_0_1_n_n.rhsIdx (ix2 r j) ((contrEquiv1 dot_S64x64_S64x20000_S64x20000_1_0_0_1_n_n 64 rfl rfl).symm k) = ix2 k j := funext fun a => Fin.ext (by
    match a with
    | ⟨0, _⟩ => exact (rhsB_0 _ _).trans hk
    | ⟨1, _⟩ => exact rhsB_1 _ _)
  rw [el, er]

/-! ## A row's maximum and sum, the keepdims column and its broadcast along the row -/

/-- The row maximum: the fold of max from −∞ over the row. -/
theorem rowMax_apply (v : FVec Ideal S64x20000 .f32) (hφ : FKind.Formats .f32)
    (hacc : (0xFF800000#32 : BitVec 32) = FKind.maximumf.neutral .f32 hφ) (r : Fin 64) :
    multiReduction (F := Ideal) .maximumf [1] S64 v 0xFF800000#32 reduces_S64x20000_S64 hφ hacc (ix1 r)
      = Cert.Spec.rowMax (fun j : Fin 20000 => v (ix2 r j)) := by
  refine (Ideal.multiReduction_maximumf_single v 0xFF800000#32 reduces_S64x20000_S64 hφ hacc (ix1 r)).trans ?_
  unfold Cert.Spec.rowMax
  show (Finset.univ : Finset (Fin 20000)).fold max (Ideal.ofBits .f32 0xFF800000#32) (fun j : Fin 20000 => v (reduces_S64x20000_S64.lift (ix1 r) j)) = _
  rw [Cert.Spec.ofBits_neg_inf]
  congr 1
  funext j
  refine congrArg v (funext fun a => Fin.ext ?_)
  match a with
  | ⟨0, _⟩ => rfl
  | ⟨1, _⟩ => rfl

/-- The row sum. -/
theorem rowSum_apply (v : FVec Ideal S64x20000 .f32) (hφ : FKind.Formats .f32)
    (hacc : (0x00000000#32 : BitVec 32) = FKind.add.neutral .f32 hφ) (r : Fin 64) :
    multiReduction (F := Ideal) .add [1] S64 v 0x00000000#32 reduces_S64x20000_S64 hφ hacc (ix1 r)
      = ∑ j : Fin 20000, v (ix2 r j) := by
  refine (Ideal.multiReduction_add_single v 0x00000000#32 reduces_S64x20000_S64 hφ hacc (ix1 r)).trans ?_
  show ∑ j : Fin 20000, v (reduces_S64x20000_S64.lift (ix1 r) j) = _
  refine Finset.sum_congr rfl fun j _ => ?_
  refine congrArg v (funext fun a => Fin.ext ?_)
  match a with
  | ⟨0, _⟩ => rfl
  | ⟨1, _⟩ => rfl

/-- A per-row value as a one-entry-wide column. -/
theorem col_apply (u : FVec Ideal S64 .f32) (r : Fin 64) (q : Fin 1) :
    shapeCast S64x1 u shapeCasts_S64_S64x1 (ix2 r q) = u (ix1 r) := by
  refine shapeCast_apply u shapeCasts_S64_S64x1 (ix2 r q) (ix1 r) ?_
  rw [Shape.rowMajor_val_one, Shape.rowMajor_val_two]
  show r.val = r.val * 1 + q.val
  omega

/-- A column spread along the row. -/
theorem spread_apply (w : FVec Ideal S64x1 .f32) (r : Fin 64) (j : Fin 20000) :
    broadcastTo S64x20000 w broadcasts_S64x1_S64x20000 (ix2 r j) = w (ix2 r (0 : Fin 1)) := by
  refine broadcastTo_apply w broadcasts_S64x1_S64x20000 (ix2 r j) (ix2 r (0 : Fin 1)) fun a => ?_
  match a with
  | ⟨0, _⟩ => rfl
  | ⟨1, _⟩ => rfl

/-! ## The body's arithmetic, entry by entry -/

/-- The scores block: the features' block against the projection, then against the output weights. -/
def scores (x0 : FVec Ideal S64x1024 .bf16) (x1 : FVec Ideal S1024x64 .bf16) (x2 : FVec Ideal S64x20000 .bf16) : FVec Ideal S64x20000 .f32 :=
  matmul dot_S64x64_S64x20000_S64x20000_1_0_0_1_n_n none
    (truncf .bf16 (matmul dot_S64x1024_S1024x64_S64x64_1_0_0_1_n_n none x0 x1 (constant (F := Ideal) S64x64 .f32 0x00000000#32)) bitsLt_bf16_f32)
    x2 (constant (F := Ideal) S64x20000 .f32 0x00000000#32)

/-- Row-wise log-softmax of a block as the body takes it: subtract the row maximum, then the logarithm of the row sum of
    the exponentials. -/
def lsmBlock (v : FVec Ideal S64x20000 .f32) : FVec Ideal S64x20000 .f32 :=
  subf
    (subf v (broadcastTo S64x20000 (shapeCast S64x1 (multiReduction (F := Ideal) .maximumf [1] S64 v 0xFF800000#32 reduces_S64x20000_S64 (.inl rfl) rfl) shapeCasts_S64_S64x1) broadcasts_S64x1_S64x20000))
    (broadcastTo S64x20000
      (log (shapeCast S64x1
        (multiReduction (F := Ideal) .add [1] S64
          (exp (subf v (broadcastTo S64x20000 (shapeCast S64x1 (multiReduction (F := Ideal) .maximumf [1] S64 v 0xFF800000#32 reduces_S64x20000_S64 (.inl rfl) rfl) shapeCasts_S64_S64x1) broadcasts_S64x1_S64x20000)))
          0x00000000#32 reduces_S64x20000_S64 (.inl rfl) rfl)
        shapeCasts_S64_S64x1))
      broadcasts_S64x1_S64x20000)

/-- The payload is the log-softmax of the scores plus the head column spread along the row (identity shape casts dropped). -/
theorem pay_eq (x0 : Vec Ideal S64x1024 .bf16) (x1 : Vec Ideal S1024x64 .bf16) (x2 : Vec Ideal S64x20000 .bf16) (x3 : Vec Ideal S64x1 .f32) :
    k4_pay1 (F := Ideal) x0 x1 x2 x3 = addf (lsmBlock (scores x0 x1 x2)) (broadcastTo S64x20000 x3 broadcasts_S64x1_S64x20000) := by
  unfold k4_pay1 lsmBlock scores
  simp only [shapeCast_self]

/-- An entry of the scores block. -/
theorem scores_apply (x0 : FVec Ideal S64x1024 .bf16) (x1 : FVec Ideal S1024x64 .bf16) (x2 : FVec Ideal S64x20000 .bf16) (r : Fin 64) (j : Fin 20000) :
    scores x0 x1 x2 (ix2 r j) = ∑ h : Fin 64, (∑ k : Fin 1024, x0 (ix2 r k) * x1 (ix2 k h)) * x2 (ix2 h j) := by
  unfold scores
  refine (mmB_apply _ x2 r j).trans ?_
  refine Finset.sum_congr rfl fun h _ => ?_
  refine congrArg (· * x2 (ix2 h j)) ?_
  exact mmA_apply x0 x1 r h

/-- The logarithm and the exponential of a block, at an entry. -/
theorem log_at {s : Shape} (w : FVec Ideal s .f32) (i : s.Idx) : log w i = Ideal.log (w i) := rfl
theorem exp_at {s : Shape} (w : FVec Ideal s .f32) (i : s.Idx) : exp w i = Ideal.exp (w i) := rfl

/-- An entry of the block's log-softmax is the row's log-softmax at that entry. -/
theorem lsmBlock_apply (v : FVec Ideal S64x20000 .f32) (r : Fin 64) (j : Fin 20000) :
    lsmBlock v (ix2 r j) = Cert.Spec.lsm (fun j' : Fin 20000 => v (ix2 r j')) j := by
  have hM : ∀ j' : Fin 20000, broadcastTo S64x20000 (shapeCast S64x1 (multiReduction (F := Ideal) .maximumf [1] S64 v 0xFF800000#32 reduces_S64x20000_S64 (.inl rfl) rfl) shapeCasts_S64_S64x1) broadcasts_S64x1_S64x20000 (ix2 r j')
      = Cert.Spec.rowMax (fun j' : Fin 20000 => v (ix2 r j')) := fun j' =>
    (spread_apply _ r j').trans ((col_apply _ r 0).trans (rowMax_apply v (.inl rfl) rfl r))
  have hS : ∀ k : Fin 20000, exp (subf v (broadcastTo S64x20000 (shapeCast S64x1 (multiReduction (F := Ideal) .maximumf [1] S64 v 0xFF800000#32 reduces_S64x20000_S64 (.inl rfl) rfl) shapeCasts_S64_S64x1) broadcasts_S64x1_S64x20000)) (ix2 r k)
      = Ideal.exp (v (ix2 r k) - Cert.Spec.rowMax (fun j' : Fin 20000 => v (ix2 r j'))) := fun k =>
    (exp_at _ _).trans (congrArg Ideal.exp ((subf_apply _ _ _).trans (congrArg (fun z => v (ix2 r k) - z) (hM k))))
  unfold lsmBlock Cert.Spec.lsm
  refine (subf_apply _ _ _).trans ?_
  refine congrArg₂ (fun a z => a - z) ((subf_apply _ _ _).trans (congrArg (fun z => v (ix2 r j) - z) (hM j))) ?_
  refine (spread_apply _ r j).trans ((log_at _ _).trans (congrArg Ideal.log ?_))
  refine (col_apply _ r 0).trans ((rowSum_apply _ (.inl rfl) rfl r).trans ?_)
  exact Finset.sum_congr rfl fun k _ => hS k

/-- The payload at an entry: the row's log-softmax of the scores plus the row's head-column entry. -/
theorem pay_apply (x0 : Vec Ideal S64x1024 .bf16) (x1 : Vec Ideal S1024x64 .bf16) (x2 : Vec Ideal S64x20000 .bf16) (x3 : Vec Ideal S64x1 .f32)
    (r : Fin 64) (j : Fin 20000) :
    k4_pay1 (F := Ideal) x0 x1 x2 x3 (ix2 r j)
      = Cert.Spec.lsm (fun j' : Fin 20000 => ∑ h : Fin 64, (∑ k : Fin 1024, x0 (ix2 r k) * x1 (ix2 k h)) * x2 (ix2 h j')) j
        + x3 (ix2 r (0 : Fin 1)) := by
  rw [pay_eq]
  refine (addf_apply _ _ _).trans ?_
  refine congrArg₂ (fun a z => a + z) ((lsmBlock_apply _ r j).trans ?_) (spread_apply x3 r j)
  refine congrArg (fun z => Cert.Spec.lsm z j) ?_
  funext j'
  exact scores_apply x0 x1 x2 r j'

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Entry (b, j) of the result from whole arrays: the log-softmax along row b of the features' row against the projection
    against the output weights, plus row b of the head column. -/
def rowLp (A0 : Vec Ideal S1024x1024 .bf16) (A1 : Vec Ideal S1024x64 .bf16) (A2 : Vec Ideal S64x20000 .bf16) (A3 : Vec Ideal S1024x1 .f32)
    (b : Fin 1024) (j : Fin 20000) : EReal :=
  Cert.Spec.lsm (fun j' : Fin 20000 => ∑ h : Fin 64, (∑ k : Fin 1024, A0 (ix2 b k) * A1 (ix2 k h)) * A2 (ix2 h j')) j
    + A3 (ix2 b (0 : Fin 1))

/-- A block of 64 rows of the result is the body's payload of: those rows of the features and of the head column, the whole
    projection, the whole output weights. -/
theorem pay_rows (A0 : Vec Ideal S1024x1024 .bf16) (A1 : Vec Ideal S1024x64 .bf16) (A2 : Vec Ideal S64x20000 .bf16) (A3 : Vec Ideal S1024x1 .f32)
    (x0 : Vec Ideal S64x1024 .bf16) (x1 : Vec Ideal S1024x64 .bf16) (x2 : Vec Ideal S64x20000 .bf16) (x3 : Vec Ideal S64x1 .f32)
    (r : Fin 64) (j : Fin 20000) (b : Fin 1024)
    (h0 : ∀ k : Fin 1024, x0 (ix2 r k) = A0 (ix2 b k)) (h1 : ∀ (k : Fin 1024) (h : Fin 64), x1 (ix2 k h) = A1 (ix2 k h))
    (h2 : ∀ (h : Fin 64) (j' : Fin 20000), x2 (ix2 h j') = A2 (ix2 h j')) (h3 : x3 (ix2 r (0 : Fin 1)) = A3 (ix2 b (0 : Fin 1))) :
    k4_pay1 (F := Ideal) x0 x1 x2 x3 (ix2 r j) = rowLp A0 A1 A2 A3 b j := by
  rw [pay_apply, h3]
  unfold rowLp
  refine congrArg (fun z => Cert.Spec.lsm z j + A3 (ix2 b (0 : Fin 1))) ?_
  funext j'
  refine Finset.sum_congr rfl fun h _ => ?_
  rw [h2 h j']
  refine congrArg (· * A2 (ix2 h j')) ?_
  refine Finset.sum_congr rfl fun k _ => ?_
  rw [h0 k, h1 k h]

/-- The printed index maps over the grid: the features', the head column's and the result's blocks move with the point
    along the rows; the projection and the output weights are whole. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- What the region leaves in its result array. -/
def G (c : Dev nD) : S1024x20000.Idx → EReal := fun i =>
  rowLp (V c main_v0) (V c main_v25) (V c main_v27) (V c main_v8) ⟨(i 0).val, idx2_lt0 i⟩ ⟨(i 1).val, idx2_lt1 i⟩

/-- G at an index with the given coordinates. -/
theorem G_apply (c : Dev nD) (i : S1024x20000.Idx) (b : Fin 1024) (j : Fin 20000) (h0 : (i 0).val = b.val) (h1 : (i 1).val = j.val) :
    G V c i = rowLp (V c main_v0) (V c main_v25) (V c main_v27) (V c main_v8) b j := by
  have e0 : (⟨(i 0).val, idx2_lt0 i⟩ : Fin 1024) = b := Fin.ext h0
  have e1 : (⟨(i 1).val, idx2_lt1 i⟩ : Fin 20000) = j := Fin.ext h1
  unfold G
  rw [e0, e1]

/-- The features' block at point t is rows 64·t … 64·t+63 of the features. -/
theorem blk0_apply (c : Dev nD) (t : Fin cfg4.N) (r : Fin 64) (k : Fin 1024) (b : Fin 1024) (hb : b.val = 64 * t.val + r.val) :
    (iblk4 V c 0 t : Vec Ideal S64x1024 .bf16) (ix2 r k) = (V c main_v0 : Vec Ideal S1024x1024 .bf16) (ix2 b k) := by
  obtain ⟨e0, e1, -⟩ := idx_facts t
  unfold iblk4
  rw [View.read_apply]
  show (V c main_v0 : Vec Ideal S1024x1024 .bf16) _ = _
  refine congrArg (V c main_v0 : Vec Ideal S1024x1024 .bf16) (funext fun a => Fin.ext ?_)
  match a with
  | ⟨0, _⟩ => show win4_0.index t (0 : Fin 2) * 64 + 1 * r.val = b.val; rw [e0, hb]; omega
  | ⟨1, _⟩ => show win4_0.index t (1 : Fin 2) * 1024 + 1 * k.val = k.val; rw [e1]; omega

/-- The projection's block is the whole projection. -/
theorem blk1_apply (c : Dev nD) (t : Fin cfg4.N) (k : Fin 1024) (h : Fin 64) :
    (iblk4 V c 1 t : Vec Ideal S1024x64 .bf16) (ix2 k h) = (V c main_v25 : Vec Ideal S1024x64 .bf16) (ix2 k h) := by
  obtain ⟨-, -, e0, e1, -⟩ := idx_facts t
  unfold iblk4
  rw [View.read_apply]
  show (V c main_v25 : Vec Ideal S1024x64 .bf16) _ = _
  refine congrArg (V c main_v25 : Vec Ideal S1024x64 .bf16) (funext fun a => Fin.ext ?_)
  match a with
  | ⟨0, _⟩ => show win4_1.index t (0 : Fin 2) * 1024 + 1 * k.val = k.val; rw [e0]; omega
  | ⟨1, _⟩ => show win4_1.index t (1 : Fin 2) * 64 + 1 * h.val = h.val; rw [e1]; omega

/-- The output weights' block is the whole array. -/
theorem blk2_apply (c : Dev nD) (t : Fin cfg4.N) (h : Fin 64) (j : Fin 20000) :
    (iblk4 V c 2 t : Vec Ideal S64x20000 .bf16) (ix2 h j) = (V c main_v27 : Vec Ideal S64x20000 .bf16) (ix2 h j) := by
  obtain ⟨-, -, -, -, e0, e1, -⟩ := idx_facts t
  unfold iblk4
  rw [View.read_apply]
  show (V c main_v27 : Vec Ideal S64x20000 .bf16) _ = _
  refine congrArg (V c main_v27 : Vec Ideal S64x20000 .bf16) (funext fun a => Fin.ext ?_)
  match a with
  | ⟨0, _⟩ => show win4_2.index t (0 : Fin 2) * 64 + 1 * h.val = h.val; rw [e0]; omega
  | ⟨1, _⟩ => show win4_2.index t (1 : Fin 2) * 20000 + 1 * j.val = j.val; rw [e1]; omega

/-- The head column's block at point t is rows 64·t … 64·t+63 of the column. -/
theorem blk3_apply (c : Dev nD) (t : Fin cfg4.N) (r : Fin 64) (b : Fin 1024) (hb : b.val = 64 * t.val + r.val) :
    (iblk4 V c 3 t : Vec Ideal S64x1 .f32) (ix2 r (0 : Fin 1)) = (V c main_v8 : Vec Ideal S1024x1 .f32) (ix2 b (0 : Fin 1)) := by
  obtain ⟨-, -, -, -, -, -, e0, e1, -⟩ := idx_facts t
  unfold iblk4
  rw [View.read_apply]
  show (V c main_v8 : Vec Ideal S1024x1 .f32) _ = _
  refine congrArg (V c main_v8 : Vec Ideal S1024x1 .f32) (funext fun a => Fin.ext ?_)
  match a with
  | ⟨0, _⟩ => show win4_3.index t (0 : Fin 2) * 64 + 1 * r.val = b.val; rw [e0, hb]; omega
  | ⟨1, _⟩ => show win4_3.index t (1 : Fin 2) * 1 + 1 * (0 : Fin 1).val = (0 : Fin 1).val; rw [e1]; rfl

/-- Point t writes back rows 64·t … 64·t+63 of G. -/
theorem flushed_eq (c : Dev nD) (t : Fin cfg4.N) :
    (dat4 (F := Ideal) V c).flushed 4 t = ((cfg4.win 4).blk t).view.read (Elt Ideal) (G V c) := by
  show (cfg4.win 4).cut (grid4.coords t) ((dat4 (F := Ideal) V c).after 4 t) = _
  rw [after4_4]
  unfold out4_4
  rw [View.canon_unit_zero hz]
  simp only [View.ld_unit_zero (S := S64x1024) hz, View.ld_unit_zero (S := S1024x64) hz, View.ld_unit_zero (S := S64x20000) hz, View.ld_unit_zero (S := S64x1) hz]
  obtain ⟨e00, e01, e10, e11, e20, e21, e30, e31, e40, e41⟩ := idx_facts t
  have hN : cfg4.N = 16 := N_4
  have ht : t.val < 16 := hN ▸ t.isLt
  funext y
  obtain ⟨r, j, rfl⟩ : ∃ (r : Fin 64) (j : Fin 20000), y = ix2 r j := ⟨y 0, y 1, eq_ix2 y⟩
  have hb : 64 * t.val + r.val < 1024 := by omega
  show k4_pay1 (F := Ideal) (iblk4 V c 0 t) (iblk4 V c 1 t) (iblk4 V c 2 t) (iblk4 V c 3 t) (ix2 r j)
    = G V c (((cfg4.win 4).blk t).view.emb (ix2 r j))
  refine (pay_rows (V c main_v0) (V c main_v25) (V c main_v27) (V c main_v8)
    (iblk4 V c 0 t) (iblk4 V c 1 t) (iblk4 V c 2 t) (iblk4 V c 3 t) r j ⟨64 * t.val + r.val, hb⟩
    (fun k => blk0_apply V c t r k ⟨64 * t.val + r.val, hb⟩ rfl) (fun k h => blk1_apply V c t k h)
    (fun h j' => blk2_apply V c t h j') (blk3_apply V c t r ⟨64 * t.val + r.val, hb⟩ rfl)).trans ?_
  refine (G_apply V c _ ⟨64 * t.val + r.val, hb⟩ j ?_ ?_).symm
  · show win4_4.index t (0 : Fin 2) * 64 + 1 * r.val = 64 * t.val + r.val
    rw [e40]; omega
  · show win4_4.index t (1 : Fin 2) * 20000 + 1 * j.val = j.val
    rw [e41]; omega

/-- An index of the result array is in point t's block iff each coordinate is in the block's range on its axis. -/
theorem mem_blk (t : Fin cfg4.N) (i : S1024x20000.Idx) :
    i ∈ ((cfg4.win 4).blk t).view.set ↔ ∀ a : Fin 2, win4_4.index t a * S64x20000.size a ≤ (i a).val ∧ (i a).val < win4_4.index t a * S64x20000.size a + S64x20000.size a := by
  show i ∈ ((View.whole main_v28).slice (win4_4.rect t)).set ↔ _
  rw [View.set_slice_whole, Rect.mem_set_unit]
  exact Iff.rfl

/-- Every entry of the result array is written back by the point that owns its row: row b by point b / 64. -/
theorem cover (i : S1024x20000.Idx) : ∃ t : Fin cfg4.N, (cfg4.win 4).flush t = true ∧ i ∈ ((cfg4.win 4).blk t).view.set := by
  have hi0 : (i 0).val < 1024 := idx2_lt0 i
  have hi1 : (i 1).val < 20000 := idx2_lt1 i
  have hN : cfg4.N = 16 := N_4
  obtain ⟨t, ht⟩ : ∃ t : Fin cfg4.N, t.val = (i 0).val / 64 := ⟨⟨(i 0).val / 64, by rw [hN]; omega⟩, rfl⟩
  obtain ⟨-, -, -, -, -, -, -, -, e40, e41⟩ := idx_facts t
  refine ⟨t, flush4_4 t, ?_⟩
  rw [mem_blk]
  intro a
  match a with
  | ⟨0, _⟩ => show win4_4.index t (0 : Fin 2) * 64 ≤ (i 0).val ∧ (i 0).val < win4_4.index t (0 : Fin 2) * 64 + 64; rw [e40, ht]; omega
  | ⟨1, _⟩ => show win4_4.index t (1 : Fin 2) * 20000 ≤ (i 1).val ∧ (i 1).val < win4_4.index t (1 : Fin 2) * 20000 + 20000; rw [e41]; omega

/-- The result array when the region is left. -/
theorem final (c : Dev nD) : (dat4 (F := Ideal) V c).arrAt 4 cfg4.N = G V c :=
  (dat4 (F := Ideal) V c).arrAt_eq_of_cover 4 (G V c) (fun t _ => flushed_eq V c t) cover

/-- Entry (b, j) of the result array when the region is left, over the entry contents themselves. -/
theorem final_apply (c : Dev nD) (b : Fin 1024) (j : Fin 20000) :
    (Gen.dat4 (F := Ideal) V c).arrAt 4 cfg4.N (ix2 b j) = rowLp (V c main_v0) (V c main_v25) (V c main_v27) (V c main_v8) b j := by
  rw [final]
  rfl

/-- Entry (b, j) of the result array when the region is left: the log-softmax along row b of the features' row against the
    projection against the output weights, plus row b of the head column; the four arrays the region reads named by
    variables of their literal types. -/
theorem final_apply_of (c : Dev nD) (X : FVec Ideal S1024x1024 .bf16) (P : FVec Ideal S1024x64 .bf16) (O : FVec Ideal S64x20000 .bf16)
    (HC : FVec Ideal S1024x1 .f32) (hX : V c main_v0 = X) (hP : V c main_v25 = P) (hO : V c main_v27 = O) (hHC : V c main_v8 = HC)
    (b : Fin 1024) (j : Fin 20000) :
    (Gen.dat4 (F := Ideal) V c).arrAt 4 cfg4.N (ix2 b j)
      = Cert.Spec.lsm (fun j' : Fin 20000 => ∑ h : Fin 64, (∑ k : Fin 1024, X (ix2 b k) * P (ix2 k h)) * O (ix2 h j')) j
        + HC (ix2 b (0 : Fin 1)) := by
  subst hX hP hO hHC
  rw [final_apply]
  rfl

end Cert.KernelIdeal.Reg4

end
-- ==== Proof.KArrays.lean ====
/-
  The five log-probability arrays the kernel program holds when its tail begins are the specification's arrays of the
  launch memory.

  The head region leaves, at row b and column j, the log-softmax over the 10004 columns of the sums Σ_k x[b,k]·wᵀ[k,j];
  the transposed weights hold wᵀ[k,j] = hw[j,k], so the sum is row b of x against row j of hw. The shortlist array is
  the head array's first 10000 columns. A cluster region leaves the log-softmax over the cluster's entries of
  Σ_h (Σ_k x[b,k]·pᵀ[k,h])·oᵀ[h,j] plus the head array's entry at the cluster's own column; with pᵀ[k,h] = p[h,k] and
  oᵀ[h,j] = o[j,h] that is the specification's cluster log-probability. The arrays a region reads are named as functions
  of the launch memory (the features as they are, each weight array read transposed); no sum is evaluated.
-/
import proofs.«404181_j77000173683136_1_alg».proof.Proof.Gen.KernelIdeal.Frame
import proofs.«404181_j77000173683136_1_alg».proof.Proof.Spec
import proofs.«404181_j77000173683136_1_alg».proof.Proof.KHostIn
import proofs.«404181_j77000173683136_1_alg».proof.Proof.KHostOut
import proofs.«404181_j77000173683136_1_alg».proof.Proof.KReg0
import proofs.«404181_j77000173683136_1_alg».proof.Proof.KReg1
import proofs.«404181_j77000173683136_1_alg».proof.Proof.KReg2
import proofs.«404181_j77000173683136_1_alg».proof.Proof.KReg3
import proofs.«404181_j77000173683136_1_alg».proof.Proof.KReg4
import Idealize.ShloMosaic.Lib.ValueIdx

set_option maxRecDepth 16384

noncomputable section

namespace Cert.KernelIdeal.Arrays

open Idealize.ShloMosaic Idealize.ShloMosaic.TcCoe Idealize.ShloMosaic.ValueIdx Idealize.SL.Sem
open Cert.KernelIdeal

/-- A rank-2 array read transposed: entry (i, j) is the array's entry (j, i). -/
abbrev tr {a b : Nat} (w : Cert.Spec.Arr a b) : Cert.Spec.Arr b a := fun i => w (ix2 (i 1) (i 0))

/-- A [1024, 1] array is settled by its entries at column 0. -/
theorem col_ext (f g : S1024x1.Idx → EReal) (h : ∀ b : Fin 1024, f (ix2 b (0 : Fin 1)) = g (ix2 b (0 : Fin 1))) : f = g := by
  funext i
  obtain ⟨b, z, rfl⟩ : ∃ (b : Fin 1024) (z : Fin 1), i = ix2 b z := ⟨i 0, i 1, eq_ix2 i⟩
  obtain rfl : z = 0 := Subsingleton.elim _ _
  exact h b

variable (m : (ℓ : Loc nD τ sig) → Buf (Elt Ideal) ℓ) (ρ : Dev nD → PrngReg)

/-- Entering the head region the feature buffer holds the launch features, the weight buffer the head weights transposed. -/
theorem in0_x (c : Dev nD) : (Gen.V1 m ρ c main_v0 : S1024x1024.Idx → EReal) = (m ((c : Thread nD τ).loc main_arg0)) := by
  funext i
  obtain ⟨b, k, rfl⟩ : ∃ (b k : Fin 1024), i = ix2 b k := ⟨i 0, i 1, eq_ix2 i⟩
  exact HostIn.x0 m ρ c b k
theorem in0_w (c : Dev nD) : (Gen.V1 m ρ c main_v2 : S1024x10004.Idx → EReal) = tr (m ((c : Thread nD τ).loc main_arg1)) := by
  funext i
  obtain ⟨k, j, rfl⟩ : ∃ (k : Fin 1024) (j : Fin 10004), i = ix2 k j := ⟨i 0, i 1, eq_ix2 i⟩
  exact HostIn.w0 m ρ c k j

/-- The head array at row b, column j: the head's log-probability of column j for sample b. -/
theorem head_apply (c : Dev nD) (b : Fin 1024) (j : Fin 10004) :
    Gen.W2 m ρ c (Proc.devRef .tc main_v3) (ix2 b j) = Cert.Spec.headLpAt (m ((c : Thread nD τ).loc main_arg0)) (m ((c : Thread nD τ).loc main_arg1)) b j := by
  rw [HostOut.head_out m ρ c, Reg0.final_apply_of (Gen.V1 m ρ) c _ _ (in0_x m ρ c) (in0_w m ρ c) b j]
  rfl

/-- The shortlist array is the specification's. -/
theorem short_eq (c : Dev nD) :
    Gen.W10 m ρ c (Proc.devRef .tc main_v4) = Cert.Spec.shortlistLp (m ((c : Thread nD τ).loc main_arg0)) (m ((c : Thread nD τ).loc main_arg1)) := by
  funext i
  obtain ⟨b, j, rfl⟩ : ∃ (b : Fin 1024) (j : Fin 10000), i = ix2 b j := ⟨i 0, i 1, eq_ix2 i⟩
  rw [HostOut.short m ρ c b j, head_apply m ρ c b _]
  rfl

/-- Entering cluster 1's region: the features, the projection and the output weights transposed, and the head
    array's column 10000 as the head's log-probability of that column. -/
theorem in1_x (c : Dev nD) : (Gen.V3 m ρ c main_v0 : S1024x1024.Idx → EReal) = (m ((c : Thread nD τ).loc main_arg0)) := by
  funext i
  obtain ⟨b, k, rfl⟩ : ∃ (b k : Fin 1024), i = ix2 b k := ⟨i 0, i 1, eq_ix2 i⟩
  exact HostIn.x1 m ρ c b k
theorem in1_p (c : Dev nD) : (Gen.V3 m ρ c main_v10 : S1024x512.Idx → EReal) = tr (m ((c : Thread nD τ).loc main_arg2)) := by
  funext i
  obtain ⟨k, h, rfl⟩ : ∃ (k : Fin 1024) (h : Fin 512), i = ix2 k h := ⟨i 0, i 1, eq_ix2 i⟩
  exact HostIn.p1 m ρ c k h
theorem in1_o (c : Dev nD) : (Gen.V3 m ρ c main_v12 : S512x10000.Idx → EReal) = tr (m ((c : Thread nD τ).loc main_arg3)) := by
  funext i
  obtain ⟨h, j, rfl⟩ : ∃ (h : Fin 512) (j : Fin 10000), i = ix2 h j := ⟨i 0, i 1, eq_ix2 i⟩
  exact HostIn.o1 m ρ c h j
theorem in1_hc (c : Dev nD) :
    (Gen.V3 m ρ c main_v5 : S1024x1.Idx → EReal)
      = fun i => Cert.Spec.headLpAt (m ((c : Thread nD τ).loc main_arg0)) (m ((c : Thread nD τ).loc main_arg1)) (i 0) (⟨10000, by decide⟩ : Fin 10004) :=
  col_ext _ _ fun b => (HostOut.hc1 m ρ c b).trans (head_apply m ρ c b _)

/-- Cluster 1's array is the specification's: 10000 entries, hidden width 512, head column 10000. -/
theorem cl1_eq (c : Dev nD) :
    Gen.W10 m ρ c (Proc.devRef .tc main_v13)
      = Cert.Spec.clusterLp (⟨10000, by decide⟩ : Fin 10004) (m ((c : Thread nD τ).loc main_arg0)) (m ((c : Thread nD τ).loc main_arg1)) (m ((c : Thread nD τ).loc main_arg2)) (m ((c : Thread nD τ).loc main_arg3)) := by
  funext i
  obtain ⟨b, j, rfl⟩ : ∃ (b : Fin 1024) (j : Fin 10000), i = ix2 b j := ⟨i 0, i 1, eq_ix2 i⟩
  rw [HostOut.out1 m ρ c, Reg1.final_apply_of (Gen.V3 m ρ) c _ _ _ _ (in1_x m ρ c) (in1_p m ρ c) (in1_o m ρ c)
    (in1_hc m ρ c) b j]
  rfl

/-- Entering cluster 2's region: the features, the projection and the output weights transposed, and the head
    array's column 10001 as the head's log-probability of that column. -/
theorem in2_x (c : Dev nD) : (Gen.V5 m ρ c main_v0 : S1024x1024.Idx → EReal) = (m ((c : Thread nD τ).loc main_arg0)) := by
  funext i
  obtain ⟨b, k, rfl⟩ : ∃ (b k : Fin 1024), i = ix2 b k := ⟨i 0, i 1, eq_ix2 i⟩
  exact HostIn.x2 m ρ c b k
theorem in2_p (c : Dev nD) : (Gen.V5 m ρ c main_v15 : S1024x256.Idx → EReal) = tr (m ((c : Thread nD τ).loc main_arg4)) := by
  funext i
  obtain ⟨k, h, rfl⟩ : ∃ (k : Fin 1024) (h : Fin 256), i = ix2 k h := ⟨i 0, i 1, eq_ix2 i⟩
  exact HostIn.p2 m ρ c k h
theorem in2_o (c : Dev nD) : (Gen.V5 m ρ c main_v17 : S256x20000.Idx → EReal) = tr (m ((c : Thread nD τ).loc main_arg5)) := by
  funext i
  obtain ⟨h, j, rfl⟩ : ∃ (h : Fin 256) (j : Fin 20000), i = ix2 h j := ⟨i 0, i 1, eq_ix2 i⟩
  exact HostIn.o2 m ρ c h j
theorem in2_hc (c : Dev nD) :
    (Gen.V5 m ρ c main_v6 : S1024x1.Idx → EReal)
      = fun i => Cert.Spec.headLpAt (m ((c : Thread nD τ).loc main_arg0)) (m ((c : Thread nD τ).loc main_arg1)) (i 0) (⟨10001, by decide⟩ : Fin 10004) :=
  col_ext _ _ fun b => (HostOut.hc2 m ρ c b).trans (head_apply m ρ c b _)

/-- Cluster 2's array is the specification's: 20000 entries, hidden width 256, head column 10001. -/
theorem cl2_eq (c : Dev nD) :
    Gen.W10 m ρ c (Proc.devRef .tc main_v18)
      = Cert.Spec.clusterLp (⟨10001, by decide⟩ : Fin 10004) (m ((c : Thread nD τ).loc main_arg0)) (m ((c : Thread nD τ).loc main_arg1)) (m ((c : Thread nD τ).loc main_arg4)) (m ((c : Thread nD τ).loc main_arg5)) := by
  funext i
  obtain ⟨b, j, rfl⟩ : ∃ (b : Fin 1024) (j : Fin 20000), i = ix2 b j := ⟨i 0, i 1, eq_ix2 i⟩
  rw [HostOut.out2 m ρ c, Reg2.final_apply_of (Gen.V5 m ρ) c _ _ _ _ (in2_x m ρ c) (in2_p m ρ c) (in2_o m ρ c)
    (in2_hc m ρ c) b j]
  rfl

/-- Entering cluster 3's region: the features, the projection and the output weights transposed, and the head
    array's column 10002 as the head's log-probability of that column. -/
theorem in3_x (c : Dev nD) : (Gen.V7 m ρ c main_v0 : S1024x1024.Idx → EReal) = (m ((c : Thread nD τ).loc main_arg0)) := by
  funext i
  obtain ⟨b, k, rfl⟩ : ∃ (b k : Fin 1024), i = ix2 b k := ⟨i 0, i 1, eq_ix2 i⟩
  exact HostIn.x3 m ρ c b k
theorem in3_p (c : Dev nD) : (Gen.V7 m ρ c main_v20 : S1024x128.Idx → EReal) = tr (m ((c : Thread nD τ).loc main_arg6)) := by
  funext i
  obtain ⟨k, h, rfl⟩ : ∃ (k : Fin 1024) (h : Fin 128), i = ix2 k h := ⟨i 0, i 1, eq_ix2 i⟩
  exact HostIn.p3 m ρ c k h
theorem in3_o (c : Dev nD) : (Gen.V7 m ρ c main_v22 : S128x40000.Idx → EReal) = tr (m ((c : Thread nD τ).loc main_arg7)) := by
  funext i
  obtain ⟨h, j, rfl⟩ : ∃ (h : Fin 128) (j : Fin 40000), i = ix2 h j := ⟨i 0, i 1, eq_ix2 i⟩
  exact HostIn.o3 m ρ c h j
theorem in3_hc (c : Dev nD) :
    (Gen.V7 m ρ c main_v7 : S1024x1.Idx → EReal)
      = fun i => Cert.Spec.headLpAt (m ((c : Thread nD τ).loc main_arg0)) (m ((c : Thread nD τ).loc main_arg1)) (i 0) (⟨10002, by decide⟩ : Fin 10004) :=
  col_ext _ _ fun b => (HostOut.hc3 m ρ c b).trans (head_apply m ρ c b _)

/-- Cluster 3's array is the specification's: 40000 entries, hidden width 128, head column 10002. -/
theorem cl3_eq (c : Dev nD) :
    Gen.W10 m ρ c (Proc.devRef .tc main_v23)
      = Cert.Spec.clusterLp (⟨10002, by decide⟩ : Fin 10004) (m ((c : Thread nD τ).loc main_arg0)) (m ((c : Thread nD τ).loc main_arg1)) (m ((c : Thread nD τ).loc main_arg6)) (m ((c : Thread nD τ).loc main_arg7)) := by
  funext i
  obtain ⟨b, j, rfl⟩ : ∃ (b : Fin 1024) (j : Fin 40000), i = ix2 b j := ⟨i 0, i 1, eq_ix2 i⟩
  rw [HostOut.out3 m ρ c, Reg3.final_apply_of (Gen.V7 m ρ) c _ _ _ _ (in3_x m ρ c) (in3_p m ρ c) (in3_o m ρ c)
    (in3_hc m ρ c) b j]
  rfl

/-- Entering cluster 4's region: the features, the projection and the output weights transposed, and the head
    array's column 10003 as the head's log-probability of that column. -/
theorem in4_x (c : Dev nD) : (Gen.V9 m ρ c main_v0 : S1024x1024.Idx → EReal) = (m ((c : Thread nD τ).loc main_arg0)) := by
  funext i
  obtain ⟨b, k, rfl⟩ : ∃ (b k : Fin 1024), i = ix2 b k := ⟨i 0, i 1, eq_ix2 i⟩
  exact HostIn.x4 m ρ c b k
theorem in4_p (c : Dev nD) : (Gen.V9 m ρ c main_v25 : S1024x64.Idx → EReal) = tr (m ((c : Thread nD τ).loc main_arg8)) := by
  funext i
  obtain ⟨k, h, rfl⟩ : ∃ (k : Fin 1024) (h : Fin 64), i = ix2 k h := ⟨i 0, i 1, eq_ix2 i⟩
  exact HostIn.p4 m ρ c k h
theorem in4_o (c : Dev nD) : (Gen.V9 m ρ c main_v27 : S64x20000.Idx → EReal) = tr (m ((c : Thread nD τ).loc main_arg9)) := by
  funext i
  obtain ⟨h, j, rfl⟩ : ∃ (h : Fin 64) (j : Fin 20000), i = ix2 h j := ⟨i 0, i 1, eq_ix2 i⟩
  exact HostIn.o4 m ρ c h j
theorem in4_hc (c : Dev nD) :
    (Gen.V9 m ρ c main_v8 : S1024x1.Idx → EReal)
      = fun i => Cert.Spec.headLpAt (m ((c : Thread nD τ).loc main_arg0)) (m ((c : Thread nD τ).loc main_arg1)) (i 0) (⟨10003, by decide⟩ : Fin 10004) :=
  col_ext _ _ fun b => (HostOut.hc4 m ρ c b).trans (head_apply m ρ c b _)

/-- Cluster 4's array is the specification's: 20000 entries, hidden width 64, head column 10003. -/
theorem cl4_eq (c : Dev nD) :
    Gen.W10 m ρ c (Proc.devRef .tc main_v28)
      = Cert.Spec.clusterLp (⟨10003, by decide⟩ : Fin 10004) (m ((c : Thread nD τ).loc main_arg0)) (m ((c : Thread nD τ).loc main_arg1)) (m ((c : Thread nD τ).loc main_arg8)) (m ((c : Thread nD τ).loc main_arg9)) := by
  funext i
  obtain ⟨b, j, rfl⟩ : ∃ (b : Fin 1024) (j : Fin 20000), i = ix2 b j := ⟨i 0, i 1, eq_ix2 i⟩
  rw [HostOut.out4 m ρ c, Reg4.final_apply_of (Gen.V9 m ρ) c _ _ _ _ (in4_x m ρ c) (in4_p m ρ c) (in4_o m ρ c)
    (in4_hc m ρ c) b j]
  rfl

end Cert.KernelIdeal.Arrays

end
-- ==== Proof.LibGather.lean ====
/-
  General lemmas about 32-bit index words and about three shape operations read at an index; nothing here names a
  program.

  * Words. A word whose signed value lies in [0, 100000) has the same value unsigned; its signed comparisons with
    small constants are comparisons of values; the signed maximum and minimum have the larger and smaller signed value;
    subtracting a constant at most 100000 from a word below 100000 does not wrap; so the clipped offset
    min (hi, max (0, v − lo)) is a value in [0, hi], and is v − lo when lo ≤ v ≤ lo + hi.
  * A cast that appends a unit axis, [a, b] → [a, b, 1], reads (i, j, 0) at (i, j).
  * A conjunction-reduce over the unit last axis of a [B, C, 1] mask is, at (b, c), the conjunction of the entry
    (b, c, 0) with the initial value.
  * The row-wise take, a gather of a [B, N] operand at [B, C, 1] start indices whose first axes are paired batching
    axes, reads at (b, c) row b of the operand at the start index, signed and clamped into [0, N − 1].
  * The take-along-the-second-axis pattern built from them: a non-negative index word is laid out unchanged, the
    in-bounds mask of an index in [0, k] is set, and the select of mask, gather and filler is the operand's entry.
-/
import Idealize.ShloMosaic.Lib.ValueIdx
import Idealize.ShloMosaic.Lib.Pipeline.Value
import Idealize.ShloMosaic.Lib.Affine
import Idealize.ShloMosaic.Lib.StableHlo.Predicate

noncomputable section

open Idealize.ShloMosaic Idealize.ShloMosaic.ValueIdx
open Idealize.ShloMosaic.StableHlo.Predicate

namespace Cert.LibGather

/-! ## Words

A 32-bit word whose signed value lies in [0, 100000) reads the same signed and unsigned, and its signed comparisons
with small constants are the comparisons of the values. -/

/-- A word with signed value in [0, 100000) has that value unsigned as well. -/
theorem toNat_of_range (v : BitVec 32) (h0 : 0 ≤ v.toInt) (h1 : v.toInt < 100000) :
    v.toNat < 100000 ∧ v.toInt = v.toNat := by
  have hlt := v.isLt
  rw [BitVec.toInt_eq_toNat_cond] at h0 h1 ⊢
  split at h0 <;> split <;> omega

/-- A constant below 2³¹ is the value of its word. -/
theorem toNat_ofNat_small (c : Nat) (hc : c < 2 ^ 31) : (BitVec.ofNat 32 c).toNat = c := by
  rw [BitVec.toNat_ofNat]; exact Nat.mod_eq_of_lt (by omega)

/-- Signed ≥ against a small constant is ≥ of the values. -/
theorem sge_const (v : BitVec 32) (hv : v.toNat < 2 ^ 31) (c : Nat) (hc : c < 2 ^ 31) :
    IntOp.cmpi .sge v (BitVec.ofNat 32 c) = 1#1 ↔ c ≤ v.toNat := by
  rw [sge_iff_toNat hv (by rw [toNat_ofNat_small c hc]; exact hc), toNat_ofNat_small c hc]

/-- Signed < against a small constant is < of the values. -/
theorem slt_const (v : BitVec 32) (hv : v.toNat < 2 ^ 31) (c : Nat) (hc : c < 2 ^ 31) :
    IntOp.cmpi .slt v (BitVec.ofNat 32 c) = 1#1 ↔ v.toNat < c := by
  rw [slt_iff_toNat hv (by rw [toNat_ofNat_small c hc]; exact hc), toNat_ofNat_small c hc]

/-- Signed ≤ against a small constant is ≤ of the values. -/
theorem sle_const (v : BitVec 32) (hv : v.toNat < 2 ^ 31) (c : Nat) (hc : c < 2 ^ 31) :
    IntOp.cmpi .sle v (BitVec.ofNat 32 c) = 1#1 ↔ v.toNat ≤ c := by
  rw [sle_iff_toNat hv (by rw [toNat_ofNat_small c hc]; exact hc), toNat_ofNat_small c hc]

/-- The signed maximum of two words has the larger signed value. -/
theorem toInt_maxsi (a y : BitVec 32) : (IntOp.maxsi a y).toInt = max a.toInt y.toInt := by
  unfold IntOp.maxsi
  split <;> rename_i hc <;> simp only [BitVec.slt, decide_eq_true_eq] at hc <;> omega

/-- The signed minimum of two words has the smaller signed value. -/
theorem toInt_minsi (a y : BitVec 32) : (IntOp.minsi a y).toInt = min a.toInt y.toInt := by
  unfold IntOp.minsi
  split <;> rename_i hc <;> simp only [BitVec.slt, decide_eq_true_eq] at hc <;> omega

/-- The difference of a word below 100000 and a constant at most 100000 has the difference of the values as its
    signed value: no wrap. -/
theorem toInt_subi_const (v : BitVec 32) (lo : Nat) (hv : v.toNat < 100000) (hlo : lo ≤ 100000) :
    (IntOp.subi v (BitVec.ofNat 32 lo)).toInt = (v.toNat : Int) - lo := by
  unfold IntOp.subi
  have hln : (BitVec.ofNat 32 lo).toNat = lo := toNat_ofNat_small lo (by omega)
  rw [BitVec.toInt_eq_toNat_cond, BitVec.toNat_sub, hln]
  have e : (2 : Nat) ^ 32 = 4294967296 := by norm_num
  rw [e]
  split <;> rename_i hc <;> omega

/-- The offset of v inside the range that starts at lo, clipped into [0, hi1]. -/
def clipW (v : BitVec 32) (lo hi1 : Nat) : BitVec 32 :=
  IntOp.minsi (BitVec.ofNat 32 hi1) (IntOp.maxsi (BitVec.ofNat 32 0) (IntOp.subi v (BitVec.ofNat 32 lo)))

/-- The clipped offset's signed value: min (hi1, max (0, v − lo)) over the integers. -/
theorem toInt_clipW (v : BitVec 32) (lo hi1 : Nat) (hv : v.toNat < 100000) (hlo : lo ≤ 100000) (hhi : hi1 < 100000) :
    (clipW v lo hi1).toInt = min (hi1 : Int) (max 0 ((v.toNat : Int) - lo)) := by
  unfold clipW
  rw [toInt_minsi, toInt_maxsi, toInt_subi_const v lo hv hlo, toInt_ofNat_small hi1 (by omega), toInt_ofNat_small 0 (by omega)]
  rfl

/-- The clipped offset is a value in [0, hi1], and is the offset itself when v lies in [lo, lo + hi1]. -/
theorem clipW_spec (v : BitVec 32) (lo hi1 : Nat) (hv : v.toNat < 100000) (hlo : lo ≤ 100000) (hhi : hi1 < 100000) :
    (clipW v lo hi1).toNat ≤ hi1 ∧ (lo ≤ v.toNat → v.toNat ≤ lo + hi1 → (clipW v lo hi1).toNat = v.toNat - lo) := by
  have h := toInt_clipW v lo hi1 hv hlo hhi
  have hlt := (clipW v lo hi1).isLt
  rw [BitVec.toInt_eq_toNat_cond] at h
  have e : (2 : Nat) ^ 32 = 4294967296 := by norm_num
  rw [e] at h
  split at h <;> constructor <;> omega

/-! ## Three shape operations read at an index -/

section Reads
variable {α : Type}

/-- An [a, b] array cast to [a, b, 1] reads, at (i, j, u), the operand at (i, j): the two indices have the same
    row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

end Reads

section Reads2
variable {α : Type}

/-- The dimension numbers of a row-wise take: operand [B, N], start indices [B, C, 1], result [B, C]; the operand's
    first axis and the start indices' first axis are the paired batching axes, the operand's second axis is collapsed
    and start-indexed, the index vector lies on the start indices' last axis, and there are no offset axes. -/
abbrev rowTakeDims (B N C : Nat)
    (wf : GatherDims.WF ⟨2, ![B, N]⟩ ⟨3, ![B, C, 1]⟩ ⟨2, ![B, C]⟩ [] [1] [0] [1] [0] 2 ![1, 1]) :
    GatherDims ⟨2, ![B, N]⟩ ⟨3, ![B, C, 1]⟩ ⟨2, ![B, C]⟩ where
  offsetDims := []
  collapsedSliceDims := [1]
  operandBatchingDims := [0]
  startIndicesBatchingDims := [0]
  startIndexMap := [1]
  indexVectorDim := 2
  sliceSizes := ![1, 1]
  wf := wf

/-- The row-wise take read at (b, c): row b of the operand at the start index idx[b, c, 0], read signed and clamped
    into [0, N − 1]. On the batching axis the operand coordinate is the result's own row; on the collapsed axis it is the
    clamped start. -/
theorem gather_rowTake_apply {B N C w : Nat} (hN : 0 < N)
    (wf : GatherDims.WF ⟨2, ![B, N]⟩ ⟨3, ![B, C, 1]⟩ ⟨2, ![B, C]⟩ [] [1] [0] [1] [0] 2 ![1, 1])
    (x : (⟨2, ![B, N]⟩ : Shape).Idx → α) (idx : IVec ⟨3, ![B, C, 1]⟩ w) (b : Fin B) (c : Fin C) :
    Host.gather (rowTakeDims B N C wf) x idx (ix2 b c)
      = x (ix2 b ⟨min (idx (ix3 b c (0 : Fin 1))).toInt.toNat (N - 1), by omega⟩) := by
  unfold Host.gather
  congr 1
  funext a
  refine Fin.ext ?_
  match a with
  | ⟨0, _⟩ =>
    show (rowTakeDims B N C wf).start (ix2 b c) idx 0 + (rowTakeDims B N C wf).batchCoord (ix2 b c) 0
      + (rowTakeDims B N C wf).offCoord (ix2 b c) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show (rowTakeDims B N C wf).start (ix2 b c) idx 1 + (rowTakeDims B N C wf).batchCoord (ix2 b c) 1
      + (rowTakeDims B N C wf).offCoord (ix2 b c) 1 = min (idx (ix3 b c (0 : Fin 1))).toInt.toNat (N - 1)
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims B N C wf).startIndexMap from List.mem_singleton.mpr rfl)]
    have hsi : (rowTakeDims B N C wf).siIdx (ix2 b c) ⟨List.idxOf (1 : Fin 2) (rowTakeDims B N C wf).startIndexMap,
        List.idxOf_lt_length_iff.2 (List.mem_singleton.mpr rfl)⟩ = ix3 b c (0 : Fin 1) := by
      funext e; refine Fin.ext ?_
      match e with
      | ⟨0, _⟩ => rfl
      | ⟨1, _⟩ => rfl
      | ⟨2, _⟩ => rfl
    rw [hsi]
    rfl

end Reads2

/-- Dropping the unit last axis of [B, C, 1] leaves [B, C]. -/
theorem reduces_unit_last (B C : Nat) : (⟨3, ![B, C, 1]⟩ : Shape).Reduces [2] ⟨2, ![B, C]⟩ :=
  ⟨rfl, Nat.zero_lt_two, fun b => match b with | ⟨0, _⟩ => rfl | ⟨1, _⟩ => rfl⟩

/-- A conjunction-reduce over the unit last axis of a [B, C, 1] mask reads, at (b, c), the conjunction of the one
    entry (b, c, 0) with the initial value: the last axis has the single coordinate 0. -/
theorem reduce_andi_unit_apply {B C : Nat} {u : Shape} (x : IVec ⟨3, ![B, C, 1]⟩ 1) (init : IVec u 1)
    (h' : (⟨3, ![B, C, 1]⟩ : Shape).ReducesTo [2] ⟨2, ![B, C]⟩) (hu : 0 < u.numel) (b : Fin B) (c : Fin C) :
    Host.reduce IntOp.andi x init h' hu (ix2 b c) = IntOp.andi (x (ix3 b c (0 : Fin 1))) (init (Shape.Idx.first hu)) := by
  have h := reduces_unit_last B C
  rw [Host.reduce_eq_fold_single IntOp.andi x init h' h hu (ix2 b c)]
  have key : ∀ (n : Nat) (hn : n = 1) (g : Fin n → BitVec 1) (i0 : BitVec 1),
      (Finset.univ : Finset (Fin n)).fold IntOp.andi i0 g = IntOp.andi (g ⟨0, by omega⟩) i0 := by
    intro n hn g i0; subst hn; rw [Finset.univ_unique, Finset.fold_singleton]; rfl
  refine (key _ rfl _ _).trans ?_
  show IntOp.andi (x (h.lift (ix2 b c) ⟨0, _⟩)) _ = _
  congr 2
  funext e; refine Fin.ext ?_
  match e with
  | ⟨0, _⟩ => rfl
  | ⟨1, _⟩ => rfl
  | ⟨2, _⟩ => rfl

/-! ## Taking along the second axis: the three steps at one entry -/

section TakeAlong
variable {α : Type}

/-- WRAP. Where the index word is below 2³¹ it is not negative, so the select between the index plus the axis length and
    the index keeps the index, and the cast to [B, C, 1] reads it at (b, c, u). The vector of zeros it is compared with
    enters only through its entry at (b, c). -/
theorem wrap_nonneg_apply {B C : Nat} (x z nn : IVec ⟨2, ![B, C]⟩ 32)
    (h : (⟨2, ![B, C]⟩ : Shape).ShapeCasts ⟨3, ![B, C, 1]⟩) (b : Fin B) (c : Fin C) (u : Fin 1)
    (hz : z (ix2 b c) = BitVec.ofNat 32 0) (hx : (x (ix2 b c)).toNat < 2 ^ 31) :
    shapeCast ⟨3, ![B, C, 1]⟩ (select (cmpi .slt x z) (addi x nn) x) h (ix3 b c u) = x (ix2 b c) := by
  rw [shapeCast_ab_ab1_apply _ _ b c u, select_apply]
  have h0 : cmpi .slt x z (ix2 b c) = 0#1 := eq_zero_of_ne_one (fun hh => by
    have hh' : IntOp.cmpi .slt (x (ix2 b c)) (BitVec.ofNat 32 0) = 1#1 := by rw [← hz]; exact hh
    have := (slt_const _ hx 0 (by norm_num)).mp hh'; omega)
  rw [h0, select_zero]

/-- IN BOUNDS. Where the start index at (b, c, 0) has a value in [0, k], both comparisons hold there, and the
    conjunction-reduce over the unit axis from the initial 1 is 1 at (b, c). The two vectors of bounds enter only
    through their entries at (b, c, 0). -/
theorem inb_unit_apply {B C : Nat} {u : Shape} (k : Nat) (hk : k < 2 ^ 31) (y z0 zk : IVec ⟨3, ![B, C, 1]⟩ 32)
    (init : IVec u 1) (h' : (⟨3, ![B, C, 1]⟩ : Shape).ReducesTo [2] ⟨2, ![B, C]⟩) (hu : 0 < u.numel) (b : Fin B)
    (c : Fin C) (hz0 : z0 (ix3 b c (0 : Fin 1)) = BitVec.ofNat 32 0) (hzk : zk (ix3 b c (0 : Fin 1)) = BitVec.ofNat 32 k)
    (hinit : init (Shape.Idx.first hu) = 1#1) (hy : (y (ix3 b c (0 : Fin 1))).toNat ≤ k) :
    Host.reduce IntOp.andi (andi (cmpi .sge y z0) (cmpi .sle y zk)) init h' hu (ix2 b c) = 1#1 := by
  have hy' : (y (ix3 b c (0 : Fin 1))).toNat < 2 ^ 31 := by omega
  rw [reduce_andi_unit_apply, IntOp.andi_eq_one]
  refine ⟨?_, hinit⟩
  show IntOp.andi (IntOp.cmpi .sge (y (ix3 b c (0 : Fin 1))) (z0 (ix3 b c (0 : Fin 1))))
    (IntOp.cmpi .sle (y (ix3 b c (0 : Fin 1))) (zk (ix3 b c (0 : Fin 1)))) = 1#1
  rw [hz0, hzk, IntOp.andi_eq_one, sge_const _ hy' 0 (by norm_num), sle_const _ hy' k hk]
  exact ⟨Nat.zero_le _, hy⟩

/-- TAKE. Where the mask is set at (b, c) and the start index at (b, c, 0) has a value below N, the select of the mask,
    the row-wise take and a filler is row b of the operand at that value: the clamp into [0, N − 1] does nothing. -/
theorem select_gather_rowTake_apply {B N C : Nat} (hN : N ≤ 2 ^ 31)
    (wf : GatherDims.WF ⟨2, ![B, N]⟩ ⟨3, ![B, C, 1]⟩ ⟨2, ![B, C]⟩ [] [1] [0] [1] [0] 2 ![1, 1])
    (A : (⟨2, ![B, N]⟩ : Shape).Idx → α) (idx : IVec ⟨3, ![B, C, 1]⟩ 32) (mask : IVec ⟨2, ![B, C]⟩ 1)
    (filler : (⟨2, ![B, C]⟩ : Shape).Idx → α) (b : Fin B) (c : Fin C) (hm : mask (ix2 b c) = 1#1)
    (hlt : (idx (ix3 b c (0 : Fin 1))).toNat < N) :
    select mask (Host.gather (rowTakeDims B N C wf) A idx) filler (ix2 b c)
      = A (ix2 b ⟨(idx (ix3 b c (0 : Fin 1))).toNat, hlt⟩) := by
  rw [select_apply, hm, select_one, gather_rowTake_apply (B := B) (N := N) (C := C) (by omega) wf A idx b c]
  exact congrArg (fun q => A (ix2 b q)) (Fin.ext (by
    show min (idx (ix3 b c (0 : Fin 1))).toInt.toNat (N - 1) = (idx (ix3 b c (0 : Fin 1))).toNat
    rw [toInt_eq_toNat_of_lt (by omega)]; omega))

end TakeAlong

end Cert.LibGather

end
-- ==== Proof.KBridge.lean ====
/-
  The gathered log-probability at one token.

  After the five arrays of row log-probabilities are there, the program walks the five segments [lo, hi) of the
  vocabulary, [0, 10000), [10000, 20000), [20000, 40000), [40000, 80000), [80000, 100000). In each round it forms the
  offset clip (t − lo, 0, size − 1) of the target t, takes the segment's array along its second axis at that offset
  (negative indices wrapped, an in-bounds mask, a gather with the row as batching axis, a select against a NaN word),
  and keeps the taken entry where lo ≤ t < hi, the running value elsewhere; the running value starts as zeros.

  For a target word whose signed value lies in [0, 100000) this module reads the result at a token (b, s): it is the
  entry of the one array whose segment holds the target, in row b, at the target's offset inside the segment — the
  specification's pick. The steps (the general facts about index words, the cast that appends a unit axis, the
  conjunction-reduce over that axis and the row-wise gather are in LibGather): each of the tail's functions is read at
  the token, then the five selects are decided by the one range that holds.
-/
import proofs.«404181_j77000173683136_1_alg».proof.KernelIdeal
import proofs.«404181_j77000173683136_1_alg».proof.Proof.KTailDef
import proofs.«404181_j77000173683136_1_alg».proof.Proof.Spec
import proofs.«404181_j77000173683136_1_alg».proof.Proof.LibGather
import Idealize.ShloMosaic.Lib.ValueIdx
import Idealize.ShloMosaic.Lib.Affine
import Idealize.ShloMosaic.Lib.StableHlo.Predicate

noncomputable section

open Idealize.ShloMosaic Idealize.ShloMosaic.ValueIdx
open Idealize.ShloMosaic.StableHlo.Predicate
open Cert.LibGather

namespace Cert.KernelIdeal.Bridge

/-! ## The tail's functions read at an index -/

section TailAt
variable [Facts₀]
open Facts₀

/-- The index inside a segment, at an entry: the clipped offset of the target's word. -/
theorem segIdx_apply (lo k : Nat) (t : IVec S1024x128 32) (i : S1024x128.Idx) :
    Tail.segIdx (BitVec.ofNat 32 lo) (BitVec.ofNat 32 k) t i = clipW (t i) lo k := rfl

/-- The range mask at an entry whose word is below 2³¹ is set exactly when the word's value lies in [lo, hi). -/
theorem inRange_eq_one_iff (lo hi : Nat) (hlo : lo < 2 ^ 31) (hhi : hi < 2 ^ 31) (t : IVec S1024x128 32) (i : S1024x128.Idx)
    (hv : (t i).toNat < 2 ^ 31) :
    Tail.inRange (BitVec.ofNat 32 lo) (BitVec.ofNat 32 hi) t i = 1#1 ↔ lo ≤ (t i).toNat ∧ (t i).toNat < hi := by
  show IntOp.andi (IntOp.cmpi .sge (t i) (BitVec.ofNat 32 lo)) (IntOp.cmpi .slt (t i) (BitVec.ofNat 32 hi)) = 1#1 ↔ _
  rw [IntOp.andi_eq_one, sge_const _ hv lo hlo, slt_const _ hv hi hhi]

/-- A round keeps the taken entry where the target lies in the round's range. -/
theorem sel_in {α : Type} (lo hi : Nat) (hlo : lo < 2 ^ 31) (hhi : hi < 2 ^ 31) (t : IVec S1024x128 32) (i : S1024x128.Idx)
    (hv : (t i).toNat < 2 ^ 31) (g prev : S1024x128.Idx → α) (hin : lo ≤ (t i).toNat ∧ (t i).toNat < hi) :
    select (Tail.inRange (BitVec.ofNat 32 lo) (BitVec.ofNat 32 hi) t) g prev i = g i := by
  rw [select_apply, (inRange_eq_one_iff lo hi hlo hhi t i hv).mpr hin, select_one]

/-- A round keeps the running value where the target lies outside the round's range. -/
theorem sel_out {α : Type} (lo hi : Nat) (hlo : lo < 2 ^ 31) (hhi : hi < 2 ^ 31) (t : IVec S1024x128 32) (i : S1024x128.Idx)
    (hv : (t i).toNat < 2 ^ 31) (g prev : S1024x128.Idx → α) (hout : ¬(lo ≤ (t i).toNat ∧ (t i).toNat < hi)) :
    select (Tail.inRange (BitVec.ofNat 32 lo) (BitVec.ofNat 32 hi) t) g prev i = prev i := by
  rw [select_apply, eq_zero_of_ne_one (mt (inRange_eq_one_iff lo hi hlo hhi t i hv).mp hout), select_zero]

/-- An index word below 2³¹ is not negative, so it is laid out unchanged. -/
theorem wrap_apply_of_nonneg (n : BitVec 32) (x : IVec S1024x128 32) (b : Fin 1024) (s : Fin 128)
    (hx : (x (ix2 b s)).toNat < 2 ^ 31) : Tail.wrap n x (ix3 b s (0 : Fin 1)) = x (ix2 b s) := by
  unfold Tail.wrap
  rw [shapeCast_ab_ab1_apply _ _ b s 0, select_apply]
  have h0 : cmpi .slt x (Tail.bcI 0#32) (ix2 b s) = 0#1 := eq_zero_of_ne_one (fun h => by
    have := (slt_const _ hx 0 (by norm_num)).mp h; omega)
  rw [h0, select_zero]

/-- The in-bounds mask at an entry whose start index lies in [0, k] is set: both comparisons hold, and the reduce over
    the unit axis is the conjunction of that one entry with the initial 1. -/
theorem inb_apply_of_le (k : Nat) (hk : k < 2 ^ 31) (y : IVec S1024x128x1 32) (b : Fin 1024) (s : Fin 128)
    (hy : (y (ix3 b s (0 : Fin 1))).toNat ≤ k) : Tail.inb (BitVec.ofNat 32 k) y (ix2 b s) = 1#1 := by
  have hy' : (y (ix3 b s (0 : Fin 1))).toNat < 2 ^ 31 := by omega
  unfold Tail.inb
  rw [reduce_andi_unit_apply, IntOp.andi_eq_one]
  refine ⟨?_, rfl⟩
  show IntOp.andi (IntOp.cmpi .sge (y (ix3 b s (0 : Fin 1))) (BitVec.ofNat 32 0))
    (IntOp.cmpi .sle (y (ix3 b s (0 : Fin 1))) (BitVec.ofNat 32 k)) = 1#1
  rw [IntOp.andi_eq_one, sge_const _ hy' 0 (by norm_num), sle_const _ hy' k hk]
  exact ⟨Nat.zero_le _, hy⟩

/-- The take of a segment's array at the clipped offset, where the target lies in the segment [lo, lo + N): the mask is
    set, the gather reads row b at the offset v − lo, and the select keeps the gathered entry. -/
theorem take_seg_core {N : Nat} (k : Nat) (hk : k + 1 = N) (hN : N ≤ 100000)
    (wf : GatherDims.WF ⟨2, ![1024, N]⟩ ⟨3, ![1024, 128, 1]⟩ ⟨2, ![1024, 128]⟩ [] [1] [0] [1] [0] 2 ![1, 1])
    (A : FVec Ideal ⟨2, ![1024, N]⟩ .f32) (n : BitVec 32) (lo : Nat) (hlo : lo ≤ 100000) (t : IVec S1024x128 32)
    (b : Fin 1024) (s : Fin 128) (hv : (t (ix2 b s)).toNat < 100000) (h1 : lo ≤ (t (ix2 b s)).toNat)
    (h2 : (t (ix2 b s)).toNat < lo + N) :
    select (Tail.inb (BitVec.ofNat 32 k) (Tail.wrap n (Tail.segIdx (BitVec.ofNat 32 lo) (BitVec.ofNat 32 k) t)))
        (Host.gather (rowTakeDims 1024 N 128 wf) A (Tail.wrap n (Tail.segIdx (BitVec.ofNat 32 lo) (BitVec.ofNat 32 k) t)))
        (Tail.bcF (F := Ideal) 0x7FC00000#32) (ix2 b s)
      = A (ix2 b ⟨(t (ix2 b s)).toNat - lo, by omega⟩) := by
  have hc := clipW_spec (t (ix2 b s)) lo k hv hlo (by omega)
  have hw : Tail.wrap n (Tail.segIdx (BitVec.ofNat 32 lo) (BitVec.ofNat 32 k) t) (ix3 b s (0 : Fin 1))
      = clipW (t (ix2 b s)) lo k :=
    wrap_apply_of_nonneg n _ b s (by rw [segIdx_apply]; omega)
  have hti : (clipW (t (ix2 b s)) lo k).toInt.toNat = (clipW (t (ix2 b s)) lo k).toNat := by
    rw [toInt_eq_toNat_of_lt (by omega)]; rfl
  rw [select_apply, inb_apply_of_le k (by omega) _ b s (by rw [hw]; exact hc.1), select_one,
    gather_rowTake_apply (B := 1024) (N := N) (C := 128) (by omega) wf A _ b s]
  exact congrArg (fun q => A (ix2 b q)) (Fin.ext (by
    show min (Tail.wrap n (Tail.segIdx (BitVec.ofNat 32 lo) (BitVec.ofNat 32 k) t) (ix3 b s (0 : Fin 1))).toInt.toNat (N - 1)
      = (t (ix2 b s)).toNat - lo
    rw [hw, hti, hc.2 h1 (by omega)]; omega))

/-- The take of an array of 10000 columns at the clipped offset. -/
theorem take0_seg (A : FVec Ideal S1024x10000 .f32) (lo : Nat) (hlo : lo ≤ 100000) (t : IVec S1024x128 32)
    (b : Fin 1024) (s : Fin 128) (hv : (t (ix2 b s)).toNat < 100000) (h1 : lo ≤ (t (ix2 b s)).toNat)
    (h2 : (t (ix2 b s)).toNat < lo + 10000) :
    Tail.take0 (F := Ideal) A (Tail.segIdx (BitVec.ofNat 32 lo) (BitVec.ofNat 32 9999) t) (ix2 b s)
      = A (ix2 b ⟨(t (ix2 b s)).toNat - lo, by omega⟩) :=
  take_seg_core 9999 rfl (by norm_num) _ A 10000#32 lo hlo t b s hv h1 h2

/-- The take of an array of 20000 columns at the clipped offset. -/
theorem take1_seg (A : FVec Ideal S1024x20000 .f32) (lo : Nat) (hlo : lo ≤ 100000) (t : IVec S1024x128 32)
    (b : Fin 1024) (s : Fin 128) (hv : (t (ix2 b s)).toNat < 100000) (h1 : lo ≤ (t (ix2 b s)).toNat)
    (h2 : (t (ix2 b s)).toNat < lo + 20000) :
    Tail.take1 (F := Ideal) A (Tail.segIdx (BitVec.ofNat 32 lo) (BitVec.ofNat 32 19999) t) (ix2 b s)
      = A (ix2 b ⟨(t (ix2 b s)).toNat - lo, by omega⟩) :=
  take_seg_core 19999 rfl (by norm_num) _ A 20000#32 lo hlo t b s hv h1 h2

/-- The take of an array of 40000 columns at the clipped offset. -/
theorem take2_seg (A : FVec Ideal S1024x40000 .f32) (lo : Nat) (hlo : lo ≤ 100000) (t : IVec S1024x128 32)
    (b : Fin 1024) (s : Fin 128) (hv : (t (ix2 b s)).toNat < 100000) (h1 : lo ≤ (t (ix2 b s)).toNat)
    (h2 : (t (ix2 b s)).toNat < lo + 40000) :
    Tail.take2 (F := Ideal) A (Tail.segIdx (BitVec.ofNat 32 lo) (BitVec.ofNat 32 39999) t) (ix2 b s)
      = A (ix2 b ⟨(t (ix2 b s)).toNat - lo, by omega⟩) :=
  take_seg_core 39999 rfl (by norm_num) _ A 40000#32 lo hlo t b s hv h1 h2

end TailAt

/-! ## The five rounds -/

section Rounds
variable [Facts₀]

/-- THE PICK. For a target word in [0, 100000) exactly one round's range holds the target. The rounds after it leave the
    running value as it is (their masks are clear), the rounds before it are overwritten, and that round's take reads
    its array in row b at the target's offset inside the range: the specification's pick. -/
theorem lp_apply (A0 : FVec Ideal S1024x10000 .f32) (A1 : FVec Ideal S1024x10000 .f32) (A2 : FVec Ideal S1024x20000 .f32)
    (A3 : FVec Ideal S1024x40000 .f32) (A4 : FVec Ideal S1024x20000 .f32) (t : IVec S1024x128 32) (b : Fin 1024)
    (s : Fin 128) (h0 : 0 ≤ (t (ix2 b s)).toInt) (h1 : (t (ix2 b s)).toInt < 100000) :
    Tail.lp (F := Ideal) A0 A1 A2 A3 A4 t (ix2 b s) = Cert.Spec.pick A0 A1 A2 A3 A4 b (t (ix2 b s)).toNat := by
  obtain ⟨hv, -⟩ := toNat_of_range _ h0 h1
  have hv31 : (t (ix2 b s)).toNat < 2 ^ 31 := by omega
  unfold Tail.lp Tail.round0 Tail.round1 Tail.round2 Cert.Spec.pick
  by_cases c0 : (t (ix2 b s)).toNat < 10000
  · rw [sel_out 80000 100000 (by norm_num) (by norm_num) t _ hv31 _ _ (by omega), sel_out 40000 80000 (by norm_num) (by norm_num) t _ hv31 _ _ (by omega), sel_out 20000 40000 (by norm_num) (by norm_num) t _ hv31 _ _ (by omega),
      sel_out 10000 20000 (by norm_num) (by norm_num) t _ hv31 _ _ (by omega), sel_in 0 10000 (by norm_num) (by norm_num) t _ hv31 _ _ (by omega),
      take0_seg A0 0 (by norm_num) t b s hv (by omega) (by omega), dif_pos c0]
    rfl
  by_cases c1 : (t (ix2 b s)).toNat < 20000
  · rw [sel_out 80000 100000 (by norm_num) (by norm_num) t _ hv31 _ _ (by omega), sel_out 40000 80000 (by norm_num) (by norm_num) t _ hv31 _ _ (by omega), sel_out 20000 40000 (by norm_num) (by norm_num) t _ hv31 _ _ (by omega),
      sel_in 10000 20000 (by norm_num) (by norm_num) t _ hv31 _ _ (by omega),
      take0_seg A1 10000 (by norm_num) t b s hv (by omega) (by omega), dif_neg c0, dif_pos c1]
  by_cases c2 : (t (ix2 b s)).toNat < 40000
  · rw [sel_out 80000 100000 (by norm_num) (by norm_num) t _ hv31 _ _ (by omega), sel_out 40000 80000 (by norm_num) (by norm_num) t _ hv31 _ _ (by omega), sel_in 20000 40000 (by norm_num) (by norm_num) t _ hv31 _ _ (by omega),
      take1_seg A2 20000 (by norm_num) t b s hv (by omega) (by omega), dif_neg c0, dif_neg c1, dif_pos c2]
  by_cases c3 : (t (ix2 b s)).toNat < 80000
  · rw [sel_out 80000 100000 (by norm_num) (by norm_num) t _ hv31 _ _ (by omega), sel_in 40000 80000 (by norm_num) (by norm_num) t _ hv31 _ _ (by omega),
      take2_seg A3 40000 (by norm_num) t b s hv (by omega) (by omega), dif_neg c0, dif_neg c1, dif_neg c2, dif_pos c3]
  · rw [sel_in 80000 100000 (by norm_num) (by norm_num) t _ hv31 _ _ (by omega),
      take1_seg A4 80000 (by norm_num) t b s hv (by omega) (by omega), dif_neg c0, dif_neg c1, dif_neg c2, dif_neg c3,
      dif_pos hv]

end Rounds

end Cert.KernelIdeal.Bridge

end
-- ==== Proof.KValue.lean ====
/-
  The kernel program's result is the specification's loss.

  After the last region the program runs five rounds, one per range of the vocabulary, each replacing the running value
  by the entry taken from that range's array where the target lies in the range; then it averages the negated values
  under the weights. The arrays the rounds read are the five log-probability arrays held at the last region's exit,
  which are the specification's arrays of the launch memory; the discard table, the targets and the mask are the launch
  memory's own. For a target in [0, 100000) the five rounds leave, at every position, the specification's pick from the
  five arrays. So the running value is the specification's picked log-probability array, and the averaging applied to
  it is the loss.
-/
import proofs.«404181_j77000173683136_1_alg».proof.Proof.Gen.KernelIdeal.Frame
import proofs.«404181_j77000173683136_1_alg».proof.Proof.Spec
import proofs.«404181_j77000173683136_1_alg».proof.Proof.SpecLp
import proofs.«404181_j77000173683136_1_alg».proof.Proof.KTail
import proofs.«404181_j77000173683136_1_alg».proof.Proof.KTailB
import proofs.«404181_j77000173683136_1_alg».proof.Proof.KArrays
import proofs.«404181_j77000173683136_1_alg».proof.Proof.KHostOut
import proofs.«404181_j77000173683136_1_alg».proof.Proof.KBridge
import Idealize.ShloMosaic.Lib.ValueIdx

set_option maxRecDepth 16384

noncomputable section

namespace Cert.KernelIdeal.KValue

open Idealize.ShloMosaic Idealize.ShloMosaic.TcCoe Idealize.ShloMosaic.ValueIdx Idealize.SL.Sem
open Cert.KernelIdeal

variable (m : (ℓ : Loc nD τ sig) → Buf (Elt Ideal) ℓ) (ρ : Dev nD → PrngReg)

/-- With every target in [0, 100000), the result buffer holds the loss of the specification's picked log-probabilities
    under the launch memory's discard table, targets and mask. -/
theorem result (c : Dev nD)
    (hr : ∀ i : S1024x128.Idx, 0 ≤ BitVec.toInt ((m ((c : Thread nD τ).loc main_arg11)) i) ∧ BitVec.toInt ((m ((c : Thread nD τ).loc main_arg11)) i) < 100000) :
    Gen.W36 m ρ c (Proc.devRef .tc main_v97)
      = Tail.loss (F := Ideal) (Cert.Spec.lpSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11))) (m ((c : Thread nD τ).loc main_arg10)) (m ((c : Thread nD τ).loc main_arg11)) (m ((c : Thread nD τ).loc main_arg12)) := by
  rw [TailRunB.result_from_v59 m ρ c, TailRunB.W25_v28 m ρ c, TailRunB.W25_v23 m ρ c, TailRunB.W25_arg10 m ρ c,
    TailRunB.W25_arg11 m ρ c, TailRunB.W25_arg12 m ρ c,
    TailRun.v59 m ρ c,
    Arrays.short_eq m ρ c, Arrays.cl1_eq m ρ c, Arrays.cl2_eq m ρ c, Arrays.cl3_eq m ρ c, Arrays.cl4_eq m ρ c,
    HostOut.arg10_kept m ρ c, HostOut.arg11_kept m ρ c, HostOut.arg12_kept m ρ c]
  refine congrArg (fun v => Tail.loss (F := Ideal) v _ _ _) ?_
  funext i
  obtain ⟨b, s, rfl⟩ : ∃ (b : Fin 1024) (s : Fin 128), i = ix2 b s := ⟨i 0, i 1, eq_ix2 i⟩
  exact Bridge.lp_apply _ _ _ _ _ _ b s (hr (ix2 b s)).1 (hr (ix2 b s)).2

end Cert.KernelIdeal.KValue

end
-- ==== Proof.RArrays.lean ====
/-
  The reference's five arrays of log-probabilities are the specification's.

  A row's log-softmax, as the program spells it, is a chain of whole-array operations: the row maximum (a fold of the
  maximum from −∞ over the row, then once more against a row of −∞), the differences from it, their exponentials, the
  row sum from 0, its logarithm, and the difference again.  Read at the entry (b, j) the chain is the specification's
  log-softmax of row b at j; this is shown once, for rows of any length.  A product of two matrices read at an entry is
  the sum over the shared axis of the products of the entries, a transpose exchanges the two coordinates, and a slice
  of one column of the head's array reads that column.
-/
import proofs.«404181_j77000173683136_1_alg».proof.Proof.RefRead
import proofs.«404181_j77000173683136_1_alg».proof.Proof.Spec
import Idealize.ShloMosaic.Lib.Pipeline.Value
import Idealize.ShloMosaic.Lib.ValueIdx
import Idealize.ShloMosaic.PureOps.Ideal.Laws

noncomputable section

namespace Cert.ReferenceIdeal.Arrays

open Idealize.ShloMosaic Idealize.ShloMosaic.ValueIdx

/-! ## A row's log-softmax as the program's chain of operations -/

/-- The result index b of a reduction over the columns, with the column k put back, is the entry (b, k). -/
theorem lift_row {N : Nat} (h : (⟨2, ![1024, N]⟩ : Shape).Reduces [1] (⟨1, ![1024]⟩ : Shape)) (b : Fin 1024)
    (k : Fin ((⟨2, ![1024, N]⟩ : Shape).size 1)) : h.lift (ix1 b) k = ix2 b (⟨k.val, k.isLt⟩ : Fin N) := by
  funext c; apply Fin.ext
  fin_cases c <;> rfl

/-- A column [1024, 1] broadcast along the rows reads, at (b, j), the column's entry b. -/
theorem bcastCol_apply {N : Nat}
    (hb : (⟨2, ![1024, 1]⟩ : Shape).BroadcastsInDim (⟨2, ![1024, N]⟩ : Shape) (![0, 1] : Fin 2 → Fin 2))
    (y : (⟨2, ![1024, 1]⟩ : Shape).Idx → EReal) (b : Fin 1024) (j : Fin N) :
    broadcastInDim (⟨2, ![1024, N]⟩ : Shape) ![0, 1] hb y (ix2 b j) = y (ix2 b 0) :=
  broadcastInDim_apply _ hb y (ix2 b j) (ix2 b 0) (fun a => match a with
    | ⟨0, _⟩ => by show b.val = if (1024 : Nat) = 1 then 0 else b.val; rw [if_neg (by decide)]
    | ⟨1, _⟩ => by show 0 = if (1 : Nat) = 1 then 0 else j.val; rw [if_pos rfl])

/-- A vector [1024] laid out as a column [1024, 1] reads, at (b, 0), the vector's entry b. -/
theorem asCol_apply (hb : (⟨1, ![1024]⟩ : Shape).BroadcastsInDim (⟨2, ![1024, 1]⟩ : Shape) (![0] : Fin 1 → Fin 2))
    (v : (⟨1, ![1024]⟩ : Shape).Idx → EReal) (b : Fin 1024) (c : Fin 1) :
    broadcastInDim (⟨2, ![1024, 1]⟩ : Shape) ![0] hb v (ix2 b c) = v (ix1 b) :=
  broadcastInDim_apply _ hb v (ix2 b c) (ix1 b) (fun a => match a with
    | ⟨0, _⟩ => by show b.val = if (1024 : Nat) = 1 then 0 else b.val; rw [if_neg (by decide)])

/-- The program's row maximum: the fold of the maximum from −∞ over row b, then the maximum with −∞, is the
    largest entry of the row. -/
theorem rowMax_read {N : Nat} (L : FVec Ideal (⟨2, ![1024, N]⟩ : Shape) .f32)
    (hr : (⟨2, ![1024, N]⟩ : Shape).ReducesTo [1] (⟨1, ![1024]⟩ : Shape))
    (hR : (⟨2, ![1024, N]⟩ : Shape).Reduces [1] (⟨1, ![1024]⟩ : Shape))
    (hu : 0 < (⟨0, ![]⟩ : Shape).numel)
    (hb0 : (⟨0, ![]⟩ : Shape).BroadcastsInDim (⟨1, ![1024]⟩ : Shape) (![] : Fin 0 → Fin 1)) (b : Fin 1024) :
    (maximumf (broadcastInDim (⟨1, ![1024]⟩ : Shape) ![] hb0 (constant (F := Ideal) (⟨0, ![]⟩ : Shape) .f32 0xFF800000#32))
        (Host.reduce FloatOps.maximumf L (constant (F := Ideal) (⟨0, ![]⟩ : Shape) .f32 0xFF800000#32) hr hu)
        : FVec Ideal (⟨1, ![1024]⟩ : Shape) .f32) (ix1 b)
      = Cert.Spec.rowMax (fun k : Fin N => L (ix2 b k)) := by
  rw [maximumf_apply, broadcastInDim_apply _ hb0 _ (ix1 b) ix0 (fun a => a.elim0), constant_apply,
    Host.reduce_eq_fold_single FloatOps.maximumf L _ hr hR hu (ix1 b), constant_apply, Cert.Spec.ofBits_neg_inf,
    max_bot_left]
  have hf : (L ∘ hR.lift (ix1 b)) = fun k : Fin N => L (ix2 b k) := funext fun k => congrArg L (lift_row hR b k)
  unfold Cert.Spec.rowMax
  exact congrArg (fun f => Finset.fold max (⊥ : EReal) f (Finset.univ : Finset (Fin N))) hf

/-- The program's row sum from 0: at b it is the sum of row b. -/
theorem rowSum_read {N : Nat} (E : FVec Ideal (⟨2, ![1024, N]⟩ : Shape) .f32)
    (hr : (⟨2, ![1024, N]⟩ : Shape).ReducesTo [1] (⟨1, ![1024]⟩ : Shape))
    (hR : (⟨2, ![1024, N]⟩ : Shape).Reduces [1] (⟨1, ![1024]⟩ : Shape))
    (hu : 0 < (⟨0, ![]⟩ : Shape).numel) (b : Fin 1024) :
    Host.reduceAdd (F := Ideal) E (constant (F := Ideal) (⟨0, ![]⟩ : Shape) .f32 0x00000000#32) hr hu (ix1 b)
      = ∑ k : Fin N, E (ix2 b k) := by
  simp only [Host.reduceAdd, Ideal.hostReduceAdd_def]
  rw [Ideal.hostReduceAdd_single hr hR, constant_apply, Ideal.ofBits_zero_f32, zero_add]
  exact Finset.sum_congr rfl fun k _ => congrArg E (lift_row hR b k)

/-- The program's log-softmax of the rows of L: its operations composed, in the program's order. -/
def lsmOps {N : Nat} (L : FVec Ideal (⟨2, ![1024, N]⟩ : Shape) .f32)
    (hr : (⟨2, ![1024, N]⟩ : Shape).ReducesTo [1] (⟨1, ![1024]⟩ : Shape))
    (hu : 0 < (⟨0, ![]⟩ : Shape).numel)
    (hb0 : (⟨0, ![]⟩ : Shape).BroadcastsInDim (⟨1, ![1024]⟩ : Shape) (![] : Fin 0 → Fin 1))
    (hb1 : (⟨1, ![1024]⟩ : Shape).BroadcastsInDim (⟨2, ![1024, 1]⟩ : Shape) (![0] : Fin 1 → Fin 2))
    (hb2 : (⟨2, ![1024, 1]⟩ : Shape).BroadcastsInDim (⟨2, ![1024, N]⟩ : Shape) (![0, 1] : Fin 2 → Fin 2)) :
    FVec Ideal (⟨2, ![1024, N]⟩ : Shape) .f32 :=
  subf
    (subf L (broadcastInDim (⟨2, ![1024, N]⟩ : Shape) ![0, 1] hb2 (broadcastInDim (⟨2, ![1024, 1]⟩ : Shape) ![0] hb1
      (maximumf (broadcastInDim (⟨1, ![1024]⟩ : Shape) ![] hb0 (constant (F := Ideal) (⟨0, ![]⟩ : Shape) .f32 0xFF800000#32))
        (Host.reduce FloatOps.maximumf L (constant (F := Ideal) (⟨0, ![]⟩ : Shape) .f32 0xFF800000#32) hr hu)))))
    (broadcastInDim (⟨2, ![1024, N]⟩ : Shape) ![0, 1] hb2 (Host.log (broadcastInDim (⟨2, ![1024, 1]⟩ : Shape) ![0] hb1
      (Host.reduceAdd (F := Ideal)
        (Host.exp (subf L (broadcastInDim (⟨2, ![1024, N]⟩ : Shape) ![0, 1] hb2 (broadcastInDim (⟨2, ![1024, 1]⟩ : Shape) ![0] hb1
          (maximumf (broadcastInDim (⟨1, ![1024]⟩ : Shape) ![] hb0 (constant (F := Ideal) (⟨0, ![]⟩ : Shape) .f32 0xFF800000#32))
            (Host.reduce FloatOps.maximumf L (constant (F := Ideal) (⟨0, ![]⟩ : Shape) .f32 0xFF800000#32) hr hu))))))
        (constant (F := Ideal) (⟨0, ![]⟩ : Shape) .f32 0x00000000#32) hr hu))))

/-- The differences from the row maximum, read at (b, j). -/
theorem shifted_read {N : Nat} (L : FVec Ideal (⟨2, ![1024, N]⟩ : Shape) .f32)
    (hr : (⟨2, ![1024, N]⟩ : Shape).ReducesTo [1] (⟨1, ![1024]⟩ : Shape))
    (hR : (⟨2, ![1024, N]⟩ : Shape).Reduces [1] (⟨1, ![1024]⟩ : Shape))
    (hu : 0 < (⟨0, ![]⟩ : Shape).numel)
    (hb0 : (⟨0, ![]⟩ : Shape).BroadcastsInDim (⟨1, ![1024]⟩ : Shape) (![] : Fin 0 → Fin 1))
    (hb1 : (⟨1, ![1024]⟩ : Shape).BroadcastsInDim (⟨2, ![1024, 1]⟩ : Shape) (![0] : Fin 1 → Fin 2))
    (hb2 : (⟨2, ![1024, 1]⟩ : Shape).BroadcastsInDim (⟨2, ![1024, N]⟩ : Shape) (![0, 1] : Fin 2 → Fin 2))
    (b : Fin 1024) (j : Fin N) :
    (subf L (broadcastInDim (⟨2, ![1024, N]⟩ : Shape) ![0, 1] hb2 (broadcastInDim (⟨2, ![1024, 1]⟩ : Shape) ![0] hb1
      (maximumf (broadcastInDim (⟨1, ![1024]⟩ : Shape) ![] hb0 (constant (F := Ideal) (⟨0, ![]⟩ : Shape) .f32 0xFF800000#32))
        (Host.reduce FloatOps.maximumf L (constant (F := Ideal) (⟨0, ![]⟩ : Shape) .f32 0xFF800000#32) hr hu))))
      : FVec Ideal (⟨2, ![1024, N]⟩ : Shape) .f32) (ix2 b j)
      = L (ix2 b j) - Cert.Spec.rowMax (fun k : Fin N => L (ix2 b k)) := by
  rw [subf_apply, bcastCol_apply hb2, asCol_apply hb1, rowMax_read L hr hR hu hb0 b]

/-- The chain read at (b, j) is the log-softmax of row b at j. -/
theorem lsmOps_apply {N : Nat} (L : FVec Ideal (⟨2, ![1024, N]⟩ : Shape) .f32)
    (hr : (⟨2, ![1024, N]⟩ : Shape).ReducesTo [1] (⟨1, ![1024]⟩ : Shape))
    (hR : (⟨2, ![1024, N]⟩ : Shape).Reduces [1] (⟨1, ![1024]⟩ : Shape))
    (hu : 0 < (⟨0, ![]⟩ : Shape).numel)
    (hb0 : (⟨0, ![]⟩ : Shape).BroadcastsInDim (⟨1, ![1024]⟩ : Shape) (![] : Fin 0 → Fin 1))
    (hb1 : (⟨1, ![1024]⟩ : Shape).BroadcastsInDim (⟨2, ![1024, 1]⟩ : Shape) (![0] : Fin 1 → Fin 2))
    (hb2 : (⟨2, ![1024, 1]⟩ : Shape).BroadcastsInDim (⟨2, ![1024, N]⟩ : Shape) (![0, 1] : Fin 2 → Fin 2))
    (b : Fin 1024) (j : Fin N) :
    lsmOps L hr hu hb0 hb1 hb2 (ix2 b j) = Cert.Spec.lsm (fun k : Fin N => L (ix2 b k)) j := by
  unfold lsmOps Cert.Spec.lsm
  rw [subf_apply, shifted_read L hr hR hu hb0 hb1 hb2 b j, bcastCol_apply hb2]
  show _ - FloatOps.hostUnary (F := Ideal) .log _ = _
  rw [Ideal.hostUnary_log_def, asCol_apply hb1, rowSum_read _ hr hR hu b]
  refine congrArg (fun s => _ - Ideal.log s) (Finset.sum_congr rfl fun k _ => ?_)
  show FloatOps.hostUnary (F := Ideal) .exp _ = _
  rw [Ideal.hostUnary_exp_def, shifted_read L hr hR hu hb0 hb1 hb2 b k]

/-! ## The five arrays -/

section Arrays

open Cert.ReferenceIdeal.Gen Cert.ReferenceIdeal.Read

/-- Two indices of a rank-2 shape are equal when their coordinates are: both sides compute at each axis. -/
local macro "idx2" : tactic =>
  `(tactic| (funext a; apply Fin.ext; match a with | ⟨0, _⟩ => rfl | ⟨1, _⟩ => rfl))

variable (x : FVec Ideal S1024x1024 .f32) (hw : FVec Ideal S10004x1024 .f32)

/-! ### The head -/

/-- The head's score of column k for sample b: row b of the features against row k of the head's weights. -/
theorem headLogit_read (b : Fin 1024) (k : Fin 10004) :
    val_main_v1 (F := Ideal) x hw (ix2 b k) = Cert.Spec.dotRows x hw b k := by
  rw [val_main_v1_apply]
  refine Finset.sum_congr rfl fun q _ => ?_
  rw [val_main_v0_apply]
  exact congrArg₂ (· * ·) (congrArg x (by idx2)) (congrArg hw (by idx2))

/-- The head's array of log-probabilities is the chain of operations over the head's scores. -/
theorem head_chain : val_main_v2 (F := Ideal) x hw
    = lsmOps (val_main_v1 (F := Ideal) x hw) reducesTo_S1024x10004_S1024_d1 h_S_ bcast_S_S1024 bcast_S1024_S1024x1_0
        bcast_S1024x1_S1024x10004_0_1 := rfl

/-- The head's log-probability of column k for sample b. -/
theorem headLp_read (b : Fin 1024) (k : Fin 10004) :
    val_main_v2 (F := Ideal) x hw (ix2 b k) = Cert.Spec.headLpAt x hw b k := by
  rw [head_chain, lsmOps_apply _ _ (by decide)]
  exact congrArg (fun z => Cert.Spec.lsm z k) (funext fun q => headLogit_read x hw b q)

/-- The shortlist: the head's first 10000 columns. -/
theorem short_eq : val_main_v3 (F := Ideal) x hw = Cert.Spec.shortlistLp x hw := by
  funext i
  obtain ⟨b, j, rfl⟩ : ∃ (b : Fin 1024) (j : Fin 10000), i = ix2 b j := ⟨i 0, i 1, eq_ix2 i⟩
  rw [val_main_v3_apply,
    show idx_main_v3 (ix2 b j) = ix2 b (⟨j.val, Nat.lt_of_lt_of_le j.isLt (by decide)⟩ : Fin 10004) by idx2,
    headLp_read]
  rfl

/-! ### The first cluster -/

section
variable (p0 : FVec Ideal S512x1024 .f32) (o0 : FVec Ideal S10000x512 .f32)

/-- The hidden vector's entry h for sample b: row b of the features against row h of the projection. -/
theorem hidden1_read (b : Fin 1024) (h : Fin 512) :
    val_main_v5 (F := Ideal) x p0 (ix2 b h) = Cert.Spec.dotRows x p0 b h := by
  rw [val_main_v5_apply]
  refine Finset.sum_congr rfl fun q _ => ?_
  rw [val_main_v4_apply]
  exact congrArg₂ (· * ·) (congrArg x (by idx2)) (congrArg p0 (by idx2))

/-- The cluster's score of its entry j for sample b. -/
theorem logit1_read (b : Fin 1024) (j : Fin 10000) :
    val_main_v7 (F := Ideal) x p0 o0 (ix2 b j) = Cert.Spec.clusterLogit x p0 o0 b j := by
  rw [val_main_v7_apply]
  refine Finset.sum_congr rfl fun h _ => ?_
  rw [val_main_v6_apply, show lidx_main_v7 (ix2 b j) h = ix2 b h by idx2, hidden1_read]
  exact congrArg (_ * ·) (congrArg o0 (by idx2))

/-- The cluster's log-softmax is the chain of operations over its scores. -/
theorem chain1 : val_main_v8 (F := Ideal) x p0 o0
    = lsmOps (val_main_v7 (F := Ideal) x p0 o0) reducesTo_S1024x10000_S1024_d1 h_S_ bcast_S_S1024 bcast_S1024_S1024x1_0
        bcast_S1024x1_S1024x10000_0_1 := rfl

/-- The head's column 10000, broadcast along the cluster's entries. -/
theorem headCol1_read (b : Fin 1024) (j : Fin 10000) :
    val_main_v10 (F := Ideal) x hw (ix2 b j) = Cert.Spec.headLpAt x hw b (⟨10000, by decide⟩ : Fin 10004) := by
  rw [val_main_v10_apply, val_main_v9_apply,
    show idx_main_v9 (idx_main_v10 (ix2 b j)) = ix2 b (⟨10000, by decide⟩ : Fin 10004) by idx2, headLp_read]

theorem cl1_eq : val_main_v11 (F := Ideal) x hw p0 o0
    = Cert.Spec.clusterLp (⟨10000, by decide⟩ : Fin 10004) x hw p0 o0 := by
  funext i
  obtain ⟨b, j, rfl⟩ : ∃ (b : Fin 1024) (j : Fin 10000), i = ix2 b j := ⟨i 0, i 1, eq_ix2 i⟩
  rw [val_main_v11_apply, chain1, lsmOps_apply _ _ (by decide), headCol1_read]
  exact congrArg (· + Cert.Spec.headLpAt x hw b (⟨10000, by decide⟩ : Fin 10004))
    (congrArg (fun z => Cert.Spec.lsm z j) (funext fun q => logit1_read x p0 o0 b q))

end

/-! ### The second cluster -/

section
variable (p1 : FVec Ideal S256x1024 .f32) (o1 : FVec Ideal S20000x256 .f32)

/-- The hidden vector's entry h for sample b: row b of the features against row h of the projection. -/
theorem hidden2_read (b : Fin 1024) (h : Fin 256) :
    val_main_v13 (F := Ideal) x p1 (ix2 b h) = Cert.Spec.dotRows x p1 b h := by
  rw [val_main_v13_apply]
  refine Finset.sum_congr rfl fun q _ => ?_
  rw [val_main_v12_apply]
  exact congrArg₂ (· * ·) (congrArg x (by idx2)) (congrArg p1 (by idx2))

/-- The cluster's score of its entry j for sample b. -/
theorem logit2_read (b : Fin 1024) (j : Fin 20000) :
    val_main_v15 (F := Ideal) x p1 o1 (ix2 b j) = Cert.Spec.clusterLogit x p1 o1 b j := by
  rw [val_main_v15_apply]
  refine Finset.sum_congr rfl fun h _ => ?_
  rw [val_main_v14_apply, show lidx_main_v15 (ix2 b j) h = ix2 b h by idx2, hidden2_read]
  exact congrArg (_ * ·) (congrArg o1 (by idx2))

/-- The cluster's log-softmax is the chain of operations over its scores. -/
theorem chain2 : val_main_v16 (F := Ideal) x p1 o1
    = lsmOps (val_main_v15 (F := Ideal) x p1 o1) reducesTo_S1024x20000_S1024_d1 h_S_ bcast_S_S1024 bcast_S1024_S1024x1_0
        bcast_S1024x1_S1024x20000_0_1 := rfl

/-- The head's column 10001, broadcast along the cluster's entries. -/
theorem headCol2_read (b : Fin 1024) (j : Fin 20000) :
    val_main_v18 (F := Ideal) x hw (ix2 b j) = Cert.Spec.headLpAt x hw b (⟨10001, by decide⟩ : Fin 10004) := by
  rw [val_main_v18_apply, val_main_v17_apply,
    show idx_main_v17 (idx_main_v18 (ix2 b j)) = ix2 b (⟨10001, by decide⟩ : Fin 10004) by idx2, headLp_read]

theorem cl2_eq : val_main_v19 (F := Ideal) x hw p1 o1
    = Cert.Spec.clusterLp (⟨10001, by decide⟩ : Fin 10004) x hw p1 o1 := by
  funext i
  obtain ⟨b, j, rfl⟩ : ∃ (b : Fin 1024) (j : Fin 20000), i = ix2 b j := ⟨i 0, i 1, eq_ix2 i⟩
  rw [val_main_v19_apply, chain2, lsmOps_apply _ _ (by decide), headCol2_read]
  exact congrArg (· + Cert.Spec.headLpAt x hw b (⟨10001, by decide⟩ : Fin 10004))
    (congrArg (fun z => Cert.Spec.lsm z j) (funext fun q => logit2_read x p1 o1 b q))

end

/-! ### The third cluster -/

section
variable (p2 : FVec Ideal S128x1024 .f32) (o2 : FVec Ideal S40000x128 .f32)

/-- The hidden vector's entry h for sample b: row b of the features against row h of the projection. -/
theorem hidden3_read (b : Fin 1024) (h : Fin 128) :
    val_main_v21 (F := Ideal) x p2 (ix2 b h) = Cert.Spec.dotRows x p2 b h := by
  rw [val_main_v21_apply]
  refine Finset.sum_congr rfl fun q _ => ?_
  rw [val_main_v20_apply]
  exact congrArg₂ (· * ·) (congrArg x (by idx2)) (congrArg p2 (by idx2))

/-- The cluster's score of its entry j for sample b. -/
theorem logit3_read (b : Fin 1024) (j : Fin 40000) :
    val_main_v23 (F := Ideal) x p2 o2 (ix2 b j) = Cert.Spec.clusterLogit x p2 o2 b j := by
  rw [val_main_v23_apply]
  refine Finset.sum_congr rfl fun h _ => ?_
  rw [val_main_v22_apply, show lidx_main_v23 (ix2 b j) h = ix2 b h by idx2, hidden3_read]
  exact congrArg (_ * ·) (congrArg o2 (by idx2))

/-- The cluster's log-softmax is the chain of operations over its scores. -/
theorem chain3 : val_main_v24 (F := Ideal) x p2 o2
    = lsmOps (val_main_v23 (F := Ideal) x p2 o2) reducesTo_S1024x40000_S1024_d1 h_S_ bcast_S_S1024 bcast_S1024_S1024x1_0
        bcast_S1024x1_S1024x40000_0_1 := rfl

/-- The head's column 10002, broadcast along the cluster's entries. -/
theorem headCol3_read (b : Fin 1024) (j : Fin 40000) :
    val_main_v26 (F := Ideal) x hw (ix2 b j) = Cert.Spec.headLpAt x hw b (⟨10002, by decide⟩ : Fin 10004) := by
  rw [val_main_v26_apply, val_main_v25_apply,
    show idx_main_v25 (idx_main_v26 (ix2 b j)) = ix2 b (⟨10002, by decide⟩ : Fin 10004) by idx2, headLp_read]

theorem cl3_eq : val_main_v27 (F := Ideal) x hw p2 o2
    = Cert.Spec.clusterLp (⟨10002, by decide⟩ : Fin 10004) x hw p2 o2 := by
  funext i
  obtain ⟨b, j, rfl⟩ : ∃ (b : Fin 1024) (j : Fin 40000), i = ix2 b j := ⟨i 0, i 1, eq_ix2 i⟩
  rw [val_main_v27_apply, chain3, lsmOps_apply _ _ (by decide), headCol3_read]
  exact congrArg (· + Cert.Spec.headLpAt x hw b (⟨10002, by decide⟩ : Fin 10004))
    (congrArg (fun z => Cert.Spec.lsm z j) (funext fun q => logit3_read x p2 o2 b q))

end

/-! ### The fourth cluster -/

section
variable (p3 : FVec Ideal S64x1024 .f32) (o3 : FVec Ideal S20000x64 .f32)

/-- The hidden vector's entry h for sample b: row b of the features against row h of the projection. -/
theorem hidden4_read (b : Fin 1024) (h : Fin 64) :
    val_main_v29 (F := Ideal) x p3 (ix2 b h) = Cert.Spec.dotRows x p3 b h := by
  rw [val_main_v29_apply]
  refine Finset.sum_congr rfl fun q _ => ?_
  rw [val_main_v28_apply]
  exact congrArg₂ (· * ·) (congrArg x (by idx2)) (congrArg p3 (by idx2))

/-- The cluster's score of its entry j for sample b. -/
theorem logit4_read (b : Fin 1024) (j : Fin 20000) :
    val_main_v31 (F := Ideal) x p3 o3 (ix2 b j) = Cert.Spec.clusterLogit x p3 o3 b j := by
  rw [val_main_v31_apply]
  refine Finset.sum_congr rfl fun h _ => ?_
  rw [val_main_v30_apply, show lidx_main_v31 (ix2 b j) h = ix2 b h by idx2, hidden4_read]
  exact congrArg (_ * ·) (congrArg o3 (by idx2))

/-- The cluster's log-softmax is the chain of operations over its scores. -/
theorem chain4 : val_main_v32 (F := Ideal) x p3 o3
    = lsmOps (val_main_v31 (F := Ideal) x p3 o3) reducesTo_S1024x20000_S1024_d1 h_S_ bcast_S_S1024 bcast_S1024_S1024x1_0
        bcast_S1024x1_S1024x20000_0_1 := rfl

/-- The head's column 10003, broadcast along the cluster's entries. -/
theorem headCol4_read (b : Fin 1024) (j : Fin 20000) :
    val_main_v34 (F := Ideal) x hw (ix2 b j) = Cert.Spec.headLpAt x hw b (⟨10003, by decide⟩ : Fin 10004) := by
  rw [val_main_v34_apply, val_main_v33_apply,
    show idx_main_v33 (idx_main_v34 (ix2 b j)) = ix2 b (⟨10003, by decide⟩ : Fin 10004) by idx2, headLp_read]

theorem cl4_eq : val_main_v35 (F := Ideal) x hw p3 o3
    = Cert.Spec.clusterLp (⟨10003, by decide⟩ : Fin 10004) x hw p3 o3 := by
  funext i
  obtain ⟨b, j, rfl⟩ : ∃ (b : Fin 1024) (j : Fin 20000), i = ix2 b j := ⟨i 0, i 1, eq_ix2 i⟩
  rw [val_main_v35_apply, chain4, lsmOps_apply _ _ (by decide), headCol4_read]
  exact congrArg (· + Cert.Spec.headLpAt x hw b (⟨10003, by decide⟩ : Fin 10004))
    (congrArg (fun z => Cert.Spec.lsm z j) (funext fun q => logit4_read x p3 o3 b q))

end

end Arrays

end Cert.ReferenceIdeal.Arrays

end
-- ==== Proof.RTailDef.lean ====
/-
  The reference's last steps as functions of the arrays they read: the five arrays of log-probabilities laid
  side by side along the vocabulary axis, the lookup of one column per position, and the weighted mean of the
  negated log-probabilities.
-/
import proofs.«404181_j77000173683136_1_alg».proof.ReferenceIdeal

noncomputable section

namespace Cert.ReferenceIdeal.Tail

open Cert.ReferenceIdeal Idealize.ShloMosaic
open Cert.ReferenceIdeal.Facts₀ Cert.ReferenceIdeal.Facts

variable {F : FTy → Type} [FloatOps F] [Facts]

/-! ## The operations, as functions of the arrays they read -/

/-- The five arrays of log-probabilities laid side by side along the vocabulary axis: columns [0, 10000) are the
    shortlist's, then the four clusters' ranges [10000, 20000), [20000, 40000), [40000, 80000), [80000, 100000). -/
def cat (A0 : FVec F S1024x10000 .f32) (A1 : FVec F S1024x10000 .f32) (A2 : FVec F S1024x20000 .f32)
    (A3 : FVec F S1024x40000 .f32) (A4 : FVec F S1024x20000 .f32) : FVec F S1024x100000 .f32 :=
  concatenate S1024x100000 1 [⟨S1024x10000, A0⟩, ⟨S1024x10000, A1⟩, ⟨S1024x20000, A2⟩, ⟨S1024x40000, A3⟩, ⟨S1024x20000, A4⟩] concatenates_S1024x10000_S1024x10000_S1024x20000_S1024x40000_S1024x20000_S1024x100000_d1

/-- An index word counted from the end when it is negative: t + 100000 where t < 0, else t. -/
def wrap (t : IVec S1024x128 32) : IVec S1024x128 32 :=
  select (cmpi .slt t (broadcastInDim S1024x128 ![] bcast_S_S1024x128 (constantI S_ 32 0#32)))
    (addi t (broadcastInDim S1024x128 ![] bcast_S_S1024x128 (constantI S_ 32 100000#32))) t

/-- The wrapped index words with a trailing unit axis: entry (b, s, 0) is entry (b, s). -/
def wrapCol (t : IVec S1024x128 32) : IVec S1024x128x1 32 :=
  shapeCast _ (wrap t) shapeCasts_S1024x128_S1024x128x1

/-- Where the wrapped index word lies inside the vocabulary: 0 ≤ word and word ≤ 99999, the two tests joined
    and then folded by "and" over the unit axis. -/
def inRange (t : IVec S1024x128 32) : IVec S1024x128 1 :=
  Host.reduce IntOp.andi
    (andi (cmpi .sge (wrapCol t) (broadcastInDim S1024x128x1 ![] bcast_S_S1024x128x1 (constantI S_ 32 0#32)))
      (cmpi .sle (wrapCol t) (broadcastInDim S1024x128x1 ![0, 1, 2] bcast_S1x1x1_S1024x128x1_0_1_2
        (broadcastInDim S1x1x1 ![2] bcast_S1_S1x1x1_2 (constantI S1 32 99999#32)))))
    (constantI S_ 1 1#1) reducesTo_S1024x128x1_S1024x128_d2 h_S_

/-- Row b of L read at the columns the index words name: entry (b, s) is L (b, t (b, s)) (a negative word counted
    from the end, the column clamped into the row) where the word lies inside the vocabulary, and the
    not-a-number constant elsewhere. -/
def take (L : FVec F S1024x100000 .f32) (t : IVec S1024x128 32) : FVec F S1024x128 .f32 :=
  select (inRange t)
    (Host.gather gather_S1024x100000_S1024x128x1_S1024x128_n_1_0_0_1_2_11 L (wrapCol t))
    (broadcastInDim S1024x128 ![] bcast_S_S1024x128 (constant S_ .f32 0x7FC00000#32))

/-- The weight of position (b, s): (1 − d (t (b, s))) · (the mask bit as a number), d read at the wrapped and
    clamped index word. -/
def weight (d : FVec F S100000 .f32) (t : IVec S1024x128 32) (mk : IVec S1024x128 1) : FVec F S1024x128 .f32 :=
  mulf
    (subf (broadcastInDim S1024x128 ![] bcast_S_S1024x128 (constant S_ .f32 0x3F800000#32))
      (Host.gather gather_S100000_S1024x128x1_S1024x128_n_0_n_n_0_2_1 d
        (broadcastInDim S1024x128x1 ![0, 1] bcast_S1024x128_S1024x128x1_0_1 (wrap t))))
    (uitofp .f32 mk)

/-- The loss: per sample b the weighted sum Σ_s (−lpv (b, s)) · w (b, s) divided by Σ_s w (b, s), the 1024
    quotients summed and divided by 1024. -/
def loss (lpv : FVec F S1024x128 .f32) (d : FVec F S100000 .f32) (t : IVec S1024x128 32) (mk : IVec S1024x128 1) :
    FVec F S_ .f32 :=
  Host.divf
    (Host.reduceAdd
      (Host.divf
        (Host.reduceAdd (mulf (Host.negf lpv) (weight d t mk)) (constant S_ .f32 0x00000000#32) reducesTo_S1024x128_S1024_d1 h_S_)
        (Host.reduceAdd (weight d t mk) (constant S_ .f32 0x00000000#32) reducesTo_S1024x128_S1024_d1 h_S_))
      (constant S_ .f32 0x00000000#32) reducesTo_S1024_S_d0 h_S_)
    (constant S_ .f32 0x44800000#32)

end Cert.ReferenceIdeal.Tail

end
-- ==== Proof.RTail.lean ====
/-
  The lookup of the reference at an index inside the vocabulary.

  For a sample b and a position s whose index word v = t (b, s) is a number of [0, 100000): the word is not
  negative, so it is not counted from the end; both range tests hold, so the fold of their conjunction over the
  unit axis is the bit 1 and the lookup keeps the gathered entry; the gather reads row b of its operand at
  column v (the clamp into [0, 99999] changes nothing); and column v of the five arrays laid side by side is
  the array whose range [0, 10000), [10000, 20000), [20000, 40000), [40000, 80000) or [80000, 100000) holds v,
  at v's offset inside that range.
-/
import proofs.«404181_j77000173683136_1_alg».proof.Proof.RTailDef
import proofs.«404181_j77000173683136_1_alg».proof.Proof.Spec
import Idealize.ShloMosaic.Lib.Pipeline.Value
import Idealize.ShloMosaic.Lib.ValueIdx
import Idealize.ShloMosaic.Lib.Affine
import Idealize.ShloMosaic.PureOps.Reduce

noncomputable section

namespace Cert.ReferenceIdeal.Tail

open Cert.ReferenceIdeal Idealize.ShloMosaic Idealize.ShloMosaic.ValueIdx
open Cert.ReferenceIdeal.Facts₀ Cert.ReferenceIdeal.Facts

variable {F : FTy → Type} [FloatOps F] [Facts]

/-! ## Index words -/

/-- A 32-bit word that is not negative as a signed number is that number as an unsigned one. -/
theorem toInt_eq_toNat_of_nonneg (x : BitVec 32) (h : 0 ≤ x.toInt) : x.toInt = (x.toNat : Int) := by
  have hlt := x.isLt
  have e := BitVec.toInt_eq_toNat_cond x
  by_cases hc : 2 * x.toNat < 2 ^ 32
  · rw [if_pos hc] at e; exact e
  · rw [if_neg hc] at e; omega

/-- A word that is not negative is not wrapped. -/
theorem wrap_apply_of_nonneg (t : IVec S1024x128 32) (p : S1024x128.Idx) (h0 : 0 ≤ (t p).toInt) : wrap t p = t p := by
  have hc : IntOp.cmpi .slt (t p) 0#32 = 0#1 := by
    apply eq_zero_of_ne_one
    intro h
    have h' := IntOp.cmpi_slt.mp h
    have hz : (0#32 : BitVec 32).toInt = 0 := by decide
    omega
  show Scalar.select (IntOp.cmpi .slt (t p) 0#32) (IntOp.addi (t p) 100000#32) (t p) = t p
  rw [hc, select_zero]

/-- The reshape to a trailing unit axis read at an index: entry (b, s, ·) is entry (b, s). -/
theorem wrapCol_apply (t : IVec S1024x128 32) (i : S1024x128x1.Idx) (b : Fin 1024) (s : Fin 128)
    (h0 : (i 0).val = b.val) (h1 : (i 1).val = s.val) : wrapCol t i = wrap t (ix2 b s) := by
  unfold wrapCol
  refine shapeCast_apply (wrap t) shapeCasts_S1024x128_S1024x128x1 i (ix2 b s) ?_
  rewrite [Shape.rowMajor_val_two, Shape.rowMajor_val_three]
  have h2 : (i 2).val < 1 := (i 2).isLt
  show b.val * 128 + s.val = ((i 0).val * 128 + (i 1).val) * 1 + (i 2).val
  omega

/-- A fold by "and" from the bit 1 over bits that are all 1 is 1. -/
theorem fold_andi_one {ι : Type} [DecidableEq ι] (S : Finset ι) (f : ι → BitVec 1) (hf : ∀ k, f k = 1#1) :
    S.fold IntOp.andi 1#1 f = 1#1 := by
  induction S using Finset.induction_on with
  | empty => rfl
  | insert a S ha ih => rw [Finset.fold_insert ha, ih, hf]; rfl

/-- Where the index word is a number of [0, 100000) the in-range bit is 1: both tests hold at the one entry of
    the unit axis. -/
theorem inRange_apply (t : IVec S1024x128 32) (b : Fin 1024) (s : Fin 128) (h0 : 0 ≤ (t (ix2 b s)).toInt)
    (h1 : (t (ix2 b s)).toInt < 100000) : inRange t (ix2 b s) = 1#1 := by
  unfold inRange
  rw [Host.reduce_eq_fold_single IntOp.andi _ _ reducesTo_S1024x128x1_S1024x128_d2 (by decide) h_S_ (ix2 b s)]
  refine fold_andi_one _ _ fun k => ?_
  show IntOp.andi (IntOp.cmpi .sge (wrapCol t _) 0#32) (IntOp.cmpi .sle (wrapCol t _) 99999#32) = 1#1
  rw [wrapCol_apply t _ b s rfl rfl, wrap_apply_of_nonneg t _ h0]
  have hz : (0#32 : BitVec 32).toInt = 0 := by decide
  have hm : (99999#32 : BitVec 32).toInt = 99999 := by decide
  have ha : IntOp.cmpi .sge (t (ix2 b s)) 0#32 = 1#1 := IntOp.cmpi_sge.mpr (by omega)
  have hb : IntOp.cmpi .sle (t (ix2 b s)) 99999#32 = 1#1 := IntOp.cmpi_sle.mpr (by omega)
  rw [ha, hb]
  rfl

/-! ## The batched gather: row b of the operand at the column the start index names -/

/-- Entry (b, s) of the gather is the operand's row b at the start index idx (b, s, 0), read signed and clamped
    into [0, 99999]: axis 0 is a batching axis shared with the start indices, axis 1 the one the index names. -/
theorem gather_row_apply {α : Type} (x : S1024x100000.Idx → α) (idx : IVec S1024x128x1 32) (b : Fin 1024) (s : Fin 128) :
    Host.gather gather_S1024x100000_S1024x128x1_S1024x128_n_1_0_0_1_2_11 x idx (ix2 b s)
      = x (ix2 b ⟨min (idx (ix3 b s 0)).toInt.toNat 99999, by omega⟩) := by
  unfold Host.gather
  congr 1
  funext a
  refine Fin.ext ?_
  match a with
  | ⟨0, _⟩ =>
    show gather_S1024x100000_S1024x128x1_S1024x128_n_1_0_0_1_2_11.start (ix2 b s) idx 0
        + gather_S1024x100000_S1024x128x1_S1024x128_n_1_0_0_1_2_11.batchCoord (ix2 b s) 0
        + gather_S1024x100000_S1024x128x1_S1024x128_n_1_0_0_1_2_11.offCoord (ix2 b s) 0 = b.val
    have hob : (0 : Fin S1024x100000.rank) ∈ gather_S1024x100000_S1024x128x1_S1024x128_n_1_0_0_1_2_11.operandBatchingDims :=
      List.mem_singleton.mpr rfl
    rw [GatherDims.start_batching _ _ _ _ hob,
      GatherDims.offCoord_eq_zero _ _ _ (fun h => ((GatherDims.mem_sKept _ _).mp h).2 hob)]
    unfold GatherDims.batchCoord
    rw [dif_pos hob]
    simp only [Nat.zero_add, Nat.add_zero]
    rfl
  | ⟨1, _⟩ =>
    show gather_S1024x100000_S1024x128x1_S1024x128_n_1_0_0_1_2_11.start (ix2 b s) idx 1
        + gather_S1024x100000_S1024x128x1_S1024x128_n_1_0_0_1_2_11.batchCoord (ix2 b s) 1
        + gather_S1024x100000_S1024x128x1_S1024x128_n_1_0_0_1_2_11.offCoord (ix2 b s) 1 = min (idx (ix3 b s 0)).toInt.toNat 99999
    have hcs : (1 : Fin S1024x100000.rank) ∈ gather_S1024x100000_S1024x128x1_S1024x128_n_1_0_0_1_2_11.collapsedSliceDims :=
      List.mem_singleton.mpr rfl
    have hsm : (1 : Fin S1024x100000.rank) ∈ gather_S1024x100000_S1024x128x1_S1024x128_n_1_0_0_1_2_11.startIndexMap :=
      List.mem_singleton.mpr rfl
    rw [GatherDims.batchCoord_eq_zero _ _ _ (fun h => absurd (List.mem_singleton.mp h) (by decide)),
      GatherDims.offCoord_eq_zero _ _ _ (fun h => ((GatherDims.mem_sKept _ _).mp h).1 hcs)]
    simp only [Nat.add_zero]
    unfold GatherDims.start
    rw [dif_pos hsm]
    have hsi : gather_S1024x100000_S1024x128x1_S1024x128_n_1_0_0_1_2_11.siIdx (ix2 b s)
        ⟨List.idxOf (1 : Fin S1024x100000.rank) gather_S1024x100000_S1024x128x1_S1024x128_n_1_0_0_1_2_11.startIndexMap,
          List.idxOf_lt_length_iff.2 hsm⟩ = ix3 b s 0 := by
      funext c; refine Fin.ext ?_
      match c with
      | ⟨0, _⟩ => rfl
      | ⟨1, _⟩ => rfl
      | ⟨2, _⟩ => rfl
    rw [hsi]
    rfl

/-! ## The lookup -/

/-- Where the index word is a number v of [0, 100000), entry (b, s) of the lookup is L (b, v). -/
theorem take_apply (L : FVec F S1024x100000 .f32) (t : IVec S1024x128 32) (b : Fin 1024) (s : Fin 128)
    (h0 : 0 ≤ (t (ix2 b s)).toInt) (h1 : (t (ix2 b s)).toInt < 100000) (hv : (t (ix2 b s)).toNat < 100000) :
    take L t (ix2 b s) = L (ix2 b ⟨(t (ix2 b s)).toNat, hv⟩) := by
  have hw : wrapCol t (ix3 b s 0) = t (ix2 b s) :=
    (wrapCol_apply t _ b s rfl rfl).trans (wrap_apply_of_nonneg t _ h0)
  unfold take
  rw [select_apply, inRange_apply t b s h0 h1, select_one, gather_row_apply]
  refine congrArg L (congrArg (ix2 b) (Fin.ext ?_))
  show min (wrapCol t (ix3 b s 0)).toInt.toNat 99999 = (t (ix2 b s)).toNat
  rw [hw]
  have e := toInt_eq_toNat_of_nonneg _ h0
  omega

/-- The first three ranges end at column 40000. -/
theorem pre_three : ((([S1024x10000, S1024x10000, S1024x20000, S1024x40000, S1024x20000] : List Shape).take 3).map fun s =>
    if h : s.rank = S1024x100000.rank then s.size ((1 : Fin S1024x100000.rank).cast h.symm) else 0).sum = 40000 := by decide

/-- The first four ranges end at column 80000. -/
theorem pre_four : ((([S1024x10000, S1024x10000, S1024x20000, S1024x40000, S1024x20000] : List Shape).take 4).map fun s =>
    if h : s.rank = S1024x100000.rank then s.size ((1 : Fin S1024x100000.rank).cast h.symm) else 0).sum = 80000 := by decide

/-- The five arrays side by side, read at column v of row b: the array whose range holds v, at v's offset
    inside the range. -/
theorem cat_apply (A0 : FVec Ideal S1024x10000 .f32) (A1 : FVec Ideal S1024x10000 .f32) (A2 : FVec Ideal S1024x20000 .f32)
    (A3 : FVec Ideal S1024x40000 .f32) (A4 : FVec Ideal S1024x20000 .f32) (b : Fin 1024) (v : Nat) (hv : v < 100000) :
    cat (F := Ideal) A0 A1 A2 A3 A4 (ix2 b ⟨v, hv⟩) = Cert.Spec.pick A0 A1 A2 A3 A4 b v := by
  unfold Cert.Spec.pick cat
  have hoff : ∀ {n : Nat} (i : (⟨2, ![1024, n]⟩ : Shape).Idx) (hi0 : (i 0).val = b.val) (c : Fin 2), c ≠ 1 →
      (i c).val = ((ix2 b (⟨v, hv⟩ : Fin 100000)) c).val := fun i hi0 c hc =>
    match c, hc with
    | ⟨0, _⟩, _ => hi0
    | ⟨1, _⟩, hc => absurd rfl hc
  by_cases c0 : v < 10000
  · rw [dif_pos c0]
    exact concatenate_apply_piece 1 _ _ (ix2 b ⟨v, hv⟩) 0 (by simp) S1024x10000 A0 rfl rfl 0 rfl
      (ix2 b ⟨v, c0⟩) (hoff _ rfl) (by show 0 + v = v; omega)
  rw [dif_neg c0]
  by_cases c1 : v < 20000
  · rw [dif_pos c1]
    exact concatenate_apply_piece 1 _ _ (ix2 b ⟨v, hv⟩) 1 (by simp) S1024x10000 A1 rfl rfl 10000 rfl
      (ix2 b ⟨v - 10000, by omega⟩) (hoff _ rfl) (by show 10000 + (v - 10000) = v; omega)
  rw [dif_neg c1]
  by_cases c2 : v < 40000
  · rw [dif_pos c2]
    exact concatenate_apply_piece 1 _ _ (ix2 b ⟨v, hv⟩) 2 (by simp) S1024x20000 A2 rfl rfl 20000 rfl
      (ix2 b ⟨v - 20000, by omega⟩) (hoff _ rfl) (by show 20000 + (v - 20000) = v; omega)
  rw [dif_neg c2]
  by_cases c3 : v < 80000
  · rw [dif_pos c3]
    exact concatenate_apply_piece 1 _ _ (ix2 b ⟨v, hv⟩) 3 (by simp) S1024x40000 A3 rfl rfl 40000 (by rw [List.map_take]; exact pre_three)
      (ix2 b ⟨v - 40000, by omega⟩) (hoff _ rfl) (by show 40000 + (v - 40000) = v; omega)
  rw [dif_neg c3, dif_pos hv]
  exact concatenate_apply_piece 1 _ _ (ix2 b ⟨v, hv⟩) 4 (by simp) S1024x20000 A4 rfl rfl 80000 (by rw [List.map_take]; exact pre_four)
    (ix2 b ⟨v - 80000, by omega⟩) (hoff _ rfl) (by show 80000 + (v - 80000) = v; omega)

/-- The lookup into the five arrays side by side, where the index word is a number of [0, 100000): the
    log-probability the specification picks for that vocabulary entry. -/
theorem take_cat_apply (A0 : FVec Ideal S1024x10000 .f32) (A1 : FVec Ideal S1024x10000 .f32) (A2 : FVec Ideal S1024x20000 .f32)
    (A3 : FVec Ideal S1024x40000 .f32) (A4 : FVec Ideal S1024x20000 .f32) (t : IVec S1024x128 32) (b : Fin 1024) (s : Fin 128)
    (h0 : 0 ≤ (t (ix2 b s)).toInt) (h1 : (t (ix2 b s)).toInt < 100000) :
    take (F := Ideal) (cat A0 A1 A2 A3 A4) t (ix2 b s) = Cert.Spec.pick A0 A1 A2 A3 A4 b (t (ix2 b s)).toNat := by
  have hv : (t (ix2 b s)).toNat < 100000 := by
    have e := toInt_eq_toNat_of_nonneg _ h0
    omega
  rw [take_apply (F := Ideal) _ t b s h0 h1 hv]
  exact cat_apply A0 A1 A2 A3 A4 b _ hv

end Cert.ReferenceIdeal.Tail

end
-- ==== Proof.RValue.lean ====
/-
  The reference's result as the specification's loss.

  The reference lays its five arrays of log-probabilities side by side along the vocabulary axis and looks up, for each
  sample b and position s, the column the index word t (b, s) names.  The five arrays are the specification's (the
  shortlist and the four clusters), and where the word is a number of [0, 100000) the lookup is the specification's pick
  of that vocabulary entry for sample b; so the looked-up array is the specification's array of log-probabilities, and
  the loss, one function of that array, the discard table, the index words and the mask, is the loss of the
  specification's log-probabilities.
-/
import proofs.«404181_j77000173683136_1_alg».proof.Proof.RArrays
import proofs.«404181_j77000173683136_1_alg».proof.Proof.RTail
import proofs.«404181_j77000173683136_1_alg».proof.Proof.SpecLp

noncomputable section

namespace Cert.ReferenceIdeal.RValue

open Idealize.ShloMosaic Idealize.ShloMosaic.ValueIdx

variable (x : FVec Ideal S1024x1024 .f32) (hw : FVec Ideal S10004x1024 .f32)
  (p0 : FVec Ideal S512x1024 .f32) (o0 : FVec Ideal S10000x512 .f32)
  (p1 : FVec Ideal S256x1024 .f32) (o1 : FVec Ideal S20000x256 .f32)
  (p2 : FVec Ideal S128x1024 .f32) (o2 : FVec Ideal S40000x128 .f32)
  (p3 : FVec Ideal S64x1024 .f32) (o3 : FVec Ideal S20000x64 .f32)

/-- The log-probabilities the reference looks up: where every index word is a number of [0, 100000), entry (b, s) of
    the lookup into the five arrays side by side is the specification's log-probability of the vocabulary entry the
    word names, for sample b. -/
theorem lp_eq (t : IVec S1024x128 32) (hr : ∀ i : S1024x128.Idx, 0 ≤ (t i).toInt ∧ (t i).toInt < 100000) :
    Tail.take (F := Ideal)
        (Tail.cat (Read.val_main_v3 (F := Ideal) x hw) (Read.val_main_v11 (F := Ideal) x hw p0 o0)
          (Read.val_main_v19 (F := Ideal) x hw p1 o1) (Read.val_main_v27 (F := Ideal) x hw p2 o2)
          (Read.val_main_v35 (F := Ideal) x hw p3 o3)) t
      = Cert.Spec.lpSpec x hw p0 o0 p1 o1 p2 o2 p3 o3 t := by
  rw [Arrays.short_eq, Arrays.cl1_eq, Arrays.cl2_eq, Arrays.cl3_eq, Arrays.cl4_eq]
  funext i
  obtain ⟨b, s, rfl⟩ : ∃ (b : Fin 1024) (s : Fin 128), i = ix2 b s := ⟨i 0, i 1, eq_ix2 i⟩
  exact Tail.take_cat_apply _ _ _ _ _ t b s (hr _).1 (hr _).2

/-- The reference's loss is the loss of the specification's log-probabilities: the last steps are one function of
    the looked-up array, the discard table, the index words and the mask. -/
theorem result_of (t : IVec S1024x128 32) (d : FVec Ideal S100000 .f32) (mk : IVec S1024x128 1)
    (hr : ∀ i : S1024x128.Idx, 0 ≤ (t i).toInt ∧ (t i).toInt < 100000) :
    Tail.loss (F := Ideal)
        (Tail.take (F := Ideal)
          (Tail.cat (Read.val_main_v3 (F := Ideal) x hw) (Read.val_main_v11 (F := Ideal) x hw p0 o0)
            (Read.val_main_v19 (F := Ideal) x hw p1 o1) (Read.val_main_v27 (F := Ideal) x hw p2 o2)
            (Read.val_main_v35 (F := Ideal) x hw p3 o3)) t) d t mk
      = Tail.loss (F := Ideal) (Cert.Spec.lpSpec x hw p0 o0 p1 o1 p2 o2 p3 o3 t) d t mk :=
  congrArg (fun l => Tail.loss (F := Ideal) l d t mk) (lp_eq x hw p0 o0 p1 o1 p2 o2 p3 o3 t hr)

end Cert.ReferenceIdeal.RValue

end
-- ==== Proof.RefChunks.lean ====
/- The reference's operations, in order, cut into the stretches its mathematics suggests: the head's array, the four
   clusters' arrays, their concatenation, the read at the targets, and the weighted mean. The stretches appended are
   the whole list. -/
import proofs.«404181_j77000173683136_1_alg».proof.Proof.RefRun

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-- The head: the weights transposed, the logits, their row log-softmax, its first 10000 columns. -/
abbrev opsHead : List (HloOp τ sig (Elt F)) :=
  [ unary main_arg1 main_v0 ((transpose S1024x10004 [1, 0] · transposes_S10004x1024_S1024x10004_1_0) : (⟨S10004x1024, .f32⟩ : BufTy).Contents (Elt F) → (⟨S1024x10004, .f32⟩ : BufTy).Contents (Elt F)),
    binary main_arg0 main_v0 main_v1 ((fun l r => Host.dotGeneral dot_S1024x1024_S1024x10004_S1024x10004_1_0_0_1_n_n none l r) : (⟨S1024x1024, .f32⟩ : BufTy).Contents (Elt F) → (⟨S1024x10004, .f32⟩ : BufTy).Contents (Elt F) → (⟨S1024x10004, .f32⟩ : BufTy).Contents (Elt F)),
    TRef.nullary (TRef.of (T := ⟨S_, .f32⟩) main_call0_cst) (constant S_ .f32 0xFF800000#32),
    TRef.binary (TRef.of (T := ⟨S1024x10004, .f32⟩) main_v1) (TRef.of (T := ⟨S_, .f32⟩) main_call0_cst) (TRef.of (T := ⟨S1024, .f32⟩) main_call0_v0) (fun x v => Host.reduce FloatOps.maximumf x v reducesTo_S1024x10004_S1024_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1024, .f32⟩) main_call0_v1) (broadcastInDim S1024 ![] bcast_S_S1024),
    TRef.binary (TRef.of (T := ⟨S1024, .f32⟩) main_call0_v1) (TRef.of (T := ⟨S1024, .f32⟩) main_call0_v0) (TRef.of (T := ⟨S1024, .f32⟩) main_call0_v2) maximumf,
    TRef.unary (TRef.of (T := ⟨S1024, .f32⟩) main_call0_v2) (TRef.of (T := ⟨S1024x1, .f32⟩) main_call0_v3) (broadcastInDim S1024x1 ![0] bcast_S1024_S1024x1_0),
    TRef.unary (TRef.of (T := ⟨S1024x1, .f32⟩) main_call0_v3) (TRef.of (T := ⟨S1024x10004, .f32⟩) main_call0_v4) (broadcastInDim S1024x10004 ![0, 1] bcast_S1024x1_S1024x10004_0_1),
    TRef.binary (TRef.of (T := ⟨S1024x10004, .f32⟩) main_v1) (TRef.of (T := ⟨S1024x10004, .f32⟩) main_call0_v4) (TRef.of (T := ⟨S1024x10004, .f32⟩) main_call0_v5) subf,
    TRef.unary (TRef.of (T := ⟨S1024x10004, .f32⟩) main_call0_v5) (TRef.of (T := ⟨S1024x10004, .f32⟩) main_call0_v6) Host.exp,
    TRef.nullary (TRef.of (T := ⟨S_, .f32⟩) main_call0_cst_1) (constant S_ .f32 0x00000000#32),
    TRef.binary (TRef.of (T := ⟨S1024x10004, .f32⟩) main_call0_v6) (TRef.of (T := ⟨S_, .f32⟩) main_call0_cst_1) (TRef.of (T := ⟨S1024, .f32⟩) main_call0_v7) (fun x v => Host.reduceAdd x v reducesTo_S1024x10004_S1024_d1 h_S_),
    TRef.unary (TRef.of (T := ⟨S1024, .f32⟩) main_call0_v7) (TRef.of (T := ⟨S1024x1, .f32⟩) main_call0_v8) (broadcastInDim S1024x1 ![0] bcast_S1024_S1024x1_0),
    TRef.unary (TRef.of (T := ⟨S1024x1, .f32⟩) main_call0_v8) (TRef.of (T := ⟨S1024x1, .f32⟩) main_call0_v9) Host.log,
    TRef.unary (TRef.of (T := ⟨S1024x1, .f32⟩) main_call0_v9) (TRef.of (T := ⟨S1024x10004, .f32⟩) main_call0_v10) (broadcastInDim S1024x10004 ![0, 1] bcast_S1024x1_S1024x10004_0_1),
    TRef.binary (TRef.of (T := ⟨S1024x10004, .f32⟩) main_call0_v5) (TRef.of (T := ⟨S1024x10004, .f32⟩) main_call0_v10) (TRef.of (T := ⟨S1024x10004, .f32⟩) main_v2) subf,
    unary main_v2 main_v3 ((extractStridedSlice S1024x10000 ![0, 0] · slices_S1024x10004_S1024x10000_0_0) : (⟨S1024x10004, .f32⟩ : BufTy).Contents (Elt F) → (⟨S1024x10000, .f32⟩ : BufTy).Contents (Elt F)) ]

/-- Cluster 1: the two weight matrices transposed, the two products, the row log-softmax, the head's column 10000 added. -/
abbrev opsC1 : List (HloOp τ sig (Elt F)) :=
  [ unary main_arg2 main_v4 ((transpose S1024x512 [1, 0] · transposes_S512x1024_S1024x512_1_0) : (⟨S512x1024, .f32⟩ : BufTy).Contents (Elt F) → (⟨S1024x512, .f32⟩ : BufTy).Contents (Elt F)),
    binary main_arg0 main_v4 main_v5 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    unary main_arg3 main_v6 ((transpose S512x10000 [1, 0] · transposes_S10000x512_S512x10000_1_0) : (⟨S10000x512, .f32⟩ : BufTy).Contents (Elt F) → (⟨S512x10000, .f32⟩ : BufTy).Contents (Elt F)),
    binary main_v5 main_v6 main_v7 ((fun l r => Host.dotGeneral dot_S1024x512_S512x10000_S1024x10000_1_0_0_1_n_n none l r) : (⟨S1024x512, .f32⟩ : BufTy).Contents (Elt F) → (⟨S512x10000, .f32⟩ : BufTy).Contents (Elt F) → (⟨S1024x10000, .f32⟩ : BufTy).Contents (Elt F)),
    TRef.nullary (TRef.of (T := ⟨S_, .f32⟩) main_call1_cst) (constant S_ .f32 0xFF800000#32),
    TRef.binary (TRef.of (T := ⟨S1024x10000, .f32⟩) main_v7) (TRef.of (T := ⟨S_, .f32⟩) main_call1_cst) (TRef.of (T := ⟨S1024, .f32⟩) main_call1_v0) (fun x v => Host.reduce FloatOps.maximumf x v reducesTo_S1024x10000_S1024_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1024, .f32⟩) main_call1_v1) (broadcastInDim S1024 ![] bcast_S_S1024),
    TRef.binary (TRef.of (T := ⟨S1024, .f32⟩) main_call1_v1) (TRef.of (T := ⟨S1024, .f32⟩) main_call1_v0) (TRef.of (T := ⟨S1024, .f32⟩) main_call1_v2) maximumf,
    TRef.unary (TRef.of (T := ⟨S1024, .f32⟩) main_call1_v2) (TRef.of (T := ⟨S1024x1, .f32⟩) main_call1_v3) (broadcastInDim S1024x1 ![0] bcast_S1024_S1024x1_0),
    TRef.unary (TRef.of (T := ⟨S1024x1, .f32⟩) main_call1_v3) (TRef.of (T := ⟨S1024x10000, .f32⟩) main_call1_v4) (broadcastInDim S1024x10000 ![0, 1] bcast_S1024x1_S1024x10000_0_1),
    TRef.binary (TRef.of (T := ⟨S1024x10000, .f32⟩) main_v7) (TRef.of (T := ⟨S1024x10000, .f32⟩) main_call1_v4) (TRef.of (T := ⟨S1024x10000, .f32⟩) main_call1_v5) subf,
    TRef.unary (TRef.of (T := ⟨S1024x10000, .f32⟩) main_call1_v5) (TRef.of (T := ⟨S1024x10000, .f32⟩) main_call1_v6) Host.exp,
    TRef.nullary (TRef.of (T := ⟨S_, .f32⟩) main_call1_cst_1) (constant S_ .f32 0x00000000#32),
    TRef.binary (TRef.of (T := ⟨S1024x10000, .f32⟩) main_call1_v6) (TRef.of (T := ⟨S_, .f32⟩) main_call1_cst_1) (TRef.of (T := ⟨S1024, .f32⟩) main_call1_v7) (fun x v => Host.reduceAdd x v reducesTo_S1024x10000_S1024_d1 h_S_),
    TRef.unary (TRef.of (T := ⟨S1024, .f32⟩) main_call1_v7) (TRef.of (T := ⟨S1024x1, .f32⟩) main_call1_v8) (broadcastInDim S1024x1 ![0] bcast_S1024_S1024x1_0),
    TRef.unary (TRef.of (T := ⟨S1024x1, .f32⟩) main_call1_v8) (TRef.of (T := ⟨S1024x1, .f32⟩) main_call1_v9) Host.log,
    TRef.unary (TRef.of (T := ⟨S1024x1, .f32⟩) main_call1_v9) (TRef.of (T := ⟨S1024x10000, .f32⟩) main_call1_v10) (broadcastInDim S1024x10000 ![0, 1] bcast_S1024x1_S1024x10000_0_1),
    TRef.binary (TRef.of (T := ⟨S1024x10000, .f32⟩) main_call1_v5) (TRef.of (T := ⟨S1024x10000, .f32⟩) main_call1_v10) (TRef.of (T := ⟨S1024x10000, .f32⟩) main_v8) subf,
    unary main_v2 main_v9 ((extractStridedSlice S1024x1 ![0, 10000] · slices_S1024x10004_S1024x1_0_10000) : (⟨S1024x10004, .f32⟩ : BufTy).Contents (Elt F) → (⟨S1024x1, .f32⟩ : BufTy).Contents (Elt F)),
    unary main_v9 main_v10 (broadcastInDim S1024x10000 ![0, 1] bcast_S1024x1_S1024x10000_0_1 : (⟨S1024x1, .f32⟩ : BufTy).Contents (Elt F) → (⟨S1024x10000, .f32⟩ : BufTy).Contents (Elt F)),
    binary main_v8 main_v10 main_v11 (addf : (⟨S1024x10000, .f32⟩ : BufTy).Contents (Elt F) → (⟨S1024x10000, .f32⟩ : BufTy).Contents (Elt F) → (⟨S1024x10000, .f32⟩ : BufTy).Contents (Elt F)) ]

/-- Cluster 2, with the head's column 10001. -/
abbrev opsC2 : List (HloOp τ sig (Elt F)) :=
  [ unary main_arg4 main_v12 ((transpose S1024x256 [1, 0] · transposes_S256x1024_S1024x256_1_0) : (⟨S256x1024, .f32⟩ : BufTy).Contents (Elt F) → (⟨S1024x256, .f32⟩ : BufTy).Contents (Elt F)),
    binary main_arg0 main_v12 main_v13 ((fun l r => Host.dotGeneral dot_S1024x1024_S1024x256_S1024x256_1_0_0_1_n_n none l r) : (⟨S1024x1024, .f32⟩ : BufTy).Contents (Elt F) → (⟨S1024x256, .f32⟩ : BufTy).Contents (Elt F) → (⟨S1024x256, .f32⟩ : BufTy).Contents (Elt F)),
    unary main_arg5 main_v14 ((transpose S256x20000 [1, 0] · transposes_S20000x256_S256x20000_1_0) : (⟨S20000x256, .f32⟩ : BufTy).Contents (Elt F) → (⟨S256x20000, .f32⟩ : BufTy).Contents (Elt F)),
    binary main_v13 main_v14 main_v15 ((fun l r => Host.dotGeneral dot_S1024x256_S256x20000_S1024x20000_1_0_0_1_n_n none l r) : (⟨S1024x256, .f32⟩ : BufTy).Contents (Elt F) → (⟨S256x20000, .f32⟩ : BufTy).Contents (Elt F) → (⟨S1024x20000, .f32⟩ : BufTy).Contents (Elt F)),
    TRef.nullary (TRef.of (T := ⟨S_, .f32⟩) main_call2_cst) (constant S_ .f32 0xFF800000#32),
    TRef.binary (TRef.of (T := ⟨S1024x20000, .f32⟩) main_v15) (TRef.of (T := ⟨S_, .f32⟩) main_call2_cst) (TRef.of (T := ⟨S1024, .f32⟩) main_call2_v0) (fun x v => Host.reduce FloatOps.maximumf x v reducesTo_S1024x20000_S1024_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S1024, .f32⟩) main_call2_v1) (broadcastInDim S1024 ![] bcast_S_S1024),
    TRef.binary (TRef.of (T := ⟨S1024, .f32⟩) main_call2_v1) (TRef.of (T := ⟨S1024, .f32⟩) main_call2_v0) (TRef.of (T := ⟨S1024, .f32⟩) main_call2_v2) maximumf,
    TRef.unary (TRef.of (T := ⟨S1024, .f32⟩) main_call2_v2) (TRef.of (T := ⟨S1024x1, .f32⟩) main_call2_v3) (broadcastInDim S1024x1 ![0] bcast_S1024_S1024x1_0),
    TRef.unary (TRef.of (T := ⟨S1024x1, .f32⟩) main_call2_v3) (TRef.of (T := ⟨S1024x20000, .f32⟩) main_call2_v4) (broadcastInDim S1024x20000 ![0, 1] bcast_S1024x1_S1024x20000_0_1),
    TRef.binary (TRef.of (T := ⟨S1024x20000, .f32⟩) main_v15) (TRef.of (T := ⟨S1024x20000, .f32⟩) main_call2_v4) (TRef.of (T := ⟨S1024x20000, .f32⟩) main_call2_v5) subf,
    TRef.unary (TRef.of (T := ⟨S1024x20000, .f32⟩) main_call2_v5) (TRef.of (T := ⟨S1024x20000, .f32⟩) main_call2_v6) Host.exp,
    TRef.nullary (TRef.of (T := ⟨S_, .f32⟩) main_call2_cst_1) (constant S_ .f32 0x00000000#32),
    TRef.binary (TRef.of (T := ⟨S1024x20000, .f32⟩) main_call2_v6) (TRef.of (T := ⟨S_, .f32⟩) main_call2_cst_1) (TRef.of (T := ⟨S1024, .f32⟩) main_call2_v7) (fun x v => Host.reduceAdd x v reducesTo_S1024x20000_S1024_d1 h_S_),
    TRef.unary (TRef.of (T := ⟨S1024, .f32⟩) main_call2_v7) (TRef.of (T := ⟨S1024x1, .f32⟩) main_call2_v8) (broadcastInDim S1024x1 ![0] bcast_S1024_S1024x1_0),
    TRef.unary (TRef.of (T := ⟨S1024x1, .f32⟩) main_call2_v8) (TRef.of (T := ⟨S1024x1, .f32⟩) main_call2_v9) Host.log,
    TRef.unary (TRef.of (T := ⟨S1024x1, .f32⟩) main_call2_v9) (TRef.of (T := ⟨S1024x20000, .f32⟩) main_call2_v10) (broadcastInDim S1024x20000 ![0, 1] bcast_S1024x1_S1024x20000_0_1),
    TRef.binary (TRef.of (T := ⟨S1024x20000, .f32⟩) main_call2_v5) (TRef.of (T := ⟨S1024x20000, .f32⟩) main_call2_v10) (TRef.of (T := ⟨S1024x20000, .f32⟩) main_v16) subf,
    unary main_v2 main_v17 ((extractStridedSlice S1024x1 ![0, 10001] · slices_S1024x10004_S1024x1_0_10001) : (⟨S1024x10004, .f32⟩ : BufTy).Contents (Elt F) → (⟨S1024x1, .f32⟩ : BufTy).Contents (Elt F)),
    unary main_v17 main_v18 (broadcastInDim S1024x20000 ![0, 1] bcast_S1024x1_S1024x20000_0_1 : (⟨S1024x1, .f32⟩ : BufTy).Contents (Elt F) → (⟨S1024x20000, .f32⟩ : BufTy).Contents (Elt F)),
    binary main_v16 main_v18 main_v19 (addf : (⟨S1024x20000, .f32⟩ : BufTy).Contents (Elt F) → (⟨S1024x20000, .f32⟩ : BufTy).Contents (Elt F) → (⟨S1024x20000, .f32⟩ : BufTy).Contents (Elt F)) ]

/-- Cluster 3, with the head's column 10002. -/
abbrev opsC3 : List (HloOp τ sig (Elt F)) :=
  [ unary main_arg6 main_v20 ((transpose S1024x128 [1, 0] · transposes_S128x1024_S1024x128_1_0) : (⟨S128x1024, .f32⟩ : BufTy).Contents (Elt F) → (⟨S1024x128, .f32⟩ : BufTy).Contents (Elt F)),
    binary main_arg0 main_v20 main_v21 ((fun l r => Host.dotGeneral dot_S1024x1024_S1024x128_S1024x128_1_0_0_1_n_n none l r) : (⟨S1024x1024, .f32⟩ : BufTy).Contents (Elt F) → (⟨S1024x128, .f32⟩ : BufTy).Contents (Elt F) → (⟨S1024x128, .f32⟩ : BufTy).Contents (Elt F)),
    unary main_arg7 main_v22 ((transpose S128x40000 [1, 0] · transposes_S40000x128_S128x40000_1_0) : (⟨S40000x128, .f32⟩ : BufTy).Contents (Elt F) → (⟨S128x40000, .f32⟩ : BufTy).Contents (Elt F)),
    binary main_v21 main_v22 main_v23 ((fun l r => Host.dotGeneral dot_S1024x128_S128x40000_S1024x40000_1_0_0_1_n_n none l r) : (⟨S1024x128, .f32⟩ : BufTy).Contents (Elt F) → (⟨S128x40000, .f32⟩ : BufTy).Contents (Elt F) → (⟨S1024x40000, .f32⟩ : BufTy).Contents (Elt F)),
    TRef.nullary (TRef.of (T := ⟨S_, .f32⟩) main_call3_cst) (constant S_ .f32 0xFF800000#32),
    TRef.binary (TRef.of (T := ⟨S1024x40000, .f32⟩) main_v23) (TRef.of (T := ⟨S_, .f32⟩) main_call3_cst) (TRef.of (T := ⟨S1024, .f32⟩) main_call3_v0) (fun x v => Host.reduce FloatOps.maximumf x v reducesTo_S1024x40000_S1024_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S1024, .f32⟩) main_call3_v1) (broadcastInDim S1024 ![] bcast_S_S1024),
    TRef.binary (TRef.of (T := ⟨S1024, .f32⟩) main_call3_v1) (TRef.of (T := ⟨S1024, .f32⟩) main_call3_v0) (TRef.of (T := ⟨S1024, .f32⟩) main_call3_v2) maximumf,
    TRef.unary (TRef.of (T := ⟨S1024, .f32⟩) main_call3_v2) (TRef.of (T := ⟨S1024x1, .f32⟩) main_call3_v3) (broadcastInDim S1024x1 ![0] bcast_S1024_S1024x1_0),
    TRef.unary (TRef.of (T := ⟨S1024x1, .f32⟩) main_call3_v3) (TRef.of (T := ⟨S1024x40000, .f32⟩) main_call3_v4) (broadcastInDim S1024x40000 ![0, 1] bcast_S1024x1_S1024x40000_0_1),
    TRef.binary (TRef.of (T := ⟨S1024x40000, .f32⟩) main_v23) (TRef.of (T := ⟨S1024x40000, .f32⟩) main_call3_v4) (TRef.of (T := ⟨S1024x40000, .f32⟩) main_call3_v5) subf,
    TRef.unary (TRef.of (T := ⟨S1024x40000, .f32⟩) main_call3_v5) (TRef.of (T := ⟨S1024x40000, .f32⟩) main_call3_v6) Host.exp,
    TRef.nullary (TRef.of (T := ⟨S_, .f32⟩) main_call3_cst_1) (constant S_ .f32 0x00000000#32),
    TRef.binary (TRef.of (T := ⟨S1024x40000, .f32⟩) main_call3_v6) (TRef.of (T := ⟨S_, .f32⟩) main_call3_cst_1) (TRef.of (T := ⟨S1024, .f32⟩) main_call3_v7) (fun x v => Host.reduceAdd x v reducesTo_S1024x40000_S1024_d1 h_S_),
    TRef.unary (TRef.of (T := ⟨S1024, .f32⟩) main_call3_v7) (TRef.of (T := ⟨S1024x1, .f32⟩) main_call3_v8) (broadcastInDim S1024x1 ![0] bcast_S1024_S1024x1_0),
    TRef.unary (TRef.of (T := ⟨S1024x1, .f32⟩) main_call3_v8) (TRef.of (T := ⟨S1024x1, .f32⟩) main_call3_v9) Host.log,
    TRef.unary (TRef.of (T := ⟨S1024x1, .f32⟩) main_call3_v9) (TRef.of (T := ⟨S1024x40000, .f32⟩) main_call3_v10) (broadcastInDim S1024x40000 ![0, 1] bcast_S1024x1_S1024x40000_0_1),
    TRef.binary (TRef.of (T := ⟨S1024x40000, .f32⟩) main_call3_v5) (TRef.of (T := ⟨S1024x40000, .f32⟩) main_call3_v10) (TRef.of (T := ⟨S1024x40000, .f32⟩) main_v24) subf,
    unary main_v2 main_v25 ((extractStridedSlice S1024x1 ![0, 10002] · slices_S1024x10004_S1024x1_0_10002) : (⟨S1024x10004, .f32⟩ : BufTy).Contents (Elt F) → (⟨S1024x1, .f32⟩ : BufTy).Contents (Elt F)),
    unary main_v25 main_v26 (broadcastInDim S1024x40000 ![0, 1] bcast_S1024x1_S1024x40000_0_1 : (⟨S1024x1, .f32⟩ : BufTy).Contents (Elt F) → (⟨S1024x40000, .f32⟩ : BufTy).Contents (Elt F)),
    binary main_v24 main_v26 main_v27 (addf : (⟨S1024x40000, .f32⟩ : BufTy).Contents (Elt F) → (⟨S1024x40000, .f32⟩ : BufTy).Contents (Elt F) → (⟨S1024x40000, .f32⟩ : BufTy).Contents (Elt F)) ]

/-- Cluster 4, with the head's column 10003. -/
abbrev opsC4 : List (HloOp τ sig (Elt F)) :=
  [ unary main_arg8 main_v28 ((transpose S1024x64 [1, 0] · transposes_S64x1024_S1024x64_1_0) : (⟨S64x1024, .f32⟩ : BufTy).Contents (Elt F) → (⟨S1024x64, .f32⟩ : BufTy).Contents (Elt F)),
    binary main_arg0 main_v28 main_v29 ((fun l r => Host.dotGeneral dot_S1024x1024_S1024x64_S1024x64_1_0_0_1_n_n none l r) : (⟨S1024x1024, .f32⟩ : BufTy).Contents (Elt F) → (⟨S1024x64, .f32⟩ : BufTy).Contents (Elt F) → (⟨S1024x64, .f32⟩ : BufTy).Contents (Elt F)),
    unary main_arg9 main_v30 ((transpose S64x20000 [1, 0] · transposes_S20000x64_S64x20000_1_0) : (⟨S20000x64, .f32⟩ : BufTy).Contents (Elt F) → (⟨S64x20000, .f32⟩ : BufTy).Contents (Elt F)),
    binary main_v29 main_v30 main_v31 ((fun l r => Host.dotGeneral dot_S1024x64_S64x20000_S1024x20000_1_0_0_1_n_n none l r) : (⟨S1024x64, .f32⟩ : BufTy).Contents (Elt F) → (⟨S64x20000, .f32⟩ : BufTy).Contents (Elt F) → (⟨S1024x20000, .f32⟩ : BufTy).Contents (Elt F)),
    TRef.nullary (TRef.of (T := ⟨S_, .f32⟩) main_call4_cst) (constant S_ .f32 0xFF800000#32),
    TRef.binary (TRef.of (T := ⟨S1024x20000, .f32⟩) main_v31) (TRef.of (T := ⟨S_, .f32⟩) main_call4_cst) (TRef.of (T := ⟨S1024, .f32⟩) main_call4_v0) (fun x v => Host.reduce FloatOps.maximumf x v reducesTo_S1024x20000_S1024_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S1024, .f32⟩) main_call4_v1) (broadcastInDim S1024 ![] bcast_S_S1024),
    TRef.binary (TRef.of (T := ⟨S1024, .f32⟩) main_call4_v1) (TRef.of (T := ⟨S1024, .f32⟩) main_call4_v0) (TRef.of (T := ⟨S1024, .f32⟩) main_call4_v2) maximumf,
    TRef.unary (TRef.of (T := ⟨S1024, .f32⟩) main_call4_v2) (TRef.of (T := ⟨S1024x1, .f32⟩) main_call4_v3) (broadcastInDim S1024x1 ![0] bcast_S1024_S1024x1_0),
    TRef.unary (TRef.of (T := ⟨S1024x1, .f32⟩) main_call4_v3) (TRef.of (T := ⟨S1024x20000, .f32⟩) main_call4_v4) (broadcastInDim S1024x20000 ![0, 1] bcast_S1024x1_S1024x20000_0_1),
    TRef.binary (TRef.of (T := ⟨S1024x20000, .f32⟩) main_v31) (TRef.of (T := ⟨S1024x20000, .f32⟩) main_call4_v4) (TRef.of (T := ⟨S1024x20000, .f32⟩) main_call4_v5) subf,
    TRef.unary (TRef.of (T := ⟨S1024x20000, .f32⟩) main_call4_v5) (TRef.of (T := ⟨S1024x20000, .f32⟩) main_call4_v6) Host.exp,
    TRef.nullary (TRef.of (T := ⟨S_, .f32⟩) main_call4_cst_1) (constant S_ .f32 0x00000000#32),
    TRef.binary (TRef.of (T := ⟨S1024x20000, .f32⟩) main_call4_v6) (TRef.of (T := ⟨S_, .f32⟩) main_call4_cst_1) (TRef.of (T := ⟨S1024, .f32⟩) main_call4_v7) (fun x v => Host.reduceAdd x v reducesTo_S1024x20000_S1024_d1 h_S_),
    TRef.unary (TRef.of (T := ⟨S1024, .f32⟩) main_call4_v7) (TRef.of (T := ⟨S1024x1, .f32⟩) main_call4_v8) (broadcastInDim S1024x1 ![0] bcast_S1024_S1024x1_0),
    TRef.unary (TRef.of (T := ⟨S1024x1, .f32⟩) main_call4_v8) (TRef.of (T := ⟨S1024x1, .f32⟩) main_call4_v9) Host.log,
    TRef.unary (TRef.of (T := ⟨S1024x1, .f32⟩) main_call4_v9) (TRef.of (T := ⟨S1024x20000, .f32⟩) main_call4_v10) (broadcastInDim S1024x20000 ![0, 1] bcast_S1024x1_S1024x20000_0_1),
    TRef.binary (TRef.of (T := ⟨S1024x20000, .f32⟩) main_call4_v5) (TRef.of (T := ⟨S1024x20000, .f32⟩) main_call4_v10) (TRef.of (T := ⟨S1024x20000, .f32⟩) main_v32) subf,
    unary main_v2 main_v33 ((extractStridedSlice S1024x1 ![0, 10003] · slices_S1024x10004_S1024x1_0_10003) : (⟨S1024x10004, .f32⟩ : BufTy).Contents (Elt F) → (⟨S1024x1, .f32⟩ : BufTy).Contents (Elt F)),
    unary main_v33 main_v34 (broadcastInDim S1024x20000 ![0, 1] bcast_S1024x1_S1024x20000_0_1 : (⟨S1024x1, .f32⟩ : BufTy).Contents (Elt F) → (⟨S1024x20000, .f32⟩ : BufTy).Contents (Elt F)),
    binary main_v32 main_v34 main_v35 (addf : (⟨S1024x20000, .f32⟩ : BufTy).Contents (Elt F) → (⟨S1024x20000, .f32⟩ : BufTy).Contents (Elt F) → (⟨S1024x20000, .f32⟩ : BufTy).Contents (Elt F)) ]

/-- The five arrays joined along the columns. -/
abbrev opsCat : List (HloOp τ sig (Elt F)) :=
  [ nary ![main_v3, main_v11, main_v19, main_v27, main_v35] main_v36 (fun u => concatenate S1024x100000 1 [⟨S1024x10000, u 0⟩, ⟨S1024x10000, u 1⟩, ⟨S1024x20000, u 2⟩, ⟨S1024x40000, u 3⟩, ⟨S1024x20000, u 4⟩] concatenates_S1024x10000_S1024x10000_S1024x20000_S1024x40000_S1024x20000_S1024x100000_d1) ]

/-- The joined array read at the targets (negative targets wrapped, out-of-range ones masked). -/
abbrev opsTake : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S1024x128, .i32⟩) main_call5_v0) (broadcastInDim S1024x128 ![] bcast_S_S1024x128),
    TRef.binary (TRef.of (T := ⟨S1024x128, .i32⟩) main_arg11) (TRef.of (T := ⟨S1024x128, .i32⟩) main_call5_v0) (TRef.of (T := ⟨S1024x128, .i1⟩) main_call5_v1) (cmpi .slt),
    TRef.nullary (TRef.of (T := ⟨S_, .i32⟩) main_call5_c_0) (constantI S_ 32 100000#32),
    TRef.unary (TRef.of (T := ⟨S_, .i32⟩) main_call5_c_0) (TRef.of (T := ⟨S1024x128, .i32⟩) main_call5_v2) (broadcastInDim S1024x128 ![] bcast_S_S1024x128),
    TRef.binary (TRef.of (T := ⟨S1024x128, .i32⟩) main_arg11) (TRef.of (T := ⟨S1024x128, .i32⟩) main_call5_v2) (TRef.of (T := ⟨S1024x128, .i32⟩) main_call5_v3) addi,
    TRef.ternary (TRef.of (T := ⟨S1024x128, .i1⟩) main_call5_v1) (TRef.of (T := ⟨S1024x128, .i32⟩) main_call5_v3) (TRef.of (T := ⟨S1024x128, .i32⟩) main_arg11) (TRef.of (T := ⟨S1024x128, .i32⟩) main_call5_v4) select,
    TRef.reshape (TRef.of (T := ⟨S1024x128, .i32⟩) main_call5_v4) (TRef.of (T := ⟨S1024x128x1, .i32⟩) main_call5_v5) rfl shapeCasts_S1024x128_S1024x128x1,
    TRef.nullary (TRef.of (T := ⟨S1, .i32⟩) main_call5_c_1) (constantI S1 32 99999#32),
    TRef.nullary (TRef.of (T := ⟨S_, .i32⟩) main_call5_c_2) (constantI S_ 32 0#32),
    TRef.unary (TRef.of (T := ⟨S_, .i32⟩) main_call5_c_2) (TRef.of (T := ⟨S1024x128x1, .i32⟩) main_call5_v6) (broadcastInDim S1024x128x1 ![] bcast_S_S1024x128x1),
    TRef.binary (TRef.of (T := ⟨S1024x128x1, .i32⟩) main_call5_v5) (TRef.of (T := ⟨S1024x128x1, .i32⟩) main_call5_v6) (TRef.of (T := ⟨S1024x128x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S1024x128x1, .i32⟩) main_call5_v9) (broadcastInDim S1024x128x1 ![0, 1, 2] bcast_S1x1x1_S1024x128x1_0_1_2),
    TRef.binary (TRef.of (T := ⟨S1024x128x1, .i32⟩) main_call5_v5) (TRef.of (T := ⟨S1024x128x1, .i32⟩) main_call5_v9) (TRef.of (T := ⟨S1024x128x1, .i1⟩) main_call5_v10) (cmpi .sle),
    TRef.binary (TRef.of (T := ⟨S1024x128x1, .i1⟩) main_call5_v7) (TRef.of (T := ⟨S1024x128x1, .i1⟩) main_call5_v10) (TRef.of (T := ⟨S1024x128x1, .i1⟩) main_call5_v11) andi,
    TRef.nullary (TRef.of (T := ⟨S_, .i1⟩) main_call5_c_3) (constantI S_ 1 1#1),
    TRef.binary (TRef.of (T := ⟨S1024x128x1, .i1⟩) main_call5_v11) (TRef.of (T := ⟨S_, .i1⟩) main_call5_c_3) (TRef.of (T := ⟨S1024x128, .i1⟩) main_call5_v12) (fun x v => Host.reduce IntOp.andi x v reducesTo_S1024x128x1_S1024x128_d2 h_S_),
    TRef.binary (TRef.of (T := ⟨S1024x100000, .f32⟩) main_v36) (TRef.of (T := ⟨S1024x128x1, .i32⟩) main_call5_v5) (TRef.of (T := ⟨S1024x128, .f32⟩) main_call5_v13) (fun x i => Host.gather gather_S1024x100000_S1024x128x1_S1024x128_n_1_0_0_1_2_11 x i),
    TRef.nullary (TRef.of (T := ⟨S_, .f32⟩) main_call5_cst) (constant S_ .f32 0x7FC00000#32),
    TRef.unary (TRef.of (T := ⟨S_, .f32⟩) main_call5_cst) (TRef.of (T := ⟨S1024x128, .f32⟩) main_call5_v14) (broadcastInDim S1024x128 ![] bcast_S_S1024x128),
    TRef.ternary (TRef.of (T := ⟨S1024x128, .i1⟩) main_call5_v12) (TRef.of (T := ⟨S1024x128, .f32⟩) main_call5_v13) (TRef.of (T := ⟨S1024x128, .f32⟩) main_call5_v14) (TRef.of (T := ⟨S1024x128, .f32⟩) main_v37) select ]

/-- The weights, the weighted row sums, their quotient, and the mean over the rows. -/
abbrev opsLast : List (HloOp τ sig (Elt F)) :=
  [ nullary main_c (constantI S_ 32 0#32),
    unary main_c main_v38 (broadcastInDim S1024x128 ![] bcast_S_S1024x128 : (⟨S_, .i32⟩ : BufTy).Contents (Elt F) → (⟨S1024x128, .i32⟩ : BufTy).Contents (Elt F)),
    binary main_arg11 main_v38 main_v39 (cmpi .slt : (⟨S1024x128, .i32⟩ : BufTy).Contents (Elt F) → (⟨S1024x128, .i32⟩ : BufTy).Contents (Elt F) → (⟨S1024x128, .i1⟩ : BufTy).Contents (Elt F)),
    nullary main_c_0 (constantI S_ 32 100000#32),
    unary main_c_0 main_v40 (broadcastInDim S1024x128 ![] bcast_S_S1024x128 : (⟨S_, .i32⟩ : BufTy).Contents (Elt F) → (⟨S1024x128, .i32⟩ : BufTy).Contents (Elt F)),
    binary main_arg11 main_v40 main_v41 (addi : (⟨S1024x128, .i32⟩ : BufTy).Contents (Elt F) → (⟨S1024x128, .i32⟩ : BufTy).Contents (Elt F) → (⟨S1024x128, .i32⟩ : BufTy).Contents (Elt F)),
    ternary main_v39 main_v41 main_arg11 main_v42 (select : (⟨S1024x128, .i1⟩ : BufTy).Contents (Elt F) → (⟨S1024x128, .i32⟩ : BufTy).Contents (Elt F) → (⟨S1024x128, .i32⟩ : BufTy).Contents (Elt F) → (⟨S1024x128, .i32⟩ : BufTy).Contents (Elt F)),
    unary main_v42 main_v43 (broadcastInDim S1024x128x1 ![0, 1] bcast_S1024x128_S1024x128x1_0_1 : (⟨S1024x128, .i32⟩ : BufTy).Contents (Elt F) → (⟨S1024x128x1, .i32⟩ : BufTy).Contents (Elt F)),
    binary main_arg10 main_v43 main_v44 ((fun x i => Host.gather gather_S100000_S1024x128x1_S1024x128_n_0_n_n_0_2_1 x i) : (⟨S100000, .f32⟩ : BufTy).Contents (Elt F) → (⟨S1024x128x1, .i32⟩ : BufTy).Contents (Elt F) → (⟨S1024x128, .f32⟩ : BufTy).Contents (Elt F)),
    nullary main_cst (constant S_ .f32 0x3F800000#32),
    unary main_cst main_v45 (broadcastInDim S1024x128 ![] bcast_S_S1024x128 : (⟨S_, .f32⟩ : BufTy).Contents (Elt F) → (⟨S1024x128, .f32⟩ : BufTy).Contents (Elt F)),
    binary main_v45 main_v44 main_v46 (subf : (⟨S1024x128, .f32⟩ : BufTy).Contents (Elt F) → (⟨S1024x128, .f32⟩ : BufTy).Contents (Elt F) → (⟨S1024x128, .f32⟩ : BufTy).Contents (Elt F)),
    unary main_arg12 main_v47 (uitofp .f32 : (⟨S1024x128, .i1⟩ : BufTy).Contents (Elt F) → (⟨S1024x128, .f32⟩ : BufTy).Contents (Elt F)),
    binary main_v46 main_v47 main_v48 (mulf : (⟨S1024x128, .f32⟩ : BufTy).Contents (Elt F) → (⟨S1024x128, .f32⟩ : BufTy).Contents (Elt F) → (⟨S1024x128, .f32⟩ : BufTy).Contents (Elt F)),
    unary main_v37 main_v49 (Host.negf : (⟨S1024x128, .f32⟩ : BufTy).Contents (Elt F) → (⟨S1024x128, .f32⟩ : BufTy).Contents (Elt F)),
    binary main_v49 main_v48 main_v50 (mulf : (⟨S1024x128, .f32⟩ : BufTy).Contents (Elt F) → (⟨S1024x128, .f32⟩ : BufTy).Contents (Elt F) → (⟨S1024x128, .f32⟩ : BufTy).Contents (Elt F)),
    nullary main_cst_1 (constant S_ .f32 0x00000000#32),
    binary main_v50 main_cst_1 main_v51 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    nullary main_cst_2 (constant S_ .f32 0x00000000#32),
    binary main_v48 main_cst_2 main_v52 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    binary main_v51 main_v52 main_v53 (Host.divf : (⟨S1024, .f32⟩ : BufTy).Contents (Elt F) → (⟨S1024, .f32⟩ : BufTy).Contents (Elt F) → (⟨S1024, .f32⟩ : BufTy).Contents (Elt F)),
    nullary main_cst_3 (constant S_ .f32 0x00000000#32),
    binary main_v53 main_cst_3 main_v54 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    nullary main_cst_4 (constant S_ .f32 0x44800000#32),
    binary main_v54 main_cst_4 main_v55 (Host.divf : (⟨S_, .f32⟩ : BufTy).Contents (Elt F) → (⟨S_, .f32⟩ : BufTy).Contents (Elt F) → (⟨S_, .f32⟩ : BufTy).Contents (Elt F)) ]

/-- The five arrays' operations. -/
abbrev opsArrays : List (HloOp τ sig (Elt F)) := opsHead ++ (opsC1 ++ (opsC2 ++ (opsC3 ++ opsC4)))
/-- What follows them. -/
abbrev opsRest : List (HloOp τ sig (Elt F)) := opsCat ++ (opsTake ++ opsLast)

set_option maxRecDepth 262144 in
set_option maxHeartbeats 4000000 in
/-- The stretches, appended in order, are the program's list of operations. -/
theorem ops_eq : (Value.ops : List (HloOp τ sig (Elt F))) = opsArrays ++ opsRest := rfl

end Cert.ReferenceIdeal.Chunks
-- ==== Proof.RefValueA.lean ====
/- The reference's five arrays of row log-probabilities, each as the program's own stage read as a function of the
   arguments: the fold of the arrays' operations from any contents holds, at each array's buffer, that stage of the
   argument buffers' contents. The operations are folded one stretch at a time: the head's stretch gives the head's
   row log-softmax; a cluster's stretch reads the activations, its two weight matrices and one column of the head's
   log-softmax, and touches nothing an earlier or a later stretch reads. -/
import proofs.«404181_j77000173683136_1_alg».proof.Proof.RefChunks
import proofs.«404181_j77000173683136_1_alg».proof.Proof.RefRead
import Idealize.ShloMosaic.Lib.StableHlo.Run
import Idealize.ShloMosaic.Lib.Pipeline.Frame

noncomputable section

namespace Cert.ReferenceIdeal.ValueA

open Cert.ReferenceIdeal Cert.ReferenceIdeal.Gen Idealize.ShloMosaic Idealize.ShloMosaic.TcCoe Idealize.SL.Sem Idealize.ShloMosaic.StableHlo
open Cert.ReferenceIdeal.Chunks

variable {F : FTy → Type} [FloatOps F]

/-- Contents moved to a buffer's own type and back are the contents. -/
theorem ofBuf_toBuf {T : BufTy} (x : TRef sig T) (v : T.Contents (Elt F)) : x.ofBuf (x.toBuf v) = v := by
  obtain ⟨r, h, h2, h3⟩ := x
  subst h
  rfl

/-! ## What each stretch writes, and what it therefore leaves alone -/

/-- The buffers the head's stretch writes, one per operation. -/
abbrev wrHead : List (Ref sig .tc) :=
  [main_v0, main_v1, main_call0_cst, main_call0_v0, main_call0_cst_0, main_call0_v1, main_call0_v2,
   main_call0_v3, main_call0_v4, main_call0_v5, main_call0_v6, main_call0_cst_1, main_call0_v7,
   main_call0_v8, main_call0_v9, main_call0_v10, main_v2, main_v3]
/-- The buffers cluster 1's stretch writes, one per operation. -/
abbrev wrC1 : List (Ref sig .tc) :=
  [main_v4, main_v5, main_v6, main_v7, main_call1_cst, main_call1_v0, main_call1_cst_0, main_call1_v1,
   main_call1_v2, main_call1_v3, main_call1_v4, main_call1_v5, main_call1_v6, main_call1_cst_1,
   main_call1_v7, main_call1_v8, main_call1_v9, main_call1_v10, main_v8, main_v9, main_v10, main_v11]
/-- The buffers cluster 2's stretch writes, one per operation. -/
abbrev wrC2 : List (Ref sig .tc) :=
  [main_v12, main_v13, main_v14, main_v15, main_call2_cst, main_call2_v0, main_call2_cst_0, main_call2_v1,
   main_call2_v2, main_call2_v3, main_call2_v4, main_call2_v5, main_call2_v6, main_call2_cst_1,
   main_call2_v7, main_call2_v8, main_call2_v9, main_call2_v10, main_v16, main_v17, main_v18, main_v19]
/-- The buffers cluster 3's stretch writes, one per operation. -/
abbrev wrC3 : List (Ref sig .tc) :=
  [main_v20, main_v21, main_v22, main_v23, main_call3_cst, main_call3_v0, main_call3_cst_0, main_call3_v1,
   main_call3_v2, main_call3_v3, main_call3_v4, main_call3_v5, main_call3_v6, main_call3_cst_1,
   main_call3_v7, main_call3_v8, main_call3_v9, main_call3_v10, main_v24, main_v25, main_v26, main_v27]
/-- The buffers cluster 4's stretch writes, one per operation. -/
abbrev wrC4 : List (Ref sig .tc) :=
  [main_v28, main_v29, main_v30, main_v31, main_call4_cst, main_call4_v0, main_call4_cst_0, main_call4_v1,
   main_call4_v2, main_call4_v3, main_call4_v4, main_call4_v5, main_call4_v6, main_call4_cst_1,
   main_call4_v7, main_call4_v8, main_call4_v9, main_call4_v10, main_v32, main_v33, main_v34, main_v35]

/-- Each operation of a stretch writes one buffer of the stretch's list. -/
local macro "writes_in_list" : tactic =>
  `(tactic| (simp only [List.Forall]
             repeat' apply And.intro
             all_goals (simp only [StableHlo.nullary_writes, StableHlo.unary_writes, StableHlo.binary_writes,
                          Finset.singleton_subset_iff, List.mem_toFinset]
                        exact List.mem_map_of_mem (by decide))))

theorem writesHead : (Chunks.opsHead : List (HloOp τ sig (Elt F))).Forall fun op =>
    op.writes ⊆ (wrHead.map (Proc.devRef (τ := τ) .tc)).toFinset := by writes_in_list
theorem writesC1 : (Chunks.opsC1 : List (HloOp τ sig (Elt F))).Forall fun op =>
    op.writes ⊆ (wrC1.map (Proc.devRef (τ := τ) .tc)).toFinset := by writes_in_list
theorem writesC2 : (Chunks.opsC2 : List (HloOp τ sig (Elt F))).Forall fun op =>
    op.writes ⊆ (wrC2.map (Proc.devRef (τ := τ) .tc)).toFinset := by writes_in_list
theorem writesC3 : (Chunks.opsC3 : List (HloOp τ sig (Elt F))).Forall fun op =>
    op.writes ⊆ (wrC3.map (Proc.devRef (τ := τ) .tc)).toFinset := by writes_in_list
theorem writesC4 : (Chunks.opsC4 : List (HloOp τ sig (Elt F))).Forall fun op =>
    op.writes ⊆ (wrC4.map (Proc.devRef (τ := τ) .tc)).toFinset := by writes_in_list

/-- A buffer outside a stretch's list holds after the stretch what it held before. -/
theorem keepHead (W : Valuation τ sig (Elt F)) (r : Ref sig .tc) (h : r ∉ wrHead) :
    after Chunks.opsHead W (Proc.devRef .tc r) = W (Proc.devRef .tc r) :=
  after_of_writes_sub Chunks.opsHead W writesHead h
theorem keepC1 (W : Valuation τ sig (Elt F)) (r : Ref sig .tc) (h : r ∉ wrC1) :
    after Chunks.opsC1 W (Proc.devRef .tc r) = W (Proc.devRef .tc r) :=
  after_of_writes_sub Chunks.opsC1 W writesC1 h
theorem keepC2 (W : Valuation τ sig (Elt F)) (r : Ref sig .tc) (h : r ∉ wrC2) :
    after Chunks.opsC2 W (Proc.devRef .tc r) = W (Proc.devRef .tc r) :=
  after_of_writes_sub Chunks.opsC2 W writesC2 h
theorem keepC3 (W : Valuation τ sig (Elt F)) (r : Ref sig .tc) (h : r ∉ wrC3) :
    after Chunks.opsC3 W (Proc.devRef .tc r) = W (Proc.devRef .tc r) :=
  after_of_writes_sub Chunks.opsC3 W writesC3 h
theorem keepC4 (W : Valuation τ sig (Elt F)) (r : Ref sig .tc) (h : r ∉ wrC4) :
    after Chunks.opsC4 W (Proc.devRef .tc r) = W (Proc.devRef .tc r) :=
  after_of_writes_sub Chunks.opsC4 W writesC4 h

/-! ## The head's stretch -/

set_option maxRecDepth 65536 in
/-- After the head's stretch the head's buffer holds the row log-softmax of the activations times the transposed
    head weights. -/
theorem head2 (W : Valuation τ sig (Elt F)) :
    after Chunks.opsHead W (Proc.devRef .tc main_v2)
      = Read.val_main_v2 (F := F) (W (Proc.devRef .tc main_arg0)) (W (Proc.devRef .tc main_arg1)) := by
  after_results
  simp only [ofBuf_toBuf]
  rfl

set_option maxRecDepth 65536 in
/-- … and the shortlist's buffer its first 10000 columns. -/
theorem head3 (W : Valuation τ sig (Elt F)) :
    after Chunks.opsHead W (Proc.devRef .tc main_v3)
      = Read.val_main_v3 (F := F) (W (Proc.devRef .tc main_arg0)) (W (Proc.devRef .tc main_arg1)) := by
  after_results
  simp only [ofBuf_toBuf]
  rfl

/-! ## A cluster's stretch: its row log-softmax plus one column of the head's, spread along the row -/

/-- Cluster 1's array from the activations, its two weight matrices and the head's log-softmax `h`: the cluster's row
    log-softmax plus column 10000 of `h`. -/
def withHead1 (x0 : (⟨S1024x1024, .f32⟩ : BufTy).Contents (Elt F)) (xa : (⟨S512x1024, .f32⟩ : BufTy).Contents (Elt F)) (xb : (⟨S10000x512, .f32⟩ : BufTy).Contents (Elt F))
    (h : (⟨S1024x10004, .f32⟩ : BufTy).Contents (Elt F)) : (⟨S1024x10000, .f32⟩ : BufTy).Contents (Elt F) :=
  addf (Read.val_main_v8 (F := F) x0 xa xb)
    (broadcastInDim S1024x10000 ![0, 1] bcast_S1024x1_S1024x10000_0_1
      (extractStridedSlice S1024x1 ![0, 10000] h slices_S1024x10004_S1024x1_0_10000))

/-- At the head's own log-softmax it is the program's stage. -/
theorem withHead1_head (x0 : (⟨S1024x1024, .f32⟩ : BufTy).Contents (Elt F)) (x1 : (⟨S10004x1024, .f32⟩ : BufTy).Contents (Elt F)) (xa : (⟨S512x1024, .f32⟩ : BufTy).Contents (Elt F)) (xb : (⟨S10000x512, .f32⟩ : BufTy).Contents (Elt F)) :
    withHead1 x0 xa xb (Read.val_main_v2 (F := F) x0 x1) = Read.val_main_v11 (F := F) x0 x1 xa xb := rfl

set_option maxRecDepth 65536 in
set_option maxHeartbeats 1600000 in
theorem c1 (W : Valuation τ sig (Elt F)) :
    after Chunks.opsC1 W (Proc.devRef .tc main_v11)
      = withHead1 (W (Proc.devRef .tc main_arg0)) (W (Proc.devRef .tc main_arg2)) (W (Proc.devRef .tc main_arg3)) (W (Proc.devRef .tc main_v2)) := by
  after_results
  simp only [ofBuf_toBuf]
  rfl

/-- Cluster 2's array from the activations, its two weight matrices and the head's log-softmax `h`: the cluster's row
    log-softmax plus column 10001 of `h`. -/
def withHead2 (x0 : (⟨S1024x1024, .f32⟩ : BufTy).Contents (Elt F)) (xa : (⟨S256x1024, .f32⟩ : BufTy).Contents (Elt F)) (xb : (⟨S20000x256, .f32⟩ : BufTy).Contents (Elt F))
    (h : (⟨S1024x10004, .f32⟩ : BufTy).Contents (Elt F)) : (⟨S1024x20000, .f32⟩ : BufTy).Contents (Elt F) :=
  addf (Read.val_main_v16 (F := F) x0 xa xb)
    (broadcastInDim S1024x20000 ![0, 1] bcast_S1024x1_S1024x20000_0_1
      (extractStridedSlice S1024x1 ![0, 10001] h slices_S1024x10004_S1024x1_0_10001))

/-- At the head's own log-softmax it is the program's stage. -/
theorem withHead2_head (x0 : (⟨S1024x1024, .f32⟩ : BufTy).Contents (Elt F)) (x1 : (⟨S10004x1024, .f32⟩ : BufTy).Contents (Elt F)) (xa : (⟨S256x1024, .f32⟩ : BufTy).Contents (Elt F)) (xb : (⟨S20000x256, .f32⟩ : BufTy).Contents (Elt F)) :
    withHead2 x0 xa xb (Read.val_main_v2 (F := F) x0 x1) = Read.val_main_v19 (F := F) x0 x1 xa xb := rfl

set_option maxRecDepth 65536 in
set_option maxHeartbeats 1600000 in
theorem c2 (W : Valuation τ sig (Elt F)) :
    after Chunks.opsC2 W (Proc.devRef .tc main_v19)
      = withHead2 (W (Proc.devRef .tc main_arg0)) (W (Proc.devRef .tc main_arg4)) (W (Proc.devRef .tc main_arg5)) (W (Proc.devRef .tc main_v2)) := by
  after_results
  simp only [ofBuf_toBuf]
  rfl

/-- Cluster 3's array from the activations, its two weight matrices and the head's log-softmax `h`: the cluster's row
    log-softmax plus column 10002 of `h`. -/
def withHead3 (x0 : (⟨S1024x1024, .f32⟩ : BufTy).Contents (Elt F)) (xa : (⟨S128x1024, .f32⟩ : BufTy).Contents (Elt F)) (xb : (⟨S40000x128, .f32⟩ : BufTy).Contents (Elt F))
    (h : (⟨S1024x10004, .f32⟩ : BufTy).Contents (Elt F)) : (⟨S1024x40000, .f32⟩ : BufTy).Contents (Elt F) :=
  addf (Read.val_main_v24 (F := F) x0 xa xb)
    (broadcastInDim S1024x40000 ![0, 1] bcast_S1024x1_S1024x40000_0_1
      (extractStridedSlice S1024x1 ![0, 10002] h slices_S1024x10004_S1024x1_0_10002))

/-- At the head's own log-softmax it is the program's stage. -/
theorem withHead3_head (x0 : (⟨S1024x1024, .f32⟩ : BufTy).Contents (Elt F)) (x1 : (⟨S10004x1024, .f32⟩ : BufTy).Contents (Elt F)) (xa : (⟨S128x1024, .f32⟩ : BufTy).Contents (Elt F)) (xb : (⟨S40000x128, .f32⟩ : BufTy).Contents (Elt F)) :
    withHead3 x0 xa xb (Read.val_main_v2 (F := F) x0 x1) = Read.val_main_v27 (F := F) x0 x1 xa xb := rfl

set_option maxRecDepth 65536 in
set_option maxHeartbeats 1600000 in
theorem c3 (W : Valuation τ sig (Elt F)) :
    after Chunks.opsC3 W (Proc.devRef .tc main_v27)
      = withHead3 (W (Proc.devRef .tc main_arg0)) (W (Proc.devRef .tc main_arg6)) (W (Proc.devRef .tc main_arg7)) (W (Proc.devRef .tc main_v2)) := by
  after_results
  simp only [ofBuf_toBuf]
  rfl

/-- Cluster 4's array from the activations, its two weight matrices and the head's log-softmax `h`: the cluster's row
    log-softmax plus column 10003 of `h`. -/
def withHead4 (x0 : (⟨S1024x1024, .f32⟩ : BufTy).Contents (Elt F)) (xa : (⟨S64x1024, .f32⟩ : BufTy).Contents (Elt F)) (xb : (⟨S20000x64, .f32⟩ : BufTy).Contents (Elt F))
    (h : (⟨S1024x10004, .f32⟩ : BufTy).Contents (Elt F)) : (⟨S1024x20000, .f32⟩ : BufTy).Contents (Elt F) :=
  addf (Read.val_main_v32 (F := F) x0 xa xb)
    (broadcastInDim S1024x20000 ![0, 1] bcast_S1024x1_S1024x20000_0_1
      (extractStridedSlice S1024x1 ![0, 10003] h slices_S1024x10004_S1024x1_0_10003))

/-- At the head's own log-softmax it is the program's stage. -/
theorem withHead4_head (x0 : (⟨S1024x1024, .f32⟩ : BufTy).Contents (Elt F)) (x1 : (⟨S10004x1024, .f32⟩ : BufTy).Contents (Elt F)) (xa : (⟨S64x1024, .f32⟩ : BufTy).Contents (Elt F)) (xb : (⟨S20000x64, .f32⟩ : BufTy).Contents (Elt F)) :
    withHead4 x0 xa xb (Read.val_main_v2 (F := F) x0 x1) = Read.val_main_v35 (F := F) x0 x1 xa xb := rfl

set_option maxRecDepth 65536 in
set_option maxHeartbeats 1600000 in
theorem c4 (W : Valuation τ sig (Elt F)) :
    after Chunks.opsC4 W (Proc.devRef .tc main_v35)
      = withHead4 (W (Proc.devRef .tc main_arg0)) (W (Proc.devRef .tc main_arg8)) (W (Proc.devRef .tc main_arg9)) (W (Proc.devRef .tc main_v2)) := by
  after_results
  simp only [ofBuf_toBuf]
  rfl

/-! ## The five arrays after all five stretches -/

/-- The five stretches folded one after the other. -/
theorem arrays_eq (V : Valuation τ sig (Elt F)) :
    after Chunks.opsArrays V
      = after Chunks.opsC4 (after Chunks.opsC3 (after Chunks.opsC2 (after Chunks.opsC1 (after Chunks.opsHead V)))) := by
  show after (Chunks.opsHead ++ (Chunks.opsC1 ++ (Chunks.opsC2 ++ (Chunks.opsC3 ++ Chunks.opsC4)))) V = _
  rw [after_append, after_append, after_append, after_append]

/-- Every buffer the five stretches write. -/
abbrev wrArrays : List (Ref sig .tc) := wrHead ++ (wrC1 ++ (wrC2 ++ (wrC3 ++ wrC4)))

/-- A buffer none of the five stretches writes holds after them what it held before. -/
theorem keep (V : Valuation τ sig (Elt F)) (r : Ref sig .tc) (h : r ∉ wrArrays) :
    after Chunks.opsArrays V (Proc.devRef .tc r) = V (Proc.devRef .tc r) := by
  have h0 : r ∉ wrHead := fun hm => h (List.mem_append_left _ hm)
  have h1 : r ∉ wrC1 := fun hm => h (List.mem_append_right _ (List.mem_append_left _ hm))
  have h2 : r ∉ wrC2 := fun hm => h (List.mem_append_right _ (List.mem_append_right _ (List.mem_append_left _ hm)))
  have h3 : r ∉ wrC3 := fun hm =>
    h (List.mem_append_right _ (List.mem_append_right _ (List.mem_append_right _ (List.mem_append_left _ hm))))
  have h4 : r ∉ wrC4 := fun hm =>
    h (List.mem_append_right _ (List.mem_append_right _ (List.mem_append_right _ (List.mem_append_right _ hm))))
  rw [arrays_eq, keepC4 _ r h4, keepC3 _ r h3, keepC2 _ r h2, keepC1 _ r h1, keepHead _ r h0]

/-- The shortlist's array: the first 10000 columns of the head's row log-softmax. -/
theorem arr3 (V : Valuation τ sig (Elt F)) :
    after Chunks.opsArrays V (Proc.devRef .tc main_v3)
      = Read.val_main_v3 (F := F) (V (Proc.devRef .tc main_arg0)) (V (Proc.devRef .tc main_arg1)) := by
  rw [arrays_eq, keepC4 _ main_v3 (by decide), keepC3 _ main_v3 (by decide), keepC2 _ main_v3 (by decide),
    keepC1 _ main_v3 (by decide), head3]

/-- Cluster 1's array. -/
theorem arr11 (V : Valuation τ sig (Elt F)) :
    after Chunks.opsArrays V (Proc.devRef .tc main_v11)
      = Read.val_main_v11 (F := F) (V (Proc.devRef .tc main_arg0)) (V (Proc.devRef .tc main_arg1)) (V (Proc.devRef .tc main_arg2)) (V (Proc.devRef .tc main_arg3)) := by
  rw [arrays_eq, keepC4 _ main_v11 (by decide), keepC3 _ main_v11 (by decide), keepC2 _ main_v11 (by decide), c1,
    keepHead _ main_arg0 (by decide), keepHead _ main_arg2 (by decide), keepHead _ main_arg3 (by decide), head2,
    withHead1_head]

/-- Cluster 2's array. -/
theorem arr19 (V : Valuation τ sig (Elt F)) :
    after Chunks.opsArrays V (Proc.devRef .tc main_v19)
      = Read.val_main_v19 (F := F) (V (Proc.devRef .tc main_arg0)) (V (Proc.devRef .tc main_arg1)) (V (Proc.devRef .tc main_arg4)) (V (Proc.devRef .tc main_arg5)) := by
  rw [arrays_eq, keepC4 _ main_v19 (by decide), keepC3 _ main_v19 (by decide), c2, keepC1 _ main_arg0 (by decide),
    keepHead _ main_arg0 (by decide), keepC1 _ main_arg4 (by decide), keepHead _ main_arg4 (by decide),
    keepC1 _ main_arg5 (by decide), keepHead _ main_arg5 (by decide), keepC1 _ main_v2 (by decide), head2,
    withHead2_head]

/-- Cluster 3's array. -/
theorem arr27 (V : Valuation τ sig (Elt F)) :
    after Chunks.opsArrays V (Proc.devRef .tc main_v27)
      = Read.val_main_v27 (F := F) (V (Proc.devRef .tc main_arg0)) (V (Proc.devRef .tc main_arg1)) (V (Proc.devRef .tc main_arg6)) (V (Proc.devRef .tc main_arg7)) := by
  rw [arrays_eq, keepC4 _ main_v27 (by decide), c3, keepC2 _ main_arg0 (by decide),
    keepC1 _ main_arg0 (by decide), keepHead _ main_arg0 (by decide), keepC2 _ main_arg6 (by decide),
    keepC1 _ main_arg6 (by decide), keepHead _ main_arg6 (by decide), keepC2 _ main_arg7 (by decide),
    keepC1 _ main_arg7 (by decide), keepHead _ main_arg7 (by decide), keepC2 _ main_v2 (by decide),
    keepC1 _ main_v2 (by decide), head2, withHead3_head]

/-- Cluster 4's array. -/
theorem arr35 (V : Valuation τ sig (Elt F)) :
    after Chunks.opsArrays V (Proc.devRef .tc main_v35)
      = Read.val_main_v35 (F := F) (V (Proc.devRef .tc main_arg0)) (V (Proc.devRef .tc main_arg1)) (V (Proc.devRef .tc main_arg8)) (V (Proc.devRef .tc main_arg9)) := by
  rw [arrays_eq, c4, keepC3 _ main_arg0 (by decide), keepC2 _ main_arg0 (by decide),
    keepC1 _ main_arg0 (by decide), keepHead _ main_arg0 (by decide), keepC3 _ main_arg8 (by decide),
    keepC2 _ main_arg8 (by decide), keepC1 _ main_arg8 (by decide), keepHead _ main_arg8 (by decide),
    keepC3 _ main_arg9 (by decide), keepC2 _ main_arg9 (by decide), keepC1 _ main_arg9 (by decide),
    keepHead _ main_arg9 (by decide), keepC3 _ main_v2 (by decide), keepC2 _ main_v2 (by decide),
    keepC1 _ main_v2 (by decide), head2, withHead4_head]

end Cert.ReferenceIdeal.ValueA
-- ==== Proof.RefValue.lean ====
import proofs.«404181_j77000173683136_1_alg».proof.Proof.RefRead
import proofs.«404181_j77000173683136_1_alg».proof.Proof.RTailDef
import proofs.«404181_j77000173683136_1_alg».proof.Proof.RefChunks
import proofs.«404181_j77000173683136_1_alg».proof.Proof.RefValueA
import Idealize.ShloMosaic.Lib.Pipeline.Frame

/-! # The reference program's result as a function of its arguments

The reference's operations are run in two stretches.  The first computes the five arrays of row
log-probabilities (the head's and the four clusters'); each is the corresponding stage of the program read as a
function of the arguments.  The second lays the five arrays side by side along the vocabulary axis, reads one
column per position at the target, and takes the weighted mean of the negated picks: it is `Tail.loss` of
`Tail.take` of `Tail.cat` of whatever arrays it finds.  The fold of the whole list is the fold of the second
stretch from the fold of the first. -/

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.StableHlo

variable {F : FTy → Type} [FloatOps F]

/-- The second stretch, from arbitrary contents `W`: the weighted mean of the negated entries taken at the
    targets from the five arrays `W` holds, laid side by side. -/
theorem rest_val (W : Valuation τ sig (Elt F)) : after Chunks.opsRest W (Proc.devRef .tc main_v55)
    = Tail.loss
        (Tail.take
          (Tail.cat (W (Proc.devRef .tc main_v3)) (W (Proc.devRef .tc main_v11)) (W (Proc.devRef .tc main_v19))
            (W (Proc.devRef .tc main_v27)) (W (Proc.devRef .tc main_v35)))
          (W (Proc.devRef .tc main_arg11)))
        (W (Proc.devRef .tc main_arg10)) (W (Proc.devRef .tc main_arg11)) (W (Proc.devRef .tc main_arg12)) := by
  simp only [Chunks.opsRest, StableHlo.after_append]
  after_results_simp
  simp only [TRef.ofBuf, TRef.toBuf, cast_eq, id_eq]
  rfl

/-- The reference's result on core `c`: the fold of all its operations from the launch contents, at the result
    buffer, is the loss of the entries taken at the targets from the five stages laid side by side. -/
theorem value (m : (ℓ : Loc nD τ sig) → Buf (Elt F) ℓ) (c : Dev nD) :
    after (Value.ops (F := F)) (launchContents m c) (Proc.devRef .tc main_v55)
      = Tail.loss
          (Tail.take
            (Tail.cat (Read.val_main_v3 (m ((c.tc : Thread nD τ).loc main_arg0)) (m ((c.tc : Thread nD τ).loc main_arg1)))
              (Read.val_main_v11 (m ((c.tc : Thread nD τ).loc main_arg0)) (m ((c.tc : Thread nD τ).loc main_arg1)) (m ((c.tc : Thread nD τ).loc main_arg2)) (m ((c.tc : Thread nD τ).loc main_arg3)))
              (Read.val_main_v19 (m ((c.tc : Thread nD τ).loc main_arg0)) (m ((c.tc : Thread nD τ).loc main_arg1)) (m ((c.tc : Thread nD τ).loc main_arg4)) (m ((c.tc : Thread nD τ).loc main_arg5)))
              (Read.val_main_v27 (m ((c.tc : Thread nD τ).loc main_arg0)) (m ((c.tc : Thread nD τ).loc main_arg1)) (m ((c.tc : Thread nD τ).loc main_arg6)) (m ((c.tc : Thread nD τ).loc main_arg7)))
              (Read.val_main_v35 (m ((c.tc : Thread nD τ).loc main_arg0)) (m ((c.tc : Thread nD τ).loc main_arg1)) (m ((c.tc : Thread nD τ).loc main_arg8)) (m ((c.tc : Thread nD τ).loc main_arg9))))
            (m ((c.tc : Thread nD τ).loc main_arg11)))
          (m ((c.tc : Thread nD τ).loc main_arg10)) (m ((c.tc : Thread nD τ).loc main_arg11)) (m ((c.tc : Thread nD τ).loc main_arg12)) := by
  have h3 : after Chunks.opsArrays (launchContents m c) (Proc.devRef .tc main_v3)
      = Read.val_main_v3 (m ((c.tc : Thread nD τ).loc main_arg0)) (m ((c.tc : Thread nD τ).loc main_arg1)) := ValueA.arr3 _
  have h11 : after Chunks.opsArrays (launchContents m c) (Proc.devRef .tc main_v11)
      = Read.val_main_v11 (m ((c.tc : Thread nD τ).loc main_arg0)) (m ((c.tc : Thread nD τ).loc main_arg1)) (m ((c.tc : Thread nD τ).loc main_arg2)) (m ((c.tc : Thread nD τ).loc main_arg3)) := ValueA.arr11 _
  have h19 : after Chunks.opsArrays (launchContents m c) (Proc.devRef .tc main_v19)
      = Read.val_main_v19 (m ((c.tc : Thread nD τ).loc main_arg0)) (m ((c.tc : Thread nD τ).loc main_arg1)) (m ((c.tc : Thread nD τ).loc main_arg4)) (m ((c.tc : Thread nD τ).loc main_arg5)) := ValueA.arr19 _
  have h27 : after Chunks.opsArrays (launchContents m c) (Proc.devRef .tc main_v27)
      = Read.val_main_v27 (m ((c.tc : Thread nD τ).loc main_arg0)) (m ((c.tc : Thread nD τ).loc main_arg1)) (m ((c.tc : Thread nD τ).loc main_arg6)) (m ((c.tc : Thread nD τ).loc main_arg7)) := ValueA.arr27 _
  have h35 : after Chunks.opsArrays (launchContents m c) (Proc.devRef .tc main_v35)
      = Read.val_main_v35 (m ((c.tc : Thread nD τ).loc main_arg0)) (m ((c.tc : Thread nD τ).loc main_arg1)) (m ((c.tc : Thread nD τ).loc main_arg8)) (m ((c.tc : Thread nD τ).loc main_arg9)) := ValueA.arr35 _
  have h10 : after Chunks.opsArrays (launchContents m c) (Proc.devRef .tc main_arg10) = (m ((c.tc : Thread nD τ).loc main_arg10)) :=
    ValueA.keep _ main_arg10 (by decide)
  have h11' : after Chunks.opsArrays (launchContents m c) (Proc.devRef .tc main_arg11) = (m ((c.tc : Thread nD τ).loc main_arg11)) :=
    ValueA.keep _ main_arg11 (by decide)
  have h12 : after Chunks.opsArrays (launchContents m c) (Proc.devRef .tc main_arg12) = (m ((c.tc : Thread nD τ).loc main_arg12)) :=
    ValueA.keep _ main_arg12 (by decide)
  rw [Chunks.ops_eq, StableHlo.after_append, rest_val, h3, h11, h19, h27, h35, h10, h11', h12]

end Cert.ReferenceIdeal.RefValue
-- ==== Proof.TailEq.lean ====
/-
  The two programs end with the same steps: the weight (1 − d[t']) · mask, t' the target with negatives wrapped by
  100000; per row the weighted sum of the negated log-probabilities divided by the sum of the weights; the mean of the
  1024 quotients. Each program writes these steps over its own names for the shapes and for the records of the gather,
  the broadcasts and the reductions. The names of a shape unfold to the same shape, the records have equal fields, and
  a record's side condition is a proposition, so the two functions are one term.
-/
import proofs.«404181_j77000173683136_1_alg».proof.Proof.KTailDef
import proofs.«404181_j77000173683136_1_alg».proof.Proof.RTailDef

noncomputable section

namespace Cert.TailEq

open Idealize.ShloMosaic

variable {F : FTy → Type} [FloatOps F] [Cert.KernelIdeal.Facts₀] [Cert.ReferenceIdeal.Facts]

/-- The weight of a position is the same function in both programs. -/
theorem weight_eq (d : FVec F Cert.KernelIdeal.S100000 .f32) (t : IVec Cert.KernelIdeal.S1024x128 32)
    (mk : IVec Cert.KernelIdeal.S1024x128 1) :
    Cert.KernelIdeal.Tail.weight (F := F) d t mk = Cert.ReferenceIdeal.Tail.weight (F := F) d t mk := rfl

/-- The loss, as a function of the picked log-probabilities, the discard table, the targets and the mask, is the same
    function in both programs. -/
theorem loss_eq (lpv : FVec F Cert.KernelIdeal.S1024x128 .f32) (d : FVec F Cert.KernelIdeal.S100000 .f32)
    (t : IVec Cert.KernelIdeal.S1024x128 32) (mk : IVec Cert.KernelIdeal.S1024x128 1) :
    Cert.KernelIdeal.Tail.loss (F := F) lpv d t mk = Cert.ReferenceIdeal.Tail.loss (F := F) lpv d t mk := rfl

end Cert.TailEq

end
-- ==== Proof.PreRange.lean ====
/-
  The precondition, read back at the index input.

  The precondition is one conjunction, taken left to right: eleven conjuncts say that every entry of a float input is
  finite, and the last two say that every entry of the index array is at least 0 and is below 100000, each as a
  conjunction over all entries of an entrywise signed comparison against a constant array. A conjunction that holds has
  every conjunct holding, and a conjunction over all entries that holds has the comparison holding at every entry; a
  signed comparison that holds says its order relation of the two words read as integers.
-/
import proofs.«404181_j77000173683136_1_alg».proof.Pre_finite_inputs
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx Cert.Pre_finite_inputs

/-- A rank-0 array has one index. -/
instance : Subsingleton S_.Idx := ⟨fun a b => funext fun d => d.elim0⟩

/-- The constants compared against, read as integers. -/
theorem toInt_zero : (0#32 : BitVec 32).toInt = 0 := by decide
theorem toInt_bound : (100000#32 : BitVec 32).toInt = 100000 := by decide

/-- The last part of the conjunction holds only if every index entry lies in [0, 100000): its value is
    ((c ∧ all (|a10| < ∞)) ∧ all (t ≥ 0)) ∧ all (t < 100000), whatever the earlier conjuncts' value c is. -/
theorem part3_range [Facts] (t : IVec S1024x128 32) (c : IVec S_ 1) (u v : FVec Ideal S100000 .f32) (j : S_.Idx)
    (h : fn_part3 (F := Ideal) t c u v j = 1#1) (i : S1024x128.Idx) :
    0 ≤ (t i).toInt ∧ (t i).toInt < 100000 := by
  dsimp only [fn_part3, andi] at h
  obtain ⟨h57, h60⟩ := IntOp.andi_eq_one.1 h
  obtain ⟨-, h56⟩ := IntOp.andi_eq_one.1 h57
  have hge := Host.reduce_andi_all _ _ _ _ j h56 i
  have hlt := Host.reduce_andi_all _ _ _ _ j h60 i
  dsimp only [cmpi, broadcastInDim, constantI] at hge hlt
  rw [IntOp.cmpi_sge, toInt_zero] at hge
  rw [IntOp.cmpi_slt, toInt_bound] at hlt
  exact ⟨hge, hlt⟩

/-- Under the precondition every entry of the index array lies in [0, 100000). -/
theorem targets_range [Facts] (a0 : FVec Ideal S1024x1024 .f32) (a1 : FVec Ideal S10004x1024 .f32)
    (a2 : FVec Ideal S512x1024 .f32) (a3 : FVec Ideal S10000x512 .f32) (a4 : FVec Ideal S256x1024 .f32)
    (a5 : FVec Ideal S20000x256 .f32) (a6 : FVec Ideal S128x1024 .f32) (a7 : FVec Ideal S40000x128 .f32)
    (a8 : FVec Ideal S64x1024 .f32) (a9 : FVec Ideal S20000x64 .f32) (a10 : FVec Ideal S100000 .f32)
    (t : IVec S1024x128 32) (mk : IVec S1024x128 1)
    (h : Cert.Pre_finite_inputs.fn (F := Ideal) a0 a1 a2 a3 a4 a5 a6 a7 a8 a9 a10 t mk = fun _ => 1#1) :
    ∀ i : S1024x128.Idx, 0 ≤ (t i).toInt ∧ (t i).toInt < 100000 := by
  intro i
  have e : Cert.Pre_finite_inputs.fn (F := Ideal) a0 a1 a2 a3 a4 a5 a6 a7 a8 a9 a10 t mk ix0 = 1#1 := congrFun h ix0
  dsimp only [fn, fn_part1, fn_part2] at e
  exact part3_range t _ _ _ ix0 e i

end Cert.PreRange

end
-- ==== Proof.lean ====
/-
  The five claims for the adaptive-softmax loss kernel against its reference.

  Both programs end with  loss = (Σ_b (Σ_s −lp[b,s]·w[b,s]) / (Σ_s w[b,s])) / 1024,  w = (1 − discard[target]) · mask,  where
  lp[b,s] is the log-probability of the target of position (b,s).  The reference reads lp from the concatenation of the
  shortlist's log-probabilities (the head's first 10000 columns) and the four clusters' (a cluster's own log-softmax plus
  the head's log-probability of the cluster's column); the kernel computes the same five arrays in five regions — a matrix
  product into a zero accumulator is the sum over the contracted axis whatever its tiling, a change of float format is the
  identity on the extended reals — and reads lp by five rounds of clip / gather / range test / select.  For a target inside
  the vocabulary, 0 ≤ target < 100000 (the precondition's last two conjuncts), exactly one round's range test holds and
  both readings are the entry of the array that holds the target, at its offset.  The last stretch (weights, sums,
  quotients) is the same function of lp in both programs.  No finiteness is used: every step is an equation between
  finite sums, maxima and compositions on the extended reals.
-/
import proofs.«404181_j77000173683136_1_alg».proof.Defs
import proofs.«404181_j77000173683136_1_alg».proof.Proof.Gen.Kernel
import proofs.«404181_j77000173683136_1_alg».proof.Proof.Gen.Kernel.Frame
import proofs.«404181_j77000173683136_1_alg».proof.Proof.Gen.KernelIdeal
import proofs.«404181_j77000173683136_1_alg».proof.Proof.Gen.KernelIdeal.Frame
import proofs.«404181_j77000173683136_1_alg».proof.Proof.Gen.ReferenceIdeal
import proofs.«404181_j77000173683136_1_alg».proof.Proof.Gen.Pre_finite_inputs
import proofs.«404181_j77000173683136_1_alg».proof.Proof.KRun
import proofs.«404181_j77000173683136_1_alg».proof.Proof.KValue
import proofs.«404181_j77000173683136_1_alg».proof.Proof.RValue
import proofs.«404181_j77000173683136_1_alg».proof.Proof.RefRunThm
import proofs.«404181_j77000173683136_1_alg».proof.Proof.TailEq
import proofs.«404181_j77000173683136_1_alg».proof.Proof.PreRange
import proofs.«404181_j77000173683136_1_alg».proof.Proof.SpecLp
import Idealize.ShloMosaic.Adequacy
import Idealize.ShloMosaic.Init

noncomputable section

namespace Cert.Proof

open Idealize.ShloMosaic Idealize.ShloMosaic.TcCoe Idealize.SL.Sem

/-- The word-level kernel's frame. -/
theorem frame_k : Cert.frame_Kernel := fun m ρ _ => Cert.Kernel.Gen.frame m ρ

/-- The idealized kernel's frame. -/
theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefRunThm.run (F := Ideal) m ρ)

/-- The ideal pass rewrote nothing: the ledger is empty. -/
theorem preserves : Cert.preserves_Kernel_KernelIdeal := trivial

/-- From memories that agree on the arguments both idealized programs end with the loss of one and the same array of
    target log-probabilities: the kernel's five rounds and the reference's gather from the concatenation read the same
    entry for every target inside the vocabulary, and the last stretch is one function of that array. -/
theorem algebraic : Cert.algebraic_KernelIdeal_ReferenceIdeal := by
  intro m ρ m' ρ' hpre hagree
  -- every target is a vocabulary entry: the precondition's last two conjuncts
  have hr : ∀ c : Dev Cert.KernelIdeal.nD, ∀ i : Cert.KernelIdeal.S1024x128.Idx,
      0 ≤ BitVec.toInt ((m ((c.tc : Thread Cert.KernelIdeal.nD Cert.KernelIdeal.τ).loc Cert.KernelIdeal.main_arg11)) i) ∧ BitVec.toInt ((m ((c.tc : Thread Cert.KernelIdeal.nD Cert.KernelIdeal.τ).loc Cert.KernelIdeal.main_arg11)) i) < 100000 :=
    fun c => Cert.PreRange.targets_range _ _ _ _ _ _ _ _ _ _ _ _ _ (hpre c)
  refine ⟨fun c => Cert.KernelIdeal.Tail.loss (F := Ideal)
      (Cert.Spec.lpSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KValue.result m ρ c (hr c)), (h c).2⟩)
      (Cert.KernelIdeal.Run.run (F := Ideal) m ρ)
  · refine (θ_run Cert.ReferenceIdeal.defs _ _).mono (fun r h c => ⟨(h c).1.trans ?_, (h c).2⟩)
      (Cert.ReferenceIdeal.RefRunThm.run (F := Ideal) m' ρ')
    obtain ⟨e0, e1, e2, e3, e4, e5, e6, e7, e8, e9, e10, e11, e12⟩ := hagree c
    rw [e0, e1, e2, e3, e4, e5, e6, e7, e8, e9, e10, e11, e12]
    rw [Cert.ReferenceIdeal.RValue.result_of _ _ _ _ _ _ _ _ _ _ _ _ _ (hr c)]
    exact (Cert.TailEq.loss_eq _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
